-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v111)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v111) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v209) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S100000 : S_.BroadcastsInDim S100000 (![] : Fin 0 → Fin S100000.rank)
  reducesTo_S100000_S_d0 : S100000.ReducesTo [0] S_

variable [Facts]

def fn_part3 {F : FTy → Type} [FloatOps F] (main_arg2 : IVec S100000 32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_c_20 : IVec S_ 32 := constantI S_ 32 0#32
  let main_v54 : IVec S100000 32 := broadcastInDim S100000 ![] bcast_S_S100000 main_c_20
  let main_v55 : IVec S100000 1 := cmpi .sge main_arg2 main_v54
  let main_c_21 : IVec S_ 32 := constantI S_ 32 128#32
  let main_v56 : IVec S100000 32 := broadcastInDim S100000 ![] bcast_S_S100000 main_c_21
  let main_v57 : IVec S100000 1 := cmpi .slt main_arg2 main_v56
  let main_v58 : IVec S100000 1 := andi main_v55 main_v57
  let main_c_22 : IVec S_ 1 := constantI S_ 1 1#1
  let main_v59 : IVec S_ 1 := (fun x v => Host.reduce IntOp.andi x v reducesTo_S100000_S_d0 h_S_) main_v58 main_c_22
  let main_v60 : IVec S_ 1 := andi main_v53 main_v59
  main_v60

def fn_part2 {F : FTy → Type} [FloatOps F] (main_arg2 : IVec S100000 32) (main_arg9 : FVec F S64 .f32) (main_arg10 : FVec F S64 .f32) (main_arg11 : FVec F S64 .f32) (main_arg12 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg2 main_v48 main_v49 main_v50

def fn_part1 {F : FTy → Type} [FloatOps F] (main_arg2 : IVec S100000 32) (main_arg6 : FVec F S64 .f32) (main_arg7 : FVec F S64 .f32) (main_arg8 : FVec F S64x64 .f32) (main_arg9 : FVec F S64 .f32) (main_arg10 : FVec F S64 .f32) (main_arg11 : FVec F S64 .f32) (main_arg12 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg2 main_arg9 main_arg10 main_arg11 main_arg12 main_v33

def fn {F : FTy → Type} [FloatOps F] (main_arg0 : FVec F S100000x128 .f32) (main_arg1 : IVec S2x1600000 32) (main_arg2 : IVec S100000 32) (main_arg3 : FVec F S128x64 .f32) (main_arg4 : FVec F S64 .f32) (main_arg5 : FVec F S64 .f32) (main_arg6 : FVec F S64 .f32) (main_arg7 : FVec F S64 .f32) (main_arg8 : FVec F S64x64 .f32) (main_arg9 : FVec F S64 .f32) (main_arg10 : FVec F S64 .f32) (main_arg11 : FVec F S64 .f32) (main_arg12 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg2 main_arg6 main_arg7 main_arg8 main_arg9 main_arg10 main_arg11 main_arg12 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S128 : Shape := ⟨1, ![128]⟩
abbrev S128x1 : Shape := ⟨2, ![128, 1]⟩
abbrev S1x64 : Shape := ⟨2, ![1, 64]⟩
abbrev S100000x64 : Shape := ⟨2, ![100000, 64]⟩
abbrev S4000x128 : Shape := ⟨2, ![4000, 128]⟩
abbrev S4000x1 : Shape := ⟨2, ![4000, 1]⟩
abbrev S4000x64 : Shape := ⟨2, ![4000, 64]⟩
abbrev S1600000x64 : Shape := ⟨2, ![1600000, 64]⟩
abbrev S2x128x64 : Shape := ⟨3, ![2, 128, 64]⟩
abbrev S5000x64 : Shape := ⟨2, ![5000, 64]⟩
abbrev S5000x1 : Shape := ⟨2, ![5000, 1]⟩
abbrev S1x128x64 : Shape := ⟨3, ![1, 128, 64]⟩
abbrev S5000x128 : Shape := ⟨2, ![5000, 128]⟩

abbrev nBuf : Space → Nat
  | .hbm => 161
  | .vmem => 68
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x64, .f32⟩
  | 4 => ⟨S64, .f32⟩
  | 5 => ⟨S64, .f32⟩
  | 6 => ⟨S64, .f32⟩
  | 7 => ⟨S64, .f32⟩
  | 8 => ⟨S64x64, .f32⟩
  | 9 => ⟨S64, .f32⟩
  | 10 => ⟨S64, .f32⟩
  | 11 => ⟨S64, .f32⟩
  | 12 => ⟨S64, .f32⟩
  | 13 => ⟨S1x1600000, .i32⟩
  | 14 => ⟨S1600000, .i32⟩
  | 15 => ⟨S1x1600000, .i32⟩
  | 16 => ⟨S1600000, .i32⟩
  | 17 => ⟨S_, .f32⟩
  | 18 => ⟨S1600000, .f32⟩
  | 19 => ⟨S_, .f32⟩
  | 20 => ⟨S100000, .f32⟩
  | 21 => ⟨S1600000x1, .i32⟩
  | 22 => ⟨S100000, .f32⟩
  | 23 => ⟨S_, .f32⟩
  | 24 => ⟨S100000, .f32⟩
  | 25 => ⟨S100000, .f32⟩
  | 26 => ⟨S_, .f32⟩
  | 27 => ⟨S100000, .f32⟩
  | 28 => ⟨S100000, .i1⟩
  | 29 => ⟨S100000, .f32⟩
  | 30 => ⟨S_, .f32⟩
  | 31 => ⟨S_, .f32⟩
  | 32 => ⟨S100000, .f32⟩
  | 33 => ⟨S100000, .f32⟩
  | 34 => ⟨S100000x1, .f32⟩
  | 35 => ⟨S_, .i32⟩
  | 36 => ⟨S128, .i32⟩
  | 37 => ⟨S_, .i32⟩
  | 38 => ⟨S_, .i32⟩
  | 39 => ⟨S100000, .i32⟩
  | 40 => ⟨S100000, .i32⟩
  | 41 => ⟨S_, .i32⟩
  | 42 => ⟨S100000, .i32⟩
  | 43 => ⟨S100000, .i1⟩
  | 44 => ⟨S_, .i32⟩
  | 45 => ⟨S100000, .i32⟩
  | 46 => ⟨S100000, .i32⟩
  | 47 => ⟨S100000, .i32⟩
  | 48 => ⟨S100000x1, .i32⟩
  | 49 => ⟨S_, .i32⟩
  | 50 => ⟨S100000, .i32⟩
  | 51 => ⟨S128, .i32⟩
  | 52 => ⟨S128, .f32⟩
  | 53 => ⟨S_, .f32⟩
  | 54 => ⟨S128, .f32⟩
  | 55 => ⟨S128, .f32⟩
  | 56 => ⟨S128x1, .f32⟩
  | 57 => ⟨S100000x1, .i32⟩
  | 58 => ⟨S1x64, .f32⟩
  | 59 => ⟨S1x64, .f32⟩
  | 60 => ⟨S1x64, .f32⟩
  | 61 => ⟨S1x64, .f32⟩
  | 62 => ⟨S1x64, .f32⟩
  | 63 => ⟨S1x64, .f32⟩
  | 64 => ⟨S100000x64, .f32⟩
  | 65 => ⟨S100000x64, .bf16⟩
  | 66 => ⟨S_, .i32⟩
  | 67 => ⟨S1600000, .i32⟩
  | 68 => ⟨S1600000, .i1⟩
  | 69 => ⟨S_, .i32⟩
  | 70 => ⟨S1600000, .i32⟩
  | 71 => ⟨S1600000, .i32⟩
  | 72 => ⟨S1600000, .i32⟩
  | 73 => ⟨S1600000x1, .i32⟩
  | 74 => ⟨S1600000x64, .bf16⟩
  | 75 => ⟨S1600000x64, .f32⟩
  | 76 => ⟨S_, .f32⟩
  | 77 => ⟨S100000x64, .f32⟩
  | 78 => ⟨S1600000x1, .i32⟩
  | 79 => ⟨S100000x64, .f32⟩
  | 80 => ⟨S2x128x64, .f32⟩
  | 81 => ⟨S2x128x64, .f32⟩
  | 82 => ⟨S_, .f32⟩
  | 83 => ⟨S128x64, .f32⟩
  | 84 => ⟨S_, .f32⟩
  | 85 => ⟨S128x64, .f32⟩
  | 86 => ⟨S128x64, .f32⟩
  | 87 => ⟨S128x64, .f32⟩
  | 88 => ⟨S128x64, .f32⟩
  | 89 => ⟨S128x64, .f32⟩
  | 90 => ⟨S128x64, .f32⟩
  | 91 => ⟨S_, .f32⟩
  | 92 => ⟨S64, .f32⟩
  | 93 => ⟨S64, .f32⟩
  | 94 => ⟨S64, .f32⟩
  | 95 => ⟨S64, .f32⟩
  | 96 => ⟨S1x64, .f32⟩
  | 97 => ⟨S128x64, .f32⟩
  | 98 => ⟨S128x64, .f32⟩
  | 99 => ⟨S128x64, .f32⟩
  | 100 => ⟨S_, .f32⟩
  | 101 => ⟨S128x64, .f32⟩
  | 102 => ⟨S128x64, .f32⟩
  | 103 => ⟨S1x64, .f32⟩
  | 104 => ⟨S128x64, .f32⟩
  | 105 => ⟨S128x64, .f32⟩
  | 106 => ⟨S_, .f32⟩
  | 107 => ⟨S128x64, .f32⟩
  | 108 => ⟨S128x64, .f32⟩
  | 109 => ⟨S128x64, .f32⟩
  | 110 => ⟨S100000x64, .f32⟩
  | 111 => ⟨S100000x64, .bf16⟩
  | 112 => ⟨S_, .i32⟩
  | 113 => ⟨S1600000, .i32⟩
  | 114 => ⟨S1600000, .i1⟩
  | 115 => ⟨S_, .i32⟩
  | 116 => ⟨S1600000, .i32⟩
  | 117 => ⟨S1600000, .i32⟩
  | 118 => ⟨S1600000, .i32⟩
  | 119 => ⟨S1600000x1, .i32⟩
  | 120 => ⟨S1600000x64, .bf16⟩
  | 121 => ⟨S1600000x64, .f32⟩
  | 122 => ⟨S_, .f32⟩
  | 123 => ⟨S100000x64, .f32⟩
  | 124 => ⟨S1600000x1, .i32⟩
  | 125 => ⟨S100000x64, .f32⟩
  | 126 => ⟨S2x128x64, .f32⟩
  | 127 => ⟨S2x128x64, .f32⟩
  | _ => ⟨S100000x128, .f32⟩

abbrev hbmTy0_1 (i : Nat) : BufTy := match i % 128 with
  | 0 => ⟨S_, .f32⟩
  | 1 => ⟨S128x64, .f32⟩
  | 2 => ⟨S_, .f32⟩
  | 3 => ⟨S128x64, .f32⟩
  | 4 => ⟨S128x64, .f32⟩
  | 5 => ⟨S128x64, .f32⟩
  | 6 => ⟨S128x64, .f32⟩
  | 7 => ⟨S128x64, .f32⟩
  | 8 => ⟨S128x64, .f32⟩
  | 9 => ⟨S_, .f32⟩
  | 10 => ⟨S64, .f32⟩
  | 11 => ⟨S64, .f32⟩
  | 12 => ⟨S64, .f32⟩
  | 13 => ⟨S64, .f32⟩
  | 14 => ⟨S1x64, .f32⟩
  | 15 => ⟨S128x64, .f32⟩
  | 16 => ⟨S128x64, .f32⟩
  | 17 => ⟨S128x64, .f32⟩
  | 18 => ⟨S_, .f32⟩
  | 19 => ⟨S128x64, .f32⟩
  | 20 => ⟨S128x64, .f32⟩
  | 21 => ⟨S1x64, .f32⟩
  | 22 => ⟨S128x64, .f32⟩
  | 23 => ⟨S128x64, .f32⟩
  | 24 => ⟨S_, .f32⟩
  | 25 => ⟨S128x64, .f32⟩
  | 26 => ⟨S128x64, .f32⟩
  | 27 => ⟨S128x64, .f32⟩
  | 28 => ⟨S2x128x64, .f32⟩
  | 29 => ⟨S_, .f32⟩
  | 30 => ⟨S128x64, .f32⟩
  | 31 => ⟨S128x64, .f32⟩
  | 32 => ⟨S128x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S4000x128, .f32⟩
  | .local _ .vmem, ⟨1, _⟩ => ⟨S4000x128, .f32⟩
  | .local _ .vmem, ⟨2, _⟩ => ⟨S128x64, .f32⟩
  | .local _ .vmem, ⟨3, _⟩ => ⟨S4000x1, .f32⟩
  | .local _ .vmem, ⟨4, _⟩ => ⟨S4000x1, .f32⟩
  | .local _ .vmem, ⟨5, _⟩ => ⟨S4000x64, .f32⟩
  | .local _ .vmem, ⟨6, _⟩ => ⟨S4000x64, .f32⟩
  | .local _ .vmem, ⟨7, _⟩ => ⟨S4000x64, .bf16⟩
  | .local _ .vmem, ⟨8, _⟩ => ⟨S4000x64, .bf16⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x1, .f32⟩
  | .local _ .vmem, ⟨14, _⟩ => ⟨S5000x1, .f32⟩
  | .local _ .vmem, ⟨15, _⟩ => ⟨S1x64, .f32⟩
  | .local _ .vmem, ⟨16, _⟩ => ⟨S5000x1, .i32⟩
  | .local _ .vmem, ⟨17, _⟩ => ⟨S5000x1, .i32⟩
  | .local _ .vmem, ⟨18, _⟩ => ⟨S1x128x64, .f32⟩
  | .local _ .vmem, ⟨19, _⟩ => ⟨S1x128x64, .f32⟩
  | .local _ .vmem, ⟨20, _⟩ => ⟨S1x128x64, .f32⟩
  | .local _ .vmem, ⟨21, _⟩ => ⟨S1x128x64, .f32⟩
  | .local _ .vmem, ⟨22, _⟩ => ⟨S4000x64, .f32⟩
  | .local _ .vmem, ⟨23, _⟩ => ⟨S4000x64, .f32⟩
  | .local _ .vmem, ⟨24, _⟩ => ⟨S4000x64, .f32⟩
  | .local _ .vmem, ⟨25, _⟩ => ⟨S4000x64, .f32⟩
  | .local _ .vmem, ⟨26, _⟩ => ⟨S4000x1, .f32⟩
  | .local _ .vmem, ⟨27, _⟩ => ⟨S4000x1, .f32⟩
  | .local _ .vmem, ⟨28, _⟩ => ⟨S1x64, .f32⟩
  | .local _ .vmem, ⟨29, _⟩ => ⟨S4000x1, .i32⟩
  | .local _ .vmem, ⟨30, _⟩ => ⟨S4000x1, .i32⟩
  | .local _ .vmem, ⟨31, _⟩ => ⟨S128x64, .f32⟩
  | .local _ .vmem, ⟨32, _⟩ => ⟨S128x64, .f32⟩
  | .local _ .vmem, ⟨33, _⟩ => ⟨S1x64, .f32⟩
  | .local _ .vmem, ⟨34, _⟩ => ⟨S1x64, .f32⟩
  | .local _ .vmem, ⟨35, _⟩ => ⟨S64x64, .f32⟩
  | .local _ .vmem, ⟨36, _⟩ => ⟨S4000x64, .f32⟩
  | .local _ .vmem, ⟨37, _⟩ => ⟨S4000x64, .f32⟩
  | .local _ .vmem, ⟨38, _⟩ => ⟨S4000x64, .bf16⟩
  | .local _ .vmem, ⟨39, _⟩ => ⟨S4000x64, .bf16⟩
  | .local _ .vmem, ⟨40, _⟩ => ⟨S5000x64, .f32⟩
  | .local _ .vmem, ⟨41, _⟩ => ⟨S5000x64, .f32⟩
  | .local _ .vmem, ⟨42, _⟩ => ⟨S5000x64, .f32⟩
  | .local _ .vmem, ⟨43, _⟩ => ⟨S5000x64, .f32⟩
  | .local _ .vmem, ⟨44, _⟩ => ⟨S5000x1, .f32⟩
  | .local _ .vmem, ⟨45, _⟩ => ⟨S5000x1, .f32⟩
  | .local _ .vmem, ⟨46, _⟩ => ⟨S1x64, .f32⟩
  | .local _ .vmem, ⟨47, _⟩ => ⟨S5000x1, .i32⟩
  | .local _ .vmem, ⟨48, _⟩ => ⟨S5000x1, .i32⟩
  | .local _ .vmem, ⟨49, _⟩ => ⟨S1x128x64, .f32⟩
  | .local _ .vmem, ⟨50, _⟩ => ⟨S1x128x64, .f32⟩
  | .local _ .vmem, ⟨51, _⟩ => ⟨S1x128x64, .f32⟩
  | .local _ .vmem, ⟨52, _⟩ => ⟨S1x128x64, .f32⟩
  | .local _ .vmem, ⟨53, _⟩ => ⟨S5000x64, .f32⟩
  | .local _ .vmem, ⟨54, _⟩ => ⟨S5000x64, .f32⟩
  | .local _ .vmem, ⟨55, _⟩ => ⟨S5000x64, .f32⟩
  | .local _ .vmem, ⟨56, _⟩ => ⟨S5000x64, .f32⟩
  | .local _ .vmem, ⟨57, _⟩ => ⟨S5000x1, .f32⟩
  | .local _ .vmem, ⟨58, _⟩ => ⟨S5000x1, .f32⟩
  | .local _ .vmem, ⟨59, _⟩ => ⟨S1x64, .f32⟩
  | .local _ .vmem, ⟨60, _⟩ => ⟨S5000x1, .i32⟩
  | .local _ .vmem, ⟨61, _⟩ => ⟨S5000x1, .i32⟩
  | .local _ .vmem, ⟨62, _⟩ => ⟨S128x64, .f32⟩
  | .local _ .vmem, ⟨63, _⟩ => ⟨S128x64, .f32⟩
  | .local _ .vmem, ⟨64, _⟩ => ⟨S1x64, .f32⟩
  | .local _ .vmem, ⟨65, _⟩ => ⟨S1x64, .f32⟩
  | .local _ .vmem, ⟨66, _⟩ => ⟨S1x128x64, .f32⟩
  | .local _ .vmem, ⟨67, _⟩ => ⟨S1x128x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | _, _ => false

abbrev semScoped : Fin 0 → Bool
  | ⟨_, h⟩ => absurd h (Nat.not_lt_zero _)

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  ofTc nBuf bufTy 0 68 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v13 : Ref sig .tc := ⟨.hbm, 33, rfl⟩
abbrev main_v14 : Ref sig .tc := ⟨.hbm, 34, rfl⟩
abbrev main_c : Ref sig .tc := ⟨.hbm, 35, rfl⟩
abbrev main_v15 : Ref sig .tc := ⟨.hbm, 36, rfl⟩
abbrev main_c_4 : Ref sig .tc := ⟨.hbm, 37, rfl⟩
abbrev main_call1_v0 : Ref sig .tc := ⟨.hbm, 38, rfl⟩
abbrev main_call1_v1 : Ref sig .tc := ⟨.hbm, 39, rfl⟩
abbrev main_v16 : Ref sig .tc := ⟨.hbm, 40, rfl⟩
abbrev main_c_5 : Ref sig .tc := ⟨.hbm, 41, rfl⟩
abbrev main_v17 : Ref sig .tc := ⟨.hbm, 42, rfl⟩
abbrev main_v18 : Ref sig .tc := ⟨.hbm, 43, rfl⟩
abbrev main_c_6 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_c_7 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_cst_8 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36_0 : Ref sig .tc := ⟨.hbm, 64, rfl⟩
abbrev main_v36_1 : Ref sig .tc := ⟨.hbm, 65, rfl⟩
abbrev main_c_9 : Ref sig .tc := ⟨.hbm, 66, rfl⟩
abbrev main_v37 : Ref sig .tc := ⟨.hbm, 67, rfl⟩
abbrev main_v38 : Ref sig .tc := ⟨.hbm, 68, rfl⟩
abbrev main_c_10 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_cst_11 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48_0 : Ref sig .tc := ⟨.hbm, 80, rfl⟩
abbrev main_v48_1 : Ref sig .tc := ⟨.hbm, 81, rfl⟩
abbrev main_cst_12 : Ref sig .tc := ⟨.hbm, 82, rfl⟩
abbrev main_v49 : Ref sig .tc := ⟨.hbm, 83, rfl⟩
abbrev main_cst_13 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_cst_14 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_15 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_cst_16 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72_0 : Ref sig .tc := ⟨.hbm, 110, rfl⟩
abbrev main_v72_1 : Ref sig .tc := ⟨.hbm, 111, rfl⟩
abbrev main_c_17 : Ref sig .tc := ⟨.hbm, 112, rfl⟩
abbrev main_v73 : Ref sig .tc := ⟨.hbm, 113, rfl⟩
abbrev main_v74 : Ref sig .tc := ⟨.hbm, 114, rfl⟩
abbrev main_c_18 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_cst_19 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84_0 : Ref sig .tc := ⟨.hbm, 126, rfl⟩
abbrev main_v84_1 : Ref sig .tc := ⟨.hbm, 127, rfl⟩
abbrev main_cst_20 : Ref sig .tc := ⟨.hbm, 128, rfl⟩
abbrev main_v85 : Ref sig .tc := ⟨.hbm, 129, rfl⟩
abbrev main_cst_21 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_cst_22 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_cst_23 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_cst_24 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_cst_25 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg4_1 : Ref sig .tc := ⟨.vmem, 30, rfl⟩
abbrev cc2_stg5_0 : Ref sig .tc := ⟨.vmem, 31, rfl⟩
abbrev cc2_stg6_0 : Ref sig .tc := ⟨.vmem, 32, rfl⟩
abbrev cc2_stg7_0 : Ref sig .tc := ⟨.vmem, 33, rfl⟩
abbrev cc2_stg8_0 : Ref sig .tc := ⟨.vmem, 34, rfl⟩
abbrev cc2_stg9_0 : Ref sig .tc := ⟨.vmem, 35, rfl⟩
abbrev cc2_stg10_0 : Ref sig .tc := ⟨.vmem, 36, rfl⟩
abbrev cc2_stg10_1 : Ref sig .tc := ⟨.vmem, 37, rfl⟩
abbrev cc2_stg11_0 : Ref sig .tc := ⟨.vmem, 38, rfl⟩
abbrev cc2_stg11_1 : Ref sig .tc := ⟨.vmem, 39, rfl⟩
abbrev cc3_stg0_0 : Ref sig .tc := ⟨.vmem, 40, rfl⟩
abbrev cc3_stg0_1 : Ref sig .tc := ⟨.vmem, 41, rfl⟩
abbrev cc3_stg1_0 : Ref sig .tc := ⟨.vmem, 42, rfl⟩
abbrev cc3_stg1_1 : Ref sig .tc := ⟨.vmem, 43, rfl⟩
abbrev cc3_stg2_0 : Ref sig .tc := ⟨.vmem, 44, rfl⟩
abbrev cc3_stg2_1 : Ref sig .tc := ⟨.vmem, 45, rfl⟩
abbrev cc3_stg3_0 : Ref sig .tc := ⟨.vmem, 46, rfl⟩
abbrev cc3_stg4_0 : Ref sig .tc := ⟨.vmem, 47, rfl⟩
abbrev cc3_stg4_1 : Ref sig .tc := ⟨.vmem, 48, rfl⟩
abbrev cc3_stg5_0 : Ref sig .tc := ⟨.vmem, 49, rfl⟩
abbrev cc3_stg5_1 : Ref sig .tc := ⟨.vmem, 50, rfl⟩
abbrev cc3_stg6_0 : Ref sig .tc := ⟨.vmem, 51, rfl⟩
abbrev cc3_stg6_1 : Ref sig .tc := ⟨.vmem, 52, rfl⟩
abbrev cc4_stg0_0 : Ref sig .tc := ⟨.vmem, 53, rfl⟩
abbrev cc4_stg0_1 : Ref sig .tc := ⟨.vmem, 54, rfl⟩
abbrev cc4_stg1_0 : Ref sig .tc := ⟨.vmem, 55, rfl⟩
abbrev cc4_stg1_1 : Ref sig .tc := ⟨.vmem, 56, rfl⟩
abbrev cc4_stg2_0 : Ref sig .tc := ⟨.vmem, 57, rfl⟩
abbrev cc4_stg2_1 : Ref sig .tc := ⟨.vmem, 58, rfl⟩
abbrev cc4_stg3_0 : Ref sig .tc := ⟨.vmem, 59, rfl⟩
abbrev cc4_stg4_0 : Ref sig .tc := ⟨.vmem, 60, rfl⟩
abbrev cc4_stg4_1 : Ref sig .tc := ⟨.vmem, 61, rfl⟩
abbrev cc4_stg5_0 : Ref sig .tc := ⟨.vmem, 62, rfl⟩
abbrev cc4_stg6_0 : Ref sig .tc := ⟨.vmem, 63, rfl⟩
abbrev cc4_stg7_0 : Ref sig .tc := ⟨.vmem, 64, rfl⟩
abbrev cc4_stg8_0 : Ref sig .tc := ⟨.vmem, 65, rfl⟩
abbrev cc4_stg9_0 : Ref sig .tc := ⟨.vmem, 66, rfl⟩
abbrev cc4_stg9_1 : Ref sig .tc := ⟨.vmem, 67, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem4_1 : DmaSem sig := 17
abbrev cc1_sem5_0 : DmaSem sig := 18
abbrev cc1_sem5_1 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem4_1 : DmaSem sig := 30
abbrev cc2_sem5_0 : DmaSem sig := 31
abbrev cc2_sem6_0 : DmaSem sig := 32
abbrev cc2_sem7_0 : DmaSem sig := 33
abbrev cc2_sem8_0 : DmaSem sig := 34
abbrev cc2_sem9_0 : DmaSem sig := 35
abbrev cc2_sem10_0 : DmaSem sig := 36
abbrev cc2_sem10_1 : DmaSem sig := 37
abbrev cc2_sem11_0 : DmaSem sig := 38
abbrev cc2_sem11_1 : DmaSem sig := 39
abbrev cc3_sem0_0 : DmaSem sig := 40
abbrev cc3_sem0_1 : DmaSem sig := 41
abbrev cc3_sem1_0 : DmaSem sig := 42
abbrev cc3_sem1_1 : DmaSem sig := 43
abbrev cc3_sem2_0 : DmaSem sig := 44
abbrev cc3_sem2_1 : DmaSem sig := 45
abbrev cc3_sem3_0 : DmaSem sig := 46
abbrev cc3_sem4_0 : DmaSem sig := 47
abbrev cc3_sem4_1 : DmaSem sig := 48
abbrev cc3_sem5_0 : DmaSem sig := 49
abbrev cc3_sem5_1 : DmaSem sig := 50
abbrev cc3_sem6_0 : DmaSem sig := 51
abbrev cc3_sem6_1 : DmaSem sig := 52
abbrev cc4_sem0_0 : DmaSem sig := 53
abbrev cc4_sem0_1 : DmaSem sig := 54
abbrev cc4_sem1_0 : DmaSem sig := 55
abbrev cc4_sem1_1 : DmaSem sig := 56
abbrev cc4_sem2_0 : DmaSem sig := 57
abbrev cc4_sem2_1 : DmaSem sig := 58
abbrev cc4_sem3_0 : DmaSem sig := 59
abbrev cc4_sem4_0 : DmaSem sig := 60
abbrev cc4_sem4_1 : DmaSem sig := 61
abbrev cc4_sem5_0 : DmaSem sig := 62
abbrev cc4_sem6_0 : DmaSem sig := 63
abbrev cc4_sem7_0 : DmaSem sig := 64
abbrev cc4_sem8_0 : DmaSem sig := 65
abbrev cc4_sem9_0 : DmaSem sig := 66
abbrev cc4_sem9_1 : DmaSem sig := 67

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4000x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![2, 10], ![false, false]⟩

def cc1_transform_0 (i : grid1.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S5000x1 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x128x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S1x128x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_11 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S4000x1 .i32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S128x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S64x64 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 2 → Memref sig .tc .vmem S4000x64 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev stage2_11 : Fin 2 → Memref sig .tc .vmem S4000x64 .bf16 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true]

abbrev grid3 : Pipeline.Grid := ⟨2, ![2, 10], ![false, false]⟩

def cc3_transform_0 (i : grid3.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc3_transform_1 (i : grid3.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc3_transform_2 (i : grid3.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc3_transform_5 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_6 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 2 → Memref sig .tc .vmem S5000x1 .i32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev stage3_5 : Fin 2 → Memref sig .tc .vmem S1x128x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, false]

abbrev stage3_6 : Fin 2 → Memref sig .tc .vmem S1x128x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, false]

abbrev grid4 : Pipeline.Grid := ⟨2, ![2, 10], ![false, false]⟩

def cc4_transform_0 (i : grid4.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc4_transform_1 (i : grid4.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc4_transform_2 (i : grid4.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc4_transform_5 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S5000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, true]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false, false]

abbrev stage4_4 : Fin 2 → Memref sig .tc .vmem S5000x1 .i32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, true]

abbrev stage4_5 : Fin 1 → Memref sig .tc .vmem S128x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false, false]

abbrev stage4_6 : Fin 1 → Memref sig .tc .vmem S128x64 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false, false]

abbrev stage4_7 : Fin 1 → Memref sig .tc .vmem S1x64 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false, false]

abbrev stage4_8 : Fin 1 → Memref sig .tc .vmem S1x64 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false, false]

abbrev stage4_9 : Fin 2 → Memref sig .tc .vmem S1x128x64 .f32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true, false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S128 : S_.BroadcastsInDim S128 (![] : Fin 0 → Fin S128.rank)
  bcast_S128_S128x1_0 : S128.BroadcastsInDim S128x1 (![0] : Fin 1 → Fin S128x1.rank)
  shapeCasts_S64_S1x64 : S64.ShapeCasts S1x64
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S4000x64_S4000x64_0_0 : ∀ a, (![0, 0] : Fin 2 → Nat) a + S4000x64.size a ≤ S4000x64.size a
  h_S4000x64 : 0 < S4000x64.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x64 : S4000x1.Broadcasts S4000x64
  packedbf16_S4000x64_S4000x64_0_0 : (Rect.unit (s := S4000x64) ![0, 0] S4000x64.size inb_S4000x64_S4000x64_0_0).PackedRows (EltTy.packing .bf16)
  bcast_S_S100000x64 : S_.BroadcastsInDim S100000x64 (![] : Fin 0 → Fin S100000x64.rank)
  inb_S1x128x64_S1x128x64_0_0_0 : ∀ a, (![0, 0, 0] : Fin 3 → Nat) a + S1x128x64.size a ≤ S1x128x64.size a
  h_S1x128x64 : 0 < S1x128x64.numel
  shapeCasts_S1x128x64_S128x64 : S1x128x64.ShapeCasts S128x64
  shapeCasts_S128x64_S1x128x64 : S128x64.ShapeCasts S1x128x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  iota_S5000x128_d1_w32 : S5000x128.Iotas .tc 32 [1]
  broadcasts_S5000x1_S5000x128 : S5000x1.Broadcasts S5000x128
  natLt_1_32 : 1 < 32
  reducesTo_S2x128x64_S128x64_d0 : S2x128x64.ReducesTo [0] S128x64
  h_S_ : 0 < S_.numel
  bcast_S128x1_S128x64_0_1 : S128x1.BroadcastsInDim S128x64 (![0, 1] : Fin 2 → Fin S128x64.rank)
  bcast_S_S64 : S_.BroadcastsInDim S64 (![] : Fin 0 → Fin S64.rank)
  bcast_S64_S1x64_1 : S64.BroadcastsInDim S1x64 (![1] : Fin 1 → Fin S1x64.rank)
  bcast_S1x64_S128x64_0_1 : S1x64.BroadcastsInDim S128x64 (![0, 1] : Fin 2 → Fin S128x64.rank)
  bcast_S_S128x64 : S_.BroadcastsInDim S128x64 (![] : Fin 0 → Fin S128x64.rank)
  shapeCasts_S4000x64_S4000x64 : S4000x64.ShapeCasts S4000x64
  broadcasts_S1x64_S4000x64 : S1x64.Broadcasts S4000x64
  iota_S4000x128_d1_w32 : S4000x128.Iotas .tc 32 [1]
  broadcasts_S4000x1_S4000x128 : S4000x1.Broadcasts S4000x128
  shapeCasts_S128x64_S128x64 : S128x64.ShapeCasts S128x64
  inb_S64x64_S64x64_0_0 : ∀ a, (![0, 0] : Fin 2 → Nat) a + S64x64.size a ≤ S64x64.size a
  h_S64x64 : 0 < S64x64.numel
  scatter_S100000_S1600000x1_S1600000_n_0_0_1_wf : ScatterDims.WF S100000 S1600000x1 S1600000 [] [0] [0] 1
  scatter_S128_S100000x1_S100000_n_0_0_1_wf : ScatterDims.WF S128 S100000x1 S100000 [] [0] [0] 1
  dot_S4000x128_S128x64_S4000x64_1_0_0_1_n_n_wf : DotDims.WF S4000x128 S128x64 S4000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x128_S5000x64_S128x64_0_0_1_1_n_n_wf : DotDims.WF S5000x128 S5000x64 S128x64 [0] [0] [1] [1] [] []
  dot_S4000x64_S64x64_S4000x64_1_0_0_1_n_n_wf : DotDims.WF S4000x64 S64x64 S4000x64 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x64.size a ≤ S100000x64.size a
  hwx0_3 : ∀ i : grid0.Coords, EltTy.bits .f32 = 32 ∨ (Rect.block (s := S100000x64) S4000x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x64.size a ≤ S100000x64.size a
  hwx0_4 : ∀ i : grid0.Coords, EltTy.bits .bf16 = 32 ∨ (Rect.block (s := S100000x64) S4000x64.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x1.size a ≤ S100000x1.size a
  hwx1_4 : ∀ i : grid1.Coords, EltTy.bits .i32 = 32 ∨ (Rect.block (s := S100000x1) S5000x1.size (cc1_transform_4 i) (hinb1_4 i)).WholeWords (EltTy.packing .i32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x128x64.size a ≤ S2x128x64.size a
  hwx1_5 : ∀ i : grid1.Coords, EltTy.bits .f32 = 32 ∨ (Rect.block (s := S2x128x64) S1x128x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x128x64.size a ≤ S2x128x64.size a
  hwx1_6 : ∀ i : grid1.Coords, EltTy.bits .f32 = 32 ∨ (Rect.block (s := S2x128x64) S1x128x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S100000x64.size a
  hwx2_0 : ∀ i : grid2.Coords, EltTy.bits .f32 = 32 ∨ (Rect.block (s := S100000x64) S4000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x64.size a ≤ S100000x64.size a
  hwx2_1 : ∀ i : grid2.Coords, EltTy.bits .f32 = 32 ∨ (Rect.block (s := S100000x64) S4000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x1.size a ≤ S100000x1.size a
  hwx2_2 : ∀ i : grid2.Coords, EltTy.bits .f32 = 32 ∨ (Rect.block (s := S100000x1) S4000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4000x1.size a ≤ S100000x1.size a
  hwx2_4 : ∀ i : grid2.Coords, EltTy.bits .i32 = 32 ∨ (Rect.block (s := S100000x1) S4000x1.size (cc2_transform_4 i) (hinb2_4 i)).WholeWords (EltTy.packing .i32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x64.size a ≤ S128x64.size a
  hwx2_5 : ∀ i : grid2.Coords, EltTy.bits .f32 = 32 ∨ (Rect.block (s := S128x64) S128x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x64.size a ≤ S128x64.size a
  hwx2_6 : ∀ i : grid2.Coords, EltTy.bits .f32 = 32 ∨ (Rect.block (s := S128x64) S128x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x64.size a ≤ S1x64.size a
  hwx2_7 : ∀ i : grid2.Coords, EltTy.bits .f32 = 32 ∨ (Rect.block (s := S1x64) S1x64.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x64.size a ≤ S1x64.size a
  hwx2_8 : ∀ i : grid2.Coords, EltTy.bits .f32 = 32 ∨ (Rect.block (s := S1x64) S1x64.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S64x64.size a ≤ S64x64.size a
  hwx2_9 : ∀ i : grid2.Coords, EltTy.bits .f32 = 32 ∨ (Rect.block (s := S64x64) S64x64.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S4000x64.size a ≤ S100000x64.size a
  hwx2_10 : ∀ i : grid2.Coords, EltTy.bits .f32 = 32 ∨ (Rect.block (s := S100000x64) S4000x64.size (cc2_transform_10 i) (hinb2_10 i)).WholeWords (EltTy.packing .f32)
  hstage2_11 : ∀ j, (stage2_11 j).IsWhole
  nbuf2_11 : grid2.bufCount reads2_11 false = 2
  hreads2_11 : ∀ i i' : grid2.Coords, (∀ a, reads2_11 a = true → i a = i' a) → cc2_transform_11 i = cc2_transform_11 i'
  hinb2_11 : ∀ (i : grid2.Coords) a, (cc2_transform_11 i a + 1) * S4000x64.size a ≤ S100000x64.size a
  hwx2_11 : ∀ i : grid2.Coords, EltTy.bits .bf16 = 32 ∨ (Rect.block (s := S100000x64) S4000x64.size (cc2_transform_11 i) (hinb2_11 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x1.size a ≤ S100000x1.size a
  hwx3_4 : ∀ i : grid3.Coords, EltTy.bits .i32 = 32 ∨ (Rect.block (s := S100000x1) S5000x1.size (cc3_transform_4 i) (hinb3_4 i)).WholeWords (EltTy.packing .i32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1x128x64.size a ≤ S2x128x64.size a
  hwx3_5 : ∀ i : grid3.Coords, EltTy.bits .f32 = 32 ∨ (Rect.block (s := S2x128x64) S1x128x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S1x128x64.size a ≤ S2x128x64.size a
  hwx3_6 : ∀ i : grid3.Coords, EltTy.bits .f32 = 32 ∨ (Rect.block (s := S2x128x64) S1x128x64.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x64.size a ≤ S100000x64.size a
  hwx4_1 : ∀ i : grid4.Coords, EltTy.bits .f32 = 32 ∨ (Rect.block (s := S100000x64) S5000x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S100000x1.size a
  hwx4_2 : ∀ i : grid4.Coords, EltTy.bits .f32 = 32 ∨ (Rect.block (s := S100000x1) S5000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x1.size a ≤ S100000x1.size a
  hwx4_4 : ∀ i : grid4.Coords, EltTy.bits .i32 = 32 ∨ (Rect.block (s := S100000x1) S5000x1.size (cc4_transform_4 i) (hinb4_4 i)).WholeWords (EltTy.packing .i32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x64.size a ≤ S128x64.size a
  hwx4_5 : ∀ i : grid4.Coords, EltTy.bits .f32 = 32 ∨ (Rect.block (s := S128x64) S128x64.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S128x64.size a ≤ S128x64.size a
  hwx4_6 : ∀ i : grid4.Coords, EltTy.bits .f32 = 32 ∨ (Rect.block (s := S128x64) S128x64.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x64.size a ≤ S1x64.size a
  hwx4_7 : ∀ i : grid4.Coords, EltTy.bits .f32 = 32 ∨ (Rect.block (s := S1x64) S1x64.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x64.size a ≤ S1x64.size a
  hwx4_8 : ∀ i : grid4.Coords, EltTy.bits .f32 = 32 ∨ (Rect.block (s := S1x64) S1x64.size (cc4_transform_8 i) (hinb4_8 i)).WholeWords (EltTy.packing .f32)
  hstage4_9 : ∀ j, (stage4_9 j).IsWhole
  nbuf4_9 : grid4.bufCount reads4_9 false = 2
  hreads4_9 : ∀ i i' : grid4.Coords, (∀ a, reads4_9 a = true → i a = i' a) → cc4_transform_9 i = cc4_transform_9 i'
  hinb4_9 : ∀ (i : grid4.Coords) a, (cc4_transform_9 i a + 1) * S1x128x64.size a ≤ S2x128x64.size a
  hwx4_9 : ∀ i : grid4.Coords, EltTy.bits .f32 = 32 ∨ (Rect.block (s := S2x128x64) S1x128x64.size (cc4_transform_9 i) (hinb4_9 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x128_S5000x64_S128x64_0_0_1_1_n_n : DotDims S5000x128 S5000x64 S128x64 where
  lhsContracting := [0]
  rhsContracting := [0]
  lhsNonContracting := [1]
  rhsNonContracting := [1]
  lhsBatch := []
  rhsBatch := []
  wf := dot_S5000x128_S5000x64_S128x64_0_0_1_1_n_n_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v36_0) S4000x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v36_1) S4000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v47) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36_0) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v30) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S5000x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v48_0) S1x128x64.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v48_1) S1x128x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v47) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v36_0) S4000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v14) S4000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v30) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v29) S4000x1.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v68) S128x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v71) S128x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v31) S1x64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v32) S1x64.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_arg8) S64x64.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v72_0) S4000x64.size cc2_transform_10 reads2_10 true false 2 stage2_10 sem2_10
    hrank2 hreads2_10 hinb2_10 nbuf2_10 (Memref.isWhole_whole _) hwx2_10 hstage2_10

abbrev win2_11 : Pipeline.Window sig grid2 :=
  Pipeline.Window.ofSpec (Memref.whole main_v72_1) S4000x64.size cc2_transform_11 reads2_11 true false 2 stage2_11 sem2_11
    hrank2 hreads2_11 hinb2_11 nbuf2_11 (Memref.isWhole_whole _) hwx2_11 hstage2_11

abbrev win2 : Fin 12 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | ⟨_ + 12, h⟩ => absurd h (Nat.not_lt.2 (Nat.le_add_left _ _))
abbrev spec2 : Fin 12 → Pipeline.WinSpec sig grid2.rank := fun w => (win2 w).toWinSpec

abbrev win3_0 : Pipeline.Window sig grid3 :=
  Pipeline.Window.ofSpec (Memref.whole main_v83) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v72_0) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v14) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v33) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v29) S5000x1.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v84_0) S1x128x64.size cc3_transform_5 reads3_5 true false 2 stage3_5 sem3_5
    hrank3 hreads3_5 hinb3_5 nbuf3_5 (Memref.isWhole_whole _) hwx3_5 hstage3_5

abbrev win3_6 : Pipeline.Window sig grid3 :=
  Pipeline.Window.ofSpec (Memref.whole main_v84_1) S1x128x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v83) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v72_0) S5000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v14) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v33) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v29) S5000x1.size cc4_transform_4 reads4_4 false false 2 stage4_4 sem4_4
    hrank4 hreads4_4 hinb4_4 nbuf4_4 (Memref.isWhole_whole _) hwx4_4 hstage4_4

abbrev win4_5 : Pipeline.Window sig grid4 :=
  Pipeline.Window.ofSpec (Memref.whole main_v104) S128x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v107) S128x64.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v34) S1x64.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v35) S1x64.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v108) S1x128x64.size cc4_transform_9 reads4_9 true false 2 stage4_9 sem4_9
    hrank4 hreads4_9 hinb4_9 nbuf4_9 (Memref.isWhole_whole _) hwx4_9 hstage4_9

abbrev win4 : Fin 10 → Pipeline.Window sig grid4 := fun | 0 => win4_0 | 1 => win4_1 | 2 => win4_2 | 3 => win4_3 | 4 => win4_4 | 5 => win4_5 | 6 => win4_6 | 7 => win4_7 | 8 => win4_8 | 9 => win4_9 | ⟨_ + 10, h⟩ => absurd h (Nat.not_lt.2 (Nat.le_add_left _ _))
abbrev spec4 : Fin 10 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S1x1600000 : Shape := ⟨2, ![1, 1600000]⟩
abbrev S1600000 : Shape := ⟨1, ![1600000]⟩
abbrev S100000x64 : Shape := ⟨2, ![100000, 64]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x1 : Shape := ⟨2, ![100000, 1]⟩
abbrev S128 : Shape := ⟨1, ![128]⟩
abbrev S128x1 : Shape := ⟨2, ![128, 1]⟩

abbrev nBuf : Space → Nat
  | .hbm => 283
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x64, .f32⟩
  | 4 => ⟨S64, .f32⟩
  | 5 => ⟨S64, .f32⟩
  | 6 => ⟨S64, .f32⟩
  | 7 => ⟨S64, .f32⟩
  | 8 => ⟨S64x64, .f32⟩
  | 9 => ⟨S64, .f32⟩
  | 10 => ⟨S64, .f32⟩
  | 11 => ⟨S64, .f32⟩
  | 12 => ⟨S64, .f32⟩
  | 13 => ⟨S1x1600000, .i32⟩
  | 14 => ⟨S1600000, .i32⟩
  | 15 => ⟨S1x1600000, .i32⟩
  | 16 => ⟨S1600000, .i32⟩
  | 17 => ⟨S100000x64, .f32⟩
  | 18 => ⟨S100000, .i32⟩
  | 19 => ⟨S1700000, .i32⟩
  | 20 => ⟨S1700000, .i32⟩
  | 21 => ⟨S_, .f32⟩
  | 22 => ⟨S1700000, .f32⟩
  | 23 => ⟨S_, .f32⟩
  | 24 => ⟨S100000, .f32⟩
  | 25 => ⟨S1700000x1, .i32⟩
  | 26 => ⟨S100000, .f32⟩
  | 27 => ⟨S_, .f32⟩
  | 28 => ⟨S100000, .f32⟩
  | 29 => ⟨S100000, .i1⟩
  | 30 => ⟨S100000, .f32⟩
  | 31 => ⟨S_, .f32⟩
  | 32 => ⟨S_, .f32⟩
  | 33 => ⟨S100000, .f32⟩
  | 34 => ⟨S100000, .f32⟩
  | 35 => ⟨S_, .i32⟩
  | 36 => ⟨S1700000, .i32⟩
  | 37 => ⟨S1700000, .i1⟩
  | 38 => ⟨S_, .i32⟩
  | 39 => ⟨S1700000, .i32⟩
  | 40 => ⟨S1700000, .i32⟩
  | 41 => ⟨S1700000, .i32⟩
  | 42 => ⟨S1700000x1, .i32⟩
  | 43 => ⟨S1700000, .f32⟩
  | 44 => ⟨S_, .i32⟩
  | 45 => ⟨S1700000, .i32⟩
  | 46 => ⟨S1700000, .i1⟩
  | 47 => ⟨S_, .i32⟩
  | 48 => ⟨S1700000, .i32⟩
  | 49 => ⟨S1700000, .i32⟩
  | 50 => ⟨S1700000, .i32⟩
  | 51 => ⟨S1700000x1, .i32⟩
  | 52 => ⟨S1700000, .f32⟩
  | 53 => ⟨S1700000, .f32⟩
  | 54 => ⟨S_, .i32⟩
  | 55 => ⟨S1700000, .i32⟩
  | 56 => ⟨S1700000, .i1⟩
  | 57 => ⟨S_, .i32⟩
  | 58 => ⟨S1700000, .i32⟩
  | 59 => ⟨S1700000, .i32⟩
  | 60 => ⟨S1700000, .i32⟩
  | 61 => ⟨S1700000x1, .i32⟩
  | 62 => ⟨S1700000x64, .f32⟩
  | 63 => ⟨S1700000x1, .f32⟩
  | 64 => ⟨S1700000x64, .f32⟩
  | 65 => ⟨S1700000x64, .f32⟩
  | 66 => ⟨S_, .f32⟩
  | 67 => ⟨S100000x64, .f32⟩
  | 68 => ⟨S1700000x1, .i32⟩
  | 69 => ⟨S100000x64, .f32⟩
  | 70 => ⟨S1x64, .f32⟩
  | 71 => ⟨S100000x64, .f32⟩
  | 72 => ⟨S100000x64, .f32⟩
  | 73 => ⟨S_, .f32⟩
  | 74 => ⟨S128x64, .f32⟩
  | 75 => ⟨S100000x1, .i32⟩
  | 76 => ⟨S128x64, .f32⟩
  | 77 => ⟨S_, .f32⟩
  | 78 => ⟨S100000, .f32⟩
  | 79 => ⟨S_, .f32⟩
  | 80 => ⟨S128, .f32⟩
  | 81 => ⟨S100000x1, .i32⟩
  | 82 => ⟨S128, .f32⟩
  | 83 => ⟨S_, .f32⟩
  | 84 => ⟨S128, .f32⟩
  | 85 => ⟨S128, .f32⟩
  | 86 => ⟨S128x1, .f32⟩
  | 87 => ⟨S128x64, .f32⟩
  | 88 => ⟨S128x64, .f32⟩
  | 89 => ⟨S_, .i32⟩
  | 90 => ⟨S100000, .i32⟩
  | 91 => ⟨S100000, .i1⟩
  | 92 => ⟨S_, .i32⟩
  | 93 => ⟨S100000, .i32⟩
  | 94 => ⟨S100000, .i32⟩
  | 95 => ⟨S100000, .i32⟩
  | 96 => ⟨S100000x1, .i32⟩
  | 97 => ⟨S100000x64, .f32⟩
  | 98 => ⟨S1x64, .f32⟩
  | 99 => ⟨S100000x64, .f32⟩
  | 100 => ⟨S100000x64, .f32⟩
  | 101 => ⟨S100000x64, .f32⟩
  | 102 => ⟨S100000x64, .f32⟩
  | 103 => ⟨S_, .f32⟩
  | 104 => ⟨S128x64, .f32⟩
  | 105 => ⟨S100000x1, .i32⟩
  | 106 => ⟨S128x64, .f32⟩
  | 107 => ⟨S_, .f32⟩
  | 108 => ⟨S100000, .f32⟩
  | 109 => ⟨S_, .f32⟩
  | 110 => ⟨S128, .f32⟩
  | 111 => ⟨S100000x1, .i32⟩
  | 112 => ⟨S128, .f32⟩
  | 113 => ⟨S_, .f32⟩
  | 114 => ⟨S128, .f32⟩
  | 115 => ⟨S128, .f32⟩
  | 116 => ⟨S128x1, .f32⟩
  | 117 => ⟨S128x64, .f32⟩
  | 118 => ⟨S128x64, .f32⟩
  | 119 => ⟨S_, .f32⟩
  | 120 => ⟨S128x64, .f32⟩
  | 121 => ⟨S128x64, .f32⟩
  | 122 => ⟨S128x64, .f32⟩
  | 123 => ⟨S_, .i32⟩
  | 124 => ⟨S100000, .i32⟩
  | 125 => ⟨S100000, .i1⟩
  | 126 => ⟨S_, .i32⟩
  | 127 => ⟨S100000, .i32⟩
  | _ => ⟨S100000x128, .f32⟩

abbrev hbmTy0_1 (i : Nat) : BufTy := match i % 128 with
  | 0 => ⟨S100000, .i32⟩
  | 1 => ⟨S100000, .i32⟩
  | 2 => ⟨S100000x1, .i32⟩
  | 3 => ⟨S100000x64, .f32⟩
  | 4 => ⟨S1x64, .f32⟩
  | 5 => ⟨S100000x64, .f32⟩
  | 6 => ⟨S100000x64, .f32⟩
  | 7 => ⟨S100000x64, .f32⟩
  | 8 => ⟨S1x64, .f32⟩
  | 9 => ⟨S100000x64, .f32⟩
  | 10 => ⟨S100000x64, .f32⟩
  | 11 => ⟨S_, .f32⟩
  | 12 => ⟨S100000x64, .f32⟩
  | 13 => ⟨S100000x64, .f32⟩
  | 14 => ⟨S100000x64, .f32⟩
  | 15 => ⟨S100000, .i32⟩
  | 16 => ⟨S1700000, .i32⟩
  | 17 => ⟨S1700000, .i32⟩
  | 18 => ⟨S_, .f32⟩
  | 19 => ⟨S1700000, .f32⟩
  | 20 => ⟨S_, .f32⟩
  | 21 => ⟨S100000, .f32⟩
  | 22 => ⟨S1700000x1, .i32⟩
  | 23 => ⟨S100000, .f32⟩
  | 24 => ⟨S_, .f32⟩
  | 25 => ⟨S100000, .f32⟩
  | 26 => ⟨S100000, .i1⟩
  | 27 => ⟨S100000, .f32⟩
  | 28 => ⟨S_, .f32⟩
  | 29 => ⟨S_, .f32⟩
  | 30 => ⟨S100000, .f32⟩
  | 31 => ⟨S100000, .f32⟩
  | 32 => ⟨S_, .i32⟩
  | 33 => ⟨S1700000, .i32⟩
  | 34 => ⟨S1700000, .i1⟩
  | 35 => ⟨S_, .i32⟩
  | 36 => ⟨S1700000, .i32⟩
  | 37 => ⟨S1700000, .i32⟩
  | 38 => ⟨S1700000, .i32⟩
  | 39 => ⟨S1700000x1, .i32⟩
  | 40 => ⟨S1700000, .f32⟩
  | 41 => ⟨S_, .i32⟩
  | 42 => ⟨S1700000, .i32⟩
  | 43 => ⟨S1700000, .i1⟩
  | 44 => ⟨S_, .i32⟩
  | 45 => ⟨S1700000, .i32⟩
  | 46 => ⟨S1700000, .i32⟩
  | 47 => ⟨S1700000, .i32⟩
  | 48 => ⟨S1700000x1, .i32⟩
  | 49 => ⟨S1700000, .f32⟩
  | 50 => ⟨S1700000, .f32⟩
  | 51 => ⟨S_, .i32⟩
  | 52 => ⟨S1700000, .i32⟩
  | 53 => ⟨S1700000, .i1⟩
  | 54 => ⟨S_, .i32⟩
  | 55 => ⟨S1700000, .i32⟩
  | 56 => ⟨S1700000, .i32⟩
  | 57 => ⟨S1700000, .i32⟩
  | 58 => ⟨S1700000x1, .i32⟩
  | 59 => ⟨S1700000x64, .f32⟩
  | 60 => ⟨S1700000x1, .f32⟩
  | 61 => ⟨S1700000x64, .f32⟩
  | 62 => ⟨S1700000x64, .f32⟩
  | 63 => ⟨S_, .f32⟩
  | 64 => ⟨S100000x64, .f32⟩
  | 65 => ⟨S1700000x1, .i32⟩
  | 66 => ⟨S100000x64, .f32⟩
  | 67 => ⟨S1x64, .f32⟩
  | 68 => ⟨S100000x64, .f32⟩
  | 69 => ⟨S100000x64, .f32⟩
  | 70 => ⟨S_, .f32⟩
  | 71 => ⟨S128x64, .f32⟩
  | 72 => ⟨S100000x1, .i32⟩
  | 73 => ⟨S128x64, .f32⟩
  | 74 => ⟨S_, .f32⟩
  | 75 => ⟨S100000, .f32⟩
  | 76 => ⟨S_, .f32⟩
  | 77 => ⟨S128, .f32⟩
  | 78 => ⟨S100000x1, .i32⟩
  | 79 => ⟨S128, .f32⟩
  | 80 => ⟨S_, .f32⟩
  | 81 => ⟨S128, .f32⟩
  | 82 => ⟨S128, .f32⟩
  | 83 => ⟨S128x1, .f32⟩
  | 84 => ⟨S128x64, .f32⟩
  | 85 => ⟨S128x64, .f32⟩
  | 86 => ⟨S_, .i32⟩
  | 87 => ⟨S100000, .i32⟩
  | 88 => ⟨S100000, .i1⟩
  | 89 => ⟨S_, .i32⟩
  | 90 => ⟨S100000, .i32⟩
  | 91 => ⟨S100000, .i32⟩
  | 92 => ⟨S100000, .i32⟩
  | 93 => ⟨S100000x1, .i32⟩
  | 94 => ⟨S100000x64, .f32⟩
  | 95 => ⟨S1x64, .f32⟩
  | 96 => ⟨S100000x64, .f32⟩
  | 97 => ⟨S100000x64, .f32⟩
  | 98 => ⟨S100000x64, .f32⟩
  | 99 => ⟨S100000x64, .f32⟩
  | 100 => ⟨S_, .f32⟩
  | 101 => ⟨S128x64, .f32⟩
  | 102 => ⟨S100000x1, .i32⟩
  | 103 => ⟨S128x64, .f32⟩
  | 104 => ⟨S_, .f32⟩
  | 105 => ⟨S100000, .f32⟩
  | 106 => ⟨S_, .f32⟩
  | 107 => ⟨S128, .f32⟩
  | 108 => ⟨S100000x1, .i32⟩
  | 109 => ⟨S128, .f32⟩
  | 110 => ⟨S_, .f32⟩
  | 111 => ⟨S128, .f32⟩
  | 112 => ⟨S128, .f32⟩
  | 113 => ⟨S128x1, .f32⟩
  | 114 => ⟨S128x64, .f32⟩
  | 115 => ⟨S128x64, .f32⟩
  | 116 => ⟨S_, .f32⟩
  | 117 => ⟨S128x64, .f32⟩
  | 118 => ⟨S128x64, .f32⟩
  | 119 => ⟨S128x64, .f32⟩
  | 120 => ⟨S_, .i32⟩
  | 121 => ⟨S100000, .i32⟩
  | 122 => ⟨S100000, .i1⟩
  | 123 => ⟨S_, .i32⟩
  | 124 => ⟨S100000, .i32⟩
  | 125 => ⟨S100000, .i32⟩
  | 126 => ⟨S100000, .i32⟩
  | 127 => ⟨S100000x1, .i32⟩
  | _ => ⟨S100000x128, .f32⟩

abbrev hbmTy0_2 (i : Nat) : BufTy := match i % 128 with
  | 0 => ⟨S100000x64, .f32⟩
  | 1 => ⟨S1x64, .f32⟩
  | 2 => ⟨S100000x64, .f32⟩
  | 3 => ⟨S100000x64, .f32⟩
  | 4 => ⟨S100000x64, .f32⟩
  | 5 => ⟨S1x64, .f32⟩
  | 6 => ⟨S100000x64, .f32⟩
  | 7 => ⟨S100000x64, .f32⟩
  | 8 => ⟨S_, .f32⟩
  | 9 => ⟨S100000x64, .f32⟩
  | 10 => ⟨S100000x64, .f32⟩
  | 11 => ⟨S_, .f32⟩
  | 12 => ⟨S128x64, .f32⟩
  | 13 => ⟨S100000x1, .i32⟩
  | 14 => ⟨S128x64, .f32⟩
  | 15 => ⟨S_, .f32⟩
  | 16 => ⟨S100000, .f32⟩
  | 17 => ⟨S_, .f32⟩
  | 18 => ⟨S128, .f32⟩
  | 19 => ⟨S100000x1, .i32⟩
  | 20 => ⟨S128, .f32⟩
  | 21 => ⟨S_, .f32⟩
  | 22 => ⟨S128, .f32⟩
  | 23 => ⟨S128, .f32⟩
  | 24 => ⟨S128x1, .f32⟩
  | 25 => ⟨S128x64, .f32⟩
  | 26 => ⟨S128x64, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v15 : Ref sig .tc := ⟨.hbm, 34, rfl⟩
abbrev main_c : Ref sig .tc := ⟨.hbm, 35, rfl⟩
abbrev main_v16 : Ref sig .tc := ⟨.hbm, 36, rfl⟩
abbrev main_v17 : Ref sig .tc := ⟨.hbm, 37, rfl⟩
abbrev main_c_3 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_c_4 : Ref sig .tc := ⟨.hbm, 44, rfl⟩
abbrev main_v23 : Ref sig .tc := ⟨.hbm, 45, rfl⟩
abbrev main_v24 : Ref sig .tc := ⟨.hbm, 46, rfl⟩
abbrev main_c_5 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_c_6 : Ref sig .tc := ⟨.hbm, 54, rfl⟩
abbrev main_v31 : Ref sig .tc := ⟨.hbm, 55, rfl⟩
abbrev main_v32 : Ref sig .tc := ⟨.hbm, 56, rfl⟩
abbrev main_c_7 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_8 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_9 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_10 : Ref sig .tc := ⟨.hbm, 77, rfl⟩
abbrev main_v50 : Ref sig .tc := ⟨.hbm, 78, rfl⟩
abbrev main_cst_11 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_12 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_c_13 : Ref sig .tc := ⟨.hbm, 89, rfl⟩
abbrev main_v59 : Ref sig .tc := ⟨.hbm, 90, rfl⟩
abbrev main_v60 : Ref sig .tc := ⟨.hbm, 91, rfl⟩
abbrev main_c_14 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_cst_15 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_cst_16 : Ref sig .tc := ⟨.hbm, 107, rfl⟩
abbrev main_v74 : Ref sig .tc := ⟨.hbm, 108, rfl⟩
abbrev main_cst_17 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_cst_18 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_cst_19 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_c_20 : Ref sig .tc := ⟨.hbm, 123, rfl⟩
abbrev main_v86 : Ref sig .tc := ⟨.hbm, 124, rfl⟩
abbrev main_v87 : Ref sig .tc := ⟨.hbm, 125, rfl⟩
abbrev main_c_21 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_call1_cst : Ref sig .tc := ⟨.hbm, 139, rfl⟩
abbrev main_call1_v0 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_cst_22 : Ref sig .tc := ⟨.hbm, 146, rfl⟩
abbrev main_v105 : Ref sig .tc := ⟨.hbm, 147, rfl⟩
abbrev main_cst_23 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_cst_24 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_cst_25 : Ref sig .tc := ⟨.hbm, 156, rfl⟩
abbrev main_call2_v0 : Ref sig .tc := ⟨.hbm, 157, rfl⟩
abbrev main_call2_v1 : Ref sig .tc := ⟨.hbm, 158, rfl⟩
abbrev main_v112 : Ref sig .tc := ⟨.hbm, 159, rfl⟩
abbrev main_c_26 : Ref sig .tc := ⟨.hbm, 160, rfl⟩
abbrev main_v113 : Ref sig .tc := ⟨.hbm, 161, rfl⟩
abbrev main_v114 : Ref sig .tc := ⟨.hbm, 162, rfl⟩
abbrev main_c_27 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_c_28 : Ref sig .tc := ⟨.hbm, 169, rfl⟩
abbrev main_v120 : Ref sig .tc := ⟨.hbm, 170, rfl⟩
abbrev main_v121 : Ref sig .tc := ⟨.hbm, 171, rfl⟩
abbrev main_c_29 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_c_30 : Ref sig .tc := ⟨.hbm, 179, rfl⟩
abbrev main_v128 : Ref sig .tc := ⟨.hbm, 180, rfl⟩
abbrev main_v129 : Ref sig .tc := ⟨.hbm, 181, rfl⟩
abbrev main_c_31 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_cst_32 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩
abbrev main_cst_33 : Ref sig .tc := ⟨.hbm, 198, rfl⟩
abbrev main_v144 : Ref sig .tc := ⟨.hbm, 199, rfl⟩
abbrev main_v145 : Ref sig .tc := ⟨.hbm, 200, rfl⟩
abbrev main_v146 : Ref sig .tc := ⟨.hbm, 201, rfl⟩
abbrev main_cst_34 : Ref sig .tc := ⟨.hbm, 202, rfl⟩
abbrev main_v147 : Ref sig .tc := ⟨.hbm, 203, rfl⟩
abbrev main_cst_35 : Ref sig .tc := ⟨.hbm, 204, rfl⟩
abbrev main_v148 : Ref sig .tc := ⟨.hbm, 205, rfl⟩
abbrev main_v149 : Ref sig .tc := ⟨.hbm, 206, rfl⟩
abbrev main_v150 : Ref sig .tc := ⟨.hbm, 207, rfl⟩
abbrev main_cst_36 : Ref sig .tc := ⟨.hbm, 208, rfl⟩
abbrev main_v151 : Ref sig .tc := ⟨.hbm, 209, rfl⟩
abbrev main_v152 : Ref sig .tc := ⟨.hbm, 210, rfl⟩
abbrev main_v153 : Ref sig .tc := ⟨.hbm, 211, rfl⟩
abbrev main_v154 : Ref sig .tc := ⟨.hbm, 212, rfl⟩
abbrev main_v155 : Ref sig .tc := ⟨.hbm, 213, rfl⟩
abbrev main_c_37 : Ref sig .tc := ⟨.hbm, 214, rfl⟩
abbrev main_v156 : Ref sig .tc := ⟨.hbm, 215, rfl⟩
abbrev main_v157 : Ref sig .tc := ⟨.hbm, 216, rfl⟩
abbrev main_c_38 : Ref sig .tc := ⟨.hbm, 217, rfl⟩
abbrev main_v158 : Ref sig .tc := ⟨.hbm, 218, rfl⟩
abbrev main_v159 : Ref sig .tc := ⟨.hbm, 219, rfl⟩
abbrev main_v160 : Ref sig .tc := ⟨.hbm, 220, rfl⟩
abbrev main_v161 : Ref sig .tc := ⟨.hbm, 221, rfl⟩
abbrev main_v162 : Ref sig .tc := ⟨.hbm, 222, rfl⟩
abbrev main_v163 : Ref sig .tc := ⟨.hbm, 223, rfl⟩
abbrev main_v164 : Ref sig .tc := ⟨.hbm, 224, rfl⟩
abbrev main_v165 : Ref sig .tc := ⟨.hbm, 225, rfl⟩
abbrev main_v166 : Ref sig .tc := ⟨.hbm, 226, rfl⟩
abbrev main_v167 : Ref sig .tc := ⟨.hbm, 227, rfl⟩
abbrev main_cst_39 : Ref sig .tc := ⟨.hbm, 228, rfl⟩
abbrev main_v168 : Ref sig .tc := ⟨.hbm, 229, rfl⟩
abbrev main_v169 : Ref sig .tc := ⟨.hbm, 230, rfl⟩
abbrev main_v170 : Ref sig .tc := ⟨.hbm, 231, rfl⟩
abbrev main_cst_40 : Ref sig .tc := ⟨.hbm, 232, rfl⟩
abbrev main_v171 : Ref sig .tc := ⟨.hbm, 233, rfl⟩
abbrev main_cst_41 : Ref sig .tc := ⟨.hbm, 234, rfl⟩
abbrev main_v172 : Ref sig .tc := ⟨.hbm, 235, rfl⟩
abbrev main_v173 : Ref sig .tc := ⟨.hbm, 236, rfl⟩
abbrev main_v174 : Ref sig .tc := ⟨.hbm, 237, rfl⟩
abbrev main_cst_42 : Ref sig .tc := ⟨.hbm, 238, rfl⟩
abbrev main_v175 : Ref sig .tc := ⟨.hbm, 239, rfl⟩
abbrev main_v176 : Ref sig .tc := ⟨.hbm, 240, rfl⟩
abbrev main_v177 : Ref sig .tc := ⟨.hbm, 241, rfl⟩
abbrev main_v178 : Ref sig .tc := ⟨.hbm, 242, rfl⟩
abbrev main_v179 : Ref sig .tc := ⟨.hbm, 243, rfl⟩
abbrev main_cst_43 : Ref sig .tc := ⟨.hbm, 244, rfl⟩
abbrev main_v180 : Ref sig .tc := ⟨.hbm, 245, rfl⟩
abbrev main_v181 : Ref sig .tc := ⟨.hbm, 246, rfl⟩
abbrev main_v182 : Ref sig .tc := ⟨.hbm, 247, rfl⟩
abbrev main_c_44 : Ref sig .tc := ⟨.hbm, 248, rfl⟩
abbrev main_v183 : Ref sig .tc := ⟨.hbm, 249, rfl⟩
abbrev main_v184 : Ref sig .tc := ⟨.hbm, 250, rfl⟩
abbrev main_c_45 : Ref sig .tc := ⟨.hbm, 251, rfl⟩
abbrev main_v185 : Ref sig .tc := ⟨.hbm, 252, rfl⟩
abbrev main_v186 : Ref sig .tc := ⟨.hbm, 253, rfl⟩
abbrev main_v187 : Ref sig .tc := ⟨.hbm, 254, rfl⟩
abbrev main_v188 : Ref sig .tc := ⟨.hbm, 255, rfl⟩
abbrev main_v189 : Ref sig .tc := ⟨.hbm, 256, rfl⟩
abbrev main_v190 : Ref sig .tc := ⟨.hbm, 257, rfl⟩
abbrev main_v191 : Ref sig .tc := ⟨.hbm, 258, rfl⟩
abbrev main_v192 : Ref sig .tc := ⟨.hbm, 259, rfl⟩
abbrev main_v193 : Ref sig .tc := ⟨.hbm, 260, rfl⟩
abbrev main_v194 : Ref sig .tc := ⟨.hbm, 261, rfl⟩
abbrev main_v195 : Ref sig .tc := ⟨.hbm, 262, rfl⟩
abbrev main_v196 : Ref sig .tc := ⟨.hbm, 263, rfl⟩
abbrev main_call3_cst : Ref sig .tc := ⟨.hbm, 264, rfl⟩
abbrev main_call3_v0 : Ref sig .tc := ⟨.hbm, 265, rfl⟩
abbrev main_v197 : Ref sig .tc := ⟨.hbm, 266, rfl⟩
abbrev main_cst_46 : Ref sig .tc := ⟨.hbm, 267, rfl⟩
abbrev main_v198 : Ref sig .tc := ⟨.hbm, 268, rfl⟩
abbrev main_v199 : Ref sig .tc := ⟨.hbm, 269, rfl⟩
abbrev main_v200 : Ref sig .tc := ⟨.hbm, 270, rfl⟩
abbrev main_cst_47 : Ref sig .tc := ⟨.hbm, 271, rfl⟩
abbrev main_v201 : Ref sig .tc := ⟨.hbm, 272, rfl⟩
abbrev main_cst_48 : Ref sig .tc := ⟨.hbm, 273, rfl⟩
abbrev main_v202 : Ref sig .tc := ⟨.hbm, 274, rfl⟩
abbrev main_v203 : Ref sig .tc := ⟨.hbm, 275, rfl⟩
abbrev main_v204 : Ref sig .tc := ⟨.hbm, 276, rfl⟩
abbrev main_cst_49 : Ref sig .tc := ⟨.hbm, 277, rfl⟩
abbrev main_v205 : Ref sig .tc := ⟨.hbm, 278, rfl⟩
abbrev main_v206 : Ref sig .tc := ⟨.hbm, 279, rfl⟩
abbrev main_v207 : Ref sig .tc := ⟨.hbm, 280, rfl⟩
abbrev main_v208 : Ref sig .tc := ⟨.hbm, 281, rfl⟩
abbrev main_v209 : Ref sig .tc := ⟨.hbm, 282, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S128x64 : S_.BroadcastsInDim S128x64 (![] : Fin 0 → Fin S128x64.rank)
  bcast_S100000_S100000x1_0 : S100000.BroadcastsInDim S100000x1 (![0] : Fin 1 → Fin S100000x1.rank)
  bcast_S_S128 : S_.BroadcastsInDim S128 (![] : Fin 0 → Fin S128.rank)
  bcast_S128_S128x1_0 : S128.BroadcastsInDim S128x1 (![0] : Fin 1 → Fin S128x1.rank)
  bcast_S128x1_S128x64_0_1 : S128x1.BroadcastsInDim S128x64 (![0, 1] : Fin 2 → Fin S128x64.rank)
  dot_S100000x128_S128x64_S100000x64_1_0_0_1_n_n_wf : DotDims.WF S100000x128 S128x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  scatter_S128x64_S100000x1_S100000x64_1_0_0_1_wf : ScatterDims.WF S128x64 S100000x1 S100000x64 [1] [0] [0] 1
  scatter_S128_S100000x1_S100000_n_0_0_1_wf : ScatterDims.WF S128 S100000x1 S100000 [] [0] [0] 1
  gather_S128x64_S100000x1_S100000x64_1_0_n_n_0_1_164_wf : GatherDims.WF S128x64 S100000x1 S100000x64 [1] [0] [] [0] [] 1 ![1, 64]
  dot_S100000x64_S64x64_S100000x64_1_0_0_1_n_n_wf : DotDims.WF S100000x64 S64x64 S100000x64 [1] [0] [0] [1] [] []

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def scatter_S128x64_S100000x1_S100000x64_1_0_0_1 : ScatterDims S128x64 S100000x1 S100000x64 where
  updateWindowDims := [1]
  insertedWindowDims := [0]
  scatterDimsToOperandDims := [0]
  indexVectorDim := 1
  wf := scatter_S128x64_S100000x1_S100000x64_1_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def gather_S128x64_S100000x1_S100000x64_1_0_n_n_0_1_164 : GatherDims S128x64 S100000x1 S100000x64 where
  offsetDims := [1]
  collapsedSliceDims := [0]
  operandBatchingDims := []
  startIndicesBatchingDims := []
  startIndexMap := [0]
  indexVectorDim := 1
  sliceSizes := ![1, 64]
  wf := gather_S128x64_S100000x1_S100000x64_1_0_n_n_0_1_164_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.MSpec.lean ====
/-
  The mathematics of the two programs, index by index, on the extended reals.

  A two-layer graph convolution with per-graph normalisation and mean pooling over N = 100000 nodes, E = 1600000
  edges, G = 128 graphs and D = 64 features. Both programs are written here as plain formulas over tables indexed by
  `Fin`: the *tiled* program (`K`-names) scales the features by the inverse square-root degree before the edge
  gather, adds the self loop densely, takes the per-graph sums through a one-hot product and gets the variance from
  the sums of x and x²; the *plain* program (`R`-names) appends one self-loop edge per node to the edge list, weights
  every message by dinv[src]·dinv[dst], and gets the variance from the centred values. The integer tables are kept as
  32-bit words: a scatter lands where the word read SIGNED is a row number and is dropped elsewhere; a gather first
  wraps a negative word by the extent and then clamps into the table.
-/
import Idealize.ShloMosaic.PureOps.Ideal
import Mathlib.Algebra.BigOperators.Fin

noncomputable section

namespace GCN

open Idealize.ShloMosaic
open scoped BigOperators

/-- A scatter's index word lands on row `v`: read signed, not wrapped, not clamped. -/
def hit (z : BitVec 32) (v : ℕ) : Prop := z.toInt = (v : ℤ)
instance (z : BitVec 32) (v : ℕ) : Decidable (hit z v) := inferInstanceAs (Decidable (_ = _))

/-- A gather's row for the index word `z` in a table of `n` rows: a negative word is wrapped by `n`, then the
    result is clamped into `[0, n - 1]`. -/
def gi (n : ℕ) (z : BitVec 32) : ℕ := min (if z.toInt < 0 then z.toInt + n else z.toInt).toNat (n - 1)

theorem gi_lt {n : ℕ} (hn : 0 < n) (z : BitVec 32) : gi n z < n := by
  unfold gi; omega

/-- The gather row as an element of `Fin 100000` (nodes) and of `Fin 128` (graphs). -/
def gN (z : BitVec 32) : Fin 100000 := ⟨gi 100000 z, gi_lt (by norm_num) z⟩
def gG (z : BitVec 32) : Fin 128 := ⟨gi 128 z, gi_lt (by norm_num) z⟩

/-- One entry of the one-hot table: the graph word against the column number as a word. -/
def oh (z : BitVec 32) (g : ℕ) : EReal := if z = BitVec.ofNat 32 g then 1 else 0

/-- The inverse square-root degree, guarded as both programs guard it. -/
def dinvOf (deg : EReal) : EReal := if 0 < deg then Ideal.rsqrt deg else 0

/-- A feature product: rows of `X` against columns of `W`. -/
def feat {k : ℕ} (X : Fin 100000 → Fin k → EReal) (W : Fin k → Fin 64 → EReal) (i : Fin 100000) (j : Fin 64) : EReal :=
  ∑ c : Fin k, X i c * W c j

/-- The integer tables. -/
structure Graph where
  src : Fin 1600000 → BitVec 32
  dst : Fin 1600000 → BitVec 32
  bat : Fin 100000 → BitVec 32

/-- One layer's parameters: the convolution's bias, the normalisation's mean scale, weight and bias. -/
structure Layer where
  b : Fin 64 → EReal
  α : Fin 64 → EReal
  w : Fin 64 → EReal
  β : Fin 64 → EReal

variable (Γ : Graph) (eps : EReal)

/-! ## The tiled program -/

/-- The degree from the destination words `dst`: the real in-edges counted by a scatter of ones, plus one for the
    self loop. -/
def degT (dst : Fin 1600000 → BitVec 32) (v : Fin 100000) : EReal :=
  (0 + ∑ e : Fin 1600000, if hit (dst e) v then (1 : EReal) else 0) + 1
def degK (v : Fin 100000) : EReal := degT Γ.dst v
def dinvK (v : Fin 100000) : EReal := dinvOf (degK Γ v)

/-- The nodes per graph from the graph words `bat`, counted in integers over the words clipped at zero, then at
    least one. -/
def cntT (bat : Fin 100000 → BitVec 32) (g : Fin 128) : EReal :=
  max (((Finset.univ.filter fun i : Fin 100000 => max (bat i).toInt 0 = (g : ℤ)).card : ℝ) : EReal) 1
def cntK (g : Fin 128) : EReal := cntT Γ.bat g

/-- The rows `fs` gathered at the source words and summed over the real in-edges of `v`. -/
def aggT (src dst : Fin 1600000 → BitVec 32) (fs : Fin 100000 → Fin 64 → EReal) (v : Fin 100000) (f : Fin 64) : EReal :=
  0 + ∑ e : Fin 1600000, if hit (dst e) v then fs (gN (src e)) f else 0
def aggK (fs : Fin 100000 → Fin 64 → EReal) (v : Fin 100000) (f : Fin 64) : EReal := aggT Γ.src Γ.dst fs v f

/-- The convolution's output: the aggregate rescaled, the self loop, the bias. -/
def xinK (dinv : Fin 100000 → EReal) (agg ft : Fin 100000 → Fin 64 → EReal) (b : Fin 64 → EReal)
    (v : Fin 100000) (f : Fin 64) : EReal :=
  (dinv v * agg v f + (dinv v * dinv v) * ft v f) + b f

/-- The whole convolution from the feature product `ft`. -/
def convK (ft : Fin 100000 → Fin 64 → EReal) (b : Fin 64 → EReal) : Fin 100000 → Fin 64 → EReal :=
  xinK (dinvK Γ) (aggK Γ fun i f => ft i f * dinvK Γ i) ft b

/-- The row of node number `(core·10 + t)·5000 + r`: the tiles of 5000 rows, ten to a half. -/
def row (core : Fin 2) (t : Fin 10) (r : Fin 5000) : Fin 100000 :=
  ⟨(core.val * 10 + t.val) * 5000 + r.val, by have := core.isLt; have := t.isLt; have := r.isLt; omega⟩

/-- One half's per-graph sum through the one-hot product of the graph words `bat`, tile after tile. -/
def partK (bat : Fin 100000 → BitVec 32) (X : Fin 100000 → Fin 64 → EReal) (core : Fin 2) (g : Fin 128) (f : Fin 64) : EReal :=
  ∑ t : Fin 10, ∑ r : Fin 5000, oh (bat (row core t r)) g * X (row core t r) f

/-- The per-graph sum over all nodes through the one-hot product. -/
def segK (bat : Fin 100000 → BitVec 32) (X : Fin 100000 → Fin 64 → EReal) (g : Fin 128) (f : Fin 64) : EReal :=
  ∑ i : Fin 100000, oh (bat i) g * X i f

/-! The statistics the host computes from the two halves' sums `p` (of x) and `q` (of x²) and the counts. -/
def meanOf (p : Fin 2 → Fin 128 → Fin 64 → EReal) (cnt : Fin 128 → EReal) (g : Fin 128) (f : Fin 64) : EReal :=
  Ideal.div (p 0 g f + p 1 g f) (cnt g)
def varOf (α : Fin 64 → EReal) (p q : Fin 2 → Fin 128 → Fin 64 → EReal) (cnt : Fin 128 → EReal) (g : Fin 128) (f : Fin 64) : EReal :=
  max (meanOf q cnt g f - (meanOf p cnt g f * meanOf p cnt g f) * (2 * α f - α f * α f)) 0
def ameanOf (α : Fin 64 → EReal) (p : Fin 2 → Fin 128 → Fin 64 → EReal) (cnt : Fin 128 → EReal) (g : Fin 128) (f : Fin 64) : EReal :=
  α f * meanOf p cnt g f
def isdOf (eps : EReal) (α : Fin 64 → EReal) (p q : Fin 2 → Fin 128 → Fin 64 → EReal) (cnt : Fin 128 → EReal) (g : Fin 128) (f : Fin 64) : EReal :=
  Ideal.rsqrt (varOf α p q cnt g f + eps)

def meanK (X : Fin 100000 → Fin 64 → EReal) (g : Fin 128) (f : Fin 64) : EReal := Ideal.div (segK Γ.bat X g f) (cntK Γ g)
def ex2K (X : Fin 100000 → Fin 64 → EReal) (g : Fin 128) (f : Fin 64) : EReal :=
  Ideal.div (segK Γ.bat (fun i f => X i f * X i f) g f) (cntK Γ g)
/-- The variance from the two sums, kept non-negative. -/
def varK (α : Fin 64 → EReal) (X : Fin 100000 → Fin 64 → EReal) (g : Fin 128) (f : Fin 64) : EReal :=
  max (ex2K Γ X g f - (meanK Γ X g f * meanK Γ X g f) * (2 * α f - α f * α f)) 0
def ameanK (α : Fin 64 → EReal) (X : Fin 100000 → Fin 64 → EReal) (g : Fin 128) (f : Fin 64) : EReal :=
  α f * meanK Γ X g f
def isdK (α : Fin 64 → EReal) (X : Fin 100000 → Fin 64 → EReal) (g : Fin 128) (f : Fin 64) : EReal :=
  Ideal.rsqrt (varK Γ α X g f + eps)

/-- A per-graph table read at a node's graph through the one-hot product. -/
def pickK (bat : Fin 100000 → BitVec 32) (T : Fin 128 → Fin 64 → EReal) (i : Fin 100000) (f : Fin 64) : EReal :=
  ∑ g : Fin 128, oh (bat i) g * T g f

/-- The normalised, rectified row from the tables `am` (scaled means) and `isd` (inverse deviations). -/
def normOfK (bat : Fin 100000 → BitVec 32) (w β : Fin 64 → EReal) (am isd : Fin 128 → Fin 64 → EReal)
    (X : Fin 100000 → Fin 64 → EReal) (i : Fin 100000) (f : Fin 64) : EReal :=
  max (((w f * (X i f - pickK bat am i f)) * pickK bat isd i f) + β f) 0

def normK (P : Layer) (X : Fin 100000 → Fin 64 → EReal) : Fin 100000 → Fin 64 → EReal :=
  normOfK Γ.bat P.w P.β (ameanK Γ P.α X) (isdK Γ eps P.α X) X

/-- The tiled program as it runs: the statistics from the halves' sums, layer after layer. -/
def normRunK (P : Layer) (X : Fin 100000 → Fin 64 → EReal) : Fin 100000 → Fin 64 → EReal :=
  normOfK Γ.bat P.w P.β (ameanOf P.α (partK Γ.bat X) (cntK Γ))
    (isdOf eps P.α (partK Γ.bat X) (partK Γ.bat fun i f => X i f * X i f) (cntK Γ)) X

/-- The tiled program's result. -/
def outK {k : ℕ} (x : Fin 100000 → Fin k → EReal) (W1 : Fin k → Fin 64 → EReal) (P1 : Layer)
    (W2 : Fin 64 → Fin 64 → EReal) (P2 : Layer) (g : Fin 128) (f : Fin 64) : EReal :=
  let h1 := normK Γ eps P1 (convK Γ (feat x W1) P1.b)
  let h2 := normK Γ eps P2 (convK Γ (feat h1 W2) P2.b)
  Ideal.div (segK Γ.bat h2 g f) (cntK Γ g)

/-- The tiled program's result as it runs: the pooled sum from the two halves' sums. -/
def outRunK {k : ℕ} (x : Fin 100000 → Fin k → EReal) (W1 : Fin k → Fin 64 → EReal) (P1 : Layer)
    (W2 : Fin 64 → Fin 64 → EReal) (P2 : Layer) (g : Fin 128) (f : Fin 64) : EReal :=
  let h1 := normRunK Γ eps P1 (convK Γ (feat x W1) P1.b)
  let h2 := normRunK Γ eps P2 (convK Γ (feat h1 W2) P2.b)
  Ideal.div (partK Γ.bat h2 0 g f + partK Γ.bat h2 1 g f) (cntK Γ g)

/-! ## The plain program -/

/-- The edge list with one self loop per node appended. -/
def src2 (e : Fin 1700000) : BitVec 32 := if h : e.val < 1600000 then Γ.src ⟨e.val, h⟩ else BitVec.ofNat 32 (e.val - 1600000)
def dst2 (e : Fin 1700000) : BitVec 32 := if h : e.val < 1600000 then Γ.dst ⟨e.val, h⟩ else BitVec.ofNat 32 (e.val - 1600000)

def degR (v : Fin 100000) : EReal := 0 + ∑ e : Fin 1700000, if hit (dst2 Γ e) v then (1 : EReal) else 0
def dinvR (v : Fin 100000) : EReal := dinvOf (degR Γ v)

def convR (ft : Fin 100000 → Fin 64 → EReal) (b : Fin 64 → EReal) (v : Fin 100000) (f : Fin 64) : EReal :=
  (0 + ∑ e : Fin 1700000, if hit (dst2 Γ e) v
      then ft (gN (src2 Γ e)) f * (dinvR Γ (gN (src2 Γ e)) * dinvR Γ (gN (dst2 Γ e))) else 0) + b f

def segR (X : Fin 100000 → Fin 64 → EReal) (g : Fin 128) (f : Fin 64) : EReal :=
  0 + ∑ i : Fin 100000, if hit (Γ.bat i) g then X i f else 0
def cntR (g : Fin 128) : EReal := max (0 + ∑ i : Fin 100000, if hit (Γ.bat i) g then (1 : EReal) else 0) 1
def meanR (X : Fin 100000 → Fin 64 → EReal) (g : Fin 128) (f : Fin 64) : EReal := Ideal.div (segR Γ X g f) (cntR Γ g)
def cenR (α : Fin 64 → EReal) (X : Fin 100000 → Fin 64 → EReal) (i : Fin 100000) (f : Fin 64) : EReal :=
  X i f - α f * meanR Γ X (gG (Γ.bat i)) f
def varR (α : Fin 64 → EReal) (X : Fin 100000 → Fin 64 → EReal) (g : Fin 128) (f : Fin 64) : EReal :=
  Ideal.div (segR Γ (fun i f => cenR Γ α X i f * cenR Γ α X i f) g f) (cntR Γ g)
def isdR (α : Fin 64 → EReal) (X : Fin 100000 → Fin 64 → EReal) (g : Fin 128) (f : Fin 64) : EReal :=
  Ideal.rsqrt (varR Γ α X g f + eps)
def normR (P : Layer) (X : Fin 100000 → Fin 64 → EReal) (i : Fin 100000) (f : Fin 64) : EReal :=
  max (((P.w f * cenR Γ P.α X i f) * isdR Γ eps P.α X (gG (Γ.bat i)) f) + P.β f) 0

/-- The plain program's result. -/
def outR {k : ℕ} (x : Fin 100000 → Fin k → EReal) (W1 : Fin k → Fin 64 → EReal) (P1 : Layer)
    (W2 : Fin 64 → Fin 64 → EReal) (P2 : Layer) (g : Fin 128) (f : Fin 64) : EReal :=
  let h1 := normR Γ eps P1 (convR Γ (feat x W1) P1.b)
  let h2 := normR Γ eps P2 (convR Γ (feat h1 W2) P2.b)
  Ideal.div (segR Γ h2 g f) (cntR Γ g)

/-! ## The domain -/

/-- A table of extended reals all of whose entries are real numbers. -/
def Real1 {ι : Type} (a : ι → EReal) : Prop := ∀ i, ∃ r : ℝ, a i = (r : EReal)
def Real2 {ι κ : Type} (a : ι → κ → EReal) : Prop := ∀ i j, ∃ r : ℝ, a i j = (r : EReal)
def Layer.Real (P : Layer) : Prop := Real1 P.b ∧ Real1 P.α ∧ Real1 P.w ∧ Real1 P.β

/-- Every graph word is a graph number. -/
def Graph.InRange (Γ : Graph) : Prop := ∀ i, 0 ≤ (Γ.bat i).toInt ∧ (Γ.bat i).toInt < 128

end GCN

end
-- ==== Proof.Views.lean ====
/-
  The programs' arrays read as plain tables: an array of rank two as a function of a row and a column, a column or a
  row array as a function of one index, the edge list's two rows as the source and destination words.
-/
import proofs.«420537_j75831942578735_3_alg».proof.Proof.MSpec
import Idealize.ShloMosaic.Lib.ValueIdx

noncomputable section

namespace GCN

open Idealize.ShloMosaic Idealize.ShloMosaic.ValueIdx

def tab1 {α : Type} {a : ℕ} (A : (⟨1, ![a]⟩ : Shape).Idx → α) : Fin a → α := fun i => A (ix1 i)
def tab2 {α : Type} {a b : ℕ} (A : (⟨2, ![a, b]⟩ : Shape).Idx → α) : Fin a → Fin b → α := fun i j => A (ix2 i j)
def tab3 {α : Type} {a b c : ℕ} (A : (⟨3, ![a, b, c]⟩ : Shape).Idx → α) : Fin a → Fin b → Fin c → α :=
  fun i j k => A (ix3 i j k)
/-- A one-column array as a function of its row. -/
def colv {α : Type} {a : ℕ} (A : (⟨2, ![a, 1]⟩ : Shape).Idx → α) : Fin a → α := fun i => A (ix2 i 0)
/-- A one-row array as a function of its column. -/
def rowv {α : Type} {b : ℕ} (A : (⟨2, ![1, b]⟩ : Shape).Idx → α) : Fin b → α := fun j => A (ix2 0 j)

/-- The integer tables of the two programs' arguments: the edge list's rows and the graph words. -/
def graphOf (ei : (⟨2, ![2, 1600000]⟩ : Shape).Idx → BitVec 32) (bat : (⟨1, ![100000]⟩ : Shape).Idx → BitVec 32) : Graph :=
  ⟨fun e => ei (ix2 0 e), fun e => ei (ix2 1 e), tab1 bat⟩

def layerOf (b α w β : (⟨1, ![64]⟩ : Shape).Idx → EReal) : Layer := ⟨tab1 b, tab1 α, tab1 w, tab1 β⟩

/-- The variance's guard, the single-precision number nearest 1e-5, as both programs carry it. -/
def epsW : EReal := Ideal.ofBits .f32 0x3727C5AC#32

theorem tab2_ext {α : Type} {a b : ℕ} {A B : (⟨2, ![a, b]⟩ : Shape).Idx → α} (h : ∀ i j, A (ix2 i j) = B (ix2 i j)) : A = B := by
  funext y; rw [eq_ix2 y]; exact h _ _
theorem tab1_ext {α : Type} {a : ℕ} {A B : (⟨1, ![a]⟩ : Shape).Idx → α} (h : ∀ i, A (ix1 i) = B (ix1 i)) : A = B := by
  funext y; rw [eq_ix1 y]; exact h _
theorem tab3_ext {α : Type} {a b c : ℕ} {A B : (⟨3, ![a, b, c]⟩ : Shape).Idx → α} (h : ∀ i j k, A (ix3 i j k) = B (ix3 i j k)) : A = B := by
  funext y; rw [eq_ix3 y]; exact h _ _ _

end GCN

end
-- ==== Proof.KSteps.lean ====
/-
  Three kinds of step carry a buffer's contents from one segment boundary of the tiled program to the next: a stretch of
  host operations leaves every buffer it does not write; a pallas_call leaves every buffer that is not one of its
  arrays; and a pallas_call leaves each of its input arrays as it was entered.
-/
import proofs.«420537_j75831942578735_3_alg».proof.Proof.Gen.KernelIdeal.Frame
import Idealize.ShloMosaic.Lib.StableHlo.Run
import Idealize.ShloMosaic.PureOps.Ideal

set_option maxRecDepth 16384

noncomputable section

namespace Cert.KernelIdeal.KV

open Idealize.ShloMosaic Idealize.ShloMosaic.TcCoe Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg) (c : Dev nD)

/-- A stretch of host operations leaves a buffer that none of its operations writes: the list of operations is opened
    and each operation's written buffer is compared with the buffer kept. -/
macro "host_keeps " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

/-! A pallas_call leaves each of its input arrays as it was entered: the array at exit is the array the pipeline was
    given, which is the buffer's contents at entry. -/
theorem in0 (w : Fin cfg0.W) (hw : (cfg0.win w).isOut = false) :
    W6 m ρ c (Proc.devRef .tc (Pipeline.arrRef spec0 w)) = W5 m ρ c (Proc.devRef .tc (Pipeline.arrRef spec0 w)) :=
  (W6_arr m ρ c w).trans (((dat0 (V5 m ρ) c).arrAt_in w hw _).trans (A_eq0 (V5 m ρ) c w))
theorem in1 (w : Fin cfg1.W) (hw : (cfg1.win w).isOut = false) :
    W8 m ρ c (Proc.devRef .tc (Pipeline.arrRef spec1 w)) = W7 m ρ c (Proc.devRef .tc (Pipeline.arrRef spec1 w)) :=
  (W8_arr m ρ c w).trans (((dat1 (V7 m ρ) c).arrAt_in w hw _).trans (A_eq1 (V7 m ρ) c w))
theorem in2 (w : Fin cfg2.W) (hw : (cfg2.win w).isOut = false) :
    W10 m ρ c (Proc.devRef .tc (Pipeline.arrRef spec2 w)) = W9 m ρ c (Proc.devRef .tc (Pipeline.arrRef spec2 w)) :=
  (W10_arr m ρ c w).trans (((dat2 (V9 m ρ) c).arrAt_in w hw _).trans (A_eq2 (V9 m ρ) c w))
theorem in3 (w : Fin cfg3.W) (hw : (cfg3.win w).isOut = false) :
    W12 m ρ c (Proc.devRef .tc (Pipeline.arrRef spec3 w)) = W11 m ρ c (Proc.devRef .tc (Pipeline.arrRef spec3 w)) :=
  (W12_arr m ρ c w).trans (((dat3 (V11 m ρ) c).arrAt_in w hw _).trans (A_eq3 (V11 m ρ) c w))

end Cert.KernelIdeal.KV

end
-- ==== Proof.KPersist.lean ====
/-
  Each buffer a later segment of the tiled program reads, walked back boundary by boundary to the segment that wrote it
  (or to the launch memory, for an argument): `k_<buffer>_<n>` says what the buffer holds at boundary n.
-/
import proofs.«420537_j75831942578735_3_alg».proof.Proof.KSteps

set_option maxRecDepth 16384

noncomputable section

namespace Cert.KernelIdeal.KV

open Idealize.ShloMosaic Idealize.ShloMosaic.TcCoe Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg) (c : Dev nD)

/-! The edge list's source and destination words (read by the two edge sums). -/
theorem k_v1_6 : W6 m ρ c (Proc.devRef .tc main_v1) = W5 m ρ c (Proc.devRef .tc main_v1) :=
  W6_of_ne m ρ c main_v1 (by decide)
theorem k_v1_7 : W7 m ρ c (Proc.devRef .tc main_v1) = W5 m ρ c (Proc.devRef .tc main_v1) :=
  Eq.trans (by host_keeps hostOps1) (k_v1_6 m ρ c)
theorem k_v1_8 : W8 m ρ c (Proc.devRef .tc main_v1) = W5 m ρ c (Proc.devRef .tc main_v1) :=
  Eq.trans (W8_of_ne m ρ c main_v1 (by decide)) (k_v1_7 m ρ c)
theorem k_v1_9 : W9 m ρ c (Proc.devRef .tc main_v1) = W5 m ρ c (Proc.devRef .tc main_v1) :=
  Eq.trans (by host_keeps hostOps2) (k_v1_8 m ρ c)
theorem k_v1_10 : W10 m ρ c (Proc.devRef .tc main_v1) = W5 m ρ c (Proc.devRef .tc main_v1) :=
  Eq.trans (W10_of_ne m ρ c main_v1 (by decide)) (k_v1_9 m ρ c)
theorem k_v3_6 : W6 m ρ c (Proc.devRef .tc main_v3) = W5 m ρ c (Proc.devRef .tc main_v3) :=
  W6_of_ne m ρ c main_v3 (by decide)
theorem k_v3_7 : W7 m ρ c (Proc.devRef .tc main_v3) = W5 m ρ c (Proc.devRef .tc main_v3) :=
  Eq.trans (by host_keeps hostOps1) (k_v3_6 m ρ c)
theorem k_v3_8 : W8 m ρ c (Proc.devRef .tc main_v3) = W5 m ρ c (Proc.devRef .tc main_v3) :=
  Eq.trans (W8_of_ne m ρ c main_v3 (by decide)) (k_v3_7 m ρ c)
theorem k_v3_9 : W9 m ρ c (Proc.devRef .tc main_v3) = W5 m ρ c (Proc.devRef .tc main_v3) :=
  Eq.trans (by host_keeps hostOps2) (k_v3_8 m ρ c)
theorem k_v3_10 : W10 m ρ c (Proc.devRef .tc main_v3) = W5 m ρ c (Proc.devRef .tc main_v3) :=
  Eq.trans (W10_of_ne m ρ c main_v3 (by decide)) (k_v3_9 m ρ c)
/-! The inverse square-root degrees (an input array of every pallas_call). -/
theorem k_v14_6 : W6 m ρ c (Proc.devRef .tc main_v14) = W5 m ρ c (Proc.devRef .tc main_v14) :=
  in0 m ρ c 2 rfl
theorem k_v14_7 : W7 m ρ c (Proc.devRef .tc main_v14) = W5 m ρ c (Proc.devRef .tc main_v14) :=
  Eq.trans (by host_keeps hostOps1) (k_v14_6 m ρ c)
theorem k_v14_8 : W8 m ρ c (Proc.devRef .tc main_v14) = W5 m ρ c (Proc.devRef .tc main_v14) :=
  Eq.trans (in1 m ρ c 2 rfl) (k_v14_7 m ρ c)
theorem k_v14_9 : W9 m ρ c (Proc.devRef .tc main_v14) = W5 m ρ c (Proc.devRef .tc main_v14) :=
  Eq.trans (by host_keeps hostOps2) (k_v14_8 m ρ c)
theorem k_v14_10 : W10 m ρ c (Proc.devRef .tc main_v14) = W5 m ρ c (Proc.devRef .tc main_v14) :=
  Eq.trans (in2 m ρ c 2 rfl) (k_v14_9 m ρ c)
theorem k_v14_11 : W11 m ρ c (Proc.devRef .tc main_v14) = W5 m ρ c (Proc.devRef .tc main_v14) :=
  Eq.trans (by host_keeps hostOps3) (k_v14_10 m ρ c)
theorem k_v14_12 : W12 m ρ c (Proc.devRef .tc main_v14) = W5 m ρ c (Proc.devRef .tc main_v14) :=
  Eq.trans (in3 m ρ c 2 rfl) (k_v14_11 m ρ c)
theorem k_v14_13 : W13 m ρ c (Proc.devRef .tc main_v14) = W5 m ρ c (Proc.devRef .tc main_v14) :=
  Eq.trans (by host_keeps hostOps4) (k_v14_12 m ρ c)
/-! The counts column (read by the three host stretches that divide by it). -/
theorem k_v28_6 : W6 m ρ c (Proc.devRef .tc main_v28) = W5 m ρ c (Proc.devRef .tc main_v28) :=
  W6_of_ne m ρ c main_v28 (by decide)
theorem k_v28_7 : W7 m ρ c (Proc.devRef .tc main_v28) = W5 m ρ c (Proc.devRef .tc main_v28) :=
  Eq.trans (by host_keeps hostOps1) (k_v28_6 m ρ c)
theorem k_v28_8 : W8 m ρ c (Proc.devRef .tc main_v28) = W5 m ρ c (Proc.devRef .tc main_v28) :=
  Eq.trans (W8_of_ne m ρ c main_v28 (by decide)) (k_v28_7 m ρ c)
theorem k_v28_9 : W9 m ρ c (Proc.devRef .tc main_v28) = W5 m ρ c (Proc.devRef .tc main_v28) :=
  Eq.trans (by host_keeps hostOps2) (k_v28_8 m ρ c)
theorem k_v28_10 : W10 m ρ c (Proc.devRef .tc main_v28) = W5 m ρ c (Proc.devRef .tc main_v28) :=
  Eq.trans (W10_of_ne m ρ c main_v28 (by decide)) (k_v28_9 m ρ c)
theorem k_v28_11 : W11 m ρ c (Proc.devRef .tc main_v28) = W5 m ρ c (Proc.devRef .tc main_v28) :=
  Eq.trans (by host_keeps hostOps3) (k_v28_10 m ρ c)
theorem k_v28_12 : W12 m ρ c (Proc.devRef .tc main_v28) = W5 m ρ c (Proc.devRef .tc main_v28) :=
  Eq.trans (W12_of_ne m ρ c main_v28 (by decide)) (k_v28_11 m ρ c)
theorem k_v28_13 : W13 m ρ c (Proc.devRef .tc main_v28) = W5 m ρ c (Proc.devRef .tc main_v28) :=
  Eq.trans (by host_keeps hostOps4) (k_v28_12 m ρ c)
theorem k_v28_14 : W14 m ρ c (Proc.devRef .tc main_v28) = W5 m ρ c (Proc.devRef .tc main_v28) :=
  Eq.trans (W14_of_ne m ρ c main_v28 (by decide)) (k_v28_13 m ρ c)
/-! The graph words as a column (an input array of the last four pallas_calls). -/
theorem k_v29_6 : W6 m ρ c (Proc.devRef .tc main_v29) = W5 m ρ c (Proc.devRef .tc main_v29) :=
  W6_of_ne m ρ c main_v29 (by decide)
theorem k_v29_7 : W7 m ρ c (Proc.devRef .tc main_v29) = W5 m ρ c (Proc.devRef .tc main_v29) :=
  Eq.trans (by host_keeps hostOps1) (k_v29_6 m ρ c)
theorem k_v29_8 : W8 m ρ c (Proc.devRef .tc main_v29) = W5 m ρ c (Proc.devRef .tc main_v29) :=
  Eq.trans (in1 m ρ c 4 rfl) (k_v29_7 m ρ c)
theorem k_v29_9 : W9 m ρ c (Proc.devRef .tc main_v29) = W5 m ρ c (Proc.devRef .tc main_v29) :=
  Eq.trans (by host_keeps hostOps2) (k_v29_8 m ρ c)
theorem k_v29_10 : W10 m ρ c (Proc.devRef .tc main_v29) = W5 m ρ c (Proc.devRef .tc main_v29) :=
  Eq.trans (in2 m ρ c 4 rfl) (k_v29_9 m ρ c)
theorem k_v29_11 : W11 m ρ c (Proc.devRef .tc main_v29) = W5 m ρ c (Proc.devRef .tc main_v29) :=
  Eq.trans (by host_keeps hostOps3) (k_v29_10 m ρ c)
theorem k_v29_12 : W12 m ρ c (Proc.devRef .tc main_v29) = W5 m ρ c (Proc.devRef .tc main_v29) :=
  Eq.trans (in3 m ρ c 4 rfl) (k_v29_11 m ρ c)
theorem k_v29_13 : W13 m ρ c (Proc.devRef .tc main_v29) = W5 m ρ c (Proc.devRef .tc main_v29) :=
  Eq.trans (by host_keeps hostOps4) (k_v29_12 m ρ c)
/-! The two layers' bias, weight and shift rows. -/
theorem k_v30_6 : W6 m ρ c (Proc.devRef .tc main_v30) = W5 m ρ c (Proc.devRef .tc main_v30) :=
  W6_of_ne m ρ c main_v30 (by decide)
theorem k_v30_7 : W7 m ρ c (Proc.devRef .tc main_v30) = W5 m ρ c (Proc.devRef .tc main_v30) :=
  Eq.trans (by host_keeps hostOps1) (k_v30_6 m ρ c)
theorem k_v30_8 : W8 m ρ c (Proc.devRef .tc main_v30) = W5 m ρ c (Proc.devRef .tc main_v30) :=
  Eq.trans (in1 m ρ c 3 rfl) (k_v30_7 m ρ c)
theorem k_v30_9 : W9 m ρ c (Proc.devRef .tc main_v30) = W5 m ρ c (Proc.devRef .tc main_v30) :=
  Eq.trans (by host_keeps hostOps2) (k_v30_8 m ρ c)
theorem k_v31_6 : W6 m ρ c (Proc.devRef .tc main_v31) = W5 m ρ c (Proc.devRef .tc main_v31) :=
  W6_of_ne m ρ c main_v31 (by decide)
theorem k_v31_7 : W7 m ρ c (Proc.devRef .tc main_v31) = W5 m ρ c (Proc.devRef .tc main_v31) :=
  Eq.trans (by host_keeps hostOps1) (k_v31_6 m ρ c)
theorem k_v31_8 : W8 m ρ c (Proc.devRef .tc main_v31) = W5 m ρ c (Proc.devRef .tc main_v31) :=
  Eq.trans (W8_of_ne m ρ c main_v31 (by decide)) (k_v31_7 m ρ c)
theorem k_v31_9 : W9 m ρ c (Proc.devRef .tc main_v31) = W5 m ρ c (Proc.devRef .tc main_v31) :=
  Eq.trans (by host_keeps hostOps2) (k_v31_8 m ρ c)
theorem k_v32_6 : W6 m ρ c (Proc.devRef .tc main_v32) = W5 m ρ c (Proc.devRef .tc main_v32) :=
  W6_of_ne m ρ c main_v32 (by decide)
theorem k_v32_7 : W7 m ρ c (Proc.devRef .tc main_v32) = W5 m ρ c (Proc.devRef .tc main_v32) :=
  Eq.trans (by host_keeps hostOps1) (k_v32_6 m ρ c)
theorem k_v32_8 : W8 m ρ c (Proc.devRef .tc main_v32) = W5 m ρ c (Proc.devRef .tc main_v32) :=
  Eq.trans (W8_of_ne m ρ c main_v32 (by decide)) (k_v32_7 m ρ c)
theorem k_v32_9 : W9 m ρ c (Proc.devRef .tc main_v32) = W5 m ρ c (Proc.devRef .tc main_v32) :=
  Eq.trans (by host_keeps hostOps2) (k_v32_8 m ρ c)
theorem k_v33_6 : W6 m ρ c (Proc.devRef .tc main_v33) = W5 m ρ c (Proc.devRef .tc main_v33) :=
  W6_of_ne m ρ c main_v33 (by decide)
theorem k_v33_7 : W7 m ρ c (Proc.devRef .tc main_v33) = W5 m ρ c (Proc.devRef .tc main_v33) :=
  Eq.trans (by host_keeps hostOps1) (k_v33_6 m ρ c)
theorem k_v33_8 : W8 m ρ c (Proc.devRef .tc main_v33) = W5 m ρ c (Proc.devRef .tc main_v33) :=
  Eq.trans (W8_of_ne m ρ c main_v33 (by decide)) (k_v33_7 m ρ c)
theorem k_v33_9 : W9 m ρ c (Proc.devRef .tc main_v33) = W5 m ρ c (Proc.devRef .tc main_v33) :=
  Eq.trans (by host_keeps hostOps2) (k_v33_8 m ρ c)
theorem k_v33_10 : W10 m ρ c (Proc.devRef .tc main_v33) = W5 m ρ c (Proc.devRef .tc main_v33) :=
  Eq.trans (W10_of_ne m ρ c main_v33 (by decide)) (k_v33_9 m ρ c)
theorem k_v33_11 : W11 m ρ c (Proc.devRef .tc main_v33) = W5 m ρ c (Proc.devRef .tc main_v33) :=
  Eq.trans (by host_keeps hostOps3) (k_v33_10 m ρ c)
theorem k_v33_12 : W12 m ρ c (Proc.devRef .tc main_v33) = W5 m ρ c (Proc.devRef .tc main_v33) :=
  Eq.trans (in3 m ρ c 3 rfl) (k_v33_11 m ρ c)
theorem k_v33_13 : W13 m ρ c (Proc.devRef .tc main_v33) = W5 m ρ c (Proc.devRef .tc main_v33) :=
  Eq.trans (by host_keeps hostOps4) (k_v33_12 m ρ c)
theorem k_v34_6 : W6 m ρ c (Proc.devRef .tc main_v34) = W5 m ρ c (Proc.devRef .tc main_v34) :=
  W6_of_ne m ρ c main_v34 (by decide)
theorem k_v34_7 : W7 m ρ c (Proc.devRef .tc main_v34) = W5 m ρ c (Proc.devRef .tc main_v34) :=
  Eq.trans (by host_keeps hostOps1) (k_v34_6 m ρ c)
theorem k_v34_8 : W8 m ρ c (Proc.devRef .tc main_v34) = W5 m ρ c (Proc.devRef .tc main_v34) :=
  Eq.trans (W8_of_ne m ρ c main_v34 (by decide)) (k_v34_7 m ρ c)
theorem k_v34_9 : W9 m ρ c (Proc.devRef .tc main_v34) = W5 m ρ c (Proc.devRef .tc main_v34) :=
  Eq.trans (by host_keeps hostOps2) (k_v34_8 m ρ c)
theorem k_v34_10 : W10 m ρ c (Proc.devRef .tc main_v34) = W5 m ρ c (Proc.devRef .tc main_v34) :=
  Eq.trans (W10_of_ne m ρ c main_v34 (by decide)) (k_v34_9 m ρ c)
theorem k_v34_11 : W11 m ρ c (Proc.devRef .tc main_v34) = W5 m ρ c (Proc.devRef .tc main_v34) :=
  Eq.trans (by host_keeps hostOps3) (k_v34_10 m ρ c)
theorem k_v34_12 : W12 m ρ c (Proc.devRef .tc main_v34) = W5 m ρ c (Proc.devRef .tc main_v34) :=
  Eq.trans (W12_of_ne m ρ c main_v34 (by decide)) (k_v34_11 m ρ c)
theorem k_v34_13 : W13 m ρ c (Proc.devRef .tc main_v34) = W5 m ρ c (Proc.devRef .tc main_v34) :=
  Eq.trans (by host_keeps hostOps4) (k_v34_12 m ρ c)
theorem k_v35_6 : W6 m ρ c (Proc.devRef .tc main_v35) = W5 m ρ c (Proc.devRef .tc main_v35) :=
  W6_of_ne m ρ c main_v35 (by decide)
theorem k_v35_7 : W7 m ρ c (Proc.devRef .tc main_v35) = W5 m ρ c (Proc.devRef .tc main_v35) :=
  Eq.trans (by host_keeps hostOps1) (k_v35_6 m ρ c)
theorem k_v35_8 : W8 m ρ c (Proc.devRef .tc main_v35) = W5 m ρ c (Proc.devRef .tc main_v35) :=
  Eq.trans (W8_of_ne m ρ c main_v35 (by decide)) (k_v35_7 m ρ c)
theorem k_v35_9 : W9 m ρ c (Proc.devRef .tc main_v35) = W5 m ρ c (Proc.devRef .tc main_v35) :=
  Eq.trans (by host_keeps hostOps2) (k_v35_8 m ρ c)
theorem k_v35_10 : W10 m ρ c (Proc.devRef .tc main_v35) = W5 m ρ c (Proc.devRef .tc main_v35) :=
  Eq.trans (W10_of_ne m ρ c main_v35 (by decide)) (k_v35_9 m ρ c)
theorem k_v35_11 : W11 m ρ c (Proc.devRef .tc main_v35) = W5 m ρ c (Proc.devRef .tc main_v35) :=
  Eq.trans (by host_keeps hostOps3) (k_v35_10 m ρ c)
theorem k_v35_12 : W12 m ρ c (Proc.devRef .tc main_v35) = W5 m ρ c (Proc.devRef .tc main_v35) :=
  Eq.trans (W12_of_ne m ρ c main_v35 (by decide)) (k_v35_11 m ρ c)
theorem k_v35_13 : W13 m ρ c (Proc.devRef .tc main_v35) = W5 m ρ c (Proc.devRef .tc main_v35) :=
  Eq.trans (by host_keeps hostOps4) (k_v35_12 m ρ c)
/-! The arguments read directly: the features and first weights, the two mean scales, the second weights. -/
theorem k_arg0_1 : W1 m ρ c (Proc.devRef .tc main_arg0) = m ((c.tc : Thread nD τ).loc main_arg0) :=
  Eq.trans (by host_keeps hostOps0) rfl
theorem k_arg0_2 : W2 m ρ c (Proc.devRef .tc main_arg0) = m ((c.tc : Thread nD τ).loc main_arg0) :=
  Eq.trans (by host_keeps hostOps0_1) (k_arg0_1 m ρ c)
theorem k_arg0_3 : W3 m ρ c (Proc.devRef .tc main_arg0) = m ((c.tc : Thread nD τ).loc main_arg0) :=
  Eq.trans (by host_keeps hostOps0_2) (k_arg0_2 m ρ c)
theorem k_arg0_4 : W4 m ρ c (Proc.devRef .tc main_arg0) = m ((c.tc : Thread nD τ).loc main_arg0) :=
  Eq.trans (by host_keeps hostOps0_3) (k_arg0_3 m ρ c)
theorem k_arg0_5 : W5 m ρ c (Proc.devRef .tc main_arg0) = m ((c.tc : Thread nD τ).loc main_arg0) :=
  Eq.trans (by host_keeps hostOps0_4) (k_arg0_4 m ρ c)
theorem k_arg3_1 : W1 m ρ c (Proc.devRef .tc main_arg3) = m ((c.tc : Thread nD τ).loc main_arg3) :=
  Eq.trans (by host_keeps hostOps0) rfl
theorem k_arg3_2 : W2 m ρ c (Proc.devRef .tc main_arg3) = m ((c.tc : Thread nD τ).loc main_arg3) :=
  Eq.trans (by host_keeps hostOps0_1) (k_arg3_1 m ρ c)
theorem k_arg3_3 : W3 m ρ c (Proc.devRef .tc main_arg3) = m ((c.tc : Thread nD τ).loc main_arg3) :=
  Eq.trans (by host_keeps hostOps0_2) (k_arg3_2 m ρ c)
theorem k_arg3_4 : W4 m ρ c (Proc.devRef .tc main_arg3) = m ((c.tc : Thread nD τ).loc main_arg3) :=
  Eq.trans (by host_keeps hostOps0_3) (k_arg3_3 m ρ c)
theorem k_arg3_5 : W5 m ρ c (Proc.devRef .tc main_arg3) = m ((c.tc : Thread nD τ).loc main_arg3) :=
  Eq.trans (by host_keeps hostOps0_4) (k_arg3_4 m ρ c)
theorem k_arg5_1 : W1 m ρ c (Proc.devRef .tc main_arg5) = m ((c.tc : Thread nD τ).loc main_arg5) :=
  Eq.trans (by host_keeps hostOps0) rfl
theorem k_arg5_2 : W2 m ρ c (Proc.devRef .tc main_arg5) = m ((c.tc : Thread nD τ).loc main_arg5) :=
  Eq.trans (by host_keeps hostOps0_1) (k_arg5_1 m ρ c)
theorem k_arg5_3 : W3 m ρ c (Proc.devRef .tc main_arg5) = m ((c.tc : Thread nD τ).loc main_arg5) :=
  Eq.trans (by host_keeps hostOps0_2) (k_arg5_2 m ρ c)
theorem k_arg5_4 : W4 m ρ c (Proc.devRef .tc main_arg5) = m ((c.tc : Thread nD τ).loc main_arg5) :=
  Eq.trans (by host_keeps hostOps0_3) (k_arg5_3 m ρ c)
theorem k_arg5_5 : W5 m ρ c (Proc.devRef .tc main_arg5) = m ((c.tc : Thread nD τ).loc main_arg5) :=
  Eq.trans (by host_keeps hostOps0_4) (k_arg5_4 m ρ c)
theorem k_arg5_6 : W6 m ρ c (Proc.devRef .tc main_arg5) = m ((c.tc : Thread nD τ).loc main_arg5) :=
  Eq.trans (W6_of_ne m ρ c main_arg5 (by decide)) (k_arg5_5 m ρ c)
theorem k_arg5_7 : W7 m ρ c (Proc.devRef .tc main_arg5) = m ((c.tc : Thread nD τ).loc main_arg5) :=
  Eq.trans (by host_keeps hostOps1) (k_arg5_6 m ρ c)
theorem k_arg5_8 : W8 m ρ c (Proc.devRef .tc main_arg5) = m ((c.tc : Thread nD τ).loc main_arg5) :=
  Eq.trans (W8_of_ne m ρ c main_arg5 (by decide)) (k_arg5_7 m ρ c)
theorem k_arg8_1 : W1 m ρ c (Proc.devRef .tc main_arg8) = m ((c.tc : Thread nD τ).loc main_arg8) :=
  Eq.trans (by host_keeps hostOps0) rfl
theorem k_arg8_2 : W2 m ρ c (Proc.devRef .tc main_arg8) = m ((c.tc : Thread nD τ).loc main_arg8) :=
  Eq.trans (by host_keeps hostOps0_1) (k_arg8_1 m ρ c)
theorem k_arg8_3 : W3 m ρ c (Proc.devRef .tc main_arg8) = m ((c.tc : Thread nD τ).loc main_arg8) :=
  Eq.trans (by host_keeps hostOps0_2) (k_arg8_2 m ρ c)
theorem k_arg8_4 : W4 m ρ c (Proc.devRef .tc main_arg8) = m ((c.tc : Thread nD τ).loc main_arg8) :=
  Eq.trans (by host_keeps hostOps0_3) (k_arg8_3 m ρ c)
theorem k_arg8_5 : W5 m ρ c (Proc.devRef .tc main_arg8) = m ((c.tc : Thread nD τ).loc main_arg8) :=
  Eq.trans (by host_keeps hostOps0_4) (k_arg8_4 m ρ c)
theorem k_arg8_6 : W6 m ρ c (Proc.devRef .tc main_arg8) = m ((c.tc : Thread nD τ).loc main_arg8) :=
  Eq.trans (W6_of_ne m ρ c main_arg8 (by decide)) (k_arg8_5 m ρ c)
theorem k_arg8_7 : W7 m ρ c (Proc.devRef .tc main_arg8) = m ((c.tc : Thread nD τ).loc main_arg8) :=
  Eq.trans (by host_keeps hostOps1) (k_arg8_6 m ρ c)
theorem k_arg8_8 : W8 m ρ c (Proc.devRef .tc main_arg8) = m ((c.tc : Thread nD τ).loc main_arg8) :=
  Eq.trans (W8_of_ne m ρ c main_arg8 (by decide)) (k_arg8_7 m ρ c)
theorem k_arg8_9 : W9 m ρ c (Proc.devRef .tc main_arg8) = m ((c.tc : Thread nD τ).loc main_arg8) :=
  Eq.trans (by host_keeps hostOps2) (k_arg8_8 m ρ c)
theorem k_arg10_1 : W1 m ρ c (Proc.devRef .tc main_arg10) = m ((c.tc : Thread nD τ).loc main_arg10) :=
  Eq.trans (by host_keeps hostOps0) rfl
theorem k_arg10_2 : W2 m ρ c (Proc.devRef .tc main_arg10) = m ((c.tc : Thread nD τ).loc main_arg10) :=
  Eq.trans (by host_keeps hostOps0_1) (k_arg10_1 m ρ c)
theorem k_arg10_3 : W3 m ρ c (Proc.devRef .tc main_arg10) = m ((c.tc : Thread nD τ).loc main_arg10) :=
  Eq.trans (by host_keeps hostOps0_2) (k_arg10_2 m ρ c)
theorem k_arg10_4 : W4 m ρ c (Proc.devRef .tc main_arg10) = m ((c.tc : Thread nD τ).loc main_arg10) :=
  Eq.trans (by host_keeps hostOps0_3) (k_arg10_3 m ρ c)
theorem k_arg10_5 : W5 m ρ c (Proc.devRef .tc main_arg10) = m ((c.tc : Thread nD τ).loc main_arg10) :=
  Eq.trans (by host_keeps hostOps0_4) (k_arg10_4 m ρ c)
theorem k_arg10_6 : W6 m ρ c (Proc.devRef .tc main_arg10) = m ((c.tc : Thread nD τ).loc main_arg10) :=
  Eq.trans (W6_of_ne m ρ c main_arg10 (by decide)) (k_arg10_5 m ρ c)
theorem k_arg10_7 : W7 m ρ c (Proc.devRef .tc main_arg10) = m ((c.tc : Thread nD τ).loc main_arg10) :=
  Eq.trans (by host_keeps hostOps1) (k_arg10_6 m ρ c)
theorem k_arg10_8 : W8 m ρ c (Proc.devRef .tc main_arg10) = m ((c.tc : Thread nD τ).loc main_arg10) :=
  Eq.trans (W8_of_ne m ρ c main_arg10 (by decide)) (k_arg10_7 m ρ c)
theorem k_arg10_9 : W9 m ρ c (Proc.devRef .tc main_arg10) = m ((c.tc : Thread nD τ).loc main_arg10) :=
  Eq.trans (by host_keeps hostOps2) (k_arg10_8 m ρ c)
theorem k_arg10_10 : W10 m ρ c (Proc.devRef .tc main_arg10) = m ((c.tc : Thread nD τ).loc main_arg10) :=
  Eq.trans (W10_of_ne m ρ c main_arg10 (by decide)) (k_arg10_9 m ρ c)
theorem k_arg10_11 : W11 m ρ c (Proc.devRef .tc main_arg10) = m ((c.tc : Thread nD τ).loc main_arg10) :=
  Eq.trans (by host_keeps hostOps3) (k_arg10_10 m ρ c)
theorem k_arg10_12 : W12 m ρ c (Proc.devRef .tc main_arg10) = m ((c.tc : Thread nD τ).loc main_arg10) :=
  Eq.trans (W12_of_ne m ρ c main_arg10 (by decide)) (k_arg10_11 m ρ c)
/-! The pallas_calls' and edge sums' outputs, until their last reader. -/
theorem k_v36_0_7 : W7 m ρ c (Proc.devRef .tc main_v36_0) = W6 m ρ c (Proc.devRef .tc main_v36_0) :=
  by host_keeps hostOps1
theorem k_v36_0_8 : W8 m ρ c (Proc.devRef .tc main_v36_0) = W6 m ρ c (Proc.devRef .tc main_v36_0) :=
  Eq.trans (in1 m ρ c 1 rfl) (k_v36_0_7 m ρ c)
theorem k_v36_0_9 : W9 m ρ c (Proc.devRef .tc main_v36_0) = W6 m ρ c (Proc.devRef .tc main_v36_0) :=
  Eq.trans (by host_keeps hostOps2) (k_v36_0_8 m ρ c)
theorem k_v47_8 : W8 m ρ c (Proc.devRef .tc main_v47) = W7 m ρ c (Proc.devRef .tc main_v47) :=
  in1 m ρ c 0 rfl
theorem k_v47_9 : W9 m ρ c (Proc.devRef .tc main_v47) = W7 m ρ c (Proc.devRef .tc main_v47) :=
  Eq.trans (by host_keeps hostOps2) (k_v47_8 m ρ c)
theorem k_v72_0_11 : W11 m ρ c (Proc.devRef .tc main_v72_0) = W10 m ρ c (Proc.devRef .tc main_v72_0) :=
  by host_keeps hostOps3
theorem k_v72_0_12 : W12 m ρ c (Proc.devRef .tc main_v72_0) = W10 m ρ c (Proc.devRef .tc main_v72_0) :=
  Eq.trans (in3 m ρ c 1 rfl) (k_v72_0_11 m ρ c)
theorem k_v72_0_13 : W13 m ρ c (Proc.devRef .tc main_v72_0) = W10 m ρ c (Proc.devRef .tc main_v72_0) :=
  Eq.trans (by host_keeps hostOps4) (k_v72_0_12 m ρ c)
theorem k_v83_12 : W12 m ρ c (Proc.devRef .tc main_v83) = W11 m ρ c (Proc.devRef .tc main_v83) :=
  in3 m ρ c 0 rfl
theorem k_v83_13 : W13 m ρ c (Proc.devRef .tc main_v83) = W11 m ρ c (Proc.devRef .tc main_v83) :=
  Eq.trans (by host_keeps hostOps4) (k_v83_12 m ρ c)

end Cert.KernelIdeal.KV

end
-- ==== Proof.LibContract.lean ====
/-
  Two reads at an index over the extended reals, for matrices laid out as [rows, columns]: a matrix-unit product
  into a zero accumulator, and the host's contraction.
-/
import Idealize.ShloMosaic.PureOps.Ideal.Laws
import Idealize.ShloMosaic.Lib.ValueIdx

noncomputable section

namespace Cert.LibContract

open Idealize.ShloMosaic Idealize.ShloMosaic.ValueIdx
open scoped BigOperators

/-- The dimension numbers `[1] × [0]`, kept axes `[0]` and `[1]`, no batch axes, over any proof that they are
    well formed. -/
private abbrev lit {M K N : ℕ} (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ :=
  ⟨[1], [0], [0], [1], [], [], wf⟩

section Axes
variable {M K N : ℕ} (wf : DotDims.WF ⟨2, ![M, K]⟩ ⟨2, ![K, N]⟩ ⟨2, ![M, N]⟩ [1] [0] [0] [1] [] [])

/-- The left operand's kept axis reads the result's row. -/
private theorem lhs_0 (i : (⟨2, ![M, N]⟩ : Shape).Idx) (q : (lit wf).contr.Idx) :
    ((lit wf).lhsIdx i q 0).val = (i 0).val := by
  unfold DotDims.lhsIdx
  rw [dif_neg (show ¬(0 : Fin (⟨2, ![M, K]⟩ : Shape).rank) ∈ (lit wf).lhsBatch from List.not_mem_nil),
    dif_pos (show (0 : Fin (⟨2, ![M, K]⟩ : Shape).rank) ∈ (lit wf).lhsNonContracting from List.mem_singleton.mpr rfl)]
  rfl

/-- The left operand's contracted axis reads the contraction position. -/
private theorem lhs_1 (i : (⟨2, ![M, N]⟩ : Shape).Idx) (q : (lit wf).contr.Idx) :
    ((lit wf).lhsIdx i q 1).val = (q ⟨0, Nat.one_pos⟩).val :=
  (lit wf).lhsIdx_val_of_single rfl i q

/-- The right operand's contracted axis reads the contraction position. -/
private theorem rhs_0 (i : (⟨2, ![M, N]⟩ : Shape).Idx) (q : (lit wf).contr.Idx) :
    ((lit wf).rhsIdx i q 0).val = (q ⟨0, Nat.one_pos⟩).val :=
  (lit wf).rhsIdx_val_of_single rfl i q

/-- The right operand's kept axis reads the result's column. -/
private theorem rhs_1 (i : (⟨2, ![M, N]⟩ : Shape).Idx) (q : (lit wf).contr.Idx) :
    ((lit wf).rhsIdx i q 1).val = (i 1).val := by
  unfold DotDims.rhsIdx
  rw [dif_neg (show ¬(1 : Fin (⟨2, ![K, N]⟩ : Shape).rank) ∈ (lit wf).rhsBatch from List.not_mem_nil),
    dif_pos (show (1 : Fin (⟨2, ![K, N]⟩ : Shape).rank) ∈ (lit wf).rhsNonContracting from List.mem_singleton.mpr rfl)]
  rfl

/-- The contraction's sum over its one-axis index set is the sum over `Fin K`, the operands read at (r, k) and
    (k, j): re-index through the bijection of the one-axis index set with `Fin K`, then compare the operand
    indices axis by axis. -/
private theorem contr_lit {φ₁ φ₂ : FTy} (lhs : FVec Ideal ⟨2, ![M, K]⟩ φ₁) (rhs : FVec Ideal ⟨2, ![K, N]⟩ φ₂)
    (r : Fin M) (j : Fin N) :
    ∑ k : (lit wf).contr.Idx, lhs ((lit wf).lhsIdx (ix2 r j) k) * rhs ((lit wf).rhsIdx (ix2 r j) k)
      = ∑ k : Fin K, lhs (ix2 r k) * rhs (ix2 k j) := by
  rw [← Equiv.sum_comp (ValueIdx.contrEquiv1 (lit wf) K rfl rfl).symm]
  refine Finset.sum_congr rfl fun k _ => ?_
  have hk := ValueIdx.contrEquiv1_symm_val (lit wf) K rfl rfl k
  have el : (lit wf).lhsIdx (ix2 r j) ((ValueIdx.contrEquiv1 (lit wf) K rfl rfl).symm k) = ix2 r k :=
    funext fun a => Fin.ext (by
      match a with
      | ⟨0, _⟩ => exact lhs_0 wf _ _
      | ⟨1, _⟩ => exact (lhs_1 wf _ _).trans hk)
  have er : (lit wf).rhsIdx (ix2 r j) ((ValueIdx.contrEquiv1 (lit wf) K rfl rfl).symm k) = ix2 k j :=
    funext fun a => Fin.ext (by
      match a with
      | ⟨0, _⟩ => exact (rhs_0 wf _ _).trans hk
      | ⟨1, _⟩ => exact rhs_1 wf _ _)
  rw [el, er]

end Axes

/-- The same for any dimension numbers whose six lists are those: the record is then that literal one. -/
private theorem contr_plain {M K N : ℕ} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (lhs : FVec Ideal ⟨2, ![M, K]⟩ φ₁) (rhs : FVec Ideal ⟨2, ![K, N]⟩ φ₂) (r : Fin M) (j : Fin N) :
    ∑ k : d.contr.Idx, lhs (d.lhsIdx (ix2 r j) k) * rhs (d.rhsIdx (ix2 r j) k)
      = ∑ k : Fin K, lhs (ix2 r k) * rhs (ix2 k j) := by
  obtain ⟨lc, rc, ln, rn, lb, rb, wf⟩ := d
  simp only at hlc hrc hln hrn hlb hrb
  subst hlc hrc hln hrn hlb hrb
  exact contr_lit wf lhs rhs r j

/-- The product of an [M, K] by a [K, N] matrix (contraction of the left operand's axis 1 with the right
    operand's axis 0, no batch axes), accumulated into zeros and read at (r, j): `∑ k, lhs (r, k) · rhs (k, j)`. -/
theorem matmul_plain {M K N : ℕ} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![M, K]⟩ φ₁) (rhs : FVec Ideal ⟨2, ![K, N]⟩ φ₂)
    (r : Fin M) (j : Fin N) :
    matmul d prec lhs rhs (constant ⟨2, ![M, N]⟩ .f32 0x00000000#32) (ix2 r j)
      = ∑ k : Fin K, lhs (ix2 r k) * rhs (ix2 k j) := by
  simp only [matmul]
  rw [Ideal.matmul_constant_zero_apply]
  exact contr_plain d hlc hrc hln hrn hlb hrb lhs rhs r j

/-- The host's contraction of the same layout, read at (r, j): the same sum. -/
theorem dotGeneral_plain {M K N : ℕ} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![M, K]⟩ φ₁) (rhs : FVec Ideal ⟨2, ![K, N]⟩ φ₂)
    (r : Fin M) (j : Fin N) :
    Host.dotGeneral d prec lhs rhs (ix2 r j) = ∑ k : Fin K, lhs (ix2 r k) * rhs (ix2 k j) := by
  simp only [Host.dotGeneral]
  rw [Ideal.dotGeneral_apply]
  exact contr_plain d hlc hrc hln hrn hlb hrb lhs rhs r j

end Cert.LibContract

end
-- ==== Proof.KReg0.lean ====
/-
  The first pallas_call, whole array by whole array: tile by tile of 4000 rows it multiplies the node features by the
  weight matrix and stores the product, and the product scaled row-wise by the inverse square-root degree. Every tile is
  a restriction of one function of the whole arrays, and the tiles cover the rows.
-/
import proofs.«420537_j75831942578735_3_alg».proof.Proof.Gen.KernelIdeal.Frame
import proofs.«420537_j75831942578735_3_alg».proof.Proof.Views
import proofs.«420537_j75831942578735_3_alg».proof.Proof.LibContract
import Idealize.ShloMosaic.Lib.Pipeline.Value
import Idealize.ShloMosaic.Lib.ValueIdx
import Idealize.ShloMosaic.PureOps.Ideal.Laws

set_option maxRecDepth 16384

noncomputable section

namespace Cert.KernelIdeal.KV.Reg0

open Idealize.ShloMosaic Idealize.ShloMosaic.TcCoe Idealize.ShloMosaic.ValueIdx Idealize.SL.Sem
open Idealize.ShloMosaic.Pipeline (Dat Cfg Window)
open Cert.KernelIdeal Cert.KernelIdeal.Gen GCN
open scoped BigOperators

/-! ## One tile: the body's two results read at an index -/

theorem zero_offsets : (![0, 0] : Fin 2 → Nat) = fun _ => 0 := funext fun a => by fin_cases a <;> rfl

/-- The product of a tile of rows by the weights, read at (r, q): the row against the column. The change of
    format of the two operands is the identity on the extended reals. -/
theorem pay1_apply (x : Vec Ideal S4000x128 .f32) (w : Vec Ideal S128x64 .f32) (r : Fin 4000) (q : Fin 64) :
    (k0_pay1 (F := Ideal) x w) (ix2 r q) = ∑ k : Fin 128, x (ix2 r k) * w (ix2 k q) := by
  unfold k0_pay1
  exact Cert.LibContract.matmul_plain dot_S4000x128_S128x64_S4000x64_1_0_0_1_n_n rfl rfl rfl rfl rfl rfl none _ _ r q

/-- The scaled product read at (r, q): the product times the column's entry of row r. -/
theorem pay2_apply (x : Vec Ideal S4000x128 .f32) (w : Vec Ideal S128x64 .f32) (d : Vec Ideal S4000x1 .f32)
    (r : Fin 4000) (q : Fin 64) :
    (k0_pay2 (F := Ideal) x w d) (ix2 r q) = (∑ k : Fin 128, x (ix2 r k) * w (ix2 k q)) * d (ix2 r 0) := by
  unfold k0_pay2
  show (k0_pay1 (F := Ideal) x w) (ix2 r q)
      * (broadcastTo S4000x64 (shapeCast S4000x1 d shapeCasts_S4000x1_S4000x1) broadcasts_S4000x1_S4000x64) (ix2 r q) = _
  rw [pay1_apply, shapeCast_self]
  rw [broadcastTo_apply d broadcasts_S4000x1_S4000x64 (ix2 r q) (ix2 r 0) (fun a => by
    match a with
    | ⟨0, _⟩ => rfl
    | ⟨1, _⟩ => rfl)]

/-- What the body leaves in the first output's buffer, read at (r, q). -/
theorem out3_apply (x0 : Vec Ideal S4000x128 .f32) (x1 : Vec Ideal S128x64 .f32) (x2 : Vec Ideal S4000x1 .f32)
    (r : Fin 4000) (q : Fin 64) :
    (out0_3 (F := Ideal) x0 x1 x2) (ix2 r q) = ∑ k : Fin 128, x0 (ix2 r k) * x1 (ix2 k q) := by
  unfold out0_3
  rw [View.canon_unit_zero zero_offsets]
  simp only [View.ld_unit_zero (S := S4000x128) zero_offsets, View.ld_unit_zero (S := S128x64) zero_offsets]
  exact pay1_apply x0 x1 r q

/-- What the body leaves in the second output's buffer, read at (r, q). -/
theorem out4_apply (x0 : Vec Ideal S4000x128 .f32) (x1 : Vec Ideal S128x64 .f32) (x2 : Vec Ideal S4000x1 .f32)
    (r : Fin 4000) (q : Fin 64) :
    (out0_4 (F := Ideal) x0 x1 x2) (ix2 r q) = (∑ k : Fin 128, x0 (ix2 r k) * x1 (ix2 k q)) * x2 (ix2 r 0) := by
  unfold out0_4
  rw [View.canon_unit_zero zero_offsets]
  simp only [View.ld_unit_zero (S := S4000x128) zero_offsets, View.ld_unit_zero (S := S128x64) zero_offsets,
    View.ld_unit_zero (S := S4000x1) zero_offsets]
  exact pay2_apply x0 x1 x2 r q

/-! ## The tiles of the arrays -/

/-- The index maps over the 25 tiles: the row tile of the features, of the column and of the two outputs is the
    tile's number, every column tile is the first, the weights are one tile. -/
theorem tile_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

-- The buffer contents a region is entered with.
variable (V : (c : Dev nD) → (b : Ref sig .tc) → Buf (Elt Ideal) ((c : Thread nD τ).loc b))

/-- Tile t of the features is rows 4000·t … 4000·t + 3999 of the array. -/
theorem blk_x_apply (c : Dev nD) (t : Fin cfg0.N) (y : S4000x128.Idx) (k : S100000x128.Idx)
    (hk0 : (k 0).val = 4000 * t.val + (y 0).val) (hk1 : (k 1).val = (y 1).val) :
    (iblk0 V c 0 t : Vec Ideal S4000x128 .f32) y = (V c main_arg0 : Vec Ideal S100000x128 .f32) k := by
  obtain ⟨e0, e1, -⟩ := tile_index t
  unfold iblk0
  rw [View.read_apply]
  show V c main_arg0 _ = V c main_arg0 _
  congr 1
  funext a
  apply Fin.ext
  match a with
  | ⟨0, _⟩ => show win0_0.index t (0 : Fin 2) * 4000 + 1 * (y 0).val = (k 0).val; rw [e0, hk0]; omega
  | ⟨1, _⟩ => show win0_0.index t (1 : Fin 2) * 128 + 1 * (y 1).val = (k 1).val; rw [e1, hk1]; omega

/-- The one tile of the weights is the array. -/
theorem blk_w_apply (c : Dev nD) (t : Fin cfg0.N) (y : S128x64.Idx) :
    (iblk0 V c 1 t : Vec Ideal S128x64 .f32) y = (V c main_arg3 : Vec Ideal S128x64 .f32) y := by
  obtain ⟨-, -, e0, e1, -⟩ := tile_index t
  unfold iblk0
  rw [View.read_apply]
  show V c main_arg3 _ = V c main_arg3 _
  congr 1
  funext a
  apply Fin.ext
  match a with
  | ⟨0, _⟩ => show win0_1.index t (0 : Fin 2) * 128 + 1 * (y 0).val = (y 0).val; rw [e0]; omega
  | ⟨1, _⟩ => show win0_1.index t (1 : Fin 2) * 64 + 1 * (y 1).val = (y 1).val; rw [e1]; omega

/-- Tile t of the column is rows 4000·t … 4000·t + 3999 of the array. -/
theorem blk_d_apply (c : Dev nD) (t : Fin cfg0.N) (y : S4000x1.Idx) (k : S100000x1.Idx)
    (hk0 : (k 0).val = 4000 * t.val + (y 0).val) (hk1 : (k 1).val = (y 1).val) :
    (iblk0 V c 2 t : Vec Ideal S4000x1 .f32) y = (V c main_v14 : Vec Ideal S100000x1 .f32) k := by
  obtain ⟨-, -, -, -, e0, e1, -⟩ := tile_index t
  unfold iblk0
  rw [View.read_apply]
  show V c main_v14 _ = V c main_v14 _
  congr 1
  funext a
  apply Fin.ext
  match a with
  | ⟨0, _⟩ => show win0_2.index t (0 : Fin 2) * 4000 + 1 * (y 0).val = (k 0).val; rw [e0, hk0]; omega
  | ⟨1, _⟩ => show win0_2.index t (1 : Fin 2) * 1 + 1 * (y 1).val = (k 1).val; rw [e1, hk1]; omega

/-! ## The whole arrays -/

/-- The features times the weights, as one function of the two whole arrays. -/
def prodArr (X : Vec Ideal S100000x128 .f32) (W : Vec Ideal S128x64 .f32) : Vec Ideal S100000x64 .f32 :=
  fun i => ∑ k : Fin 128, X (ix2 (i 0) k) * W (ix2 k (i 1))

/-- The same scaled row by row by the column. -/
def scaledArr (X : Vec Ideal S100000x128 .f32) (W : Vec Ideal S128x64 .f32) (D : Vec Ideal S100000x1 .f32) :
    Vec Ideal S100000x64 .bf16 :=
  fun i => (∑ k : Fin 128, X (ix2 (i 0) k) * W (ix2 k (i 1))) * D (ix2 (i 0) 0)

theorem out3_at (x0 : Vec Ideal S4000x128 .f32) (x1 : Vec Ideal S128x64 .f32) (x2 : Vec Ideal S4000x1 .f32)
    (j : S4000x64.Idx) :
    (out0_3 (F := Ideal) x0 x1 x2) j = ∑ k : Fin 128, x0 (ix2 (j 0) k) * x1 (ix2 k (j 1)) := by
  obtain ⟨r, q, rfl⟩ : ∃ (r : Fin 4000) (q : Fin 64), j = ix2 r q := ⟨j 0, j 1, eq_ix2 j⟩
  exact out3_apply x0 x1 x2 r q

theorem out4_at (x0 : Vec Ideal S4000x128 .f32) (x1 : Vec Ideal S128x64 .f32) (x2 : Vec Ideal S4000x1 .f32)
    (j : S4000x64.Idx) :
    (out0_4 (F := Ideal) x0 x1 x2) j = (∑ k : Fin 128, x0 (ix2 (j 0) k) * x1 (ix2 k (j 1))) * x2 (ix2 (j 0) 0) := by
  obtain ⟨r, q, rfl⟩ : ∃ (r : Fin 4000) (q : Fin 64), j = ix2 r q := ⟨j 0, j 1, eq_ix2 j⟩
  exact out4_apply x0 x1 x2 r q

/-- What tile t writes back to the first output is tile t of the product. -/
theorem flushed3_eq (c : Dev nD) (t : Fin cfg0.N) :
    (dat0 V c).flushed 3 t
      = ((cfg0.win 3).blk t).view.read (Elt Ideal) (prodArr (V c main_arg0) (V c main_arg3)) := by
  show (cfg0.win 3).cut (grid0.coords t) ((dat0 V c).after 3 t) = _
  rw [after0_3]
  obtain ⟨-, -, -, -, -, -, e0, e1, -⟩ := tile_index t
  funext j
  rw [View.read_apply]
  refine (out3_at _ _ _ j).trans ?_
  unfold prodArr
  refine Finset.sum_congr rfl fun k _ => ?_
  rw [blk_x_apply V c t _ (ix2 ((((cfg0.win 3).blk t).view.emb j) 0) k) (by
      show win0_3.index t (0 : Fin 2) * 4000 + 1 * (j 0).val = 4000 * t.val + (j 0).val
      rw [e0]; omega) rfl,
    blk_w_apply V c t]
  congr 2
  refine congrArg (ix2 k) (Fin.ext ?_)
  show (j 1).val = win0_3.index t (1 : Fin 2) * 64 + 1 * (j 1).val
  rw [e1]; omega

/-- What tile t writes back to the second output is tile t of the scaled product. -/
theorem flushed4_eq (c : Dev nD) (t : Fin cfg0.N) :
    (dat0 V c).flushed 4 t
      = ((cfg0.win 4).blk t).view.read (Elt Ideal) (scaledArr (V c main_arg0) (V c main_arg3) (V c main_v14)) := by
  show (cfg0.win 4).cut (grid0.coords t) ((dat0 V c).after 4 t) = _
  rw [after0_4]
  obtain ⟨-, -, -, -, -, -, -, -, e0, e1⟩ := tile_index t
  funext j
  rw [View.read_apply]
  refine (out4_at _ _ _ j).trans ?_
  unfold scaledArr
  have hrow : ∀ q : Fin 1, (iblk0 V c 2 t : Vec Ideal S4000x1 .f32) (ix2 (j 0) q)
      = (V c main_v14 : Vec Ideal S100000x1 .f32) (ix2 ((((cfg0.win 4).blk t).view.emb j) 0) q) := fun q =>
    blk_d_apply V c t _ _ (by
      show win0_4.index t (0 : Fin 2) * 4000 + 1 * (j 0).val = 4000 * t.val + (j 0).val
      rw [e0]; omega) rfl
  rw [hrow 0]
  congr 1
  refine Finset.sum_congr rfl fun k _ => ?_
  rw [blk_x_apply V c t _ (ix2 ((((cfg0.win 4).blk t).view.emb j) 0) k) (by
      show win0_4.index t (0 : Fin 2) * 4000 + 1 * (j 0).val = 4000 * t.val + (j 0).val
      rw [e0]; omega) rfl,
    blk_w_apply V c t]
  congr 2
  refine congrArg (ix2 k) (Fin.ext ?_)
  show (j 1).val = win0_4.index t (1 : Fin 2) * 64 + 1 * (j 1).val
  rw [e1]; omega

/-! ## The tiles cover the rows -/

/-- An index of the first output is in tile t iff each coordinate is in the tile's range on its axis. -/
theorem mem_tile3 (t : Fin cfg0.N) (i : S100000x64.Idx) :
    i ∈ ((cfg0.win 3).blk t).view.set
      ↔ ∀ a : Fin 2, win0_3.index t a * S4000x64.size a ≤ (i a).val
          ∧ (i a).val < win0_3.index t a * S4000x64.size a + S4000x64.size a := by
  show i ∈ ((View.whole main_v36_0).slice (win0_3.rect t)).set ↔ _
  rw [View.set_slice_whole, Rect.mem_set_unit]
  exact Iff.rfl

theorem mem_tile4 (t : Fin cfg0.N) (i : S100000x64.Idx) :
    i ∈ ((cfg0.win 4).blk t).view.set
      ↔ ∀ a : Fin 2, win0_4.index t a * S4000x64.size a ≤ (i a).val
          ∧ (i a).val < win0_4.index t a * S4000x64.size a + S4000x64.size a := by
  show i ∈ ((View.whole main_v36_1).slice (win0_4.rect t)).set ↔ _
  rw [View.set_slice_whole, Rect.mem_set_unit]
  exact Iff.rfl

/-- Row r is in tile r / 4000. -/
theorem cover3 (i : S100000x64.Idx) :
    ∃ t : Fin cfg0.N, (cfg0.win 3).flush t = true ∧ i ∈ ((cfg0.win 3).blk t).view.set := by
  have hN : cfg0.N = 25 := N_0
  have hi0 : (i 0).val < 100000 := (i 0).isLt
  have hi1 : (i 1).val < 64 := (i 1).isLt
  obtain ⟨t, ht⟩ : ∃ t : Fin cfg0.N, t.val = (i 0).val / 4000 := ⟨⟨(i 0).val / 4000, by omega⟩, rfl⟩
  obtain ⟨-, -, -, -, -, -, e0, e1, -⟩ := tile_index t
  refine ⟨t, flush0_3 t, ?_⟩
  rw [mem_tile3]
  intro a
  match a with
  | ⟨0, _⟩ =>
    show win0_3.index t (0 : Fin 2) * 4000 ≤ (i 0).val ∧ (i 0).val < win0_3.index t (0 : Fin 2) * 4000 + 4000
    rw [e0, ht]; omega
  | ⟨1, _⟩ =>
    show win0_3.index t (1 : Fin 2) * 64 ≤ (i 1).val ∧ (i 1).val < win0_3.index t (1 : Fin 2) * 64 + 64
    rw [e1]; omega

theorem cover4 (i : S100000x64.Idx) :
    ∃ t : Fin cfg0.N, (cfg0.win 4).flush t = true ∧ i ∈ ((cfg0.win 4).blk t).view.set := by
  have hN : cfg0.N = 25 := N_0
  have hi0 : (i 0).val < 100000 := (i 0).isLt
  have hi1 : (i 1).val < 64 := (i 1).isLt
  obtain ⟨t, ht⟩ : ∃ t : Fin cfg0.N, t.val = (i 0).val / 4000 := ⟨⟨(i 0).val / 4000, by omega⟩, rfl⟩
  obtain ⟨-, -, -, -, -, -, -, -, e0, e1⟩ := tile_index t
  refine ⟨t, flush0_4 t, ?_⟩
  rw [mem_tile4]
  intro a
  match a with
  | ⟨0, _⟩ =>
    show win0_4.index t (0 : Fin 2) * 4000 ≤ (i 0).val ∧ (i 0).val < win0_4.index t (0 : Fin 2) * 4000 + 4000
    rw [e0, ht]; omega
  | ⟨1, _⟩ =>
    show win0_4.index t (1 : Fin 2) * 64 ≤ (i 1).val ∧ (i 1).val < win0_4.index t (1 : Fin 2) * 64 + 64
    rw [e1]; omega

/-! ## The two arrays after the region -/

theorem final3 (c : Dev nD) : (dat0 V c).arrAt 3 cfg0.N = prodArr (V c main_arg0) (V c main_arg3) :=
  (dat0 V c).arrAt_eq_of_cover 3 (prodArr (V c main_arg0) (V c main_arg3)) (fun t _ => flushed3_eq V c t) cover3

theorem final4 (c : Dev nD) :
    (dat0 V c).arrAt 4 cfg0.N = scaledArr (V c main_arg0) (V c main_arg3) (V c main_v14) :=
  (dat0 V c).arrAt_eq_of_cover 4 (scaledArr (V c main_arg0) (V c main_arg3) (V c main_v14))
    (fun t _ => flushed4_eq V c t) cover4

end Cert.KernelIdeal.KV.Reg0

namespace Cert.KernelIdeal.KV

open Idealize.ShloMosaic Idealize.ShloMosaic.TcCoe Idealize.ShloMosaic.ValueIdx Idealize.SL.Sem
open Idealize.ShloMosaic.Pipeline (Dat Cfg Window)
open Cert.KernelIdeal Cert.KernelIdeal.Gen GCN

-- The buffer contents a region is entered with.
variable (V : (c : Dev nD) → (b : Ref sig .tc) → Buf (Elt Ideal) ((c : Thread nD τ).loc b))

/-- The first output is the feature product, entry by entry. -/
theorem reg0_feat (c : Dev nD) (i : Fin 100000) (j : Fin 64) :
    ((dat0 V c).arrAt 3 cfg0.N : Vec Ideal S100000x64 .f32) (ix2 i j)
      = feat (tab2 (V c main_arg0 : Vec Ideal S100000x128 .f32)) (tab2 (V c main_arg3 : Vec Ideal S128x64 .f32)) i j := by
  rw [Reg0.final3 V c]
  rfl

/-- The second output is the feature product scaled by the column's entry of its row. -/
theorem reg0_feats (c : Dev nD) (i : Fin 100000) (j : Fin 64) :
    ((dat0 V c).arrAt 4 cfg0.N : Vec Ideal S100000x64 .bf16) (ix2 i j)
      = feat (tab2 (V c main_arg0 : Vec Ideal S100000x128 .f32)) (tab2 (V c main_arg3 : Vec Ideal S128x64 .f32)) i j
        * colv (V c main_v14 : Vec Ideal S100000x1 .f32) i := by
  rw [Reg0.final4 V c]
  rfl

end Cert.KernelIdeal.KV

end
-- ==== Proof.LibOneHot.lean ====
/-
  The one-hot tile of a column of graph words, and the product that contracts the rows of two matrices.

  A column of R integer words, broadcast along 128 lanes and compared for equality with the lane number, widened
  and converted to a float, is at (r, g) the number 1 where word r is the number g and 0 elsewhere: the table
  `GCN.oh`. A matrix product that contracts axis 0 of both operands into zeros is, at (g, f), the sum over the
  rows r of lhs (r, g) · rhs (r, f).
-/
import Idealize.ShloMosaic.PureOps
import Idealize.ShloMosaic.PureOps.Ideal.Laws
import Idealize.ShloMosaic.Lib.ValueIdx
import Idealize.ShloMosaic.Lib.Pipeline.Value
import Idealize.ShloMosaic.Lib.ValueLayout
import proofs.«420537_j75831942578735_3_alg».proof.Proof.MSpec

noncomputable section

namespace GCN.Ops

open Idealize.ShloMosaic Idealize.ShloMosaic.ValueIdx
open scoped BigOperators

/-! ### The one-hot tile -/

/-- A one-column array broadcast along b lanes reads, at (p, c), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A truth value as a one-bit word, widened to 32 bits and converted to a float, is the number 1 or 0. -/
theorem sitofp_setWidth_ofBool (b : Bool) :
    (FloatOps.sitofp (F := Ideal) .f32 ((BitVec.ofBool b).setWidth 32) : EReal) = if b then 1 else 0 := by
  cases b
  · have h : ((BitVec.ofBool false).setWidth 32 : BitVec 32).toInt = 0 := by decide
    show ((((BitVec.ofBool false).setWidth 32 : BitVec 32).toInt : ℝ) : EReal) = 0
    rw [h, Int.cast_zero, EReal.coe_zero]
  · have h : ((BitVec.ofBool true).setWidth 32 : BitVec 32).toInt = 1 := by decide
    show ((((BitVec.ofBool true).setWidth 32 : BitVec 32).toInt : ℝ) : EReal) = 1
    rw [h, Int.cast_one, EReal.coe_one]

/-- Two words compared for equality, the bit widened and converted: 1 where they are equal, 0 elsewhere. -/
theorem sitofp_extui_cmpi_eq (x y : BitVec 32) :
    (FloatOps.sitofp (F := Ideal) .f32 ((IntOp.cmpi .eq x y).setWidth 32) : EReal) = if x = y then 1 else 0 := by
  show (FloatOps.sitofp (F := Ideal) .f32 ((BitVec.ofBool (x == y)).setWidth 32) : EReal) = _
  rw [sitofp_setWidth_ofBool]
  by_cases h : x = y
  · rw [if_pos h, if_pos (beq_iff_eq.mpr h)]
  · rw [if_neg h, if_neg (fun hb => h (beq_iff_eq.mp hb))]

/-- THE ONE-HOT TILE. A column `v` of R words, broadcast along 128 lanes, compared for equality with the lane
    number, the bit widened to a word and converted to a float: at (r, g) it is 1 where word r is the number g
    and 0 elsewhere, the entry `GCN.oh (v (r, 0)) g` of the one-hot table. -/
theorem onehot_tile_apply {R : ℕ} (v : IVec ⟨2, ![R, 1]⟩ 32)
    (hsc : (⟨2, ![R, 1]⟩ : Shape).ShapeCasts ⟨2, ![R, 1]⟩)
    (hbc : (⟨2, ![R, 1]⟩ : Shape).Broadcasts ⟨2, ![R, 128]⟩)
    (hio : (⟨2, ![R, 128]⟩ : Shape).Iotas .tc 32 [1])
    (hlt : 1 < 32) (r : Fin R) (g : Fin 128) :
    (sitofp .f32 (extui 32 (cmpi .eq (broadcastTo ⟨2, ![R, 128]⟩ (shapeCast ⟨2, ![R, 1]⟩ v hsc) hbc)
        (iota .tc ⟨2, ![R, 128]⟩ 32 [1] hio)) hlt) : FVec Ideal ⟨2, ![R, 128]⟩ .f32) (ix2 r g)
      = GCN.oh (v (ix2 r (0 : Fin 1))) g.val := by
  rw [sitofp_apply, extui_apply]
  show (FloatOps.sitofp (F := Ideal) .f32
      ((IntOp.cmpi .eq (broadcastTo ⟨2, ![R, 128]⟩ (shapeCast ⟨2, ![R, 1]⟩ v hsc) hbc (ix2 r g))
        (iota .tc ⟨2, ![R, 128]⟩ 32 [1] hio (ix2 r g))).setWidth 32) : EReal) = _
  rw [sitofp_extui_cmpi_eq, broadcastTo_a1_ab_apply, shapeCast_self, iota_single_apply]
  rfl

/-! ### The product that contracts the rows of both operands -/

/-- The dimension numbers `[0] × [0]`, kept axes `[1]` and `[1]`, no batch axes, over any proof that they are
    well formed. -/
private abbrev litT {K M N : ℕ} (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ :=
  ⟨[0], [0], [1], [1], [], [], wf⟩

section Axes
variable {K M N : ℕ} (wf : DotDims.WF ⟨2, ![K, M]⟩ ⟨2, ![K, N]⟩ ⟨2, ![M, N]⟩ [0] [0] [1] [1] [] [])

/-- The left operand's contracted axis reads the contraction position. -/
private theorem lhsT_0 (i : (⟨2, ![M, N]⟩ : Shape).Idx) (q : (litT wf).contr.Idx) :
    ((litT wf).lhsIdx i q 0).val = (q ⟨0, Nat.one_pos⟩).val :=
  (litT wf).lhsIdx_val_of_single rfl i q

/-- The left operand's kept axis reads the result's row. -/
private theorem lhsT_1 (i : (⟨2, ![M, N]⟩ : Shape).Idx) (q : (litT wf).contr.Idx) :
    ((litT wf).lhsIdx i q 1).val = (i 0).val := by
  unfold DotDims.lhsIdx
  rw [dif_neg (show ¬(1 : Fin (⟨2, ![K, M]⟩ : Shape).rank) ∈ (litT wf).lhsBatch from List.not_mem_nil),
    dif_pos (show (1 : Fin (⟨2, ![K, M]⟩ : Shape).rank) ∈ (litT wf).lhsNonContracting from List.mem_singleton.mpr rfl)]
  rfl

/-- The right operand's contracted axis reads the contraction position. -/
private theorem rhsT_0 (i : (⟨2, ![M, N]⟩ : Shape).Idx) (q : (litT wf).contr.Idx) :
    ((litT wf).rhsIdx i q 0).val = (q ⟨0, Nat.one_pos⟩).val :=
  (litT wf).rhsIdx_val_of_single rfl i q

/-- The right operand's kept axis reads the result's column. -/
private theorem rhsT_1 (i : (⟨2, ![M, N]⟩ : Shape).Idx) (q : (litT wf).contr.Idx) :
    ((litT wf).rhsIdx i q 1).val = (i 1).val := by
  unfold DotDims.rhsIdx
  rw [dif_neg (show ¬(1 : Fin (⟨2, ![K, N]⟩ : Shape).rank) ∈ (litT wf).rhsBatch from List.not_mem_nil),
    dif_pos (show (1 : Fin (⟨2, ![K, N]⟩ : Shape).rank) ∈ (litT wf).rhsNonContracting from List.mem_singleton.mpr rfl)]
  rfl

/-- The contraction's sum over its one-axis index set is the sum over `Fin K`, the operands read at (k, g) and
    (k, f): re-index through the bijection of the one-axis index set with `Fin K`, then compare the operand
    indices axis by axis. -/
private theorem contr_litT {φ₁ φ₂ : FTy} (lhs : FVec Ideal ⟨2, ![K, M]⟩ φ₁) (rhs : FVec Ideal ⟨2, ![K, N]⟩ φ₂)
    (g : Fin M) (f : Fin N) :
    ∑ k : (litT wf).contr.Idx, lhs ((litT wf).lhsIdx (ix2 g f) k) * rhs ((litT wf).rhsIdx (ix2 g f) k)
      = ∑ k : Fin K, lhs (ix2 k g) * rhs (ix2 k f) := by
  rw [← Equiv.sum_comp (ValueIdx.contrEquiv1 (litT wf) K rfl rfl).symm]
  refine Finset.sum_congr rfl fun k _ => ?_
  have hk := ValueIdx.contrEquiv1_symm_val (litT wf) K rfl rfl k
  have el : (litT wf).lhsIdx (ix2 g f) ((ValueIdx.contrEquiv1 (litT wf) K rfl rfl).symm k) = ix2 k g :=
    funext fun a => Fin.ext (by
      match a with
      | ⟨0, _⟩ => exact (lhsT_0 wf _ _).trans hk
      | ⟨1, _⟩ => exact lhsT_1 wf _ _)
  have er : (litT wf).rhsIdx (ix2 g f) ((ValueIdx.contrEquiv1 (litT wf) K rfl rfl).symm k) = ix2 k f :=
    funext fun a => Fin.ext (by
      match a with
      | ⟨0, _⟩ => exact (rhsT_0 wf _ _).trans hk
      | ⟨1, _⟩ => exact rhsT_1 wf _ _)
  rw [el, er]

end Axes

/-- The same for any dimension numbers whose six lists are those: the record is then that literal one. -/
private theorem contr_rows {K M N : ℕ} {φ₁ φ₂ : FTy} (d : DotDims ⟨2, ![K, M]⟩ ⟨2, ![K, N]⟩ ⟨2, ![M, N]⟩)
    (hlc : d.lhsContracting = [0]) (hrc : d.rhsContracting = [0]) (hln : d.lhsNonContracting = [1])
    (hrn : d.rhsNonContracting = [1]) (hlb : d.lhsBatch = []) (hrb : d.rhsBatch = [])
    (lhs : FVec Ideal ⟨2, ![K, M]⟩ φ₁) (rhs : FVec Ideal ⟨2, ![K, N]⟩ φ₂) (g : Fin M) (f : Fin N) :
    ∑ k : d.contr.Idx, lhs (d.lhsIdx (ix2 g f) k) * rhs (d.rhsIdx (ix2 g f) k)
      = ∑ k : Fin K, lhs (ix2 k g) * rhs (ix2 k f) := by
  obtain ⟨lc, rc, ln, rn, lb, rb, wf⟩ := d
  simp only at hlc hrc hln hrn hlb hrb
  subst hlc hrc hln hrn hlb hrb
  exact contr_litT wf lhs rhs g f

/-- THE ROW-CONTRACTING PRODUCT. A [K, M] by a [K, N] matrix, axis 0 of both contracted, no batch axes,
    accumulated into zeros and read at (g, f): `∑ r, lhs (r, g) · rhs (r, f)`. -/
theorem matmul_rows {K M N : ℕ} {φ₁ φ₂ : FTy} (d : DotDims ⟨2, ![K, M]⟩ ⟨2, ![K, N]⟩ ⟨2, ![M, N]⟩)
    (hlc : d.lhsContracting = [0]) (hrc : d.rhsContracting = [0]) (hln : d.lhsNonContracting = [1])
    (hrn : d.rhsNonContracting = [1]) (hlb : d.lhsBatch = []) (hrb : d.rhsBatch = [])
    (prec : Option ContractPrecision) (lhs : FVec Ideal ⟨2, ![K, M]⟩ φ₁) (rhs : FVec Ideal ⟨2, ![K, N]⟩ φ₂)
    (g : Fin M) (f : Fin N) :
    matmul d prec lhs rhs (constant ⟨2, ![M, N]⟩ .f32 0x00000000#32) (ix2 g f)
      = ∑ r : Fin K, lhs (ix2 r g) * rhs (ix2 r f) := by
  simp only [matmul]
  rw [Ideal.matmul_constant_zero_apply]
  exact contr_rows d hlc hrc hln hrn hlb hrb lhs rhs g f

end GCN.Ops

end
-- ==== Proof.KReg1.lean ====
/-
  The second pallas_call: over a grid of two halves by ten tiles of 5000 rows it forms the convolution's output row
  by row, and accumulates into each half's block the one-hot product's per-graph sums of it and of its square. The
  block is reset at a half's first tile and carried over the other nine, so after a half's last tile it holds the sum
  over the half's ten tiles.
-/
import proofs.«420537_j75831942578735_3_alg».proof.Proof.Gen.KernelIdeal.Frame
import proofs.«420537_j75831942578735_3_alg».proof.Proof.Views
import proofs.«420537_j75831942578735_3_alg».proof.Proof.LibOneHot
import Idealize.ShloMosaic.Lib.Pipeline.Value
import Idealize.ShloMosaic.Lib.ValueLayout
import Idealize.ShloMosaic.PureOps.Ideal.Laws

set_option maxRecDepth 16384

noncomputable section

namespace Cert.KernelIdeal.KV

open Idealize.ShloMosaic Idealize.ShloMosaic.TcCoe Idealize.ShloMosaic.ValueIdx Idealize.SL.Sem
open Idealize.ShloMosaic.Pipeline (Dat Cfg Window)
open Cert.KernelIdeal Cert.KernelIdeal.Gen GCN
open scoped BigOperators

namespace Reg1

/-! ## What each case leaves in the two blocks, as the payloads of the point's blocks -/

section Pieces
variable {F : FTy → Type} [FloatOps F]

private theorem zeros2 : (![0, 0] : Fin 2 → Nat) = fun _ => 0 := funext fun a => by fin_cases a <;> rfl
private theorem zeros3 : (![0, 0, 0] : Fin 3 → Nat) = fun _ => 0 := funext fun a => by fin_cases a <;> rfl

/-- At a half's first tile the block of sums is reset and the tile's product added to the zeros. -/
theorem piece1_A_5 (c : Dev nD) (i : grid1.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S1x64 .f32) (harg5 : arg5.IsWhole) (arg6 : Memref sig .tc .vmem S5000x1 .i32) (harg6 : arg6.IsWhole) (arg7 : Memref sig .tc .vmem S1x128x64 .f32) (harg7 : arg7.IsWhole) (arg8 : Memref sig .tc .vmem S1x128x64 .f32) (harg8 : arg8.IsWhole) (hc0 : cond1_0 i)
    (x0 : Vec F S5000x64 .f32) (x1 : Vec F S5000x64 .f32) (x2 : Vec F S5000x1 .f32) (x3 : Vec F S1x64 .f32) (x4 : Vec F S5000x1 .i32) :
    out1_A_5 c i arg2 harg2 arg3 harg3 arg4 harg4 arg5 harg5 arg6 harg6 arg7 harg7 arg8 harg8 hc0 x0 x1 x2 x3 x4
      = k1_pay7 x2 x0 x1 x3 x4 (k1_pay2 (F := F)) := by
  unfold out1_A_5
  rw [View.read_writes_eq_canon _ _ _ (cover1_A_5 c i arg2 harg2 arg3 harg3 arg4 harg4 arg5 harg5 arg6 harg6 arg7 harg7 arg8 harg8 hc0 x0 x1 x2 x3 x4)]
  unfold kernelRun1_A
  dsimp only
  sl_unfold_words
  rw [View.canon_cons_unit_zero (S := S1x128x64) zeros3, View.readCov_unit_zero (S := S1x128x64) _ zeros3]
  simp only [View.readAt_eq_ld, harg2.read_unread, harg3.read_unread, harg4.read_unread, harg5.read_unread, harg6.read_unread,
    View.ld_unit_zero (S := S5000x64) zeros2, View.ld_unit_zero (S := S5000x1) zeros2, View.ld_unit_zero (S := S1x64) zeros2]

/-- The same for the block of sums of squares. -/
theorem piece1_A_6 (c : Dev nD) (i : grid1.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S1x64 .f32) (harg5 : arg5.IsWhole) (arg6 : Memref sig .tc .vmem S5000x1 .i32) (harg6 : arg6.IsWhole) (arg7 : Memref sig .tc .vmem S1x128x64 .f32) (harg7 : arg7.IsWhole) (arg8 : Memref sig .tc .vmem S1x128x64 .f32) (harg8 : arg8.IsWhole) (hc0 : cond1_0 i)
    (x0 : Vec F S5000x64 .f32) (x1 : Vec F S5000x64 .f32) (x2 : Vec F S5000x1 .f32) (x3 : Vec F S1x64 .f32) (x4 : Vec F S5000x1 .i32) :
    out1_A_6 c i arg2 harg2 arg3 harg3 arg4 harg4 arg5 harg5 arg6 harg6 arg7 harg7 arg8 harg8 hc0 x0 x1 x2 x3 x4
      = k1_pay1 (k1_pay6 x2 x0 x1 x3 x4) (k1_pay3 (F := F)) := by
  unfold out1_A_6
  rw [View.read_writes_eq_canon _ _ _ (cover1_A_6 c i arg2 harg2 arg3 harg3 arg4 harg4 arg5 harg5 arg6 harg6 arg7 harg7 arg8 harg8 hc0 x0 x1 x2 x3 x4)]
  unfold kernelRun1_A
  dsimp only
  sl_unfold_words
  rw [View.canon_cons_unit_zero (S := S1x128x64) zeros3, View.readCov_unit_zero (S := S1x128x64) _ zeros3]
  simp only [View.readAt_eq_ld, harg2.read_unread, harg3.read_unread, harg4.read_unread, harg5.read_unread, harg6.read_unread,
    View.ld_unit_zero (S := S5000x64) zeros2, View.ld_unit_zero (S := S5000x1) zeros2, View.ld_unit_zero (S := S1x64) zeros2]

/-- At every other tile the tile's product is added to what the block holds. -/
theorem piece1_B_5 (c : Dev nD) (i : grid1.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S1x64 .f32) (harg5 : arg5.IsWhole) (arg6 : Memref sig .tc .vmem S5000x1 .i32) (harg6 : arg6.IsWhole) (arg7 : Memref sig .tc .vmem S1x128x64 .f32) (harg7 : arg7.IsWhole) (arg8 : Memref sig .tc .vmem S1x128x64 .f32) (harg8 : arg8.IsWhole) (hc0 : ¬cond1_0 i)
    (x0 : Vec F S5000x64 .f32) (x1 : Vec F S5000x64 .f32) (x2 : Vec F S5000x1 .f32) (x3 : Vec F S1x64 .f32) (x4 : Vec F S5000x1 .i32) (xo5 : Vec F S1x128x64 .f32) (xo6 : Vec F S1x128x64 .f32) :
    out1_B_5 c i arg2 harg2 arg3 harg3 arg4 harg4 arg5 harg5 arg6 harg6 arg7 harg7 arg8 harg8 hc0 x0 x1 x2 x3 x4 xo5 xo6
      = k1_pay7 x2 x0 x1 x3 x4 xo5 := by
  unfold out1_B_5
  rw [View.read_writes_eq_canon _ _ _ (cover1_B_5 c i arg2 harg2 arg3 harg3 arg4 harg4 arg5 harg5 arg6 harg6 arg7 harg7 arg8 harg8 hc0 x0 x1 x2 x3 x4 xo5 xo6)]
  unfold kernelRun1_B
  dsimp only
  sl_unfold_words
  rw [View.canon_unit_zero zeros3]
  simp only [View.readAt_eq_ld, harg2.read_unread, harg3.read_unread, harg4.read_unread, harg5.read_unread, harg6.read_unread,
    harg7.read_unread, harg8.read_unread,
    View.ld_unit_zero (S := S5000x64) zeros2, View.ld_unit_zero (S := S5000x1) zeros2, View.ld_unit_zero (S := S1x64) zeros2,
    View.ld_unit_zero (S := S1x128x64) zeros3]

/-- The same for the block of sums of squares. -/
theorem piece1_B_6 (c : Dev nD) (i : grid1.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S1x64 .f32) (harg5 : arg5.IsWhole) (arg6 : Memref sig .tc .vmem S5000x1 .i32) (harg6 : arg6.IsWhole) (arg7 : Memref sig .tc .vmem S1x128x64 .f32) (harg7 : arg7.IsWhole) (arg8 : Memref sig .tc .vmem S1x128x64 .f32) (harg8 : arg8.IsWhole) (hc0 : ¬cond1_0 i)
    (x0 : Vec F S5000x64 .f32) (x1 : Vec F S5000x64 .f32) (x2 : Vec F S5000x1 .f32) (x3 : Vec F S1x64 .f32) (x4 : Vec F S5000x1 .i32) (xo5 : Vec F S1x128x64 .f32) (xo6 : Vec F S1x128x64 .f32) :
    out1_B_6 c i arg2 harg2 arg3 harg3 arg4 harg4 arg5 harg5 arg6 harg6 arg7 harg7 arg8 harg8 hc0 x0 x1 x2 x3 x4 xo5 xo6
      = k1_pay1 (k1_pay6 x2 x0 x1 x3 x4) xo6 := by
  unfold out1_B_6
  rw [View.read_writes_eq_canon _ _ _ (cover1_B_6 c i arg2 harg2 arg3 harg3 arg4 harg4 arg5 harg5 arg6 harg6 arg7 harg7 arg8 harg8 hc0 x0 x1 x2 x3 x4 xo5 xo6)]
  unfold kernelRun1_B
  dsimp only
  sl_unfold_words
  rw [View.canon_unit_zero zeros3]
  simp only [View.readAt_eq_ld, harg2.read_unread, harg3.read_unread, harg4.read_unread, harg5.read_unread, harg6.read_unread,
    harg7.read_unread, harg8.read_unread,
    View.ld_unit_zero (S := S5000x64) zeros2, View.ld_unit_zero (S := S5000x1) zeros2, View.ld_unit_zero (S := S1x64) zeros2,
    View.ld_unit_zero (S := S1x128x64) zeros3]

end Pieces

/-! ## The payloads read at an index, over the extended reals -/

section Payloads

/-- The one-hot tile: at (r, g) it is 1 where the graph word of row r is the number g, 0 elsewhere. -/
theorem pay1_5_apply (w : Vec Ideal S5000x1 .i32) (r : Fin 5000) (g : Fin 128) :
    (k1_pay5 w : FVec Ideal S5000x128 .f32) (ix2 r g) = oh (w (ix2 r 0)) g.val := by
  unfold k1_pay5
  exact GCN.Ops.onehot_tile_apply (R := 5000) w shapeCasts_S5000x1_S5000x1 broadcasts_S5000x1_S5000x128
    iota_S5000x128_d1_w32 natLt_1_32 r g

/-- The product contracting the 5000 rows of both operands, into zeros: at (g, f) the sum over the rows. -/
private theorem matmul1_apply (lhs : FVec Ideal S5000x128 .f32) (rhs : FVec Ideal S5000x64 .f32) (g : Fin 128) (f : Fin 64) :
    matmul dot_S5000x128_S5000x64_S128x64_0_0_1_1_n_n (some .fp32) lhs rhs (constant S128x64 .f32 0x00000000#32) (ix2 g f)
      = ∑ r : Fin 5000, lhs (ix2 r g) * rhs (ix2 r f) :=
  GCN.Ops.matmul_rows dot_S5000x128_S5000x64_S128x64_0_0_1_1_n_n rfl rfl rfl rfl rfl rfl (some .fp32) lhs rhs g f

/-- The convolution's output tile: the aggregate rescaled, the self loop, the bias. -/
theorem pay1_4_apply (d : Vec Ideal S5000x1 .f32) (a ft : Vec Ideal S5000x64 .f32) (b : Vec Ideal S1x64 .f32)
    (r : Fin 5000) (f : Fin 64) :
    (k1_pay4 d a ft b : FVec Ideal S5000x64 .f32) (ix2 r f)
      = (d (ix2 r 0) * a (ix2 r f) + (d (ix2 r 0) * d (ix2 r 0)) * ft (ix2 r f)) + b (ix2 0 f) := by
  unfold k1_pay4
  simp only [shapeCast_self]
  rw [addf_apply, addf_apply, mulf_apply, mulf_apply, GCN.Ops.broadcastTo_a1_ab_apply, GCN.Ops.broadcastTo_a1_ab_apply,
    broadcastTo_1b_ab_apply, mulf_apply]

/-- The reset block is zero everywhere. -/
theorem pay1_2_apply (j : S1x128x64.Idx) : (k1_pay2 (F := Ideal)) j = 0 := by
  unfold k1_pay2
  obtain ⟨u, g, f, rfl⟩ : ∃ (u : Fin 1) (g : Fin 128) (f : Fin 64), j = ix3 u g f := ⟨j 0, j 1, j 2, eq_ix3 j⟩
  rw [shapeCast_ab_1ab_apply]
  exact Ideal.ofBits_zero_f32
theorem pay1_3_apply (j : S1x128x64.Idx) : (k1_pay3 (F := Ideal)) j = 0 := by
  unfold k1_pay3
  obtain ⟨u, g, f, rfl⟩ : ∃ (u : Fin 1) (g : Fin 128) (f : Fin 64), j = ix3 u g f := ⟨j 0, j 1, j 2, eq_ix3 j⟩
  rw [shapeCast_ab_1ab_apply]
  exact Ideal.ofBits_zero_f32

/-- The accumulation of the sums: what the block held plus the one-hot product of the tile. -/
theorem pay1_7_apply (d : Vec Ideal S5000x1 .f32) (a ft : Vec Ideal S5000x64 .f32) (b : Vec Ideal S1x64 .f32)
    (w : Vec Ideal S5000x1 .i32) (acc : Vec Ideal S1x128x64 .f32) (g : Fin 128) (f : Fin 64) :
    (k1_pay7 d a ft b w acc : FVec Ideal S1x128x64 .f32) (ix3 0 g f)
      = acc (ix3 0 g f) + ∑ r : Fin 5000, oh (w (ix2 r 0)) g
          * ((d (ix2 r 0) * a (ix2 r f) + (d (ix2 r 0) * d (ix2 r 0)) * ft (ix2 r f)) + b (ix2 0 f)) := by
  unfold k1_pay7
  rw [shapeCast_ab_1ab_apply, addf_apply, shapeCast_1ab_ab_apply, matmul1_apply]
  exact congrArg (acc (ix3 0 g f) + ·) (Finset.sum_congr rfl fun r _ => by rw [pay1_5_apply, pay1_4_apply])

/-- The accumulation of the sums of squares. -/
theorem pay1_1_apply (d : Vec Ideal S5000x1 .f32) (a ft : Vec Ideal S5000x64 .f32) (b : Vec Ideal S1x64 .f32)
    (w : Vec Ideal S5000x1 .i32) (acc : Vec Ideal S1x128x64 .f32) (g : Fin 128) (f : Fin 64) :
    (k1_pay1 (k1_pay6 d a ft b w) acc : FVec Ideal S1x128x64 .f32) (ix3 0 g f)
      = acc (ix3 0 g f) + ∑ r : Fin 5000, oh (w (ix2 r 0)) g
          * (((d (ix2 r 0) * a (ix2 r f) + (d (ix2 r 0) * d (ix2 r 0)) * ft (ix2 r f)) + b (ix2 0 f))
            * ((d (ix2 r 0) * a (ix2 r f) + (d (ix2 r 0) * d (ix2 r 0)) * ft (ix2 r f)) + b (ix2 0 f))) := by
  unfold k1_pay1 k1_pay6
  dsimp only
  rw [shapeCast_ab_1ab_apply, addf_apply, shapeCast_1ab_ab_apply, matmul1_apply]
  exact congrArg (acc (ix3 0 g f) + ·) (Finset.sum_congr rfl fun r _ => by rw [pay1_5_apply, mulf_apply, pay1_4_apply])

end Payloads

/-! ## The run over the twenty points -/

section Run

-- The buffer contents a region is entered with.
variable (V : (c : Dev nD) → (b : Ref sig .tc) → Buf (Elt Ideal) ((c : Thread nD τ).loc b))

/-- The arrays the region reads, as it finds them. -/
abbrev agg1 (c : Dev nD) : Vec Ideal S100000x64 .f32 := V c main_v47
abbrev ft1 (c : Dev nD) : Vec Ideal S100000x64 .f32 := V c main_v36_0
abbrev dinv1 (c : Dev nD) : Vec Ideal S100000x1 .f32 := V c main_v14
abbrev bias1 (c : Dev nD) : Vec Ideal S1x64 .f32 := V c main_v30
abbrev bat1 (c : Dev nD) : Vec Ideal S100000x1 .i32 := V c main_v29

/-- The convolution's output, row by row, and its square. -/
abbrev xin1 (c : Dev nD) : Fin 100000 → Fin 64 → EReal :=
  xinK (colv (dinv1 V c)) (tab2 (agg1 V c)) (tab2 (ft1 V c)) (rowv (bias1 V c))
abbrev xsq1 (c : Dev nD) : Fin 100000 → Fin 64 → EReal := fun i f => xin1 V c i f * xin1 V c i f

/-- The blocks of a point. -/
abbrev aggB1 (c : Dev nD) (t : Fin cfg1.N) : Vec Ideal S5000x64 .f32 := iblk1 V c 0 t
abbrev ftB1 (c : Dev nD) (t : Fin cfg1.N) : Vec Ideal S5000x64 .f32 := iblk1 V c 1 t
abbrev dinvB1 (c : Dev nD) (t : Fin cfg1.N) : Vec Ideal S5000x1 .f32 := iblk1 V c 2 t
abbrev biasB1 (c : Dev nD) (t : Fin cfg1.N) : Vec Ideal S1x64 .f32 := iblk1 V c 3 t
abbrev batB1 (c : Dev nD) (t : Fin cfg1.N) : Vec Ideal S5000x1 .i32 := iblk1 V c 4 t

/-- The index maps over the grid: the row windows are at row block `t`, the bias window at its one block, the two
    result windows at block `t / 10`. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 3) = t.val / 10 ∧ win1_5.index t (1 : Fin 3) = 0 ∧ win1_5.index t (2 : Fin 3) = 0
    ∧ win1_6.index t (0 : Fin 3) = t.val / 10 ∧ win1_6.index t (1 : Fin 3) = 0 ∧ win1_6.index t (2 : Fin 3) = 0 :=
  (by decide +kernel : ∀ t : Fin grid1.N, _)

theorem lt1 (t : Fin cfg1.N) : t.val < 20 := lt_of_lt_of_eq t.isLt (show cfg1.N = 20 from N_1)

theorem row_lt1 (t : Fin cfg1.N) (r : Fin 5000) : t.val * 5000 + r.val < 100000 := by
  have := lt1 t; have := r.isLt; omega

/-- Each block read where its window says: row `r` of the block at point `t` is row `t · 5000 + r` of the array. -/
theorem blk1_0 (c : Dev nD) (t : Fin cfg1.N) (r : Fin 5000) (f : Fin 64) :
    aggB1 V c t (ix2 r f) = agg1 V c (ix2 ⟨t.val * 5000 + r.val, row_lt1 t r⟩ f) := by
  obtain ⟨e0, e1, -⟩ := idx1 t
  show V c main_v47 (((cfg1.win 0).blk t).view.emb (ix2 r f)) = V c main_v47 _
  refine congrArg _ (funext fun a => Fin.ext ?_)
  match a with
  | ⟨0, _⟩ => show win1_0.index t (0 : Fin 2) * 5000 + 1 * r.val = t.val * 5000 + r.val; rw [e0]; omega
  | ⟨1, _⟩ => show win1_0.index t (1 : Fin 2) * 64 + 1 * f.val = f.val; rw [e1]; omega
theorem blk1_1 (c : Dev nD) (t : Fin cfg1.N) (r : Fin 5000) (f : Fin 64) :
    ftB1 V c t (ix2 r f) = ft1 V c (ix2 ⟨t.val * 5000 + r.val, row_lt1 t r⟩ f) := by
  obtain ⟨-, -, e0, e1, -⟩ := idx1 t
  show V c main_v36_0 (((cfg1.win 1).blk t).view.emb (ix2 r f)) = V c main_v36_0 _
  refine congrArg _ (funext fun a => Fin.ext ?_)
  match a with
  | ⟨0, _⟩ => show win1_1.index t (0 : Fin 2) * 5000 + 1 * r.val = t.val * 5000 + r.val; rw [e0]; omega
  | ⟨1, _⟩ => show win1_1.index t (1 : Fin 2) * 64 + 1 * f.val = f.val; rw [e1]; omega
theorem blk1_2 (c : Dev nD) (t : Fin cfg1.N) (r : Fin 5000) :
    dinvB1 V c t (ix2 r 0) = dinv1 V c (ix2 ⟨t.val * 5000 + r.val, row_lt1 t r⟩ 0) := by
  obtain ⟨-, -, -, -, e0, e1, -⟩ := idx1 t
  show V c main_v14 (((cfg1.win 2).blk t).view.emb (ix2 r 0)) = V c main_v14 _
  refine congrArg _ (funext fun a => Fin.ext ?_)
  match a with
  | ⟨0, _⟩ => show win1_2.index t (0 : Fin 2) * 5000 + 1 * r.val = t.val * 5000 + r.val; rw [e0]; omega
  | ⟨1, _⟩ => show win1_2.index t (1 : Fin 2) * 1 + 1 * 0 = 0; rw [e1]
theorem blk1_3 (c : Dev nD) (t : Fin cfg1.N) (f : Fin 64) :
    biasB1 V c t (ix2 0 f) = bias1 V c (ix2 0 f) := by
  obtain ⟨-, -, -, -, -, -, e0, e1, -⟩ := idx1 t
  show V c main_v30 (((cfg1.win 3).blk t).view.emb (ix2 0 f)) = V c main_v30 _
  refine congrArg _ (funext fun a => Fin.ext ?_)
  match a with
  | ⟨0, _⟩ => show win1_3.index t (0 : Fin 2) * 1 + 1 * 0 = 0; rw [e0]
  | ⟨1, _⟩ => show win1_3.index t (1 : Fin 2) * 64 + 1 * f.val = f.val; rw [e1]; omega
theorem blk1_4 (c : Dev nD) (t : Fin cfg1.N) (r : Fin 5000) :
    batB1 V c t (ix2 r 0) = bat1 V c (ix2 ⟨t.val * 5000 + r.val, row_lt1 t r⟩ 0) := by
  obtain ⟨-, -, -, -, -, -, -, -, e0, e1, -⟩ := idx1 t
  show V c main_v29 (((cfg1.win 4).blk t).view.emb (ix2 r 0)) = V c main_v29 _
  refine congrArg _ (funext fun a => Fin.ext ?_)
  match a with
  | ⟨0, _⟩ => show win1_4.index t (0 : Fin 2) * 5000 + 1 * r.val = t.val * 5000 + r.val; rw [e0]; omega
  | ⟨1, _⟩ => show win1_4.index t (1 : Fin 2) * 1 + 1 * 0 = 0; rw [e1]

/-- One tile's share of a per-graph sum: the one-hot product over the 5000 rows of tile `k` (nothing past the
    twenty tiles). -/
def tile1 (c : Dev nD) (Y : Fin 100000 → Fin 64 → EReal) (k : ℕ) (g : Fin 128) (f : Fin 64) : EReal :=
  if h : k < 20 then
    ∑ r : Fin 5000, oh (colv (bat1 V c) ⟨k * 5000 + r.val, by have := r.isLt; omega⟩) g
      * Y ⟨k * 5000 + r.val, by have := r.isLt; omega⟩ f
  else 0

/-- The tile's product read off the point's blocks is that share, for the convolution's output … -/
theorem tile1_x (c : Dev nD) (t : Fin cfg1.N) (g : Fin 128) (f : Fin 64) :
    ∑ r : Fin 5000, oh (batB1 V c t (ix2 r 0)) g
        * ((dinvB1 V c t (ix2 r 0) * aggB1 V c t (ix2 r f) + (dinvB1 V c t (ix2 r 0) * dinvB1 V c t (ix2 r 0)) * ftB1 V c t (ix2 r f))
          + biasB1 V c t (ix2 0 f))
      = tile1 V c (xin1 V c) t.val g f := by
  unfold tile1
  rw [dif_pos (lt1 t)]
  refine Finset.sum_congr rfl fun r _ => ?_
  rw [blk1_0, blk1_1, blk1_2, blk1_3, blk1_4]
  rfl
/-- … and for its square. -/
theorem tile1_xx (c : Dev nD) (t : Fin cfg1.N) (g : Fin 128) (f : Fin 64) :
    ∑ r : Fin 5000, oh (batB1 V c t (ix2 r 0)) g
        * (((dinvB1 V c t (ix2 r 0) * aggB1 V c t (ix2 r f) + (dinvB1 V c t (ix2 r 0) * dinvB1 V c t (ix2 r 0)) * ftB1 V c t (ix2 r f))
            + biasB1 V c t (ix2 0 f))
          * ((dinvB1 V c t (ix2 r 0) * aggB1 V c t (ix2 r f) + (dinvB1 V c t (ix2 r 0) * dinvB1 V c t (ix2 r 0)) * ftB1 V c t (ix2 r f))
            + biasB1 V c t (ix2 0 f)))
      = tile1 V c (xsq1 V c) t.val g f := by
  unfold tile1
  rw [dif_pos (lt1 t)]
  refine Finset.sum_congr rfl fun r _ => ?_
  rw [blk1_0, blk1_1, blk1_2, blk1_3, blk1_4]
  rfl

/-- A half's first point leaves the tile's shares over zeros. -/
theorem outs1_first (c : Dev nD) (t : Fin cfg1.N) (h0 : t.val % 10 = 0) (g : Fin 128) (f : Fin 64) :
    (outsAt1 V c t.val t.isLt).1 (ix3 0 g f) = 0 + tile1 V c (xin1 V c) t.val g f
    ∧ (outsAt1 V c t.val t.isLt).2 (ix3 0 g f) = 0 + tile1 V c (xsq1 V c) t.val g f := by
  rw [outsAt1_A V c t h0]
  dsimp only
  constructor
  · refine (congrFun (piece1_A_5 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) ((hcond1_0 t).mpr h0) (iblk1 V c 0 t) (iblk1 V c 1 t) (iblk1 V c 2 t) (iblk1 V c 3 t) (iblk1 V c 4 t)) (ix3 0 g f)).trans ?_
    refine (pay1_7_apply (dinvB1 V c t) (aggB1 V c t) (ftB1 V c t) (biasB1 V c t) (batB1 V c t) (k1_pay2 (F := Ideal)) g f).trans ?_
    rw [pay1_2_apply, tile1_x]
  · refine (congrFun (piece1_A_6 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) ((hcond1_0 t).mpr h0) (iblk1 V c 0 t) (iblk1 V c 1 t) (iblk1 V c 2 t) (iblk1 V c 3 t) (iblk1 V c 4 t)) (ix3 0 g f)).trans ?_
    refine (pay1_1_apply (dinvB1 V c t) (aggB1 V c t) (ftB1 V c t) (biasB1 V c t) (batB1 V c t) (k1_pay3 (F := Ideal)) g f).trans ?_
    rw [pay1_3_apply, tile1_xx]

/-- Every other point adds the tile's shares to what the point before left. -/
theorem outs1_next (c : Dev nD) (t : Fin cfg1.N) (h0 : ¬t.val % 10 = 0) (g : Fin 128) (f : Fin 64) :
    (outsAt1 V c t.val t.isLt).1 (ix3 0 g f)
        = (outsAt1 V c (t.val - 1) (Nat.lt_of_le_of_lt (Nat.sub_le _ _) t.isLt)).1 (ix3 0 g f) + tile1 V c (xin1 V c) t.val g f
    ∧ (outsAt1 V c t.val t.isLt).2 (ix3 0 g f)
        = (outsAt1 V c (t.val - 1) (Nat.lt_of_le_of_lt (Nat.sub_le _ _) t.isLt)).2 (ix3 0 g f) + tile1 V c (xsq1 V c) t.val g f := by
  rw [outsAt1_B V c t h0]
  dsimp only
  constructor
  · refine (congrFun (piece1_B_5 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (fun h => h0 ((hcond1_0 t).mp h)) (iblk1 V c 0 t) (iblk1 V c 1 t) (iblk1 V c 2 t) (iblk1 V c 3 t) (iblk1 V c 4 t)
      (outsAt1 V c (t.val - 1) (Nat.lt_of_le_of_lt (Nat.sub_le _ _) t.isLt)).1 (outsAt1 V c (t.val - 1) (Nat.lt_of_le_of_lt (Nat.sub_le _ _) t.isLt)).2) (ix3 0 g f)).trans ?_
    refine (pay1_7_apply (dinvB1 V c t) (aggB1 V c t) (ftB1 V c t) (biasB1 V c t) (batB1 V c t)
      (outsAt1 V c (t.val - 1) (Nat.lt_of_le_of_lt (Nat.sub_le _ _) t.isLt)).1 g f).trans ?_
    rw [tile1_x]
  · refine (congrFun (piece1_B_6 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (fun h => h0 ((hcond1_0 t).mp h)) (iblk1 V c 0 t) (iblk1 V c 1 t) (iblk1 V c 2 t) (iblk1 V c 3 t) (iblk1 V c 4 t)
      (outsAt1 V c (t.val - 1) (Nat.lt_of_le_of_lt (Nat.sub_le _ _) t.isLt)).1 (outsAt1 V c (t.val - 1) (Nat.lt_of_le_of_lt (Nat.sub_le _ _) t.isLt)).2) (ix3 0 g f)).trans ?_
    refine (pay1_1_apply (dinvB1 V c t) (aggB1 V c t) (ftB1 V c t) (biasB1 V c t) (batB1 V c t)
      (outsAt1 V c (t.val - 1) (Nat.lt_of_le_of_lt (Nat.sub_le _ _) t.isLt)).2 g f).trans ?_
    rw [tile1_xx]

end Run

section Result

-- The buffer contents a region is entered with.
variable (V : (c : Dev nD) → (b : Ref sig .tc) → Buf (Elt Ideal) ((c : Thread nD τ).loc b))

/-- After point `n` each block holds the shares of its half's tiles up to `n`: by induction on the point, the
    first point of a half starting the sum over and every other point adding one term. -/
theorem outs1_eq (c : Dev nD) (g : Fin 128) (f : Fin 64) : ∀ (n : ℕ) (hn : n < cfg1.N),
    (outsAt1 V c n hn).1 (ix3 0 g f) = ∑ s ∈ Finset.range (n % 10 + 1), tile1 V c (xin1 V c) (n / 10 * 10 + s) g f
    ∧ (outsAt1 V c n hn).2 (ix3 0 g f) = ∑ s ∈ Finset.range (n % 10 + 1), tile1 V c (xsq1 V c) (n / 10 * 10 + s) g f
  | 0, hn => by
    obtain ⟨h5, h6⟩ := outs1_first V c ⟨0, hn⟩ (Nat.zero_mod _) g f
    refine ⟨h5.trans ?_, h6.trans ?_⟩
    · show 0 + tile1 V c (xin1 V c) 0 g f = ∑ s ∈ Finset.range 1, tile1 V c (xin1 V c) (0 + s) g f
      rw [Finset.sum_range_one, zero_add]
    · show 0 + tile1 V c (xsq1 V c) 0 g f = ∑ s ∈ Finset.range 1, tile1 V c (xsq1 V c) (0 + s) g f
      rw [Finset.sum_range_one, zero_add]
  | n + 1, hn => by
    by_cases h0 : (n + 1) % 10 = 0
    · obtain ⟨h5, h6⟩ := outs1_first V c ⟨n + 1, hn⟩ h0 g f
      have e : (n + 1) / 10 * 10 + 0 = n + 1 := by omega
      refine ⟨h5.trans ?_, h6.trans ?_⟩
      · show 0 + tile1 V c (xin1 V c) (n + 1) g f = _
        rw [h0, Finset.sum_range_one, e, zero_add]
      · show 0 + tile1 V c (xsq1 V c) (n + 1) g f = _
        rw [h0, Finset.sum_range_one, e, zero_add]
    · obtain ⟨h5, h6⟩ := outs1_next V c ⟨n + 1, hn⟩ h0 g f
      obtain ⟨i5, i6⟩ := outs1_eq c g f n (Nat.lt_of_succ_lt hn)
      have em : (n + 1) % 10 = n % 10 + 1 := by omega
      have ed : (n + 1) / 10 = n / 10 := by omega
      have en : n / 10 * 10 + (n % 10 + 1) = n + 1 := by omega
      refine ⟨h5.trans ?_, h6.trans ?_⟩
      · show (outsAt1 V c n (Nat.lt_of_succ_lt hn)).1 (ix3 0 g f) + tile1 V c (xin1 V c) (n + 1) g f = _
        rw [i5, em, ed, Finset.sum_range_succ _ (n % 10 + 1), en]
      · show (outsAt1 V c n (Nat.lt_of_succ_lt hn)).2 (ix3 0 g f) + tile1 V c (xsq1 V c) (n + 1) g f = _
        rw [i6, em, ed, Finset.sum_range_succ _ (n % 10 + 1), en]

/-- The ten tiles of a half make the half's per-graph sum. -/
theorem half1 (c : Dev nD) (Y : Fin 100000 → Fin 64 → EReal) (core : Fin 2) (g : Fin 128) (f : Fin 64) :
    ∑ s ∈ Finset.range 10, tile1 V c Y (core.val * 10 + s) g f = partK (colv (bat1 V c)) Y core g f := by
  unfold partK
  rw [Finset.sum_range]
  refine Finset.sum_congr rfl fun s _ => ?_
  unfold tile1
  rw [dif_pos (by have := core.isLt; have := s.isLt; omega)]
  exact Finset.sum_congr rfl fun r _ => rfl

/-- The two results: every half's block at the half's per-graph sums. -/
abbrev sum1 (c : Dev nD) (Y : Fin 100000 → Fin 64 → EReal) : Vec Ideal S2x128x64 .f32 :=
  fun i => partK (colv (bat1 V c)) Y ⟨(i 0).val, (i 0).isLt⟩ ⟨(i 1).val, (i 1).isLt⟩ ⟨(i 2).val, (i 2).isLt⟩

/-- A half's last point writes its block of the sums back … -/
theorem flushed1_5 (c : Dev nD) (t : Fin cfg1.N) (hf : (cfg1.win 5).flush t = true) :
    (dat1 V c).flushed 5 t = ((cfg1.win 5).blk t).view.read (Elt Ideal) (sum1 V c (xin1 V c)) := by
  have h9 : t.val % 10 = 9 := (flush1_5 t).mp hf
  have hN := lt1 t
  obtain ⟨-, -, -, -, -, -, -, -, -, -, e0, e1, e2, -⟩ := idx1 t
  show (cfg1.win 5).cut (grid1.coords t) ((dat1 V c).after 5 t) = _
  rw [after1_5]
  refine tab3_ext (a := 1) (b := 128) (c := 64) fun u g f => ?_
  obtain rfl : u = 0 := Subsingleton.elim _ _
  have hemb : ((cfg1.win 5).blk t).view.emb (ix3 (0 : Fin 1) g f) = (ix3 (⟨t.val / 10, by omega⟩ : Fin 2) g f : S2x128x64.Idx) := by
    funext a; apply Fin.ext
    match a with
    | ⟨0, _⟩ => show win1_5.index t (0 : Fin 3) * 1 + 1 * 0 = t.val / 10; rw [e0]; omega
    | ⟨1, _⟩ => show win1_5.index t (1 : Fin 3) * 128 + 1 * g.val = g.val; rw [e1]; omega
    | ⟨2, _⟩ => show win1_5.index t (2 : Fin 3) * 64 + 1 * f.val = f.val; rw [e2]; omega
  show (outsAt1 V c t.val t.isLt).1 (ix3 0 g f) = sum1 V c (xin1 V c) (((cfg1.win 5).blk t).view.emb (ix3 (0 : Fin 1) g f))
  rw [hemb, (outs1_eq V c g f t.val t.isLt).1, h9]
  exact half1 V c (xin1 V c) ⟨t.val / 10, by omega⟩ g f
/-- … and its block of the sums of squares. -/
theorem flushed1_6 (c : Dev nD) (t : Fin cfg1.N) (hf : (cfg1.win 6).flush t = true) :
    (dat1 V c).flushed 6 t = ((cfg1.win 6).blk t).view.read (Elt Ideal) (sum1 V c (xsq1 V c)) := by
  have h9 : t.val % 10 = 9 := (flush1_6 t).mp hf
  have hN := lt1 t
  obtain ⟨-, -, -, -, -, -, -, -, -, -, -, -, -, e0, e1, e2⟩ := idx1 t
  show (cfg1.win 6).cut (grid1.coords t) ((dat1 V c).after 6 t) = _
  rw [after1_6]
  refine tab3_ext (a := 1) (b := 128) (c := 64) fun u g f => ?_
  obtain rfl : u = 0 := Subsingleton.elim _ _
  have hemb : ((cfg1.win 6).blk t).view.emb (ix3 (0 : Fin 1) g f) = (ix3 (⟨t.val / 10, by omega⟩ : Fin 2) g f : S2x128x64.Idx) := by
    funext a; apply Fin.ext
    match a with
    | ⟨0, _⟩ => show win1_6.index t (0 : Fin 3) * 1 + 1 * 0 = t.val / 10; rw [e0]; omega
    | ⟨1, _⟩ => show win1_6.index t (1 : Fin 3) * 128 + 1 * g.val = g.val; rw [e1]; omega
    | ⟨2, _⟩ => show win1_6.index t (2 : Fin 3) * 64 + 1 * f.val = f.val; rw [e2]; omega
  show (outsAt1 V c t.val t.isLt).2 (ix3 0 g f) = sum1 V c (xsq1 V c) (((cfg1.win 6).blk t).view.emb (ix3 (0 : Fin 1) g f))
  rw [hemb, (outs1_eq V c g f t.val t.isLt).2, h9]
  exact half1 V c (xsq1 V c) ⟨t.val / 10, by omega⟩ g f

/-- The last point of half `k`. -/
def lastOf1 (k : ℕ) (hk : k < 2) : Fin cfg1.N := ⟨k * 10 + 9, by rw [show cfg1.N = 20 from N_1]; omega⟩

/-- Every entry of a result array is in the block its half's last point writes back. -/
theorem cover1_5 (i : S2x128x64.Idx) :
    ∃ t : Fin cfg1.N, (cfg1.win 5).flush t = true ∧ i ∈ ((cfg1.win 5).blk t).view.set := by
  have hi0 : (i 0).val < 2 := (i 0).isLt
  have hi1 : (i 1).val < 128 := (i 1).isLt
  have hi2 : (i 2).val < 64 := (i 2).isLt
  refine ⟨lastOf1 (i 0).val hi0, (flush1_5 _).mpr (by show ((i 0).val * 10 + 9) % 10 = 9; omega), ?_⟩
  obtain ⟨-, -, -, -, -, -, -, -, -, -, e0, e1, e2, -⟩ := idx1 (lastOf1 (i 0).val hi0)
  have ev : (lastOf1 (i 0).val hi0).val / 10 = (i 0).val := by show ((i 0).val * 10 + 9) / 10 = (i 0).val; omega
  show i ∈ ((View.whole main_v48_0).slice (win1_5.rect (lastOf1 (i 0).val hi0))).set
  rw [View.set_slice_whole, Rect.mem_set_unit]
  intro a
  match a with
  | ⟨0, _⟩ => show win1_5.index (lastOf1 (i 0).val hi0) (0 : Fin 3) * 1 ≤ (i 0).val ∧ (i 0).val < win1_5.index (lastOf1 (i 0).val hi0) (0 : Fin 3) * 1 + 1; rw [e0, ev]; omega
  | ⟨1, _⟩ => show win1_5.index (lastOf1 (i 0).val hi0) (1 : Fin 3) * 128 ≤ (i 1).val ∧ (i 1).val < win1_5.index (lastOf1 (i 0).val hi0) (1 : Fin 3) * 128 + 128; rw [e1]; omega
  | ⟨2, _⟩ => show win1_5.index (lastOf1 (i 0).val hi0) (2 : Fin 3) * 64 ≤ (i 2).val ∧ (i 2).val < win1_5.index (lastOf1 (i 0).val hi0) (2 : Fin 3) * 64 + 64; rw [e2]; omega
theorem cover1_6 (i : S2x128x64.Idx) :
    ∃ t : Fin cfg1.N, (cfg1.win 6).flush t = true ∧ i ∈ ((cfg1.win 6).blk t).view.set := by
  have hi0 : (i 0).val < 2 := (i 0).isLt
  have hi1 : (i 1).val < 128 := (i 1).isLt
  have hi2 : (i 2).val < 64 := (i 2).isLt
  refine ⟨lastOf1 (i 0).val hi0, (flush1_6 _).mpr (by show ((i 0).val * 10 + 9) % 10 = 9; omega), ?_⟩
  obtain ⟨-, -, -, -, -, -, -, -, -, -, -, -, -, e0, e1, e2⟩ := idx1 (lastOf1 (i 0).val hi0)
  have ev : (lastOf1 (i 0).val hi0).val / 10 = (i 0).val := by show ((i 0).val * 10 + 9) / 10 = (i 0).val; omega
  show i ∈ ((View.whole main_v48_1).slice (win1_6.rect (lastOf1 (i 0).val hi0))).set
  rw [View.set_slice_whole, Rect.mem_set_unit]
  intro a
  match a with
  | ⟨0, _⟩ => show win1_6.index (lastOf1 (i 0).val hi0) (0 : Fin 3) * 1 ≤ (i 0).val ∧ (i 0).val < win1_6.index (lastOf1 (i 0).val hi0) (0 : Fin 3) * 1 + 1; rw [e0, ev]; omega
  | ⟨1, _⟩ => show win1_6.index (lastOf1 (i 0).val hi0) (1 : Fin 3) * 128 ≤ (i 1).val ∧ (i 1).val < win1_6.index (lastOf1 (i 0).val hi0) (1 : Fin 3) * 128 + 128; rw [e1]; omega
  | ⟨2, _⟩ => show win1_6.index (lastOf1 (i 0).val hi0) (2 : Fin 3) * 64 ≤ (i 2).val ∧ (i 2).val < win1_6.index (lastOf1 (i 0).val hi0) (2 : Fin 3) * 64 + 64; rw [e2]; omega

theorem reg1_sumx (c : Dev nD) (core : Fin 2) (g : Fin 128) (f : Fin 64) :
    ((dat1 V c).arrAt 5 cfg1.N : Vec Ideal S2x128x64 .f32) (ix3 core g f)
      = partK (colv (V c main_v29 : IVec S100000x1 32)) (xinK (colv (V c main_v14 : Vec Ideal S100000x1 .f32)) (tab2 (V c main_v47 : Vec Ideal S100000x64 .f32))
        (tab2 (V c main_v36_0 : Vec Ideal S100000x64 .f32)) (rowv (V c main_v30 : Vec Ideal S1x64 .f32))) core g f := by
  rw [(dat1 V c).arrAt_eq_of_cover 5 (sum1 V c (xin1 V c)) (flushed1_5 V c) cover1_5]

theorem reg1_sumx2 (c : Dev nD) (core : Fin 2) (g : Fin 128) (f : Fin 64) :
    ((dat1 V c).arrAt 6 cfg1.N : Vec Ideal S2x128x64 .f32) (ix3 core g f)
      = partK (colv (V c main_v29 : IVec S100000x1 32)) (fun i f => (xinK (colv (V c main_v14 : Vec Ideal S100000x1 .f32)) (tab2 (V c main_v47 : Vec Ideal S100000x64 .f32))
        (tab2 (V c main_v36_0 : Vec Ideal S100000x64 .f32)) (rowv (V c main_v30 : Vec Ideal S1x64 .f32))) i f * (xinK (colv (V c main_v14 : Vec Ideal S100000x1 .f32)) (tab2 (V c main_v47 : Vec Ideal S100000x64 .f32))
        (tab2 (V c main_v36_0 : Vec Ideal S100000x64 .f32)) (rowv (V c main_v30 : Vec Ideal S1x64 .f32))) i f) core g f := by
  rw [(dat1 V c).arrAt_eq_of_cover 6 (sum1 V c (xsq1 V c)) (flushed1_6 V c) cover1_6]

end Result

end Reg1

export Reg1 (reg1_sumx reg1_sumx2)

end Cert.KernelIdeal.KV

end
-- ==== Proof.KReg2.lean ====
/-
  The third pallas_call: tile by tile of 4000 rows it forms the first convolution's output, normalises it with the
  per-graph tables picked through the one-hot row, rectifies, multiplies by the second weight matrix and stores the
  product and the product scaled by the inverse square-root degree. Every tile is a restriction of one function of the
  whole arrays, and the tiles cover the rows.
-/
import proofs.«420537_j75831942578735_3_alg».proof.Proof.Gen.KernelIdeal.Frame
import proofs.«420537_j75831942578735_3_alg».proof.Proof.Views
import proofs.«420537_j75831942578735_3_alg».proof.Proof.LibContract
import proofs.«420537_j75831942578735_3_alg».proof.Proof.LibOneHot
import Idealize.ShloMosaic.Lib.Pipeline.Value
import Idealize.ShloMosaic.PureOps.Ideal.Laws

set_option maxRecDepth 16384

noncomputable section

namespace Cert.KernelIdeal.KV

open Idealize.ShloMosaic Idealize.ShloMosaic.TcCoe Idealize.ShloMosaic.ValueIdx Idealize.SL.Sem
open Idealize.ShloMosaic.Pipeline (Dat Cfg Window)
open Cert.KernelIdeal Cert.KernelIdeal.Gen GCN
open scoped BigOperators

-- the buffer contents the region is entered with
variable (V : (c : Dev nD) → (b : Ref sig .tc) → Buf (Elt Ideal) ((c : Thread nD τ).loc b))

namespace Reg2

/-! ## The tile's arithmetic, entry by entry -/

theorem hz : (![0, 0] : Fin 2 → Nat) = fun _ => 0 := funext fun a => by fin_cases a <;> rfl

/-- A row broadcast along the rows reads the row at the column. -/
theorem brow {α : Type} (x : (⟨2, ![1, 64]⟩ : Shape).Idx → α) (h : (⟨2, ![1, 64]⟩ : Shape).Broadcasts ⟨2, ![4000, 64]⟩)
    (r : Fin 4000) (j : Fin 64) : broadcastTo ⟨2, ![4000, 64]⟩ x h (ix2 r j) = x (ix2 0 j) := by
  refine broadcastTo_apply x h (ix2 r j) (ix2 0 j) fun a => ?_
  match a with
  | ⟨0, _⟩ => rfl
  | ⟨1, _⟩ => rfl

/-- A table picked through the one-hot row: the product of the one-hot tile with the table, read at an entry. -/
theorem pick_apply (v16 : Vec Ideal S4000x1 .i32) (T : Vec Ideal S128x64 .f32) (h1 : S4000x1.ShapeCasts S4000x1) (h2 : S4000x1.Broadcasts S4000x128)
    (h3 : S4000x128.Iotas .tc 32 [1]) (h4 : 1 < 32) (h5 : S128x64.ShapeCasts S128x64) (r : Fin 4000) (j : Fin 64) :
    matmul dot_S4000x128_S128x64_S4000x64_1_0_0_1_n_n (some .fp32)
        (sitofp .f32 (extui 32 (cmpi .eq (broadcastTo S4000x128 (shapeCast S4000x1 v16 h1) h2) (iota .tc S4000x128 32 [1] h3)) h4) : FVec Ideal S4000x128 .f32)
        (shapeCast S128x64 T h5 : FVec Ideal S128x64 .f32) (constant S4000x64 .f32 0x00000000#32) (ix2 r j)
      = ∑ g : Fin 128, oh (v16 (ix2 r 0)) g.val * T (ix2 g j) := by
  refine (Cert.LibContract.matmul_plain dot_S4000x128_S128x64_S4000x64_1_0_0_1_n_n rfl rfl rfl rfl rfl rfl (some .fp32) _ _ r j).trans ?_
  refine Finset.sum_congr rfl fun g _ => ?_
  rw [shapeCast_self T h5]
  exact congrArg (· * T (ix2 g j)) (GCN.Ops.onehot_tile_apply v16 h1 h2 h3 h4 r g)

/-- The normalised row before the rectifier, entry by entry. -/
theorem pay4_apply (v0 : Vec Ideal S4000x1 .f32) (v2 v7 : Vec Ideal S4000x64 .f32) (v12 : Vec Ideal S1x64 .f32) (v16 : Vec Ideal S4000x1 .i32)
    (v23 v26 : Vec Ideal S128x64 .f32) (v30 v35 : Vec Ideal S1x64 .f32) (r : Fin 4000) (j : Fin 64) :
    k2_pay4 v0 v2 v7 v12 v16 v23 v26 v30 v35 (ix2 r j)
      = ((v30 (ix2 0 j) * ((((v0 (ix2 r 0) * v2 (ix2 r j)) + ((v0 (ix2 r 0) * v0 (ix2 r 0)) * v7 (ix2 r j))) + v12 (ix2 0 j))
            - ∑ g : Fin 128, oh (v16 (ix2 r 0)) g.val * v23 (ix2 g j)))
          * ∑ g : Fin 128, oh (v16 (ix2 r 0)) g.val * v26 (ix2 g j)) + v35 (ix2 0 j) := by
  unfold k2_pay4 k2_pay3
  simp only [addf_apply, mulf_apply, subf_apply]
  rw [pick_apply v16 v23 _ _ _ _ _ r j, pick_apply v16 v26 _ _ _ _ _ r j]
  simp only [shapeCast_self, GCN.Ops.broadcastTo_a1_ab_apply, brow, mulf_apply]

/-- The column's cast to its own shape is the column. -/
theorem pay3_eq (v0 : Vec Ideal S4000x1 .f32) : k2_pay3 v0 = v0 := by
  unfold k2_pay3
  exact shapeCast_self _ _

/-- The rectified row against the second weight matrix, entry by entry. -/
theorem pay1_apply (v38 : FVec Ideal S4000x64 .f32) (v42 : Vec Ideal S64x64 .f32) (r : Fin 4000) (j : Fin 64) :
    k2_pay1 v38 v42 (ix2 r j) = ∑ k : Fin 64, max (v38 (ix2 r k)) 0 * v42 (ix2 k j) := by
  unfold k2_pay1
  refine (Cert.LibContract.matmul_plain dot_S4000x64_S64x64_S4000x64_1_0_0_1_n_n rfl rfl rfl rfl rfl rfl none _ _ r j).trans ?_
  refine Finset.sum_congr rfl fun k _ => ?_
  rw [truncf_apply, truncf_apply, maximumf_apply, broadcast_apply]
  show max _ (Ideal.ofBits .f32 0x00000000#32) * _ = _
  rw [Ideal.ofBits_zero_f32]

/-- The same scaled by the inverse square-root degree of the row. -/
theorem pay2_apply (v1 : FVec Ideal S4000x1 .f32) (v38 : FVec Ideal S4000x64 .f32) (v42 : Vec Ideal S64x64 .f32) (r : Fin 4000) (j : Fin 64) :
    k2_pay2 v1 v38 v42 (ix2 r j) = k2_pay1 v38 v42 (ix2 r j) * v1 (ix2 r 0) := by
  unfold k2_pay2
  rw [truncf_apply, mulf_apply, GCN.Ops.broadcastTo_a1_ab_apply]

/-! ## One tile as rows of the whole arrays -/

/-- The tile's product, entry by entry, over any arrays its ten blocks are rows of: the blocks that move with the tile
    hold row `i` of their arrays at their row `r`, the others are their whole arrays. -/
theorem tile_feat (x0 x1 : Vec Ideal S4000x64 .f32) (x2 : Vec Ideal S4000x1 .f32) (x3 : Vec Ideal S1x64 .f32) (x4 : Vec Ideal S4000x1 .i32)
    (x5 x6 : Vec Ideal S128x64 .f32) (x7 x8 : Vec Ideal S1x64 .f32) (x9 : Vec Ideal S64x64 .f32)
    (A0 A1 : Vec Ideal S100000x64 .f32) (A2 : Vec Ideal S100000x1 .f32) (A3 : Vec Ideal S1x64 .f32) (A4 : IVec S100000x1 32)
    (A5 A6 : Vec Ideal S128x64 .f32) (A7 A8 : Vec Ideal S1x64 .f32) (A9 : Vec Ideal S64x64 .f32)
    (r : Fin 4000) (j : Fin 64) (i : Fin 100000)
    (h0 : ∀ k : Fin 64, x0 (ix2 r k) = A0 (ix2 i k)) (h1 : ∀ k : Fin 64, x1 (ix2 r k) = A1 (ix2 i k))
    (h2 : x2 (ix2 r 0) = A2 (ix2 i 0)) (h3 : x3 = A3) (h4 : x4 (ix2 r 0) = A4 (ix2 i 0))
    (h5 : x5 = A5) (h6 : x6 = A6) (h7 : x7 = A7) (h8 : x8 = A8) (h9 : x9 = A9) :
    k2_pay1 (k2_pay4 x2 x0 x1 x3 x4 x5 x6 x7 x8) x9 (ix2 r j)
      = feat (normOfK (colv A4) (rowv A7) (rowv A8) (tab2 A5) (tab2 A6) (xinK (colv A2) (tab2 A0) (tab2 A1) (rowv A3))) (tab2 A9) i j := by
  subst h3 h5 h6 h7 h8 h9
  rw [pay1_apply]
  unfold feat
  refine Finset.sum_congr rfl fun k _ => ?_
  rw [pay4_apply, h0 k, h1 k, h2, h4]
  rfl

/-- The scaled product of the tile: the same times the inverse square-root degree of the row. -/
theorem tile_feats (x0 x1 : Vec Ideal S4000x64 .f32) (x2 : Vec Ideal S4000x1 .f32) (x3 : Vec Ideal S1x64 .f32) (x4 : Vec Ideal S4000x1 .i32)
    (x5 x6 : Vec Ideal S128x64 .f32) (x7 x8 : Vec Ideal S1x64 .f32) (x9 : Vec Ideal S64x64 .f32)
    (A0 A1 : Vec Ideal S100000x64 .f32) (A2 : Vec Ideal S100000x1 .f32) (A3 : Vec Ideal S1x64 .f32) (A4 : IVec S100000x1 32)
    (A5 A6 : Vec Ideal S128x64 .f32) (A7 A8 : Vec Ideal S1x64 .f32) (A9 : Vec Ideal S64x64 .f32)
    (r : Fin 4000) (j : Fin 64) (i : Fin 100000)
    (h0 : ∀ k : Fin 64, x0 (ix2 r k) = A0 (ix2 i k)) (h1 : ∀ k : Fin 64, x1 (ix2 r k) = A1 (ix2 i k))
    (h2 : x2 (ix2 r 0) = A2 (ix2 i 0)) (h3 : x3 = A3) (h4 : x4 (ix2 r 0) = A4 (ix2 i 0))
    (h5 : x5 = A5) (h6 : x6 = A6) (h7 : x7 = A7) (h8 : x8 = A8) (h9 : x9 = A9) :
    k2_pay2 (k2_pay3 x2) (k2_pay4 x2 x0 x1 x3 x4 x5 x6 x7 x8) x9 (ix2 r j)
      = feat (normOfK (colv A4) (rowv A7) (rowv A8) (tab2 A5) (tab2 A6) (xinK (colv A2) (tab2 A0) (tab2 A1) (rowv A3))) (tab2 A9) i j
        * colv A2 i := by
  rw [pay2_apply, pay3_eq, tile_feat x0 x1 x2 x3 x4 x5 x6 x7 x8 x9 A0 A1 A2 A3 A4 A5 A6 A7 A8 A9 r j i h0 h1 h2 h3 h4 h5 h6 h7 h8 h9, h2]
  rfl

/-! ## The blocks of a grid point -/

/-- The printed index maps over the 25 grid points: the row blocks move with the point, the tables stay. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) = 0 ∧ win2_9.index t (1 : Fin 2) = 0
    ∧ win2_10.index t (0 : Fin 2) = t.val ∧ win2_10.index t (1 : Fin 2) = 0
    ∧ win2_11.index t (0 : Fin 2) = t.val ∧ win2_11.index t (1 : Fin 2) = 0 :=
  (by decide +kernel : ∀ t : Fin grid2.N, _)

/-- The edge aggregate's block at point `t` is rows `4000·t …` of the array. -/
theorem blk0_apply (c : Dev nD) (t : Fin cfg2.N) (r : Fin 4000) (k : Fin 64) (i : Fin 100000) (hi : i.val = t.val * 4000 + r.val) :
    (iblk2 V c 0 t : Vec Ideal S4000x64 .f32) (ix2 r k) = (V c main_v47 : Vec Ideal S100000x64 .f32) (ix2 i k) := by
  have e := idx_facts t
  unfold iblk2
  rw [View.read_apply]
  show V c main_v47 _ = V c main_v47 _
  congr 1
  funext a
  apply Fin.ext
  match a with
  | ⟨0, _⟩ => show win2_0.index t (0 : Fin 2) * 4000 + 1 * r.val = i.val; omega
  | ⟨1, _⟩ => show win2_0.index t (1 : Fin 2) * 64 + 1 * k.val = k.val; omega

/-- The features' block likewise. -/
theorem blk1_apply (c : Dev nD) (t : Fin cfg2.N) (r : Fin 4000) (k : Fin 64) (i : Fin 100000) (hi : i.val = t.val * 4000 + r.val) :
    (iblk2 V c 1 t : Vec Ideal S4000x64 .f32) (ix2 r k) = (V c main_v36_0 : Vec Ideal S100000x64 .f32) (ix2 i k) := by
  have e := idx_facts t
  unfold iblk2
  rw [View.read_apply]
  show V c main_v36_0 _ = V c main_v36_0 _
  congr 1
  funext a
  apply Fin.ext
  match a with
  | ⟨0, _⟩ => show win2_1.index t (0 : Fin 2) * 4000 + 1 * r.val = i.val; omega
  | ⟨1, _⟩ => show win2_1.index t (1 : Fin 2) * 64 + 1 * k.val = k.val; omega

/-- The inverse square-root degree column's block. -/
theorem blk2_apply (c : Dev nD) (t : Fin cfg2.N) (r : Fin 4000) (i : Fin 100000) (hi : i.val = t.val * 4000 + r.val) :
    (iblk2 V c 2 t : Vec Ideal S4000x1 .f32) (ix2 r 0) = (V c main_v14 : Vec Ideal S100000x1 .f32) (ix2 i 0) := by
  have e := idx_facts t
  unfold iblk2
  rw [View.read_apply]
  show V c main_v14 _ = V c main_v14 _
  congr 1
  funext a
  apply Fin.ext
  match a with
  | ⟨0, _⟩ => show win2_2.index t (0 : Fin 2) * 4000 + 1 * r.val = i.val; omega
  | ⟨1, _⟩ => show win2_2.index t (1 : Fin 2) * 1 + 1 * 0 = 0; omega

/-- The graph words' block. -/
theorem blk4_apply (c : Dev nD) (t : Fin cfg2.N) (r : Fin 4000) (i : Fin 100000) (hi : i.val = t.val * 4000 + r.val) :
    (iblk2 V c 4 t : Vec Ideal S4000x1 .i32) (ix2 r 0) = (V c main_v29 : IVec S100000x1 32) (ix2 i 0) := by
  have e := idx_facts t
  unfold iblk2
  rw [View.read_apply]
  show V c main_v29 _ = V c main_v29 _
  congr 1
  funext a
  apply Fin.ext
  match a with
  | ⟨0, _⟩ => show win2_4.index t (0 : Fin 2) * 4000 + 1 * r.val = i.val; omega
  | ⟨1, _⟩ => show win2_4.index t (1 : Fin 2) * 1 + 1 * 0 = 0; omega

/-- The bias row's block is the whole row, at every point. -/
theorem blk3_eq (c : Dev nD) (t : Fin cfg2.N) : (iblk2 V c 3 t : Vec Ideal S1x64 .f32) = (V c main_v30 : Vec Ideal S1x64 .f32) := by
  have e := idx_facts t
  funext y
  unfold iblk2
  rw [View.read_apply]
  show V c main_v30 _ = V c main_v30 y
  congr 1
  funext a
  apply Fin.ext
  match a with
  | ⟨0, _⟩ => show win2_3.index t (0 : Fin 2) * 1 + 1 * (y 0).val = (y 0).val; omega
  | ⟨1, _⟩ => show win2_3.index t (1 : Fin 2) * 64 + 1 * (y 1).val = (y 1).val; omega

/-- The scaled means' block is the whole table. -/
theorem blk5_eq (c : Dev nD) (t : Fin cfg2.N) : (iblk2 V c 5 t : Vec Ideal S128x64 .f32) = (V c main_v68 : Vec Ideal S128x64 .f32) := by
  have e := idx_facts t
  funext y
  unfold iblk2
  rw [View.read_apply]
  show V c main_v68 _ = V c main_v68 y
  congr 1
  funext a
  apply Fin.ext
  match a with
  | ⟨0, _⟩ => show win2_5.index t (0 : Fin 2) * 128 + 1 * (y 0).val = (y 0).val; omega
  | ⟨1, _⟩ => show win2_5.index t (1 : Fin 2) * 64 + 1 * (y 1).val = (y 1).val; omega

/-- The inverse deviations' block is the whole table. -/
theorem blk6_eq (c : Dev nD) (t : Fin cfg2.N) : (iblk2 V c 6 t : Vec Ideal S128x64 .f32) = (V c main_v71 : Vec Ideal S128x64 .f32) := by
  have e := idx_facts t
  funext y
  unfold iblk2
  rw [View.read_apply]
  show V c main_v71 _ = V c main_v71 y
  congr 1
  funext a
  apply Fin.ext
  match a with
  | ⟨0, _⟩ => show win2_6.index t (0 : Fin 2) * 128 + 1 * (y 0).val = (y 0).val; omega
  | ⟨1, _⟩ => show win2_6.index t (1 : Fin 2) * 64 + 1 * (y 1).val = (y 1).val; omega

/-- The normalisation's weight row. -/
theorem blk7_eq (c : Dev nD) (t : Fin cfg2.N) : (iblk2 V c 7 t : Vec Ideal S1x64 .f32) = (V c main_v31 : Vec Ideal S1x64 .f32) := by
  have e := idx_facts t
  funext y
  unfold iblk2
  rw [View.read_apply]
  show V c main_v31 _ = V c main_v31 y
  congr 1
  funext a
  apply Fin.ext
  match a with
  | ⟨0, _⟩ => show win2_7.index t (0 : Fin 2) * 1 + 1 * (y 0).val = (y 0).val; omega
  | ⟨1, _⟩ => show win2_7.index t (1 : Fin 2) * 64 + 1 * (y 1).val = (y 1).val; omega

/-- The normalisation's bias row. -/
theorem blk8_eq (c : Dev nD) (t : Fin cfg2.N) : (iblk2 V c 8 t : Vec Ideal S1x64 .f32) = (V c main_v32 : Vec Ideal S1x64 .f32) := by
  have e := idx_facts t
  funext y
  unfold iblk2
  rw [View.read_apply]
  show V c main_v32 _ = V c main_v32 y
  congr 1
  funext a
  apply Fin.ext
  match a with
  | ⟨0, _⟩ => show win2_8.index t (0 : Fin 2) * 1 + 1 * (y 0).val = (y 0).val; omega
  | ⟨1, _⟩ => show win2_8.index t (1 : Fin 2) * 64 + 1 * (y 1).val = (y 1).val; omega

/-- The second weight matrix. -/
theorem blk9_eq (c : Dev nD) (t : Fin cfg2.N) : (iblk2 V c 9 t : Vec Ideal S64x64 .f32) = (V c main_arg8 : Vec Ideal S64x64 .f32) := by
  have e := idx_facts t
  funext y
  unfold iblk2
  rw [View.read_apply]
  show V c main_arg8 _ = V c main_arg8 y
  congr 1
  funext a
  apply Fin.ext
  match a with
  | ⟨0, _⟩ => show win2_9.index t (0 : Fin 2) * 64 + 1 * (y 0).val = (y 0).val; omega
  | ⟨1, _⟩ => show win2_9.index t (1 : Fin 2) * 64 + 1 * (y 1).val = (y 1).val; omega

/-! ## From the tiles to the arrays -/

/-- The product as one function of the whole arrays the region is entered with. -/
abbrev featArr (c : Dev nD) : Fin 100000 → Fin 64 → EReal :=
  feat (normOfK (colv (V c main_v29 : IVec S100000x1 32)) (rowv (V c main_v31 : Vec Ideal S1x64 .f32)) (rowv (V c main_v32 : Vec Ideal S1x64 .f32))
      (tab2 (V c main_v68 : Vec Ideal S128x64 .f32)) (tab2 (V c main_v71 : Vec Ideal S128x64 .f32)) (xinK (colv (V c main_v14 : Vec Ideal S100000x1 .f32)) (tab2 (V c main_v47 : Vec Ideal S100000x64 .f32))
        (tab2 (V c main_v36_0 : Vec Ideal S100000x64 .f32)) (rowv (V c main_v30 : Vec Ideal S1x64 .f32))))
    (tab2 (V c main_arg8 : Vec Ideal S64x64 .f32))

/-- What the two output arrays end holding. -/
abbrev G10 (c : Dev nD) : Vec Ideal S100000x64 .f32 := fun y => featArr V c (y 0) (y 1)
abbrev G11 (c : Dev nD) : Vec Ideal S100000x64 .bf16 := fun y => featArr V c (y 0) (y 1) * colv (V c main_v14 : Vec Ideal S100000x1 .f32) (y 0)

theorem lt_rows (t : Fin cfg2.N) (r : Fin 4000) : t.val * 4000 + r.val < 100000 := by
  have h1 : t.val < 25 := lt_of_lt_of_eq t.isLt (show cfg2.N = 25 from N_2)
  have h2 := r.isLt
  omega

/-- What point `t` writes back to the first output is block `t` of `G10`. -/
theorem flushed10_eq (c : Dev nD) (t : Fin cfg2.N) :
    (dat2 V c).flushed 10 t = ((cfg2.win 10).blk t).view.read (Elt Ideal) (G10 V c) := by
  have e := idx_facts t
  show (cfg2.win 10).cut (grid2.coords t) ((dat2 V c).after 10 t) = _
  rw [after2_10]
  unfold out2_10
  rw [View.canon_unit_zero hz]
  simp only [View.ld_unit_zero (S := S4000x64) hz, View.ld_unit_zero (S := S4000x1) hz, View.ld_unit_zero (S := S1x64) hz,
    View.ld_unit_zero (S := S128x64) hz, View.ld_unit_zero (S := S64x64) hz]
  funext y
  obtain ⟨r, j, rfl⟩ : ∃ (r : Fin 4000) (j : Fin 64), y = ix2 r j := ⟨y 0, y 1, eq_ix2 y⟩
  have hemb : ((cfg2.win 10).blk t).view.emb (ix2 r j) = ix2 ⟨t.val * 4000 + r.val, lt_rows t r⟩ j := by
    funext a
    apply Fin.ext
    match a with
    | ⟨0, _⟩ => show win2_10.index t (0 : Fin 2) * 4000 + 1 * r.val = t.val * 4000 + r.val; omega
    | ⟨1, _⟩ => show win2_10.index t (1 : Fin 2) * 64 + 1 * j.val = j.val; omega
  rw [View.read_apply]
  show _ = G10 V c (((cfg2.win 10).blk t).view.emb (ix2 r j))
  rw [hemb]
  exact tile_feat (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t)
    (V c main_v47) (V c main_v36_0) (V c main_v14) (V c main_v30) (V c main_v29) (V c main_v68) (V c main_v71) (V c main_v31) (V c main_v32) (V c main_arg8)
    r j ⟨t.val * 4000 + r.val, lt_rows t r⟩
    (fun k => blk0_apply V c t r k _ rfl) (fun k => blk1_apply V c t r k _ rfl) (blk2_apply V c t r _ rfl) (blk3_eq V c t) (blk4_apply V c t r _ rfl)
    (blk5_eq V c t) (blk6_eq V c t) (blk7_eq V c t) (blk8_eq V c t) (blk9_eq V c t)

/-- What point `t` writes back to the second output is block `t` of `G11`. -/
theorem flushed11_eq (c : Dev nD) (t : Fin cfg2.N) :
    (dat2 V c).flushed 11 t = ((cfg2.win 11).blk t).view.read (Elt Ideal) (G11 V c) := by
  have e := idx_facts t
  show (cfg2.win 11).cut (grid2.coords t) ((dat2 V c).after 11 t) = _
  rw [after2_11]
  unfold out2_11
  rw [View.canon_unit_zero hz]
  simp only [View.ld_unit_zero (S := S4000x64) hz, View.ld_unit_zero (S := S4000x1) hz, View.ld_unit_zero (S := S1x64) hz,
    View.ld_unit_zero (S := S128x64) hz, View.ld_unit_zero (S := S64x64) hz]
  funext y
  obtain ⟨r, j, rfl⟩ : ∃ (r : Fin 4000) (j : Fin 64), y = ix2 r j := ⟨y 0, y 1, eq_ix2 y⟩
  have hemb : ((cfg2.win 11).blk t).view.emb (ix2 r j) = ix2 ⟨t.val * 4000 + r.val, lt_rows t r⟩ j := by
    funext a
    apply Fin.ext
    match a with
    | ⟨0, _⟩ => show win2_11.index t (0 : Fin 2) * 4000 + 1 * r.val = t.val * 4000 + r.val; omega
    | ⟨1, _⟩ => show win2_11.index t (1 : Fin 2) * 64 + 1 * j.val = j.val; omega
  rw [View.read_apply]
  show _ = G11 V c (((cfg2.win 11).blk t).view.emb (ix2 r j))
  rw [hemb]
  exact tile_feats (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t)
    (V c main_v47) (V c main_v36_0) (V c main_v14) (V c main_v30) (V c main_v29) (V c main_v68) (V c main_v71) (V c main_v31) (V c main_v32) (V c main_arg8)
    r j ⟨t.val * 4000 + r.val, lt_rows t r⟩
    (fun k => blk0_apply V c t r k _ rfl) (fun k => blk1_apply V c t r k _ rfl) (blk2_apply V c t r _ rfl) (blk3_eq V c t) (blk4_apply V c t r _ rfl)
    (blk5_eq V c t) (blk6_eq V c t) (blk7_eq V c t) (blk8_eq V c t) (blk9_eq V c t)

/-- An index of the first output is in point `t`'s block iff each coordinate is in the block's range on its axis. -/
theorem mem_blk10 (t : Fin cfg2.N) (i : S100000x64.Idx) :
    i ∈ ((cfg2.win 10).blk t).view.set ↔ ∀ a : Fin 2, win2_10.index t a * S4000x64.size a ≤ (i a).val ∧ (i a).val < win2_10.index t a * S4000x64.size a + S4000x64.size a := by
  show i ∈ ((View.whole main_v72_0).slice (win2_10.rect t)).set ↔ _
  rw [View.set_slice_whole, Rect.mem_set_unit]
  exact Iff.rfl

/-- The same for the second output. -/
theorem mem_blk11 (t : Fin cfg2.N) (i : S100000x64.Idx) :
    i ∈ ((cfg2.win 11).blk t).view.set ↔ ∀ a : Fin 2, win2_11.index t a * S4000x64.size a ≤ (i a).val ∧ (i a).val < win2_11.index t a * S4000x64.size a + S4000x64.size a := by
  show i ∈ ((View.whole main_v72_1).slice (win2_11.rect t)).set ↔ _
  rw [View.set_slice_whole, Rect.mem_set_unit]
  exact Iff.rfl

/-- The point whose tile holds a row: the row's number over 4000. -/
theorem point_of_row (i : Fin 100000) : ∃ t : Fin cfg2.N, t.val = i.val / 4000 := by
  have := i.isLt
  exact ⟨⟨i.val / 4000, by rw [show cfg2.N = 25 from N_2]; omega⟩, rfl⟩

/-- The tiles cover the first output: row `r` is in the block of point `r / 4000`. -/
theorem cover10 (i : S100000x64.Idx) : ∃ t : Fin cfg2.N, (cfg2.win 10).flush t = true ∧ i ∈ ((cfg2.win 10).blk t).view.set := by
  have hi0 : (i 0).val < 100000 := (i 0).isLt
  have hi1 : (i 1).val < 64 := (i 1).isLt
  obtain ⟨t, ht⟩ := point_of_row (i 0)
  have e := idx_facts t
  refine ⟨t, flush2_10 t, ?_⟩
  rw [mem_blk10]
  intro a
  match a with
  | ⟨0, _⟩ => show win2_10.index t (0 : Fin 2) * 4000 ≤ (i 0).val ∧ (i 0).val < win2_10.index t (0 : Fin 2) * 4000 + 4000; omega
  | ⟨1, _⟩ => show win2_10.index t (1 : Fin 2) * 64 ≤ (i 1).val ∧ (i 1).val < win2_10.index t (1 : Fin 2) * 64 + 64; omega

/-- The tiles cover the second output. -/
theorem cover11 (i : S100000x64.Idx) : ∃ t : Fin cfg2.N, (cfg2.win 11).flush t = true ∧ i ∈ ((cfg2.win 11).blk t).view.set := by
  have hi0 : (i 0).val < 100000 := (i 0).isLt
  have hi1 : (i 1).val < 64 := (i 1).isLt
  obtain ⟨t, ht⟩ := point_of_row (i 0)
  have e := idx_facts t
  refine ⟨t, flush2_11 t, ?_⟩
  rw [mem_blk11]
  intro a
  match a with
  | ⟨0, _⟩ => show win2_11.index t (0 : Fin 2) * 4000 ≤ (i 0).val ∧ (i 0).val < win2_11.index t (0 : Fin 2) * 4000 + 4000; omega
  | ⟨1, _⟩ => show win2_11.index t (1 : Fin 2) * 64 ≤ (i 1).val ∧ (i 1).val < win2_11.index t (1 : Fin 2) * 64 + 64; omega

/-- The first output array after the region. -/
theorem final10 (c : Dev nD) : (dat2 V c).arrAt 10 cfg2.N = G10 V c :=
  (dat2 V c).arrAt_eq_of_cover 10 (G10 V c) (fun t _ => flushed10_eq V c t) cover10

/-- The second output array after the region. -/
theorem final11 (c : Dev nD) : (dat2 V c).arrAt 11 cfg2.N = G11 V c :=
  (dat2 V c).arrAt_eq_of_cover 11 (G11 V c) (fun t _ => flushed11_eq V c t) cover11

end Reg2

/-! ## The region's two output arrays, entry by entry -/

theorem reg2_feat (c : Dev nD) (i : Fin 100000) (j : Fin 64) :
    ((dat2 V c).arrAt 10 cfg2.N : Vec Ideal S100000x64 .f32) (ix2 i j)
      = feat (normOfK (colv (V c main_v29 : IVec S100000x1 32)) (rowv (V c main_v31 : Vec Ideal S1x64 .f32)) (rowv (V c main_v32 : Vec Ideal S1x64 .f32))
          (tab2 (V c main_v68 : Vec Ideal S128x64 .f32)) (tab2 (V c main_v71 : Vec Ideal S128x64 .f32)) (xinK (colv (V c main_v14 : Vec Ideal S100000x1 .f32)) (tab2 (V c main_v47 : Vec Ideal S100000x64 .f32))
        (tab2 (V c main_v36_0 : Vec Ideal S100000x64 .f32)) (rowv (V c main_v30 : Vec Ideal S1x64 .f32))))
          (tab2 (V c main_arg8 : Vec Ideal S64x64 .f32)) i j :=
  congrFun (Reg2.final10 V c) (ix2 i j)

theorem reg2_feats (c : Dev nD) (i : Fin 100000) (j : Fin 64) :
    ((dat2 V c).arrAt 11 cfg2.N : Vec Ideal S100000x64 .bf16) (ix2 i j)
      = feat (normOfK (colv (V c main_v29 : IVec S100000x1 32)) (rowv (V c main_v31 : Vec Ideal S1x64 .f32)) (rowv (V c main_v32 : Vec Ideal S1x64 .f32))
          (tab2 (V c main_v68 : Vec Ideal S128x64 .f32)) (tab2 (V c main_v71 : Vec Ideal S128x64 .f32)) (xinK (colv (V c main_v14 : Vec Ideal S100000x1 .f32)) (tab2 (V c main_v47 : Vec Ideal S100000x64 .f32))
        (tab2 (V c main_v36_0 : Vec Ideal S100000x64 .f32)) (rowv (V c main_v30 : Vec Ideal S1x64 .f32))))
          (tab2 (V c main_arg8 : Vec Ideal S64x64 .f32)) i j * colv (V c main_v14 : Vec Ideal S100000x1 .f32) i :=
  congrFun (Reg2.final11 V c) (ix2 i j)

end Cert.KernelIdeal.KV

end
-- ==== Proof.KReg3.lean ====
/-
  The fourth pallas_call: over a grid of two halves by ten tiles of 5000 rows it forms the convolution's output row
  by row, and accumulates into each half's block the one-hot product's per-graph sums of it and of its square. The
  block is reset at a half's first tile and carried over the other nine, so after a half's last tile it holds the sum
  over the half's ten tiles.
-/
import proofs.«420537_j75831942578735_3_alg».proof.Proof.Gen.KernelIdeal.Frame
import proofs.«420537_j75831942578735_3_alg».proof.Proof.Views
import proofs.«420537_j75831942578735_3_alg».proof.Proof.LibOneHot
import Idealize.ShloMosaic.Lib.Pipeline.Value
import Idealize.ShloMosaic.Lib.ValueLayout
import Idealize.ShloMosaic.PureOps.Ideal.Laws

set_option maxRecDepth 16384

noncomputable section

namespace Cert.KernelIdeal.KV

open Idealize.ShloMosaic Idealize.ShloMosaic.TcCoe Idealize.ShloMosaic.ValueIdx Idealize.SL.Sem
open Idealize.ShloMosaic.Pipeline (Dat Cfg Window)
open Cert.KernelIdeal Cert.KernelIdeal.Gen GCN
open scoped BigOperators

namespace Reg3

/-! ## What each case leaves in the two blocks, as the payloads of the point's blocks -/

section Pieces
variable {F : FTy → Type} [FloatOps F]

private theorem zeros2 : (![0, 0] : Fin 2 → Nat) = fun _ => 0 := funext fun a => by fin_cases a <;> rfl
private theorem zeros3 : (![0, 0, 0] : Fin 3 → Nat) = fun _ => 0 := funext fun a => by fin_cases a <;> rfl

/-- At a half's first tile the block of sums is reset and the tile's product added to the zeros. -/
theorem piece3_A_5 (c : Dev nD) (i : grid3.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S1x64 .f32) (harg5 : arg5.IsWhole) (arg6 : Memref sig .tc .vmem S5000x1 .i32) (harg6 : arg6.IsWhole) (arg7 : Memref sig .tc .vmem S1x128x64 .f32) (harg7 : arg7.IsWhole) (arg8 : Memref sig .tc .vmem S1x128x64 .f32) (harg8 : arg8.IsWhole) (hc0 : cond3_0 i)
    (x0 : Vec F S5000x64 .f32) (x1 : Vec F S5000x64 .f32) (x2 : Vec F S5000x1 .f32) (x3 : Vec F S1x64 .f32) (x4 : Vec F S5000x1 .i32) :
    out3_A_5 c i arg2 harg2 arg3 harg3 arg4 harg4 arg5 harg5 arg6 harg6 arg7 harg7 arg8 harg8 hc0 x0 x1 x2 x3 x4
      = k3_pay7 x2 x0 x1 x3 x4 (k3_pay2 (F := F)) := by
  unfold out3_A_5
  rw [View.read_writes_eq_canon _ _ _ (cover3_A_5 c i arg2 harg2 arg3 harg3 arg4 harg4 arg5 harg5 arg6 harg6 arg7 harg7 arg8 harg8 hc0 x0 x1 x2 x3 x4)]
  unfold kernelRun3_A
  dsimp only
  sl_unfold_words
  rw [View.canon_cons_unit_zero (S := S1x128x64) zeros3, View.readCov_unit_zero (S := S1x128x64) _ zeros3]
  simp only [View.readAt_eq_ld, harg2.read_unread, harg3.read_unread, harg4.read_unread, harg5.read_unread, harg6.read_unread,
    View.ld_unit_zero (S := S5000x64) zeros2, View.ld_unit_zero (S := S5000x1) zeros2, View.ld_unit_zero (S := S1x64) zeros2]

/-- The same for the block of sums of squares. -/
theorem piece3_A_6 (c : Dev nD) (i : grid3.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S1x64 .f32) (harg5 : arg5.IsWhole) (arg6 : Memref sig .tc .vmem S5000x1 .i32) (harg6 : arg6.IsWhole) (arg7 : Memref sig .tc .vmem S1x128x64 .f32) (harg7 : arg7.IsWhole) (arg8 : Memref sig .tc .vmem S1x128x64 .f32) (harg8 : arg8.IsWhole) (hc0 : cond3_0 i)
    (x0 : Vec F S5000x64 .f32) (x1 : Vec F S5000x64 .f32) (x2 : Vec F S5000x1 .f32) (x3 : Vec F S1x64 .f32) (x4 : Vec F S5000x1 .i32) :
    out3_A_6 c i arg2 harg2 arg3 harg3 arg4 harg4 arg5 harg5 arg6 harg6 arg7 harg7 arg8 harg8 hc0 x0 x1 x2 x3 x4
      = k3_pay1 (k3_pay6 x2 x0 x1 x3 x4) (k3_pay3 (F := F)) := by
  unfold out3_A_6
  rw [View.read_writes_eq_canon _ _ _ (cover3_A_6 c i arg2 harg2 arg3 harg3 arg4 harg4 arg5 harg5 arg6 harg6 arg7 harg7 arg8 harg8 hc0 x0 x1 x2 x3 x4)]
  unfold kernelRun3_A
  dsimp only
  sl_unfold_words
  rw [View.canon_cons_unit_zero (S := S1x128x64) zeros3, View.readCov_unit_zero (S := S1x128x64) _ zeros3]
  simp only [View.readAt_eq_ld, harg2.read_unread, harg3.read_unread, harg4.read_unread, harg5.read_unread, harg6.read_unread,
    View.ld_unit_zero (S := S5000x64) zeros2, View.ld_unit_zero (S := S5000x1) zeros2, View.ld_unit_zero (S := S1x64) zeros2]

/-- At every other tile the tile's product is added to what the block holds. -/
theorem piece3_B_5 (c : Dev nD) (i : grid3.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S1x64 .f32) (harg5 : arg5.IsWhole) (arg6 : Memref sig .tc .vmem S5000x1 .i32) (harg6 : arg6.IsWhole) (arg7 : Memref sig .tc .vmem S1x128x64 .f32) (harg7 : arg7.IsWhole) (arg8 : Memref sig .tc .vmem S1x128x64 .f32) (harg8 : arg8.IsWhole) (hc0 : ¬cond3_0 i)
    (x0 : Vec F S5000x64 .f32) (x1 : Vec F S5000x64 .f32) (x2 : Vec F S5000x1 .f32) (x3 : Vec F S1x64 .f32) (x4 : Vec F S5000x1 .i32) (xo5 : Vec F S1x128x64 .f32) (xo6 : Vec F S1x128x64 .f32) :
    out3_B_5 c i arg2 harg2 arg3 harg3 arg4 harg4 arg5 harg5 arg6 harg6 arg7 harg7 arg8 harg8 hc0 x0 x1 x2 x3 x4 xo5 xo6
      = k3_pay7 x2 x0 x1 x3 x4 xo5 := by
  unfold out3_B_5
  rw [View.read_writes_eq_canon _ _ _ (cover3_B_5 c i arg2 harg2 arg3 harg3 arg4 harg4 arg5 harg5 arg6 harg6 arg7 harg7 arg8 harg8 hc0 x0 x1 x2 x3 x4 xo5 xo6)]
  unfold kernelRun3_B
  dsimp only
  sl_unfold_words
  rw [View.canon_unit_zero zeros3]
  simp only [View.readAt_eq_ld, harg2.read_unread, harg3.read_unread, harg4.read_unread, harg5.read_unread, harg6.read_unread,
    harg7.read_unread, harg8.read_unread,
    View.ld_unit_zero (S := S5000x64) zeros2, View.ld_unit_zero (S := S5000x1) zeros2, View.ld_unit_zero (S := S1x64) zeros2,
    View.ld_unit_zero (S := S1x128x64) zeros3]

/-- The same for the block of sums of squares. -/
theorem piece3_B_6 (c : Dev nD) (i : grid3.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S1x64 .f32) (harg5 : arg5.IsWhole) (arg6 : Memref sig .tc .vmem S5000x1 .i32) (harg6 : arg6.IsWhole) (arg7 : Memref sig .tc .vmem S1x128x64 .f32) (harg7 : arg7.IsWhole) (arg8 : Memref sig .tc .vmem S1x128x64 .f32) (harg8 : arg8.IsWhole) (hc0 : ¬cond3_0 i)
    (x0 : Vec F S5000x64 .f32) (x1 : Vec F S5000x64 .f32) (x2 : Vec F S5000x1 .f32) (x3 : Vec F S1x64 .f32) (x4 : Vec F S5000x1 .i32) (xo5 : Vec F S1x128x64 .f32) (xo6 : Vec F S1x128x64 .f32) :
    out3_B_6 c i arg2 harg2 arg3 harg3 arg4 harg4 arg5 harg5 arg6 harg6 arg7 harg7 arg8 harg8 hc0 x0 x1 x2 x3 x4 xo5 xo6
      = k3_pay1 (k3_pay6 x2 x0 x1 x3 x4) xo6 := by
  unfold out3_B_6
  rw [View.read_writes_eq_canon _ _ _ (cover3_B_6 c i arg2 harg2 arg3 harg3 arg4 harg4 arg5 harg5 arg6 harg6 arg7 harg7 arg8 harg8 hc0 x0 x1 x2 x3 x4 xo5 xo6)]
  unfold kernelRun3_B
  dsimp only
  sl_unfold_words
  rw [View.canon_unit_zero zeros3]
  simp only [View.readAt_eq_ld, harg2.read_unread, harg3.read_unread, harg4.read_unread, harg5.read_unread, harg6.read_unread,
    harg7.read_unread, harg8.read_unread,
    View.ld_unit_zero (S := S5000x64) zeros2, View.ld_unit_zero (S := S5000x1) zeros2, View.ld_unit_zero (S := S1x64) zeros2,
    View.ld_unit_zero (S := S1x128x64) zeros3]

end Pieces

/-! ## The payloads read at an index, over the extended reals -/

section Payloads

/-- The one-hot tile: at (r, g) it is 1 where the graph word of row r is the number g, 0 elsewhere. -/
theorem pay3_5_apply (w : Vec Ideal S5000x1 .i32) (r : Fin 5000) (g : Fin 128) :
    (k3_pay5 w : FVec Ideal S5000x128 .f32) (ix2 r g) = oh (w (ix2 r 0)) g.val := by
  unfold k3_pay5
  exact GCN.Ops.onehot_tile_apply (R := 5000) w shapeCasts_S5000x1_S5000x1 broadcasts_S5000x1_S5000x128
    iota_S5000x128_d1_w32 natLt_1_32 r g

/-- The product contracting the 5000 rows of both operands, into zeros: at (g, f) the sum over the rows. -/
private theorem matmul3_apply (lhs : FVec Ideal S5000x128 .f32) (rhs : FVec Ideal S5000x64 .f32) (g : Fin 128) (f : Fin 64) :
    matmul dot_S5000x128_S5000x64_S128x64_0_0_1_1_n_n (some .fp32) lhs rhs (constant S128x64 .f32 0x00000000#32) (ix2 g f)
      = ∑ r : Fin 5000, lhs (ix2 r g) * rhs (ix2 r f) :=
  GCN.Ops.matmul_rows dot_S5000x128_S5000x64_S128x64_0_0_1_1_n_n rfl rfl rfl rfl rfl rfl (some .fp32) lhs rhs g f

/-- The convolution's output tile: the aggregate rescaled, the self loop, the bias. -/
theorem pay3_4_apply (d : Vec Ideal S5000x1 .f32) (a ft : Vec Ideal S5000x64 .f32) (b : Vec Ideal S1x64 .f32)
    (r : Fin 5000) (f : Fin 64) :
    (k3_pay4 d a ft b : FVec Ideal S5000x64 .f32) (ix2 r f)
      = (d (ix2 r 0) * a (ix2 r f) + (d (ix2 r 0) * d (ix2 r 0)) * ft (ix2 r f)) + b (ix2 0 f) := by
  unfold k3_pay4
  simp only [shapeCast_self]
  rw [addf_apply, addf_apply, mulf_apply, mulf_apply, GCN.Ops.broadcastTo_a1_ab_apply, GCN.Ops.broadcastTo_a1_ab_apply,
    broadcastTo_1b_ab_apply, mulf_apply]

/-- The reset block is zero everywhere. -/
theorem pay3_2_apply (j : S1x128x64.Idx) : (k3_pay2 (F := Ideal)) j = 0 := by
  unfold k3_pay2
  obtain ⟨u, g, f, rfl⟩ : ∃ (u : Fin 1) (g : Fin 128) (f : Fin 64), j = ix3 u g f := ⟨j 0, j 1, j 2, eq_ix3 j⟩
  rw [shapeCast_ab_1ab_apply]
  exact Ideal.ofBits_zero_f32
theorem pay3_3_apply (j : S1x128x64.Idx) : (k3_pay3 (F := Ideal)) j = 0 := by
  unfold k3_pay3
  obtain ⟨u, g, f, rfl⟩ : ∃ (u : Fin 1) (g : Fin 128) (f : Fin 64), j = ix3 u g f := ⟨j 0, j 1, j 2, eq_ix3 j⟩
  rw [shapeCast_ab_1ab_apply]
  exact Ideal.ofBits_zero_f32

/-- The accumulation of the sums: what the block held plus the one-hot product of the tile. -/
theorem pay3_7_apply (d : Vec Ideal S5000x1 .f32) (a ft : Vec Ideal S5000x64 .f32) (b : Vec Ideal S1x64 .f32)
    (w : Vec Ideal S5000x1 .i32) (acc : Vec Ideal S1x128x64 .f32) (g : Fin 128) (f : Fin 64) :
    (k3_pay7 d a ft b w acc : FVec Ideal S1x128x64 .f32) (ix3 0 g f)
      = acc (ix3 0 g f) + ∑ r : Fin 5000, oh (w (ix2 r 0)) g
          * ((d (ix2 r 0) * a (ix2 r f) + (d (ix2 r 0) * d (ix2 r 0)) * ft (ix2 r f)) + b (ix2 0 f)) := by
  unfold k3_pay7
  rw [shapeCast_ab_1ab_apply, addf_apply, shapeCast_1ab_ab_apply, matmul3_apply]
  exact congrArg (acc (ix3 0 g f) + ·) (Finset.sum_congr rfl fun r _ => by rw [pay3_5_apply, pay3_4_apply])

/-- The accumulation of the sums of squares. -/
theorem pay3_1_apply (d : Vec Ideal S5000x1 .f32) (a ft : Vec Ideal S5000x64 .f32) (b : Vec Ideal S1x64 .f32)
    (w : Vec Ideal S5000x1 .i32) (acc : Vec Ideal S1x128x64 .f32) (g : Fin 128) (f : Fin 64) :
    (k3_pay1 (k3_pay6 d a ft b w) acc : FVec Ideal S1x128x64 .f32) (ix3 0 g f)
      = acc (ix3 0 g f) + ∑ r : Fin 5000, oh (w (ix2 r 0)) g
          * (((d (ix2 r 0) * a (ix2 r f) + (d (ix2 r 0) * d (ix2 r 0)) * ft (ix2 r f)) + b (ix2 0 f))
            * ((d (ix2 r 0) * a (ix2 r f) + (d (ix2 r 0) * d (ix2 r 0)) * ft (ix2 r f)) + b (ix2 0 f))) := by
  unfold k3_pay1 k3_pay6
  dsimp only
  rw [shapeCast_ab_1ab_apply, addf_apply, shapeCast_1ab_ab_apply, matmul3_apply]
  exact congrArg (acc (ix3 0 g f) + ·) (Finset.sum_congr rfl fun r _ => by rw [pay3_5_apply, mulf_apply, pay3_4_apply])

end Payloads

/-! ## The run over the twenty points -/

section Run

-- The buffer contents a region is entered with.
variable (V : (c : Dev nD) → (b : Ref sig .tc) → Buf (Elt Ideal) ((c : Thread nD τ).loc b))

/-- The arrays the region reads, as it finds them. -/
abbrev agg3 (c : Dev nD) : Vec Ideal S100000x64 .f32 := V c main_v83
abbrev ft3 (c : Dev nD) : Vec Ideal S100000x64 .f32 := V c main_v72_0
abbrev dinv3 (c : Dev nD) : Vec Ideal S100000x1 .f32 := V c main_v14
abbrev bias3 (c : Dev nD) : Vec Ideal S1x64 .f32 := V c main_v33
abbrev bat3 (c : Dev nD) : Vec Ideal S100000x1 .i32 := V c main_v29

/-- The convolution's output, row by row, and its square. -/
abbrev xin3 (c : Dev nD) : Fin 100000 → Fin 64 → EReal :=
  xinK (colv (dinv3 V c)) (tab2 (agg3 V c)) (tab2 (ft3 V c)) (rowv (bias3 V c))
abbrev xsq3 (c : Dev nD) : Fin 100000 → Fin 64 → EReal := fun i f => xin3 V c i f * xin3 V c i f

/-- The blocks of a point. -/
abbrev aggB3 (c : Dev nD) (t : Fin cfg3.N) : Vec Ideal S5000x64 .f32 := iblk3 V c 0 t
abbrev ftB3 (c : Dev nD) (t : Fin cfg3.N) : Vec Ideal S5000x64 .f32 := iblk3 V c 1 t
abbrev dinvB3 (c : Dev nD) (t : Fin cfg3.N) : Vec Ideal S5000x1 .f32 := iblk3 V c 2 t
abbrev biasB3 (c : Dev nD) (t : Fin cfg3.N) : Vec Ideal S1x64 .f32 := iblk3 V c 3 t
abbrev batB3 (c : Dev nD) (t : Fin cfg3.N) : Vec Ideal S5000x1 .i32 := iblk3 V c 4 t

/-- The index maps over the grid: the row windows are at row block `t`, the bias window at its one block, the two
    result windows at block `t / 10`. -/
theorem idx3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0
    ∧ win3_5.index t (0 : Fin 3) = t.val / 10 ∧ win3_5.index t (1 : Fin 3) = 0 ∧ win3_5.index t (2 : Fin 3) = 0
    ∧ win3_6.index t (0 : Fin 3) = t.val / 10 ∧ win3_6.index t (1 : Fin 3) = 0 ∧ win3_6.index t (2 : Fin 3) = 0 :=
  (by decide +kernel : ∀ t : Fin grid3.N, _)

theorem lt3 (t : Fin cfg3.N) : t.val < 20 := lt_of_lt_of_eq t.isLt (show cfg3.N = 20 from N_3)

theorem row_lt3 (t : Fin cfg3.N) (r : Fin 5000) : t.val * 5000 + r.val < 100000 := by
  have := lt3 t; have := r.isLt; omega

/-- Each block read where its window says: row `r` of the block at point `t` is row `t · 5000 + r` of the array. -/
theorem blk3_0 (c : Dev nD) (t : Fin cfg3.N) (r : Fin 5000) (f : Fin 64) :
    aggB3 V c t (ix2 r f) = agg3 V c (ix2 ⟨t.val * 5000 + r.val, row_lt3 t r⟩ f) := by
  obtain ⟨e0, e1, -⟩ := idx3 t
  show V c main_v83 (((cfg3.win 0).blk t).view.emb (ix2 r f)) = V c main_v83 _
  refine congrArg _ (funext fun a => Fin.ext ?_)
  match a with
  | ⟨0, _⟩ => show win3_0.index t (0 : Fin 2) * 5000 + 1 * r.val = t.val * 5000 + r.val; rw [e0]; omega
  | ⟨1, _⟩ => show win3_0.index t (1 : Fin 2) * 64 + 1 * f.val = f.val; rw [e1]; omega
theorem blk3_1 (c : Dev nD) (t : Fin cfg3.N) (r : Fin 5000) (f : Fin 64) :
    ftB3 V c t (ix2 r f) = ft3 V c (ix2 ⟨t.val * 5000 + r.val, row_lt3 t r⟩ f) := by
  obtain ⟨-, -, e0, e1, -⟩ := idx3 t
  show V c main_v72_0 (((cfg3.win 1).blk t).view.emb (ix2 r f)) = V c main_v72_0 _
  refine congrArg _ (funext fun a => Fin.ext ?_)
  match a with
  | ⟨0, _⟩ => show win3_1.index t (0 : Fin 2) * 5000 + 1 * r.val = t.val * 5000 + r.val; rw [e0]; omega
  | ⟨1, _⟩ => show win3_1.index t (1 : Fin 2) * 64 + 1 * f.val = f.val; rw [e1]; omega
theorem blk3_2 (c : Dev nD) (t : Fin cfg3.N) (r : Fin 5000) :
    dinvB3 V c t (ix2 r 0) = dinv3 V c (ix2 ⟨t.val * 5000 + r.val, row_lt3 t r⟩ 0) := by
  obtain ⟨-, -, -, -, e0, e1, -⟩ := idx3 t
  show V c main_v14 (((cfg3.win 2).blk t).view.emb (ix2 r 0)) = V c main_v14 _
  refine congrArg _ (funext fun a => Fin.ext ?_)
  match a with
  | ⟨0, _⟩ => show win3_2.index t (0 : Fin 2) * 5000 + 1 * r.val = t.val * 5000 + r.val; rw [e0]; omega
  | ⟨1, _⟩ => show win3_2.index t (1 : Fin 2) * 1 + 1 * 0 = 0; rw [e1]
theorem blk3_3 (c : Dev nD) (t : Fin cfg3.N) (f : Fin 64) :
    biasB3 V c t (ix2 0 f) = bias3 V c (ix2 0 f) := by
  obtain ⟨-, -, -, -, -, -, e0, e1, -⟩ := idx3 t
  show V c main_v33 (((cfg3.win 3).blk t).view.emb (ix2 0 f)) = V c main_v33 _
  refine congrArg _ (funext fun a => Fin.ext ?_)
  match a with
  | ⟨0, _⟩ => show win3_3.index t (0 : Fin 2) * 1 + 1 * 0 = 0; rw [e0]
  | ⟨1, _⟩ => show win3_3.index t (1 : Fin 2) * 64 + 1 * f.val = f.val; rw [e1]; omega
theorem blk3_4 (c : Dev nD) (t : Fin cfg3.N) (r : Fin 5000) :
    batB3 V c t (ix2 r 0) = bat3 V c (ix2 ⟨t.val * 5000 + r.val, row_lt3 t r⟩ 0) := by
  obtain ⟨-, -, -, -, -, -, -, -, e0, e1, -⟩ := idx3 t
  show V c main_v29 (((cfg3.win 4).blk t).view.emb (ix2 r 0)) = V c main_v29 _
  refine congrArg _ (funext fun a => Fin.ext ?_)
  match a with
  | ⟨0, _⟩ => show win3_4.index t (0 : Fin 2) * 5000 + 1 * r.val = t.val * 5000 + r.val; rw [e0]; omega
  | ⟨1, _⟩ => show win3_4.index t (1 : Fin 2) * 1 + 1 * 0 = 0; rw [e1]

/-- One tile's share of a per-graph sum: the one-hot product over the 5000 rows of tile `k` (nothing past the
    twenty tiles). -/
def tile3 (c : Dev nD) (Y : Fin 100000 → Fin 64 → EReal) (k : ℕ) (g : Fin 128) (f : Fin 64) : EReal :=
  if h : k < 20 then
    ∑ r : Fin 5000, oh (colv (bat3 V c) ⟨k * 5000 + r.val, by have := r.isLt; omega⟩) g
      * Y ⟨k * 5000 + r.val, by have := r.isLt; omega⟩ f
  else 0

/-- The tile's product read off the point's blocks is that share, for the convolution's output … -/
theorem tile3_x (c : Dev nD) (t : Fin cfg3.N) (g : Fin 128) (f : Fin 64) :
    ∑ r : Fin 5000, oh (batB3 V c t (ix2 r 0)) g
        * ((dinvB3 V c t (ix2 r 0) * aggB3 V c t (ix2 r f) + (dinvB3 V c t (ix2 r 0) * dinvB3 V c t (ix2 r 0)) * ftB3 V c t (ix2 r f))
          + biasB3 V c t (ix2 0 f))
      = tile3 V c (xin3 V c) t.val g f := by
  unfold tile3
  rw [dif_pos (lt3 t)]
  refine Finset.sum_congr rfl fun r _ => ?_
  rw [blk3_0, blk3_1, blk3_2, blk3_3, blk3_4]
  rfl
/-- … and for its square. -/
theorem tile3_xx (c : Dev nD) (t : Fin cfg3.N) (g : Fin 128) (f : Fin 64) :
    ∑ r : Fin 5000, oh (batB3 V c t (ix2 r 0)) g
        * (((dinvB3 V c t (ix2 r 0) * aggB3 V c t (ix2 r f) + (dinvB3 V c t (ix2 r 0) * dinvB3 V c t (ix2 r 0)) * ftB3 V c t (ix2 r f))
            + biasB3 V c t (ix2 0 f))
          * ((dinvB3 V c t (ix2 r 0) * aggB3 V c t (ix2 r f) + (dinvB3 V c t (ix2 r 0) * dinvB3 V c t (ix2 r 0)) * ftB3 V c t (ix2 r f))
            + biasB3 V c t (ix2 0 f)))
      = tile3 V c (xsq3 V c) t.val g f := by
  unfold tile3
  rw [dif_pos (lt3 t)]
  refine Finset.sum_congr rfl fun r _ => ?_
  rw [blk3_0, blk3_1, blk3_2, blk3_3, blk3_4]
  rfl

/-- A half's first point leaves the tile's shares over zeros. -/
theorem outs3_first (c : Dev nD) (t : Fin cfg3.N) (h0 : t.val % 10 = 0) (g : Fin 128) (f : Fin 64) :
    (outsAt3 V c t.val t.isLt).1 (ix3 0 g f) = 0 + tile3 V c (xin3 V c) t.val g f
    ∧ (outsAt3 V c t.val t.isLt).2 (ix3 0 g f) = 0 + tile3 V c (xsq3 V c) t.val g f := by
  rw [outsAt3_A V c t h0]
  dsimp only
  constructor
  · refine (congrFun (piece3_A_5 (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) ((hcond3_0 t).mpr h0) (iblk3 V c 0 t) (iblk3 V c 1 t) (iblk3 V c 2 t) (iblk3 V c 3 t) (iblk3 V c 4 t)) (ix3 0 g f)).trans ?_
    refine (pay3_7_apply (dinvB3 V c t) (aggB3 V c t) (ftB3 V c t) (biasB3 V c t) (batB3 V c t) (k3_pay2 (F := Ideal)) g f).trans ?_
    rw [pay3_2_apply, tile3_x]
  · refine (congrFun (piece3_A_6 (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) ((hcond3_0 t).mpr h0) (iblk3 V c 0 t) (iblk3 V c 1 t) (iblk3 V c 2 t) (iblk3 V c 3 t) (iblk3 V c 4 t)) (ix3 0 g f)).trans ?_
    refine (pay3_1_apply (dinvB3 V c t) (aggB3 V c t) (ftB3 V c t) (biasB3 V c t) (batB3 V c t) (k3_pay3 (F := Ideal)) g f).trans ?_
    rw [pay3_3_apply, tile3_xx]

/-- Every other point adds the tile's shares to what the point before left. -/
theorem outs3_next (c : Dev nD) (t : Fin cfg3.N) (h0 : ¬t.val % 10 = 0) (g : Fin 128) (f : Fin 64) :
    (outsAt3 V c t.val t.isLt).1 (ix3 0 g f)
        = (outsAt3 V c (t.val - 1) (Nat.lt_of_le_of_lt (Nat.sub_le _ _) t.isLt)).1 (ix3 0 g f) + tile3 V c (xin3 V c) t.val g f
    ∧ (outsAt3 V c t.val t.isLt).2 (ix3 0 g f)
        = (outsAt3 V c (t.val - 1) (Nat.lt_of_le_of_lt (Nat.sub_le _ _) t.isLt)).2 (ix3 0 g f) + tile3 V c (xsq3 V c) t.val g f := by
  rw [outsAt3_B V c t h0]
  dsimp only
  constructor
  · refine (congrFun (piece3_B_5 (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (fun h => h0 ((hcond3_0 t).mp h)) (iblk3 V c 0 t) (iblk3 V c 1 t) (iblk3 V c 2 t) (iblk3 V c 3 t) (iblk3 V c 4 t)
      (outsAt3 V c (t.val - 1) (Nat.lt_of_le_of_lt (Nat.sub_le _ _) t.isLt)).1 (outsAt3 V c (t.val - 1) (Nat.lt_of_le_of_lt (Nat.sub_le _ _) t.isLt)).2) (ix3 0 g f)).trans ?_
    refine (pay3_7_apply (dinvB3 V c t) (aggB3 V c t) (ftB3 V c t) (biasB3 V c t) (batB3 V c t)
      (outsAt3 V c (t.val - 1) (Nat.lt_of_le_of_lt (Nat.sub_le _ _) t.isLt)).1 g f).trans ?_
    rw [tile3_x]
  · refine (congrFun (piece3_B_6 (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (fun h => h0 ((hcond3_0 t).mp h)) (iblk3 V c 0 t) (iblk3 V c 1 t) (iblk3 V c 2 t) (iblk3 V c 3 t) (iblk3 V c 4 t)
      (outsAt3 V c (t.val - 1) (Nat.lt_of_le_of_lt (Nat.sub_le _ _) t.isLt)).1 (outsAt3 V c (t.val - 1) (Nat.lt_of_le_of_lt (Nat.sub_le _ _) t.isLt)).2) (ix3 0 g f)).trans ?_
    refine (pay3_1_apply (dinvB3 V c t) (aggB3 V c t) (ftB3 V c t) (biasB3 V c t) (batB3 V c t)
      (outsAt3 V c (t.val - 1) (Nat.lt_of_le_of_lt (Nat.sub_le _ _) t.isLt)).2 g f).trans ?_
    rw [tile3_xx]

end Run

section Result

-- The buffer contents a region is entered with.
variable (V : (c : Dev nD) → (b : Ref sig .tc) → Buf (Elt Ideal) ((c : Thread nD τ).loc b))

/-- After point `n` each block holds the shares of its half's tiles up to `n`: by induction on the point, the
    first point of a half starting the sum over and every other point adding one term. -/
theorem outs3_eq (c : Dev nD) (g : Fin 128) (f : Fin 64) : ∀ (n : ℕ) (hn : n < cfg3.N),
    (outsAt3 V c n hn).1 (ix3 0 g f) = ∑ s ∈ Finset.range (n % 10 + 1), tile3 V c (xin3 V c) (n / 10 * 10 + s) g f
    ∧ (outsAt3 V c n hn).2 (ix3 0 g f) = ∑ s ∈ Finset.range (n % 10 + 1), tile3 V c (xsq3 V c) (n / 10 * 10 + s) g f
  | 0, hn => by
    obtain ⟨h5, h6⟩ := outs3_first V c ⟨0, hn⟩ (Nat.zero_mod _) g f
    refine ⟨h5.trans ?_, h6.trans ?_⟩
    · show 0 + tile3 V c (xin3 V c) 0 g f = ∑ s ∈ Finset.range 1, tile3 V c (xin3 V c) (0 + s) g f
      rw [Finset.sum_range_one, zero_add]
    · show 0 + tile3 V c (xsq3 V c) 0 g f = ∑ s ∈ Finset.range 1, tile3 V c (xsq3 V c) (0 + s) g f
      rw [Finset.sum_range_one, zero_add]
  | n + 1, hn => by
    by_cases h0 : (n + 1) % 10 = 0
    · obtain ⟨h5, h6⟩ := outs3_first V c ⟨n + 1, hn⟩ h0 g f
      have e : (n + 1) / 10 * 10 + 0 = n + 1 := by omega
      refine ⟨h5.trans ?_, h6.trans ?_⟩
      · show 0 + tile3 V c (xin3 V c) (n + 1) g f = _
        rw [h0, Finset.sum_range_one, e, zero_add]
      · show 0 + tile3 V c (xsq3 V c) (n + 1) g f = _
        rw [h0, Finset.sum_range_one, e, zero_add]
    · obtain ⟨h5, h6⟩ := outs3_next V c ⟨n + 1, hn⟩ h0 g f
      obtain ⟨i5, i6⟩ := outs3_eq c g f n (Nat.lt_of_succ_lt hn)
      have em : (n + 1) % 10 = n % 10 + 1 := by omega
      have ed : (n + 1) / 10 = n / 10 := by omega
      have en : n / 10 * 10 + (n % 10 + 1) = n + 1 := by omega
      refine ⟨h5.trans ?_, h6.trans ?_⟩
      · show (outsAt3 V c n (Nat.lt_of_succ_lt hn)).1 (ix3 0 g f) + tile3 V c (xin3 V c) (n + 1) g f = _
        rw [i5, em, ed, Finset.sum_range_succ _ (n % 10 + 1), en]
      · show (outsAt3 V c n (Nat.lt_of_succ_lt hn)).2 (ix3 0 g f) + tile3 V c (xsq3 V c) (n + 1) g f = _
        rw [i6, em, ed, Finset.sum_range_succ _ (n % 10 + 1), en]

/-- The ten tiles of a half make the half's per-graph sum. -/
theorem half3 (c : Dev nD) (Y : Fin 100000 → Fin 64 → EReal) (core : Fin 2) (g : Fin 128) (f : Fin 64) :
    ∑ s ∈ Finset.range 10, tile3 V c Y (core.val * 10 + s) g f = partK (colv (bat3 V c)) Y core g f := by
  unfold partK
  rw [Finset.sum_range]
  refine Finset.sum_congr rfl fun s _ => ?_
  unfold tile3
  rw [dif_pos (by have := core.isLt; have := s.isLt; omega)]
  exact Finset.sum_congr rfl fun r _ => rfl

/-- The two results: every half's block at the half's per-graph sums. -/
abbrev sum3 (c : Dev nD) (Y : Fin 100000 → Fin 64 → EReal) : Vec Ideal S2x128x64 .f32 :=
  fun i => partK (colv (bat3 V c)) Y ⟨(i 0).val, (i 0).isLt⟩ ⟨(i 1).val, (i 1).isLt⟩ ⟨(i 2).val, (i 2).isLt⟩

/-- A half's last point writes its block of the sums back … -/
theorem flushed3_5 (c : Dev nD) (t : Fin cfg3.N) (hf : (cfg3.win 5).flush t = true) :
    (dat3 V c).flushed 5 t = ((cfg3.win 5).blk t).view.read (Elt Ideal) (sum3 V c (xin3 V c)) := by
  have h9 : t.val % 10 = 9 := (flush3_5 t).mp hf
  have hN := lt3 t
  obtain ⟨-, -, -, -, -, -, -, -, -, -, e0, e1, e2, -⟩ := idx3 t
  show (cfg3.win 5).cut (grid3.coords t) ((dat3 V c).after 5 t) = _
  rw [after3_5]
  refine tab3_ext (a := 1) (b := 128) (c := 64) fun u g f => ?_
  obtain rfl : u = 0 := Subsingleton.elim _ _
  have hemb : ((cfg3.win 5).blk t).view.emb (ix3 (0 : Fin 1) g f) = (ix3 (⟨t.val / 10, by omega⟩ : Fin 2) g f : S2x128x64.Idx) := by
    funext a; apply Fin.ext
    match a with
    | ⟨0, _⟩ => show win3_5.index t (0 : Fin 3) * 1 + 1 * 0 = t.val / 10; rw [e0]; omega
    | ⟨1, _⟩ => show win3_5.index t (1 : Fin 3) * 128 + 1 * g.val = g.val; rw [e1]; omega
    | ⟨2, _⟩ => show win3_5.index t (2 : Fin 3) * 64 + 1 * f.val = f.val; rw [e2]; omega
  show (outsAt3 V c t.val t.isLt).1 (ix3 0 g f) = sum3 V c (xin3 V c) (((cfg3.win 5).blk t).view.emb (ix3 (0 : Fin 1) g f))
  rw [hemb, (outs3_eq V c g f t.val t.isLt).1, h9]
  exact half3 V c (xin3 V c) ⟨t.val / 10, by omega⟩ g f
/-- … and its block of the sums of squares. -/
theorem flushed3_6 (c : Dev nD) (t : Fin cfg3.N) (hf : (cfg3.win 6).flush t = true) :
    (dat3 V c).flushed 6 t = ((cfg3.win 6).blk t).view.read (Elt Ideal) (sum3 V c (xsq3 V c)) := by
  have h9 : t.val % 10 = 9 := (flush3_6 t).mp hf
  have hN := lt3 t
  obtain ⟨-, -, -, -, -, -, -, -, -, -, -, -, -, e0, e1, e2⟩ := idx3 t
  show (cfg3.win 6).cut (grid3.coords t) ((dat3 V c).after 6 t) = _
  rw [after3_6]
  refine tab3_ext (a := 1) (b := 128) (c := 64) fun u g f => ?_
  obtain rfl : u = 0 := Subsingleton.elim _ _
  have hemb : ((cfg3.win 6).blk t).view.emb (ix3 (0 : Fin 1) g f) = (ix3 (⟨t.val / 10, by omega⟩ : Fin 2) g f : S2x128x64.Idx) := by
    funext a; apply Fin.ext
    match a with
    | ⟨0, _⟩ => show win3_6.index t (0 : Fin 3) * 1 + 1 * 0 = t.val / 10; rw [e0]; omega
    | ⟨1, _⟩ => show win3_6.index t (1 : Fin 3) * 128 + 1 * g.val = g.val; rw [e1]; omega
    | ⟨2, _⟩ => show win3_6.index t (2 : Fin 3) * 64 + 1 * f.val = f.val; rw [e2]; omega
  show (outsAt3 V c t.val t.isLt).2 (ix3 0 g f) = sum3 V c (xsq3 V c) (((cfg3.win 6).blk t).view.emb (ix3 (0 : Fin 1) g f))
  rw [hemb, (outs3_eq V c g f t.val t.isLt).2, h9]
  exact half3 V c (xsq3 V c) ⟨t.val / 10, by omega⟩ g f

/-- The last point of half `k`. -/
def lastOf3 (k : ℕ) (hk : k < 2) : Fin cfg3.N := ⟨k * 10 + 9, by rw [show cfg3.N = 20 from N_3]; omega⟩

/-- Every entry of a result array is in the block its half's last point writes back. -/
theorem cover3_5 (i : S2x128x64.Idx) :
    ∃ t : Fin cfg3.N, (cfg3.win 5).flush t = true ∧ i ∈ ((cfg3.win 5).blk t).view.set := by
  have hi0 : (i 0).val < 2 := (i 0).isLt
  have hi1 : (i 1).val < 128 := (i 1).isLt
  have hi2 : (i 2).val < 64 := (i 2).isLt
  refine ⟨lastOf3 (i 0).val hi0, (flush3_5 _).mpr (by show ((i 0).val * 10 + 9) % 10 = 9; omega), ?_⟩
  obtain ⟨-, -, -, -, -, -, -, -, -, -, e0, e1, e2, -⟩ := idx3 (lastOf3 (i 0).val hi0)
  have ev : (lastOf3 (i 0).val hi0).val / 10 = (i 0).val := by show ((i 0).val * 10 + 9) / 10 = (i 0).val; omega
  show i ∈ ((View.whole main_v84_0).slice (win3_5.rect (lastOf3 (i 0).val hi0))).set
  rw [View.set_slice_whole, Rect.mem_set_unit]
  intro a
  match a with
  | ⟨0, _⟩ => show win3_5.index (lastOf3 (i 0).val hi0) (0 : Fin 3) * 1 ≤ (i 0).val ∧ (i 0).val < win3_5.index (lastOf3 (i 0).val hi0) (0 : Fin 3) * 1 + 1; rw [e0, ev]; omega
  | ⟨1, _⟩ => show win3_5.index (lastOf3 (i 0).val hi0) (1 : Fin 3) * 128 ≤ (i 1).val ∧ (i 1).val < win3_5.index (lastOf3 (i 0).val hi0) (1 : Fin 3) * 128 + 128; rw [e1]; omega
  | ⟨2, _⟩ => show win3_5.index (lastOf3 (i 0).val hi0) (2 : Fin 3) * 64 ≤ (i 2).val ∧ (i 2).val < win3_5.index (lastOf3 (i 0).val hi0) (2 : Fin 3) * 64 + 64; rw [e2]; omega
theorem cover3_6 (i : S2x128x64.Idx) :
    ∃ t : Fin cfg3.N, (cfg3.win 6).flush t = true ∧ i ∈ ((cfg3.win 6).blk t).view.set := by
  have hi0 : (i 0).val < 2 := (i 0).isLt
  have hi1 : (i 1).val < 128 := (i 1).isLt
  have hi2 : (i 2).val < 64 := (i 2).isLt
  refine ⟨lastOf3 (i 0).val hi0, (flush3_6 _).mpr (by show ((i 0).val * 10 + 9) % 10 = 9; omega), ?_⟩
  obtain ⟨-, -, -, -, -, -, -, -, -, -, -, -, -, e0, e1, e2⟩ := idx3 (lastOf3 (i 0).val hi0)
  have ev : (lastOf3 (i 0).val hi0).val / 10 = (i 0).val := by show ((i 0).val * 10 + 9) / 10 = (i 0).val; omega
  show i ∈ ((View.whole main_v84_1).slice (win3_6.rect (lastOf3 (i 0).val hi0))).set
  rw [View.set_slice_whole, Rect.mem_set_unit]
  intro a
  match a with
  | ⟨0, _⟩ => show win3_6.index (lastOf3 (i 0).val hi0) (0 : Fin 3) * 1 ≤ (i 0).val ∧ (i 0).val < win3_6.index (lastOf3 (i 0).val hi0) (0 : Fin 3) * 1 + 1; rw [e0, ev]; omega
  | ⟨1, _⟩ => show win3_6.index (lastOf3 (i 0).val hi0) (1 : Fin 3) * 128 ≤ (i 1).val ∧ (i 1).val < win3_6.index (lastOf3 (i 0).val hi0) (1 : Fin 3) * 128 + 128; rw [e1]; omega
  | ⟨2, _⟩ => show win3_6.index (lastOf3 (i 0).val hi0) (2 : Fin 3) * 64 ≤ (i 2).val ∧ (i 2).val < win3_6.index (lastOf3 (i 0).val hi0) (2 : Fin 3) * 64 + 64; rw [e2]; omega

theorem reg3_sumx (c : Dev nD) (core : Fin 2) (g : Fin 128) (f : Fin 64) :
    ((dat3 V c).arrAt 5 cfg3.N : Vec Ideal S2x128x64 .f32) (ix3 core g f)
      = partK (colv (V c main_v29 : IVec S100000x1 32)) (xinK (colv (V c main_v14 : Vec Ideal S100000x1 .f32)) (tab2 (V c main_v83 : Vec Ideal S100000x64 .f32))
        (tab2 (V c main_v72_0 : Vec Ideal S100000x64 .f32)) (rowv (V c main_v33 : Vec Ideal S1x64 .f32))) core g f := by
  rw [(dat3 V c).arrAt_eq_of_cover 5 (sum3 V c (xin3 V c)) (flushed3_5 V c) cover3_5]

theorem reg3_sumx2 (c : Dev nD) (core : Fin 2) (g : Fin 128) (f : Fin 64) :
    ((dat3 V c).arrAt 6 cfg3.N : Vec Ideal S2x128x64 .f32) (ix3 core g f)
      = partK (colv (V c main_v29 : IVec S100000x1 32)) (fun i f => (xinK (colv (V c main_v14 : Vec Ideal S100000x1 .f32)) (tab2 (V c main_v83 : Vec Ideal S100000x64 .f32))
        (tab2 (V c main_v72_0 : Vec Ideal S100000x64 .f32)) (rowv (V c main_v33 : Vec Ideal S1x64 .f32))) i f * (xinK (colv (V c main_v14 : Vec Ideal S100000x1 .f32)) (tab2 (V c main_v83 : Vec Ideal S100000x64 .f32))
        (tab2 (V c main_v72_0 : Vec Ideal S100000x64 .f32)) (rowv (V c main_v33 : Vec Ideal S1x64 .f32))) i f) core g f := by
  rw [(dat3 V c).arrAt_eq_of_cover 6 (sum3 V c (xsq3 V c)) (flushed3_6 V c) cover3_6]

end Result

end Reg3

export Reg3 (reg3_sumx reg3_sumx2)

end Cert.KernelIdeal.KV

end
-- ==== Proof.KReg4.lean ====
/-
  The fifth pallas_call: over two halves by ten tiles of 5000 rows it forms the second convolution's output, normalises
  and rectifies it, and accumulates into each half's block the one-hot product's per-graph sums of the result.

  The road: each control case's stored pieces are the kernel's arithmetic of the loaded blocks; that arithmetic at an
  index is the carried block plus the tile's one-hot product of the normalised rows; the blocks are the arrays' rows
  of the tile; so after the j-th point of a half the block holds the sum of the half's first j + 1 tiles (induction
  on j), the half's last point writes the half's sum back, and the two halves' blocks tile the output array.
-/
import proofs.«420537_j75831942578735_3_alg».proof.Proof.Gen.KernelIdeal.Frame
import proofs.«420537_j75831942578735_3_alg».proof.Proof.Views
import proofs.«420537_j75831942578735_3_alg».proof.Proof.LibContract
import proofs.«420537_j75831942578735_3_alg».proof.Proof.LibOneHot
import Idealize.ShloMosaic.Lib.Pipeline.Value
import Idealize.ShloMosaic.Lib.ValueLayout
import Idealize.ShloMosaic.Lib.Tactic
import Idealize.ShloMosaic.PureOps.Ideal.Laws

set_option maxRecDepth 16384

noncomputable section

namespace Cert.KernelIdeal.KV

open Idealize.ShloMosaic Idealize.ShloMosaic.TcCoe Idealize.ShloMosaic.ValueIdx Idealize.SL.Sem
open Idealize.ShloMosaic.Pipeline (Dat Cfg Window)
open Cert.KernelIdeal Cert.KernelIdeal.Gen GCN

namespace Reg4

section Pieces
variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- A later tile of a half: the block carried so far plus this tile's one-hot product of the normalised rows. -/
theorem out_B (c : Dev nD) (i : grid4.Coords) (a2 : Memref sig .tc .vmem S5000x64 .f32) (h2 : a2.IsWhole) (a3 : Memref sig .tc .vmem S5000x64 .f32) (h3 : a3.IsWhole) (a4 : Memref sig .tc .vmem S5000x1 .f32) (h4 : a4.IsWhole) (a5 : Memref sig .tc .vmem S1x64 .f32) (h5 : a5.IsWhole) (a6 : Memref sig .tc .vmem S5000x1 .i32) (h6 : a6.IsWhole) (a7 : Memref sig .tc .vmem S128x64 .f32) (h7 : a7.IsWhole) (a8 : Memref sig .tc .vmem S128x64 .f32) (h8 : a8.IsWhole) (a9 : Memref sig .tc .vmem S1x64 .f32) (h9 : a9.IsWhole) (a10 : Memref sig .tc .vmem S1x64 .f32) (h10 : a10.IsWhole) (a11 : Memref sig .tc .vmem S1x128x64 .f32) (h11 : a11.IsWhole) (hc : ¬cond4_0 i)
    (x0 : Vec F S5000x64 .f32) (x1 : Vec F S5000x64 .f32) (x2 : Vec F S5000x1 .f32) (x3 : Vec F S1x64 .f32) (x4 : Vec F S5000x1 .i32) (x5 : Vec F S128x64 .f32) (x6 : Vec F S128x64 .f32) (x7 : Vec F S1x64 .f32) (x8 : Vec F S1x64 .f32) (xo : Vec F S1x128x64 .f32) :
    out4_B_9 c i a2 h2 a3 h3 a4 h4 a5 h5 a6 h6 a7 h7 a8 h8 a9 h9 a10 h10 a11 h11 hc x0 x1 x2 x3 x4 x5 x6 x7 x8 xo
      = k4_pay1 (k4_pay3 x4) (k4_pay4 x4 x6) (k4_pay5 x2 x0 x1 x3 x4 x5 x7) x8 xo := by
  unfold out4_B_9
  rw [View.read_writes_eq_canon _ _ _ (cover4_B_9 c i a2 h2 a3 h3 a4 h4 a5 h5 a6 h6 a7 h7 a8 h8 a9 h9 a10 h10 a11 h11 hc x0 x1 x2 x3 x4 x5 x6 x7 x8 xo)]
  unfold kernelRun4_B
  dsimp only
  sl_unfold_words
  rw [View.canon_unit_zero hz3]
  simp only [View.readAt_eq_ld, h2.read_unread, h3.read_unread, h4.read_unread, h5.read_unread, h6.read_unread, h7.read_unread, h8.read_unread, h9.read_unread, h10.read_unread, h11.read_unread, View.ld_unit_zero (S := S5000x64) hz2, View.ld_unit_zero (S := S5000x1) hz2, View.ld_unit_zero (S := S1x64) hz2, View.ld_unit_zero (S := S128x64) hz2, View.ld_unit_zero (S := S1x128x64) hz3]

/-- A half's first tile: the block is set to zero, read back, and this tile's product added to it. -/
theorem out_A (c : Dev nD) (i : grid4.Coords) (a2 : Memref sig .tc .vmem S5000x64 .f32) (h2 : a2.IsWhole) (a3 : Memref sig .tc .vmem S5000x64 .f32) (h3 : a3.IsWhole) (a4 : Memref sig .tc .vmem S5000x1 .f32) (h4 : a4.IsWhole) (a5 : Memref sig .tc .vmem S1x64 .f32) (h5 : a5.IsWhole) (a6 : Memref sig .tc .vmem S5000x1 .i32) (h6 : a6.IsWhole) (a7 : Memref sig .tc .vmem S128x64 .f32) (h7 : a7.IsWhole) (a8 : Memref sig .tc .vmem S128x64 .f32) (h8 : a8.IsWhole) (a9 : Memref sig .tc .vmem S1x64 .f32) (h9 : a9.IsWhole) (a10 : Memref sig .tc .vmem S1x64 .f32) (h10 : a10.IsWhole) (a11 : Memref sig .tc .vmem S1x128x64 .f32) (h11 : a11.IsWhole) (hc : cond4_0 i)
    (x0 : Vec F S5000x64 .f32) (x1 : Vec F S5000x64 .f32) (x2 : Vec F S5000x1 .f32) (x3 : Vec F S1x64 .f32) (x4 : Vec F S5000x1 .i32) (x5 : Vec F S128x64 .f32) (x6 : Vec F S128x64 .f32) (x7 : Vec F S1x64 .f32) (x8 : Vec F S1x64 .f32) :
    out4_A_9 c i a2 h2 a3 h3 a4 h4 a5 h5 a6 h6 a7 h7 a8 h8 a9 h9 a10 h10 a11 h11 hc x0 x1 x2 x3 x4 x5 x6 x7 x8
      = k4_pay1 (k4_pay3 x4) (k4_pay4 x4 x6) (k4_pay5 x2 x0 x1 x3 x4 x5 x7) x8 (k4_pay2 (F := F)) := by
  unfold out4_A_9
  rw [View.read_writes_eq_canon _ _ _ (cover4_A_9 c i a2 h2 a3 h3 a4 h4 a5 h5 a6 h6 a7 h7 a8 h8 a9 h9 a10 h10 a11 h11 hc x0 x1 x2 x3 x4 x5 x6 x7 x8)]
  unfold kernelRun4_A
  dsimp only
  sl_unfold_words
  rw [View.canon_cons_unit_zero (S := S1x128x64) hz3]
  simp only [View.readAt_eq_ld, View.readCov_unit_zero (S := S1x128x64) _ hz3, h2.read_unread, h3.read_unread, h4.read_unread, h5.read_unread, h6.read_unread, h7.read_unread, h8.read_unread, h9.read_unread, h10.read_unread, h11.read_unread, View.ld_unit_zero (S := S5000x64) hz2, View.ld_unit_zero (S := S5000x1) hz2, View.ld_unit_zero (S := S1x64) hz2, View.ld_unit_zero (S := S128x64) hz2, View.ld_unit_zero (S := S1x128x64) hz3]

end Pieces

section Payloads

/-- The one-hot tile at (r, g): the graph word of row r against the column number g. -/
theorem pay3_apply (v : Vec Ideal S5000x1 .i32) (r : Fin 5000) (g : Fin 128) :
    k4_pay3 (F := Ideal) v (ix2 r g) = oh (v (ix2 r (0 : Fin 1))) g.val :=
  GCN.Ops.onehot_tile_apply v _ _ _ _ r g

/-- The row-contracting product of a tile, into zeros, at (g, f). -/
theorem matmul_rows_tile (lhs : FVec Ideal S5000x128 .f32) (rhs : FVec Ideal S5000x64 .f32) (g : Fin 128) (f : Fin 64) :
    matmul dot_S5000x128_S5000x64_S128x64_0_0_1_1_n_n (some .fp32) lhs rhs (constant S128x64 .f32 0x00000000#32) (ix2 g f)
      = ∑ r : Fin 5000, lhs (ix2 r g) * rhs (ix2 r f) :=
  GCN.Ops.matmul_rows dot_S5000x128_S5000x64_S128x64_0_0_1_1_n_n rfl rfl rfl rfl rfl rfl (some .fp32) lhs rhs g f

/-- The plain product of a tile by a per-graph table, into zeros, at (r, f). -/
theorem matmul_plain_tile (lhs : FVec Ideal S5000x128 .f32) (rhs : FVec Ideal S128x64 .f32) (r : Fin 5000) (f : Fin 64) :
    matmul dot_S5000x128_S128x64_S5000x64_1_0_0_1_n_n (some .fp32) lhs rhs (constant S5000x64 .f32 0x00000000#32) (ix2 r f)
      = ∑ g : Fin 128, lhs (ix2 r g) * rhs (ix2 g f) :=
  Cert.LibContract.matmul_plain dot_S5000x128_S128x64_S5000x64_1_0_0_1_n_n rfl rfl rfl rfl rfl rfl (some .fp32) lhs rhs r f

/-- The reset block is zero. -/
theorem pay2_apply (g : Fin 128) (f : Fin 64) : k4_pay2 (F := Ideal) (ix3 (0 : Fin 1) g f) = 0 := by
  unfold k4_pay2
  refine (shapeCast_ab_1ab_apply _ _ (0 : Fin 1) g f).trans ?_
  exact Ideal.ofBits_zero_f32

/-- A per-graph table read at a row's graph through the one-hot tile. -/
theorem pay4_apply (x4 : Vec Ideal S5000x1 .i32) (x6 : Vec Ideal S128x64 .f32) (r : Fin 5000) (f : Fin 64) :
    k4_pay4 (F := Ideal) x4 x6 (ix2 r f) = ∑ g : Fin 128, oh (x4 (ix2 r 0)) g * x6 (ix2 g f) := by
  unfold k4_pay4
  refine (matmul_plain_tile _ _ r f).trans ?_
  refine Finset.sum_congr rfl fun g _ => ?_
  rw [pay3_apply, shapeCast_self]

/-- The convolution's output row, centred by its graph's scaled mean and scaled by the norm weight. -/
theorem pay5_apply (x2 : Vec Ideal S5000x1 .f32) (x0 x1 : Vec Ideal S5000x64 .f32) (x3 : Vec Ideal S1x64 .f32)
    (x4 : Vec Ideal S5000x1 .i32) (x5 : Vec Ideal S128x64 .f32) (x7 : Vec Ideal S1x64 .f32) (r : Fin 5000) (f : Fin 64) :
    k4_pay5 (F := Ideal) x2 x0 x1 x3 x4 x5 x7 (ix2 r f)
      = x7 (ix2 0 f) * ((((x2 (ix2 r 0) * x0 (ix2 r f)) + ((x2 (ix2 r 0) * x2 (ix2 r 0)) * x1 (ix2 r f))) + x3 (ix2 0 f))
          - ∑ g : Fin 128, oh (x4 (ix2 r 0)) g * x5 (ix2 g f)) := by
  unfold k4_pay5
  simp only [mulf_apply, addf_apply, subf_apply, shapeCast_self]
  rw [broadcastTo_1b_ab_apply, broadcastTo_1b_ab_apply, GCN.Ops.broadcastTo_a1_ab_apply, GCN.Ops.broadcastTo_a1_ab_apply, mulf_apply]
  have hm := (matmul_plain_tile (k4_pay3 (F := Ideal) x4) x5 r f).trans
    (Finset.sum_congr rfl fun g _ => by rw [pay3_apply])
  rw [hm]

/-- The accumulation: the carried block plus the one-hot tile's transpose times the normalised, rectified rows. -/
theorem pay1_apply (P3 : FVec Ideal S5000x128 .f32) (P4 P5 : FVec Ideal S5000x64 .f32) (x8 : Vec Ideal S1x64 .f32)
    (acc : Vec Ideal S1x128x64 .f32) (g : Fin 128) (f : Fin 64) :
    k4_pay1 (F := Ideal) P3 P4 P5 x8 acc (ix3 (0 : Fin 1) g f)
      = acc (ix3 (0 : Fin 1) g f) + ∑ r : Fin 5000, P3 (ix2 r g) * max ((P5 (ix2 r f) * P4 (ix2 r f)) + x8 (ix2 0 f)) 0 := by
  unfold k4_pay1
  refine (shapeCast_ab_1ab_apply _ _ (0 : Fin 1) g f).trans ?_
  rw [addf_apply, shapeCast_1ab_ab_apply]
  refine congrArg (fun z => acc (ix3 (0 : Fin 1) g f) + z) ?_
  refine (matmul_rows_tile _ _ g f).trans ?_
  refine Finset.sum_congr rfl fun r _ => ?_
  rw [maximumf_apply, addf_apply, mulf_apply, shapeCast_self, broadcastTo_1b_ab_apply, broadcast_apply]
  exact congrArg (fun z => P3 (ix2 r g) * max _ z) Ideal.ofBits_zero_f32

end Payloads

section Blocks

variable (V : (c : Dev nD) → (b : Ref sig .tc) → Buf (Elt Ideal) ((c : Thread nD τ).loc b))

/-- The printed index maps over the twenty points: the row-tiled windows sit at the point's own number, the whole
    tables at zero, the output at the half. -/
theorem idx_facts : ∀ t : Fin cfg4.N,
    win4_0.index t (0 : Fin 2) = t.val ∧ win4_0.index t (1 : Fin 2) = 0
  ∧ win4_1.index t (0 : Fin 2) = t.val ∧ win4_1.index t (1 : Fin 2) = 0
  ∧ win4_2.index t (0 : Fin 2) = t.val ∧ win4_2.index t (1 : Fin 2) = 0
  ∧ win4_3.index t (0 : Fin 2) = 0 ∧ win4_3.index t (1 : Fin 2) = 0
  ∧ win4_4.index t (0 : Fin 2) = t.val ∧ win4_4.index t (1 : Fin 2) = 0
  ∧ win4_5.index t (0 : Fin 2) = 0 ∧ win4_5.index t (1 : Fin 2) = 0
  ∧ win4_6.index t (0 : Fin 2) = 0 ∧ win4_6.index t (1 : Fin 2) = 0
  ∧ win4_7.index t (0 : Fin 2) = 0 ∧ win4_7.index t (1 : Fin 2) = 0
  ∧ win4_8.index t (0 : Fin 2) = 0 ∧ win4_8.index t (1 : Fin 2) = 0
  ∧ win4_9.index t (0 : Fin 3) = t.val / 10 ∧ win4_9.index t (1 : Fin 3) = 0 ∧ win4_9.index t (2 : Fin 3) = 0 :=
  (by decide +kernel : ∀ t : Fin grid4.N, _)

theorem N4 : cfg4.N = 20 := N_4

/-- The node a tile's row is: tile `t` holds rows `5000·t … 5000·t + 4999`. -/
def rowT (t : Fin cfg4.N) (r : Fin 5000) : Fin 100000 :=
  ⟨t.val * 5000 + r.val, by have ht : t.val < 20 := lt_of_lt_of_eq t.isLt N4; have := r.isLt; omega⟩

theorem blk0_apply (c : Dev nD) (t : Fin cfg4.N) (r : Fin 5000) (f : Fin 64) :
    (iblk4 V c 0 t : Vec Ideal S5000x64 .f32) (ix2 r f) = (V c main_v83 : Vec Ideal S100000x64 .f32) (ix2 (rowT t r) f) := by
  have hf := idx_facts t
  unfold iblk4
  rw [View.read_apply]
  show V c main_v83 (((cfg4.win 0).blk t).view.emb (ix2 r f)) = V c main_v83 _
  refine congrArg _ (funext fun a => Fin.ext ?_)
  match a with
  | ⟨0, _⟩ => show win4_0.index t (0 : Fin 2) * 5000 + 1 * r.val = t.val * 5000 + r.val; rw [hf.1]; omega
  | ⟨1, _⟩ => show win4_0.index t (1 : Fin 2) * 64 + 1 * (f : Fin 64).val = (f : Fin 64).val; rw [hf.2.1]; omega

theorem blk1_apply (c : Dev nD) (t : Fin cfg4.N) (r : Fin 5000) (f : Fin 64) :
    (iblk4 V c 1 t : Vec Ideal S5000x64 .f32) (ix2 r f) = (V c main_v72_0 : Vec Ideal S100000x64 .f32) (ix2 (rowT t r) f) := by
  have hf := idx_facts t
  unfold iblk4
  rw [View.read_apply]
  show V c main_v72_0 (((cfg4.win 1).blk t).view.emb (ix2 r f)) = V c main_v72_0 _
  refine congrArg _ (funext fun a => Fin.ext ?_)
  match a with
  | ⟨0, _⟩ => show win4_1.index t (0 : Fin 2) * 5000 + 1 * r.val = t.val * 5000 + r.val; rw [hf.2.2.1]; omega
  | ⟨1, _⟩ => show win4_1.index t (1 : Fin 2) * 64 + 1 * (f : Fin 64).val = (f : Fin 64).val; rw [hf.2.2.2.1]; omega

theorem blk2_apply (c : Dev nD) (t : Fin cfg4.N) (r : Fin 5000) :
    (iblk4 V c 2 t : Vec Ideal S5000x1 .f32) (ix2 r (0 : Fin 1)) = (V c main_v14 : Vec Ideal S100000x1 .f32) (ix2 (rowT t r) (0 : Fin 1)) := by
  have hf := idx_facts t
  unfold iblk4
  rw [View.read_apply]
  show V c main_v14 (((cfg4.win 2).blk t).view.emb (ix2 r (0 : Fin 1))) = V c main_v14 _
  refine congrArg _ (funext fun a => Fin.ext ?_)
  match a with
  | ⟨0, _⟩ => show win4_2.index t (0 : Fin 2) * 5000 + 1 * r.val = t.val * 5000 + r.val; rw [hf.2.2.2.2.1]; omega
  | ⟨1, _⟩ => show win4_2.index t (1 : Fin 2) * 1 + 1 * ((0 : Fin 1) : Fin 1).val = ((0 : Fin 1) : Fin 1).val; rw [hf.2.2.2.2.2.1]; rfl

theorem blk3_apply (c : Dev nD) (t : Fin cfg4.N) (f : Fin 64) :
    (iblk4 V c 3 t : Vec Ideal S1x64 .f32) (ix2 (0 : Fin 1) f) = (V c main_v33 : Vec Ideal S1x64 .f32) (ix2 (0 : Fin 1) f) := by
  have hf := idx_facts t
  unfold iblk4
  rw [View.read_apply]
  show V c main_v33 (((cfg4.win 3).blk t).view.emb (ix2 (0 : Fin 1) f)) = V c main_v33 _
  refine congrArg _ (funext fun a => Fin.ext ?_)
  match a with
  | ⟨0, _⟩ => show win4_3.index t (0 : Fin 2) * 1 + 1 * ((0 : Fin 1) : Fin 1).val = ((0 : Fin 1) : Fin 1).val; rw [hf.2.2.2.2.2.2.1]; rfl
  | ⟨1, _⟩ => show win4_3.index t (1 : Fin 2) * 64 + 1 * f.val = f.val; rw [hf.2.2.2.2.2.2.2.1]; omega

theorem blk4_apply (c : Dev nD) (t : Fin cfg4.N) (r : Fin 5000) :
    (iblk4 V c 4 t : IVec S5000x1 32) (ix2 r (0 : Fin 1)) = (V c main_v29 : IVec S100000x1 32) (ix2 (rowT t r) (0 : Fin 1)) := by
  have hf := idx_facts t
  unfold iblk4
  rw [View.read_apply]
  show V c main_v29 (((cfg4.win 4).blk t).view.emb (ix2 r (0 : Fin 1))) = V c main_v29 _
  refine congrArg _ (funext fun a => Fin.ext ?_)
  match a with
  | ⟨0, _⟩ => show win4_4.index t (0 : Fin 2) * 5000 + 1 * r.val = t.val * 5000 + r.val; rw [hf.2.2.2.2.2.2.2.2.1]; omega
  | ⟨1, _⟩ => show win4_4.index t (1 : Fin 2) * 1 + 1 * ((0 : Fin 1) : Fin 1).val = ((0 : Fin 1) : Fin 1).val; rw [hf.2.2.2.2.2.2.2.2.2.1]; rfl

theorem blk5_apply (c : Dev nD) (t : Fin cfg4.N) (g : Fin 128) (f : Fin 64) :
    (iblk4 V c 5 t : Vec Ideal S128x64 .f32) (ix2 g f) = (V c main_v104 : Vec Ideal S128x64 .f32) (ix2 g f) := by
  have hf := idx_facts t
  unfold iblk4
  rw [View.read_apply]
  show V c main_v104 (((cfg4.win 5).blk t).view.emb (ix2 g f)) = V c main_v104 _
  refine congrArg _ (funext fun a => Fin.ext ?_)
  match a with
  | ⟨0, _⟩ => show win4_5.index t (0 : Fin 2) * 128 + 1 * (g : Fin 128).val = (g : Fin 128).val; rw [hf.2.2.2.2.2.2.2.2.2.2.1]; omega
  | ⟨1, _⟩ => show win4_5.index t (1 : Fin 2) * 64 + 1 * f.val = f.val; rw [hf.2.2.2.2.2.2.2.2.2.2.2.1]; omega

theorem blk6_apply (c : Dev nD) (t : Fin cfg4.N) (g : Fin 128) (f : Fin 64) :
    (iblk4 V c 6 t : Vec Ideal S128x64 .f32) (ix2 g f) = (V c main_v107 : Vec Ideal S128x64 .f32) (ix2 g f) := by
  have hf := idx_facts t
  unfold iblk4
  rw [View.read_apply]
  show V c main_v107 (((cfg4.win 6).blk t).view.emb (ix2 g f)) = V c main_v107 _
  refine congrArg _ (funext fun a => Fin.ext ?_)
  match a with
  | ⟨0, _⟩ => show win4_6.index t (0 : Fin 2) * 128 + 1 * (g : Fin 128).val = (g : Fin 128).val; rw [hf.2.2.2.2.2.2.2.2.2.2.2.2.1]; omega
  | ⟨1, _⟩ => show win4_6.index t (1 : Fin 2) * 64 + 1 * f.val = f.val; rw [hf.2.2.2.2.2.2.2.2.2.2.2.2.2.1]; omega

theorem blk7_apply (c : Dev nD) (t : Fin cfg4.N) (f : Fin 64) :
    (iblk4 V c 7 t : Vec Ideal S1x64 .f32) (ix2 (0 : Fin 1) f) = (V c main_v34 : Vec Ideal S1x64 .f32) (ix2 (0 : Fin 1) f) := by
  have hf := idx_facts t
  unfold iblk4
  rw [View.read_apply]
  show V c main_v34 (((cfg4.win 7).blk t).view.emb (ix2 (0 : Fin 1) f)) = V c main_v34 _
  refine congrArg _ (funext fun a => Fin.ext ?_)
  match a with
  | ⟨0, _⟩ => show win4_7.index t (0 : Fin 2) * 1 + 1 * ((0 : Fin 1) : Fin 1).val = ((0 : Fin 1) : Fin 1).val; rw [hf.2.2.2.2.2.2.2.2.2.2.2.2.2.2.1]; rfl
  | ⟨1, _⟩ => show win4_7.index t (1 : Fin 2) * 64 + 1 * f.val = f.val; rw [hf.2.2.2.2.2.2.2.2.2.2.2.2.2.2.2.1]; omega

theorem blk8_apply (c : Dev nD) (t : Fin cfg4.N) (f : Fin 64) :
    (iblk4 V c 8 t : Vec Ideal S1x64 .f32) (ix2 (0 : Fin 1) f) = (V c main_v35 : Vec Ideal S1x64 .f32) (ix2 (0 : Fin 1) f) := by
  have hf := idx_facts t
  unfold iblk4
  rw [View.read_apply]
  show V c main_v35 (((cfg4.win 8).blk t).view.emb (ix2 (0 : Fin 1) f)) = V c main_v35 _
  refine congrArg _ (funext fun a => Fin.ext ?_)
  match a with
  | ⟨0, _⟩ => show win4_8.index t (0 : Fin 2) * 1 + 1 * ((0 : Fin 1) : Fin 1).val = ((0 : Fin 1) : Fin 1).val; rw [hf.2.2.2.2.2.2.2.2.2.2.2.2.2.2.2.2.1]; rfl
  | ⟨1, _⟩ => show win4_8.index t (1 : Fin 2) * 64 + 1 * f.val = f.val; rw [hf.2.2.2.2.2.2.2.2.2.2.2.2.2.2.2.2.2.1]; omega

end Blocks

section Run

/-- One tile's addend to a graph's sum, over blocks known entry by entry: the carried block plus the one-hot
    product of the tile's normalised, rectified rows. -/
theorem tile_generic (bat : Fin 100000 → BitVec 32) (w β b : Fin 64 → EReal) (am isd : Fin 128 → Fin 64 → EReal)
    (dinv : Fin 100000 → EReal) (agg ft : Fin 100000 → Fin 64 → EReal) (ρ : Fin 5000 → Fin 100000)
    (x0 x1 : Vec Ideal S5000x64 .f32) (x2 : Vec Ideal S5000x1 .f32) (x3 : Vec Ideal S1x64 .f32)
    (x4 : Vec Ideal S5000x1 .i32) (x5 x6 : Vec Ideal S128x64 .f32) (x7 x8 : Vec Ideal S1x64 .f32)
    (acc : Vec Ideal S1x128x64 .f32)
    (h0 : ∀ r f, x0 (ix2 r f) = agg (ρ r) f) (h1 : ∀ r f, x1 (ix2 r f) = ft (ρ r) f)
    (h2 : ∀ r, x2 (ix2 r (0 : Fin 1)) = dinv (ρ r)) (h3 : ∀ f, x3 (ix2 (0 : Fin 1) f) = b f)
    (h4 : ∀ r, x4 (ix2 r (0 : Fin 1)) = bat (ρ r)) (h5 : ∀ g f, x5 (ix2 g f) = am g f)
    (h6 : ∀ g f, x6 (ix2 g f) = isd g f) (h7 : ∀ f, x7 (ix2 (0 : Fin 1) f) = w f)
    (h8 : ∀ f, x8 (ix2 (0 : Fin 1) f) = β f) (g : Fin 128) (f : Fin 64) :
    k4_pay1 (F := Ideal) (k4_pay3 x4) (k4_pay4 x4 x6) (k4_pay5 x2 x0 x1 x3 x4 x5 x7) x8 acc (ix3 (0 : Fin 1) g f)
      = acc (ix3 (0 : Fin 1) g f)
        + ∑ r : Fin 5000, oh (bat (ρ r)) g * normOfK bat w β am isd (xinK dinv agg ft b) (ρ r) f := by
  refine (pay1_apply _ _ _ x8 acc g f).trans ?_
  refine congrArg (fun z => acc (ix3 (0 : Fin 1) g f) + z) ?_
  refine Finset.sum_congr rfl fun r _ => ?_
  rw [pay3_apply, pay5_apply, pay4_apply]
  simp only [h0, h1, h2, h3, h4, h5, h6, h7, h8]
  rfl

variable (V : (c : Dev nD) → (b : Ref sig .tc) → Buf (Elt Ideal) ((c : Thread nD τ).loc b))

/-- The graph words and the normalised, rectified rows over all nodes, from the region-entry contents. -/
abbrev Bat (c : Dev nD) : Fin 100000 → BitVec 32 := colv (V c main_v29 : IVec S100000x1 32)
abbrev Hn (c : Dev nD) : Fin 100000 → Fin 64 → EReal :=
  normOfK (colv (V c main_v29 : IVec S100000x1 32)) (rowv (V c main_v34 : Vec Ideal S1x64 .f32))
    (rowv (V c main_v35 : Vec Ideal S1x64 .f32)) (tab2 (V c main_v104 : Vec Ideal S128x64 .f32))
    (tab2 (V c main_v107 : Vec Ideal S128x64 .f32))
    (xinK (colv (V c main_v14 : Vec Ideal S100000x1 .f32)) (tab2 (V c main_v83 : Vec Ideal S100000x64 .f32))
      (tab2 (V c main_v72_0 : Vec Ideal S100000x64 .f32)) (rowv (V c main_v33 : Vec Ideal S1x64 .f32)))

/-- Tile `t`'s addend to graph `g`'s sum. -/
def tileT (c : Dev nD) (t : Fin cfg4.N) (g : Fin 128) (f : Fin 64) : EReal :=
  ∑ r : Fin 5000, oh (Bat V c (rowT t r)) g * Hn V c (rowT t r) f

/-- The same by the tile's number, zero past the grid. -/
def tileN (c : Dev nD) (n : ℕ) (g : Fin 128) (f : Fin 64) : EReal :=
  if h : n < cfg4.N then tileT V c ⟨n, h⟩ g f else 0

theorem tileN_of_lt (c : Dev nD) (n : ℕ) (h : n < cfg4.N) (g : Fin 128) (f : Fin 64) :
    tileN V c n g f = tileT V c ⟨n, h⟩ g f := by
  unfold tileN
  exact dif_pos h

/-- What the kernel's arithmetic makes of the blocks at point `t` and a carried block. -/
theorem tile_at (c : Dev nD) (t : Fin cfg4.N) (acc : Vec Ideal S1x128x64 .f32) (g : Fin 128) (f : Fin 64) :
    k4_pay1 (F := Ideal) (k4_pay3 (iblk4 V c 4 t)) (k4_pay4 (iblk4 V c 4 t) (iblk4 V c 6 t))
        (k4_pay5 (iblk4 V c 2 t) (iblk4 V c 0 t) (iblk4 V c 1 t) (iblk4 V c 3 t) (iblk4 V c 4 t) (iblk4 V c 5 t) (iblk4 V c 7 t))
        (iblk4 V c 8 t) acc (ix3 (0 : Fin 1) g f)
      = acc (ix3 (0 : Fin 1) g f) + tileT V c t g f :=
  tile_generic (Bat V c) (rowv (V c main_v34 : Vec Ideal S1x64 .f32)) (rowv (V c main_v35 : Vec Ideal S1x64 .f32))
    (rowv (V c main_v33 : Vec Ideal S1x64 .f32)) (tab2 (V c main_v104 : Vec Ideal S128x64 .f32))
    (tab2 (V c main_v107 : Vec Ideal S128x64 .f32)) (colv (V c main_v14 : Vec Ideal S100000x1 .f32))
    (tab2 (V c main_v83 : Vec Ideal S100000x64 .f32)) (tab2 (V c main_v72_0 : Vec Ideal S100000x64 .f32)) (rowT t)
    (iblk4 V c 0 t) (iblk4 V c 1 t) (iblk4 V c 2 t) (iblk4 V c 3 t) (iblk4 V c 4 t) (iblk4 V c 5 t) (iblk4 V c 6 t)
    (iblk4 V c 7 t) (iblk4 V c 8 t) acc
    (fun r f => blk0_apply V c t r f) (fun r f => blk1_apply V c t r f) (fun r => blk2_apply V c t r)
    (fun f => blk3_apply V c t f) (fun r => blk4_apply V c t r) (fun g f => blk5_apply V c t g f)
    (fun g f => blk6_apply V c t g f) (fun f => blk7_apply V c t f) (fun f => blk8_apply V c t f) g f

/-- A half's first point leaves zero plus its tile's addend. -/
theorem step_A (c : Dev nD) (t : Fin cfg4.N) (h0 : t.val % 10 = 0) (g : Fin 128) (f : Fin 64) :
    outsAt4 V c t.val t.isLt (ix3 (0 : Fin 1) g f) = 0 + tileT V c t g f := by
  rw [outsAt4_A V c t h0]
  refine (congrFun (out_A (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) ((hcond4_0 t).mpr h0) (iblk4 V c 0 t) (iblk4 V c 1 t) (iblk4 V c 2 t) (iblk4 V c 3 t) (iblk4 V c 4 t) (iblk4 V c 5 t) (iblk4 V c 6 t) (iblk4 V c 7 t) (iblk4 V c 8 t)) (ix3 (0 : Fin 1) g f)).trans ?_
  refine (tile_at V c t (k4_pay2 (F := Ideal)) g f).trans ?_
  rw [pay2_apply]

/-- A later point adds its tile's addend to what the point before left. -/
theorem step_B (c : Dev nD) (n : ℕ) (h : n + 1 < cfg4.N) (hB : ¬(n + 1) % 10 = 0) (g : Fin 128) (f : Fin 64) :
    outsAt4 V c (n + 1) h (ix3 (0 : Fin 1) g f)
      = outsAt4 V c n (Nat.lt_of_succ_lt h) (ix3 (0 : Fin 1) g f) + tileT V c ⟨n + 1, h⟩ g f := by
  rw [outsAt4_B V c ⟨n + 1, h⟩ hB]
  generalize hacc : outsAt4 V c ((⟨n + 1, h⟩ : Fin cfg4.N).val - 1) _ = acc
  have e : acc = outsAt4 V c n (Nat.lt_of_succ_lt h) := hacc.symm
  rw [← e]
  exact (congrFun (out_B (F := Ideal) c (grid4.coords ⟨n + 1, h⟩) (ms4_0 ⟨n + 1, h⟩) (hs4_0 ⟨n + 1, h⟩) (ms4_1 ⟨n + 1, h⟩) (hs4_1 ⟨n + 1, h⟩) (ms4_2 ⟨n + 1, h⟩) (hs4_2 ⟨n + 1, h⟩) (ms4_3 ⟨n + 1, h⟩) (hs4_3 ⟨n + 1, h⟩) (ms4_4 ⟨n + 1, h⟩) (hs4_4 ⟨n + 1, h⟩) (ms4_5 ⟨n + 1, h⟩) (hs4_5 ⟨n + 1, h⟩) (ms4_6 ⟨n + 1, h⟩) (hs4_6 ⟨n + 1, h⟩) (ms4_7 ⟨n + 1, h⟩) (hs4_7 ⟨n + 1, h⟩) (ms4_8 ⟨n + 1, h⟩) (hs4_8 ⟨n + 1, h⟩) (ms4_9 ⟨n + 1, h⟩) (hs4_9 ⟨n + 1, h⟩) (fun hh => hB ((hcond4_0 ⟨n + 1, h⟩).mp hh)) (iblk4 V c 0 ⟨n + 1, h⟩) (iblk4 V c 1 ⟨n + 1, h⟩) (iblk4 V c 2 ⟨n + 1, h⟩) (iblk4 V c 3 ⟨n + 1, h⟩) (iblk4 V c 4 ⟨n + 1, h⟩) (iblk4 V c 5 ⟨n + 1, h⟩) (iblk4 V c 6 ⟨n + 1, h⟩) (iblk4 V c 7 ⟨n + 1, h⟩) (iblk4 V c 8 ⟨n + 1, h⟩) acc) (ix3 (0 : Fin 1) g f)).trans
    (tile_at V c ⟨n + 1, h⟩ acc g f)

/-- After the point `10·q + j` the block holds the addends of the tiles `10·q … 10·q + j`. -/
theorem outs_inv (c : Dev nD) (q : ℕ) (g : Fin 128) (f : Fin 64) :
    ∀ (j : ℕ) (hj : j < 10) (h : 10 * q + j < cfg4.N),
      outsAt4 V c (10 * q + j) h (ix3 (0 : Fin 1) g f) = ∑ s ∈ Finset.range (j + 1), tileN V c (10 * q + s) g f
  | 0, _, h => by
    rw [Finset.sum_range_one]
    refine (step_A V c ⟨10 * q + 0, h⟩ (by show (10 * q + 0) % 10 = 0; omega) g f).trans ?_
    rw [zero_add]
    exact (tileN_of_lt V c (10 * q + 0) h g f).symm
  | j + 1, hj, h => by
    rw [Finset.sum_range_succ, ← outs_inv c q g f j (Nat.lt_of_succ_lt hj) (Nat.lt_of_succ_lt h)]
    refine (step_B V c (10 * q + j) h (by omega) g f).trans ?_
    exact congrArg (fun z => outsAt4 V c (10 * q + j) (Nat.lt_of_succ_lt h) (ix3 (0 : Fin 1) g f) + z)
      (tileN_of_lt V c (10 * q + (j + 1)) h g f).symm

end Run

section Final

variable (V : (c : Dev nD) → (b : Ref sig .tc) → Buf (Elt Ideal) ((c : Thread nD τ).loc b))

/-- Tile `10·q + s` of the grid is tile `s` of half `q`. -/
theorem tileN_eq (c : Dev nD) (q : Fin 2) (s : Fin 10) (g : Fin 128) (f : Fin 64) :
    tileN V c (10 * q.val + s.val) g f
      = ∑ r : Fin 5000, oh (Bat V c (row q s r)) g * Hn V c (row q s r) f := by
  have h : 10 * q.val + s.val < cfg4.N := by rw [N4]; have := q.isLt; have := s.isLt; omega
  rw [tileN_of_lt V c _ h]
  unfold tileT
  refine Finset.sum_congr rfl fun r _ => ?_
  have e : rowT ⟨10 * q.val + s.val, h⟩ r = row q s r := Fin.ext (by
    show (10 * q.val + s.val) * 5000 + r.val = (q.val * 10 + s.val) * 5000 + r.val
    omega)
  rw [e]

/-- A half's last point holds the half's sum. -/
theorem outs_last (c : Dev nD) (q : Fin 2) (h : 10 * q.val + 9 < cfg4.N) (g : Fin 128) (f : Fin 64) :
    outsAt4 V c (10 * q.val + 9) h (ix3 (0 : Fin 1) g f) = partK (Bat V c) (Hn V c) q g f := by
  rw [outs_inv V c q.val g f 9 (by omega) h, Finset.sum_range]
  unfold partK
  exact Finset.sum_congr rfl fun s _ => tileN_eq V c q s g f

/-- The output array after the run: each half's per-graph sums. -/
abbrev Gout (c : Dev nD) : Vec Ideal S2x128x64 .f32 := fun i => partK (Bat V c) (Hn V c) (i 0) (i 1) (i 2)

/-- What a half's last point writes back is its block of that array. -/
theorem flushed_eq (c : Dev nD) (t : Fin cfg4.N) (hf : (cfg4.win 9).flush t = true) :
    (dat4 V c).flushed 9 t = ((cfg4.win 9).blk t).view.read (Elt Ideal) (Gout V c) := by
  have h9 : t.val % 10 = 9 := (flush4_9 t).mp hf
  have ht : t.val < 20 := lt_of_lt_of_eq t.isLt N4
  have hfacts := idx_facts t
  show (cfg4.win 9).cut (grid4.coords t) ((dat4 V c).after 9 t) = _
  rw [after4_9]
  funext y
  rw [View.read_apply]
  have hy0 : (y 0).val < 1 := (y 0).isLt
  have hy1 : (y 1).val < 128 := (y 1).isLt
  have hy2 : (y 2).val < 64 := (y 2).isLt
  have hq : t.val / 10 < 2 := by omega
  have same : ∀ (u : ℕ) (hu : u < cfg4.N), u = t.val → outsAt4 V c u hu = outsAt4 V c t.val t.isLt :=
    fun u hu e => by subst e; rfl
  have hu : 10 * (t.val / 10) + 9 < cfg4.N := lt_of_lt_of_eq (show 10 * (t.val / 10) + 9 < 20 by omega) N4.symm
  have hL : (cfg4.win 9).cut (grid4.coords t) (outsAt4 V c t.val t.isLt) y
      = outsAt4 V c t.val t.isLt (ix3 (0 : Fin 1) ⟨(y 1).val, hy1⟩ ⟨(y 2).val, hy2⟩) := by
    show outsAt4 V c t.val t.isLt _ = _
    refine congrArg _ (funext fun a => Fin.ext ?_)
    match a with
    | ⟨0, _⟩ => show (y 0).val = 0; omega
    | ⟨1, _⟩ => rfl
    | ⟨2, _⟩ => rfl
  have hR : ((cfg4.win 9).blk t).view.emb y = ix3 (⟨t.val / 10, hq⟩ : Fin 2) ⟨(y 1).val, hy1⟩ ⟨(y 2).val, hy2⟩ := by
    refine funext fun a => Fin.ext ?_
    match a with
    | ⟨0, _⟩ => show win4_9.index t (0 : Fin 3) * 1 + 1 * (y 0).val = t.val / 10; rw [hfacts.2.2.2.2.2.2.2.2.2.2.2.2.2.2.2.2.2.2.1]; omega
    | ⟨1, _⟩ => show win4_9.index t (1 : Fin 3) * 128 + 1 * (y 1).val = (y 1).val; rw [hfacts.2.2.2.2.2.2.2.2.2.2.2.2.2.2.2.2.2.2.2.1]; omega
    | ⟨2, _⟩ => show win4_9.index t (2 : Fin 3) * 64 + 1 * (y 2).val = (y 2).val; rw [hfacts.2.2.2.2.2.2.2.2.2.2.2.2.2.2.2.2.2.2.2.2]; omega
  rw [hL, ← same (10 * (t.val / 10) + 9) hu (by omega)]
  refine (outs_last V c ⟨t.val / 10, hq⟩ hu _ _).trans ?_
  show _ = Gout V c (((cfg4.win 9).blk t).view.emb y)
  rw [hR]

/-- An index of the output array is in point `t`'s block iff each coordinate is in the block's range. -/
theorem mem_blk9 (t : Fin cfg4.N) (i : S2x128x64.Idx) :
    i ∈ ((cfg4.win 9).blk t).view.set ↔ ∀ a : Fin 3, win4_9.index t a * S1x128x64.size a ≤ (i a).val ∧ (i a).val < win4_9.index t a * S1x128x64.size a + S1x128x64.size a := by
  show i ∈ ((View.whole main_v108).slice (win4_9.rect t)).set ↔ _
  rw [View.set_slice_whole, Rect.mem_set_unit]
  exact Iff.rfl

/-- Every index of the output array is in the block of its half's last point. -/
theorem cover9 (i : S2x128x64.Idx) :
    ∃ t : Fin cfg4.N, (cfg4.win 9).flush t = true ∧ i ∈ ((cfg4.win 9).blk t).view.set := by
  have hi0 : (i 0).val < 2 := (i 0).isLt
  have hi1 : (i 1).val < 128 := (i 1).isLt
  have hi2 : (i 2).val < 64 := (i 2).isLt
  have ht : (i 0).val * 10 + 9 < cfg4.N := by rw [N4]; omega
  refine ⟨⟨(i 0).val * 10 + 9, ht⟩, (flush4_9 _).mpr (by show ((i 0).val * 10 + 9) % 10 = 9; omega), ?_⟩
  have hfacts := idx_facts ⟨(i 0).val * 10 + 9, ht⟩
  have e0 : win4_9.index ⟨(i 0).val * 10 + 9, ht⟩ (0 : Fin 3) = ((i 0).val * 10 + 9) / 10 := hfacts.2.2.2.2.2.2.2.2.2.2.2.2.2.2.2.2.2.2.1
  have e1 := hfacts.2.2.2.2.2.2.2.2.2.2.2.2.2.2.2.2.2.2.2.1
  have e2 := hfacts.2.2.2.2.2.2.2.2.2.2.2.2.2.2.2.2.2.2.2.2
  rw [mem_blk9]
  intro a
  match a with
  | ⟨0, _⟩ => show win4_9.index _ (0 : Fin 3) * 1 ≤ (i 0).val ∧ (i 0).val < win4_9.index _ (0 : Fin 3) * 1 + 1; rw [e0]; omega
  | ⟨1, _⟩ => show win4_9.index _ (1 : Fin 3) * 128 ≤ (i 1).val ∧ (i 1).val < win4_9.index _ (1 : Fin 3) * 128 + 128; rw [e1]; omega
  | ⟨2, _⟩ => show win4_9.index _ (2 : Fin 3) * 64 ≤ (i 2).val ∧ (i 2).val < win4_9.index _ (2 : Fin 3) * 64 + 64; rw [e2]; omega

/-- So the output array ends holding each half's per-graph sums. -/
theorem final9 (c : Dev nD) : (dat4 V c).arrAt 9 cfg4.N = Gout V c :=
  (dat4 V c).arrAt_eq_of_cover 9 (Gout V c) (flushed_eq V c) cover9

end Final

end Reg4

open Reg4

-- The buffer contents a region is entered with.
variable (V : (c : Dev nD) → (b : Ref sig .tc) → Buf (Elt Ideal) ((c : Thread nD τ).loc b))

theorem reg4_pool (c : Dev nD) (core : Fin 2) (g : Fin 128) (f : Fin 64) :
    ((dat4 V c).arrAt 9 cfg4.N : Vec Ideal S2x128x64 .f32) (ix3 core g f)
      = partK (colv (V c main_v29 : IVec S100000x1 32)) (normOfK (colv (V c main_v29 : IVec S100000x1 32)) (rowv (V c main_v34 : Vec Ideal S1x64 .f32)) (rowv (V c main_v35 : Vec Ideal S1x64 .f32))
          (tab2 (V c main_v104 : Vec Ideal S128x64 .f32)) (tab2 (V c main_v107 : Vec Ideal S128x64 .f32)) (xinK (colv (V c main_v14 : Vec Ideal S100000x1 .f32)) (tab2 (V c main_v83 : Vec Ideal S100000x64 .f32))
        (tab2 (V c main_v72_0 : Vec Ideal S100000x64 .f32)) (rowv (V c main_v33 : Vec Ideal S1x64 .f32)))) core g f :=
  congrFun (final9 V c) (ix3 core g f)

end Cert.KernelIdeal.KV

end
-- ==== Proof.LibGather.lean ====
/-
  The host's gather that selects columns of a matrix by a table of positions, read at an index.
-/
import Idealize.ShloMosaic.PureOps
import Idealize.ShloMosaic.Lib.ValueIdx

noncomputable section

namespace Cert.LibGather

open Idealize.ShloMosaic Idealize.ShloMosaic.ValueIdx

/-- An entry of a one-element list is that element, whatever the position. -/
theorem getElem_of_eq_singleton {β : Type} {l : List β} {x : β} (hl : l = [x]) (k : Nat) (hk : k < l.length) :
    l[k]'hk = x := by
  subst hl
  have hk0 : k = 0 := by simpa using hk
  subst hk0
  rfl

/-- SELECTING COLUMNS. A gather over a [B, N] matrix whose start indices are an [A, 1] column of positions, the
    rows kept whole (axis 0 an offset axis of slice size B) and axis 1 collapsed and start-indexed: entry (r, a)
    is the matrix at row r and the column position a's start index names, read signed and clamped into
    `[0, N - 1]`. -/
theorem gather_cols {α : Type} {B N A w : ℕ} (d : GatherDims ⟨2, ![B, N]⟩ ⟨2, ![A, 1]⟩ ⟨2, ![B, A]⟩)
    (hoff : d.offsetDims = [0]) (hcoll : d.collapsedSliceDims = [1]) (hob : d.operandBatchingDims = [])
    (hsb : d.startIndicesBatchingDims = []) (hsim : d.startIndexMap = [1]) (hivd : d.indexVectorDim = 1)
    (x : (⟨2, ![B, N]⟩ : Shape).Idx → α) (idx : IVec ⟨2, ![A, 1]⟩ w) (r : Fin B) (a : Fin A) (hN : 0 < N) :
    Host.gather d x idx (ix2 r a)
      = x (ix2 r ⟨min (idx (ix2 a (0 : Fin 1))).toInt.toNat (N - 1), by omega⟩) := by
  -- the axes kept on each side: the operand's one offset axis is 0, the result's one batch axis is 1
  have hsK : d.sKept = [0] := by
    show (List.finRange 2).filter (· ∉ d.collapsedSliceDims ++ d.operandBatchingDims) = [0]
    rw [hcoll, hob]; rfl
  have hbD : d.batchDims = [1] := by
    show (List.finRange 2).filter (· ∉ d.offsetDims) = [1]
    rw [hoff]; rfl
  have hlen : d.startIndexMap.length = 1 := by rw [hsim]; rfl
  -- the start-index entry result position (r, a) reads is row a of the column of positions
  have hsi : ∀ c, d.siIdx (ix2 r a) c = ix2 a (0 : Fin 1) := by
    intro c
    funext b
    match b with
    | ⟨0, _⟩ =>
      unfold GatherDims.siIdx
      rw [dif_neg (by rw [hivd]; simp)]
      unfold GatherDims.siCoord
      apply Fin.ext
      simp only [Fin.val_cast]
      rw [getElem_of_eq_singleton hbD]
      rfl
    | ⟨1, _⟩ =>
      unfold GatherDims.siIdx
      rw [dif_pos (by rw [hivd])]
      apply Fin.ext
      show c.val = 0
      have := c.isLt
      omega
  unfold Host.gather
  congr 1
  funext ax
  apply Fin.ext
  match ax with
  | ⟨0, h0⟩ =>
    -- axis 0, the offset axis: no start index, no batch coordinate, the result's row
    have hb : (⟨0, h0⟩ : Fin 2) ∉ d.operandBatchingDims := by rw [hob]; exact List.not_mem_nil
    have hm : (⟨0, h0⟩ : Fin 2) ∉ d.startIndexMap := by
      rw [hsim, List.mem_singleton]; intro e; exact Nat.zero_ne_one (congrArg Fin.val e)
    have hk : (⟨0, h0⟩ : Fin 2) ∈ d.sKept := by rw [hsK]; exact List.mem_singleton.mpr rfl
    simp only [GatherDims.operandIdx, GatherDims.batchCoord_eq_zero _ _ _ hb, GatherDims.start, dif_neg hm,
      GatherDims.offCoord, dif_pos hk, Nat.zero_add, Nat.add_zero]
    rw [getElem_of_eq_singleton hoff]
    rfl
  | ⟨1, h1⟩ =>
    -- axis 1, collapsed and start-indexed: the clamped start index alone
    have hb : (⟨1, h1⟩ : Fin 2) ∉ d.operandBatchingDims := by rw [hob]; exact List.not_mem_nil
    have hk : (⟨1, h1⟩ : Fin 2) ∉ d.sKept := by
      rw [hsK, List.mem_singleton]; intro e; exact Nat.one_ne_zero (congrArg Fin.val e)
    have hm : (⟨1, h1⟩ : Fin 2) ∈ d.startIndexMap := by rw [hsim]; exact List.mem_singleton.mpr rfl
    have hsl : d.sliceSizes ⟨1, h1⟩ = 1 := d.slice_collapsed _ (by rw [hcoll]; exact List.mem_singleton.mpr rfl)
    simp only [GatherDims.operandIdx, GatherDims.batchCoord_eq_zero _ _ _ hb, GatherDims.offCoord_eq_zero _ _ _ hk,
      Nat.add_zero, GatherDims.start, dif_pos hm]
    rw [hsi, hsl]
    rfl

end Cert.LibGather

end
-- ==== Proof.LibScatterSum.lean ====
/-
  A scatter that adds, read at an index.

  `Host.scatter` folds over the update indices in row-major order; each update either lands at one
  operand index (`ScatterDims.resultIdx?` is `some`) and is combined with what is there, or is
  dropped. When the combining operation is the addition of a commutative monoid the order does
  not matter, and the result at an operand index is the operand's element plus the sum of the
  updates that land at that index.
-/
import Idealize.ShloMosaic.PureOps.ShapeOps
import Mathlib.Algebra.BigOperators.Group.Finset.Basic
import Mathlib.Algebra.BigOperators.Fin

noncomputable section

namespace Idealize.ShloMosaic

/-- The scatter's fold over ANY list of update indices, from any start: at an operand index it leaves the
    start's element plus the list sum of the updates that land there. -/
theorem Host.scatter_foldl_add_apply {α : Type} [AddCommMonoid α] {s si u : Shape} {w : Nat} (d : ScatterDims s si u)
    (idx : IVec si w) (upd : u.Idx → α) (i : s.Idx) (L : List u.Idx) (r₀ : s.Idx → α) :
    (L.foldl (fun r n =>
        match d.resultIdx? n idx with
        | some i => fun i' => if i' = i then r i + upd n else r i'
        | none => r) r₀) i
      = r₀ i + (L.map fun n => if d.resultIdx? n idx = some i then upd n else 0).sum := by
  induction L generalizing r₀ with
  | nil => simp
  | cons n L ih =>
    rw [List.foldl_cons, ih, List.map_cons, List.sum_cons, ← add_assoc]
    congr 1
    cases h : d.resultIdx? n idx with
    | none => simp
    | some k =>
      by_cases hk : i = k
      · subst hk; simp
      · have hk' : ¬ k = i := fun e => hk e.symm
        simp [hk, hk']

/-- A scatter whose body is the addition of a commutative monoid leaves, at every operand index, the
    operand's element plus the sum of the updates whose result index is that index. -/
theorem Host.scatter_add_apply {α : Type} [AddCommMonoid α] {s si u : Shape} {w : Nat} (d : ScatterDims s si u)
    (x : s.Idx → α) (idx : IVec si w) (upd : u.Idx → α) (i : s.Idx) :
    Host.scatter d (fun a b => a + b) x idx upd i
      = x i + ∑ n : u.Idx, if d.resultIdx? n idx = some i then upd n else 0 := by
  have h := Host.scatter_foldl_add_apply d idx upd i ((List.finRange u.numel).map u.rowMajor.symm) x
  rw [List.foldl_map, List.map_map] at h
  rw [← Equiv.sum_comp u.rowMajor.symm, Fin.sum_univ_def]
  exact h

end Idealize.ShloMosaic

end
-- ==== Proof.LibIndexOps.lean ====
/-
  The host's index operations read at an index. A gather whose start indices are a column of row numbers reads, at
  each result position, the operand's row (or entry) that the position's start index names, the index read signed and
  clamped into the table. An adding scatter whose indices are a column of row numbers leaves, at each row (or entry)
  of the operand, what was there plus the sum of the updates whose index, read signed and NOT clamped, is that row's
  number; an update whose index is no row number is dropped.
-/
import Idealize.ShloMosaic.PureOps
import Idealize.ShloMosaic.Lib.ValueIdx
import Idealize.ShloMosaic.Lib.ValueIdxRank1
import Mathlib.Data.BitVec
import proofs.«420537_j75831942578735_3_alg».proof.Proof.LibGather
import proofs.«420537_j75831942578735_3_alg».proof.Proof.LibScatterSum

noncomputable section

namespace GCN.Ops

open Idealize.ShloMosaic Idealize.ShloMosaic.ValueIdx Cert.LibGather
open scoped BigOperators

/-! ## Gathers -/

/-- SELECTING ROWS. A gather over an [N, D] table whose start indices are an [A, 1] column of row numbers, axis 0
    collapsed and start-indexed, the rows kept whole (axis 1 an offset axis): entry (a, f) is the table at column f
    of the row that position a's start index names, read signed and clamped into [0, N - 1]. -/
theorem gather_rows {α : Type} {N D A w : ℕ} (d : GatherDims ⟨2, ![N, D]⟩ ⟨2, ![A, 1]⟩ ⟨2, ![A, D]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (x : (⟨2, ![N, D]⟩ : Shape).Idx → α) (idx : IVec ⟨2, ![A, 1]⟩ w) (a : Fin A) (f : Fin D) (hN : 0 < N) :
    Host.gather d x idx (ix2 a f)
      = x (ix2 ⟨min (idx (ix2 a (0 : Fin 1))).toInt.toNat (N - 1), by omega⟩ f) := by
  -- the axes kept on each side: the operand's one offset axis is 1, the result's one batch axis is 0
  have hsK : d.sKept = [1] := by
    show (List.finRange 2).filter (· ∉ d.collapsedSliceDims ++ d.operandBatchingDims) = [1]
    rw [hcoll, hob]; rfl
  have hbD : d.batchDims = [0] := by
    show (List.finRange 2).filter (· ∉ d.offsetDims) = [0]
    rw [hoff]; rfl
  have hlen : d.startIndexMap.length = 1 := by rw [hsim]; rfl
  -- the start-index entry result position (a, f) reads is row a of the column of row numbers
  have hsi : ∀ c, d.siIdx (ix2 a f) c = ix2 a (0 : Fin 1) := by
    intro c
    funext b
    match b with
    | ⟨0, _⟩ =>
      unfold GatherDims.siIdx
      rw [dif_neg (by rw [hivd]; simp)]
      unfold GatherDims.siCoord
      apply Fin.ext
      simp only [Fin.val_cast]
      rw [getElem_of_eq_singleton hbD]
      rfl
    | ⟨1, _⟩ =>
      unfold GatherDims.siIdx
      rw [dif_pos (by rw [hivd])]
      apply Fin.ext
      show c.val = 0
      have := c.isLt
      omega
  unfold Host.gather
  congr 1
  funext ax
  apply Fin.ext
  match ax with
  | ⟨0, h0⟩ =>
    -- axis 0, collapsed and start-indexed: the clamped start index alone
    have hb : (⟨0, h0⟩ : Fin 2) ∉ d.operandBatchingDims := by rw [hob]; exact List.not_mem_nil
    have hk : (⟨0, h0⟩ : Fin 2) ∉ d.sKept := by
      rw [hsK, List.mem_singleton]; intro e; exact Nat.zero_ne_one (congrArg Fin.val e)
    have hm : (⟨0, h0⟩ : Fin 2) ∈ d.startIndexMap := by rw [hsim]; exact List.mem_singleton.mpr rfl
    have hsl : d.sliceSizes ⟨0, h0⟩ = 1 := d.slice_collapsed _ (by rw [hcoll]; exact List.mem_singleton.mpr rfl)
    simp only [GatherDims.operandIdx, GatherDims.batchCoord_eq_zero _ _ _ hb, GatherDims.offCoord_eq_zero _ _ _ hk,
      Nat.add_zero, GatherDims.start, dif_pos hm]
    rw [hsi, hsl]
    rfl
  | ⟨1, h1⟩ =>
    -- axis 1, the offset axis: no start index, no batch coordinate, the result's column
    have hb : (⟨1, h1⟩ : Fin 2) ∉ d.operandBatchingDims := by rw [hob]; exact List.not_mem_nil
    have hm : (⟨1, h1⟩ : Fin 2) ∉ d.startIndexMap := by
      rw [hsim, List.mem_singleton]; intro e; exact Nat.one_ne_zero (congrArg Fin.val e)
    have hk : (⟨1, h1⟩ : Fin 2) ∈ d.sKept := by rw [hsK]; exact List.mem_singleton.mpr rfl
    simp only [GatherDims.operandIdx, GatherDims.batchCoord_eq_zero _ _ _ hb, GatherDims.start, dif_neg hm,
      GatherDims.offCoord, dif_pos hk, Nat.zero_add, Nat.add_zero]
    rw [getElem_of_eq_singleton hoff]
    rfl

/-- SELECTING ENTRIES. A gather over a flat array of N entries whose start indices are an [A, 1] column of
    positions, the one axis collapsed and start-indexed: entry a is the array at the position a's start index names,
    read signed and clamped into [0, N - 1]. -/
theorem gather_vec {α : Type} {N A w : ℕ} (d : GatherDims ⟨1, ![N]⟩ ⟨2, ![A, 1]⟩ ⟨1, ![A]⟩)
    (hoff : d.offsetDims = []) (hcoll : d.collapsedSliceDims = [0]) (hob : d.operandBatchingDims = [])
    (hsb : d.startIndicesBatchingDims = []) (hsim : d.startIndexMap = [0]) (hivd : d.indexVectorDim = 1)
    (x : (⟨1, ![N]⟩ : Shape).Idx → α) (idx : IVec ⟨2, ![A, 1]⟩ w) (a : Fin A) (hN : 0 < N) :
    Host.gather d x idx (ix1 a)
      = x (ix1 ⟨min (idx (ix2 a (0 : Fin 1))).toInt.toNat (N - 1), by omega⟩) := by
  have hbD : d.batchDims = [0] := by
    show (List.finRange 1).filter (· ∉ d.offsetDims) = [0]
    rw [hoff]; rfl
  have hlen : d.startIndexMap.length = 1 := by rw [hsim]; rfl
  have hsi : ∀ c, d.siIdx (ix1 a) c = ix2 a (0 : Fin 1) := by
    intro c
    funext b
    match b with
    | ⟨0, _⟩ =>
      unfold GatherDims.siIdx
      rw [dif_neg (by rw [hivd]; simp)]
      unfold GatherDims.siCoord
      apply Fin.ext
      simp only [Fin.val_cast]
      rw [getElem_of_eq_singleton hbD]
      rfl
    | ⟨1, _⟩ =>
      unfold GatherDims.siIdx
      rw [dif_pos (by rw [hivd])]
      apply Fin.ext
      show c.val = 0
      have := c.isLt
      omega
  unfold Host.gather
  congr 1
  funext ax
  apply Fin.ext
  match ax with
  | ⟨0, h0⟩ =>
    have hb : (⟨0, h0⟩ : Fin 1) ∉ d.operandBatchingDims := by rw [hob]; exact List.not_mem_nil
    have hk : (⟨0, h0⟩ : Fin 1) ∉ d.sKept := fun h =>
      ((d.mem_sKept _).1 h).1 (by rw [hcoll]; exact List.mem_singleton.mpr rfl)
    have hm : (⟨0, h0⟩ : Fin 1) ∈ d.startIndexMap := by rw [hsim]; exact List.mem_singleton.mpr rfl
    have hsl : d.sliceSizes ⟨0, h0⟩ = 1 := d.slice_collapsed _ (by rw [hcoll]; exact List.mem_singleton.mpr rfl)
    simp only [GatherDims.operandIdx, GatherDims.batchCoord_eq_zero _ _ _ hb, GatherDims.offCoord_eq_zero _ _ _ hk,
      Nat.add_zero, GatherDims.start, dif_pos hm]
    rw [hsi, hsl]
    rfl

/-! ## Adding scatters -/

/-- An update lands at an operand index exactly when, on every axis, its start (read signed, not clamped) plus its
    window coordinate is that index's coordinate. -/
theorem resultIdx?_eq_some_iff {s si u : Shape} {w : ℕ} (d : ScatterDims s si u) (j : u.Idx) (idx : IVec si w)
    (i : s.Idx) :
    d.resultIdx? j idx = some i ↔ ∀ a, d.start j idx a + (d.window j a : ℤ) = ((i a).val : ℤ) := by
  unfold ScatterDims.resultIdx?
  split
  · rename_i h
    rw [Option.some.injEq]
    constructor
    · intro e a
      have h1 := congrArg Fin.val (congrFun e a)
      have h2 := h a
      simp only at h1
      omega
    · intro e
      funext a
      apply Fin.ext
      have h1 := e a
      have h2 := h a
      show (d.start j idx a + (d.window j a : ℤ)).toNat = (i a).val
      omega
  · rename_i h
    constructor
    · intro e
      exact absurd e (by simp)
    · intro e
      exfalso
      apply h
      intro a
      have h1 := e a
      have h2 := (i a).isLt
      omega

/-- A ROW scatter: operand [N, D], indices an [A, 1] column of row numbers, updates [A, D], axis 0 inserted and
    scattered, axis 1 the window. Update (a, f') lands at (v, f) exactly when its index, read signed, is v and
    f' = f. -/
theorem scatter_rows_resultIdx {N D A w : ℕ} (d : ScatterDims ⟨2, ![N, D]⟩ ⟨2, ![A, 1]⟩ ⟨2, ![A, D]⟩)
    (huw : d.updateWindowDims = [1]) (hiw : d.insertedWindowDims = [0]) (hsd : d.scatterDimsToOperandDims = [0])
    (hivd : d.indexVectorDim = 1) (idx : IVec ⟨2, ![A, 1]⟩ w) (a : Fin A) (f' : Fin D) (v : Fin N) (f : Fin D) :
    d.resultIdx? (ix2 a f') idx = some (ix2 v f) ↔ (idx (ix2 a (0 : Fin 1))).toInt = (v : ℤ) ∧ f' = f := by
  have hsK : d.sKept = [1] := by
    show (List.finRange 2).filter (· ∉ d.insertedWindowDims) = [1]
    rw [hiw]; rfl
  have huS : d.uScatter = [0] := by
    show (List.finRange 2).filter (· ∉ d.updateWindowDims) = [0]
    rw [huw]; rfl
  have hlen : d.scatterDimsToOperandDims.length = 1 := by rw [hsd]; rfl
  -- the index entry update (a, f') reads is row a of the column of row numbers
  have hsi : ∀ c, d.siIdx (ix2 a f') c = ix2 a (0 : Fin 1) := by
    intro c
    funext b
    match b with
    | ⟨0, _⟩ =>
      unfold ScatterDims.siIdx
      rw [dif_neg (by rw [hivd]; simp)]
      unfold ScatterDims.siCoord
      apply Fin.ext
      simp only [Fin.val_cast]
      rw [getElem_of_eq_singleton huS]
      rfl
    | ⟨1, _⟩ =>
      unfold ScatterDims.siIdx
      rw [dif_pos (by rw [hivd])]
      apply Fin.ext
      show c.val = 0
      have := c.isLt
      omega
  have hs0 : d.start (ix2 a f') idx 0 = (idx (ix2 a (0 : Fin 1))).toInt := by
    have hm : (0 : Fin 2) ∈ d.scatterDimsToOperandDims := by rw [hsd]; exact List.mem_singleton.mpr rfl
    unfold ScatterDims.start
    rw [dif_pos hm, hsi]
  have hs1 : d.start (ix2 a f') idx 1 = 0 := by
    have hm : (1 : Fin 2) ∉ d.scatterDimsToOperandDims := by
      rw [hsd, List.mem_singleton]; intro e; exact Nat.one_ne_zero (congrArg Fin.val e)
    unfold ScatterDims.start
    rw [dif_neg hm]
  have hw0 : d.window (ix2 a f') 0 = 0 := by
    have hk : (0 : Fin 2) ∉ d.sKept := by
      rw [hsK, List.mem_singleton]; intro e; exact Nat.zero_ne_one (congrArg Fin.val e)
    unfold ScatterDims.window
    rw [dif_neg hk]
  have hw1 : d.window (ix2 a f') 1 = f'.val := by
    have hk : (1 : Fin 2) ∈ d.sKept := by rw [hsK]; exact List.mem_singleton.mpr rfl
    unfold ScatterDims.window
    rw [dif_pos hk, getElem_of_eq_singleton huw]
    rfl
  rw [resultIdx?_eq_some_iff, Fin.forall_fin_two, hs0, hs1, hw0, hw1]
  show (idx (ix2 a (0 : Fin 1))).toInt + ((0 : ℕ) : ℤ) = (v.val : ℤ) ∧ (0 : ℤ) + (f'.val : ℤ) = (f.val : ℤ) ↔ _
  rw [Fin.ext_iff]
  omega

/-- An ENTRY scatter: operand a flat array of N entries, indices an [A, 1] column of positions, updates a flat array
    of A entries, the one axis inserted and scattered. Update a lands at v exactly when its index, read signed, is v. -/
theorem scatter_vec_resultIdx {N A w : ℕ} (d : ScatterDims ⟨1, ![N]⟩ ⟨2, ![A, 1]⟩ ⟨1, ![A]⟩)
    (huw : d.updateWindowDims = []) (hiw : d.insertedWindowDims = [0]) (hsd : d.scatterDimsToOperandDims = [0])
    (hivd : d.indexVectorDim = 1) (idx : IVec ⟨2, ![A, 1]⟩ w) (a : Fin A) (v : Fin N) :
    d.resultIdx? (ix1 a) idx = some (ix1 v) ↔ (idx (ix2 a (0 : Fin 1))).toInt = (v : ℤ) := by
  have huS : d.uScatter = [0] := by
    show (List.finRange 1).filter (· ∉ d.updateWindowDims) = [0]
    rw [huw]; rfl
  have hlen : d.scatterDimsToOperandDims.length = 1 := by rw [hsd]; rfl
  have hsi : ∀ c, d.siIdx (ix1 a) c = ix2 a (0 : Fin 1) := by
    intro c
    funext b
    match b with
    | ⟨0, _⟩ =>
      unfold ScatterDims.siIdx
      rw [dif_neg (by rw [hivd]; simp)]
      unfold ScatterDims.siCoord
      apply Fin.ext
      simp only [Fin.val_cast]
      rw [getElem_of_eq_singleton huS]
      rfl
    | ⟨1, _⟩ =>
      unfold ScatterDims.siIdx
      rw [dif_pos (by rw [hivd])]
      apply Fin.ext
      show c.val = 0
      have := c.isLt
      omega
  have hs0 : d.start (ix1 a) idx 0 = (idx (ix2 a (0 : Fin 1))).toInt := by
    have hm : (0 : Fin 1) ∈ d.scatterDimsToOperandDims := by rw [hsd]; exact List.mem_singleton.mpr rfl
    unfold ScatterDims.start
    rw [dif_pos hm, hsi]
  have hw0 : d.window (ix1 a) 0 = 0 := by
    have hk : (0 : Fin 1) ∉ d.sKept := by
      show (0 : Fin 1) ∉ (List.finRange 1).filter (· ∉ d.insertedWindowDims)
      intro h
      have h2 : (0 : Fin 1) ∉ d.insertedWindowDims := of_decide_eq_true (List.mem_filter.1 h).2
      rw [hiw] at h2
      exact h2 (List.mem_singleton.mpr rfl)
    unfold ScatterDims.window
    rw [dif_neg hk]
  rw [resultIdx?_eq_some_iff, Fin.forall_fin_one, hs0, hw0]
  show (idx (ix2 a (0 : Fin 1))).toInt + ((0 : ℕ) : ℤ) = (v.val : ℤ) ↔ _
  omega

/-- A sum over a flat array's indices is the sum over its positions. -/
theorem sum_idx1 {M : Type} [AddCommMonoid M] {n : ℕ} (g : (⟨1, ![n]⟩ : Shape).Idx → M) :
    ∑ i, g i = ∑ a : Fin n, g (ix1 a) :=
  (Equiv.sum_comp (idxEquiv1 (n := n)).symm g).symm

/-- The updates of a row scatter that land at (v, f), summed: over the positions whose index is v, the update's
    column f. -/
theorem sum_rows_landing {M : Type} [AddCommMonoid M] {N D A w : ℕ}
    (d : ScatterDims ⟨2, ![N, D]⟩ ⟨2, ![A, 1]⟩ ⟨2, ![A, D]⟩)
    (huw : d.updateWindowDims = [1]) (hiw : d.insertedWindowDims = [0]) (hsd : d.scatterDimsToOperandDims = [0])
    (hivd : d.indexVectorDim = 1) (idx : IVec ⟨2, ![A, 1]⟩ w) (u : (⟨2, ![A, D]⟩ : Shape).Idx → M)
    (v : Fin N) (f : Fin D) :
    (∑ n : (⟨2, ![A, D]⟩ : Shape).Idx, if d.resultIdx? n idx = some (ix2 v f) then u n else 0)
      = ∑ a : Fin A, if (idx (ix2 a (0 : Fin 1))).toInt = (v : ℤ) then u (ix2 a f) else 0 := by
  rw [sum_idx2]
  refine Finset.sum_congr rfl fun a _ => ?_
  simp only [scatter_rows_resultIdx d huw hiw hsd hivd]
  by_cases hz : (idx (ix2 a (0 : Fin 1))).toInt = (v : ℤ)
  · simp only [hz, true_and, if_true]
    rw [Finset.sum_ite_eq' Finset.univ f (fun f' => u (ix2 a f'))]
    simp only [Finset.mem_univ, if_true]
  · simp only [hz, false_and, if_false, Finset.sum_const_zero]

/-- The updates of an entry scatter that land at v, summed: over the positions whose index is v. -/
theorem sum_vec_landing {M : Type} [AddCommMonoid M] {N A w : ℕ}
    (d : ScatterDims ⟨1, ![N]⟩ ⟨2, ![A, 1]⟩ ⟨1, ![A]⟩)
    (huw : d.updateWindowDims = []) (hiw : d.insertedWindowDims = [0]) (hsd : d.scatterDimsToOperandDims = [0])
    (hivd : d.indexVectorDim = 1) (idx : IVec ⟨2, ![A, 1]⟩ w) (u : (⟨1, ![A]⟩ : Shape).Idx → M) (v : Fin N) :
    (∑ n : (⟨1, ![A]⟩ : Shape).Idx, if d.resultIdx? n idx = some (ix1 v) then u n else 0)
      = ∑ a : Fin A, if (idx (ix2 a (0 : Fin 1))).toInt = (v : ℤ) then u (ix1 a) else 0 := by
  rw [sum_idx1]
  simp only [scatter_vec_resultIdx d huw hiw hsd hivd]

/-- THE ROW SCATTER THAT ADDS, in a commutative monoid: at (v, f), what was there plus the sum over the positions
    whose index, read signed, is v of the update's column f. -/
theorem scatter_add_rows {M : Type} [AddCommMonoid M] {N D A w : ℕ}
    (d : ScatterDims ⟨2, ![N, D]⟩ ⟨2, ![A, 1]⟩ ⟨2, ![A, D]⟩)
    (huw : d.updateWindowDims = [1]) (hiw : d.insertedWindowDims = [0]) (hsd : d.scatterDimsToOperandDims = [0])
    (hivd : d.indexVectorDim = 1) (x : (⟨2, ![N, D]⟩ : Shape).Idx → M) (idx : IVec ⟨2, ![A, 1]⟩ w)
    (u : (⟨2, ![A, D]⟩ : Shape).Idx → M) (v : Fin N) (f : Fin D) :
    Host.scatter d (fun p q => p + q) x idx u (ix2 v f)
      = x (ix2 v f) + ∑ a : Fin A, if (idx (ix2 a (0 : Fin 1))).toInt = (v : ℤ) then u (ix2 a f) else 0 := by
  rw [Host.scatter_add_apply, sum_rows_landing d huw hiw hsd hivd]

/-- THE ENTRY SCATTER THAT ADDS, in a commutative monoid: at v, what was there plus the sum of the updates whose
    index, read signed, is v. -/
theorem scatter_add_vec {M : Type} [AddCommMonoid M] {N A w : ℕ}
    (d : ScatterDims ⟨1, ![N]⟩ ⟨2, ![A, 1]⟩ ⟨1, ![A]⟩)
    (huw : d.updateWindowDims = []) (hiw : d.insertedWindowDims = [0]) (hsd : d.scatterDimsToOperandDims = [0])
    (hivd : d.indexVectorDim = 1) (x : (⟨1, ![N]⟩ : Shape).Idx → M) (idx : IVec ⟨2, ![A, 1]⟩ w)
    (u : (⟨1, ![A]⟩ : Shape).Idx → M) (v : Fin N) :
    Host.scatter d (fun p q => p + q) x idx u (ix1 v)
      = x (ix1 v) + ∑ a : Fin A, if (idx (ix2 a (0 : Fin 1))).toInt = (v : ℤ) then u (ix1 a) else 0 := by
  rw [Host.scatter_add_apply, sum_vec_landing d huw hiw hsd hivd]

/-- The entry scatter whose body is the addition of machine words. -/
theorem scatter_addi_vec {N A w k : ℕ} (d : ScatterDims ⟨1, ![N]⟩ ⟨2, ![A, 1]⟩ ⟨1, ![A]⟩)
    (huw : d.updateWindowDims = []) (hiw : d.insertedWindowDims = [0]) (hsd : d.scatterDimsToOperandDims = [0])
    (hivd : d.indexVectorDim = 1) (x : IVec ⟨1, ![N]⟩ k) (idx : IVec ⟨2, ![A, 1]⟩ w) (u : IVec ⟨1, ![A]⟩ k)
    (v : Fin N) :
    Host.scatter d IntOp.addi x idx u (ix1 v)
      = x (ix1 v) + ∑ a : Fin A, if (idx (ix2 a (0 : Fin 1))).toInt = (v : ℤ) then u (ix1 a) else 0 :=
  scatter_add_vec d huw hiw hsd hivd x idx u v

/-- THE ROW SCATTER THAT ADDS, on the extended reals: at (v, f), what was there plus the sum over the positions
    whose index, read signed, is v of the update's column f. -/
theorem scatterAdd_rows {N D A w : ℕ} {φ : FTy} (d : ScatterDims ⟨2, ![N, D]⟩ ⟨2, ![A, 1]⟩ ⟨2, ![A, D]⟩)
    (huw : d.updateWindowDims = [1]) (hiw : d.insertedWindowDims = [0]) (hsd : d.scatterDimsToOperandDims = [0])
    (hivd : d.indexVectorDim = 1) (x : FVec Ideal ⟨2, ![N, D]⟩ φ) (idx : IVec ⟨2, ![A, 1]⟩ w)
    (u : FVec Ideal ⟨2, ![A, D]⟩ φ) (v : Fin N) (f : Fin D) :
    Host.scatterAdd d x idx u (ix2 v f)
      = x (ix2 v f) + ∑ a : Fin A, if (idx (ix2 a (0 : Fin 1))).toInt = (v : ℤ) then u (ix2 a f) else 0 := by
  show Ideal.hostScatterAdd d x idx u (ix2 v f) = _
  unfold Ideal.hostScatterAdd
  rw [Finset.sum_filter]
  exact congrArg (x (ix2 v f) + ·) (sum_rows_landing d huw hiw hsd hivd idx u v f)

/-- THE ENTRY SCATTER THAT ADDS, on the extended reals: at v, what was there plus the sum of the updates whose
    index, read signed, is v. -/
theorem scatterAdd_vec {N A w : ℕ} {φ : FTy} (d : ScatterDims ⟨1, ![N]⟩ ⟨2, ![A, 1]⟩ ⟨1, ![A]⟩)
    (huw : d.updateWindowDims = []) (hiw : d.insertedWindowDims = [0]) (hsd : d.scatterDimsToOperandDims = [0])
    (hivd : d.indexVectorDim = 1) (x : FVec Ideal ⟨1, ![N]⟩ φ) (idx : IVec ⟨2, ![A, 1]⟩ w)
    (u : FVec Ideal ⟨1, ![A]⟩ φ) (v : Fin N) :
    Host.scatterAdd d x idx u (ix1 v)
      = x (ix1 v) + ∑ a : Fin A, if (idx (ix2 a (0 : Fin 1))).toInt = (v : ℤ) then u (ix1 a) else 0 := by
  show Ideal.hostScatterAdd d x idx u (ix1 v) = _
  unfold Ideal.hostScatterAdd
  rw [Finset.sum_filter]
  exact congrArg (x (ix1 v) + ·) (sum_vec_landing d huw hiw hsd hivd idx u v)

/-! ## Index words -/

/-- The sum of a negative word and an extent below 2^31 does not wrap: read signed it is the signed sum. -/
theorem toInt_add_extent (n : ℕ) (hn : n < 2 ^ 31) (z : BitVec 32) (hz : z.toInt < 0) :
    (z + BitVec.ofNat 32 n).toInt = z.toInt + (n : ℤ) := by
  have hlo : -2 ^ 31 ≤ z.toInt := by
    have := BitVec.le_toInt z
    simpa using this
  have hnn : (BitVec.ofNat 32 n).toInt = (n : ℤ) := by
    rw [BitVec.toInt_ofNat']
    apply Int.bmod_eq_of_le_mul_two <;> omega
  rw [BitVec.toInt_add, hnn]
  apply Int.bmod_eq_of_le_mul_two <;> omega

/-- THE WRAPPED INDEX WORD. A negative index word moved up by the extent n (below 2^31), a non-negative one left
    alone, then read signed and clamped into [0, n - 1] as a gather does: the gather row of the word. -/
theorem wrap_word (n : ℕ) (hn : n < 2 ^ 31) (z : BitVec 32) :
    min (Scalar.select (IntOp.cmpi .slt z 0#32) (IntOp.addi z (BitVec.ofNat 32 n)) z).toInt.toNat (n - 1)
      = min (if z.toInt < 0 then z.toInt + n else z.toInt).toNat (n - 1) := by
  unfold Scalar.select IntOp.cmpi IntOp.addi
  have h0 : (0#32 : BitVec 32).toInt = 0 := by decide
  by_cases h : z.toInt < 0
  · have hs : z.slt 0#32 = true := by
      unfold BitVec.slt
      rw [h0]; exact decide_eq_true h
    simp only [hs, BitVec.ofBool_true, if_true, if_pos h]
    rw [toInt_add_extent n hn z h]
  · have hs : z.slt 0#32 = false := by
      unfold BitVec.slt
      rw [h0]; exact decide_eq_false h
    have h10 : ¬ ((0 : BitVec 1) = 1) := by decide
    simp only [hs, BitVec.ofBool_false, if_neg h10, if_neg h]

/-- The same, for the vector operations read at an index: the comparison against a table of zeros, the sum with a
    table of the extent, the selection. -/
theorem wrap_apply {s : Shape} (n : ℕ) (hn : n < 2 ^ 31) (x c m : IVec s 32) (i : s.Idx) (hc : c i = 0#32)
    (hm : m i = BitVec.ofNat 32 n) :
    min ((select (cmpi .slt x c) (addi x m) x) i).toInt.toNat (n - 1)
      = min (if (x i).toInt < 0 then (x i).toInt + n else (x i).toInt).toNat (n - 1) := by
  show min (Scalar.select (IntOp.cmpi .slt (x i) (c i)) (IntOp.addi (x i) (m i)) (x i)).toInt.toNat (n - 1) = _
  rw [hc, hm]
  exact wrap_word n hn (x i)

/-- A flat array laid out as an [A, 1] column reads, at row a, the array's entry a. -/
theorem column_apply {α : Type} {A : ℕ} (h : (⟨1, ![A]⟩ : Shape).BroadcastsInDim ⟨2, ![A, 1]⟩ ![0])
    (x : (⟨1, ![A]⟩ : Shape).Idx → α) (a : Fin A) (c : Fin 1) :
    broadcastInDim ⟨2, ![A, 1]⟩ ![0] h x (ix2 a c) = x (ix1 a) := by
  unfold broadcastInDim
  congr 1
  funext b
  match b with
  | ⟨0, _⟩ =>
    apply Fin.ext
    split
    · rename_i h1
      have h2 : A = 1 := h1
      have := a.isLt
      show 0 = a.val
      omega
    · rfl

/-! ## Two flat arrays laid end to end, and the array of positions -/

/-- Where a position falls in two runs laid end to end: below the first run's length, in the first run. -/
theorem locate_two_left (A B c : ℕ) (h : c < [A, B].sum) (hc : c < A) :
    locate [A, B] c h = ⟨⟨0, Nat.zero_lt_succ _⟩, ⟨c, hc⟩⟩ := by
  unfold locate
  rw [dif_pos hc]

/-- At or beyond the first run's length: in the second run, at the position less that length. -/
theorem locate_two_right (A B c : ℕ) (h : c < [A, B].sum) (hc : ¬ c < A) (hc2 : c - A < B) :
    locate [A, B] c h = ⟨⟨1, Nat.succ_lt_succ (Nat.zero_lt_succ _)⟩, ⟨c - A, hc2⟩⟩ := by
  have hr : locate [B] (c - A) (by simp only [List.sum_cons, List.sum_nil]; omega)
      = ⟨⟨0, Nat.zero_lt_succ _⟩, ⟨c - A, hc2⟩⟩ := by
    unfold locate
    rw [dif_pos hc2]
  unfold locate
  rw [dif_neg hc]
  show (⟨(locate [B] (c - A) _).1.succ, (locate [B] (c - A) _).2⟩ : (k : Fin [A, B].length) × Fin [A, B][k]) = _
  rw [hr]
  rfl

/-- The sizes of the pieces along the joined axis. -/
abbrev catSizes {α : Type} (t : Shape) (a : Fin t.rank) (xs : List ((s : Shape) × (s.Idx → α))) : List ℕ :=
  (xs.map (·.1)).map fun s => if h : s.rank = t.rank then s.size (a.cast h.symm) else 0

/-- The joined array at an index, from the piece the index falls in and the position within it. -/
def catAt {α : Type} (t : Shape) (a : Fin t.rank) (xs : List ((s : Shape) × (s.Idx → α)))
    (h : Shape.Concatenates (xs.map (·.1)) t a) (j : t.Idx)
    (kr : (k : Fin (catSizes t a xs).length) × Fin (catSizes t a xs)[k]) : α :=
  have hk : kr.1.val < xs.length := by simpa [catSizes] using kr.1.isLt
  let p := xs[kr.1.val]
  have hp : p.1 ∈ xs.map (·.1) := List.mem_map.2 ⟨p, List.getElem_mem hk, rfl⟩
  have hr : p.1.rank = t.rank := (h.2.1 p.1 hp).1
  p.2 fun b =>
    if hb : b.cast hr = a then
      kr.2.cast (by
        have : (catSizes t a xs)[kr.1.val] = if h : p.1.rank = t.rank then p.1.size (a.cast h.symm) else 0 := by
          simp [catSizes, p]
        rw [Fin.getElem_fin, this, dif_pos hr, ← hb]; rfl)
    else (j (b.cast hr)).cast ((h.2.1 p.1 hp).2 (b.cast hr) hb).symm

/-- The joined array at an index is read off the piece the index falls in. -/
theorem concatenate_eq_catAt {α : Type} (t : Shape) (a : Fin t.rank) (xs : List ((s : Shape) × (s.Idx → α)))
    (h : Shape.Concatenates (xs.map (·.1)) t a) (j : t.Idx) :
    concatenate t a xs h j
      = catAt t a xs h j (locate (catSizes t a xs) (j a).val (by rw [h.2.2]; exact (j a).isLt)) := rfl

/-- TWO FLAT ARRAYS LAID END TO END, read below the first one's length: the first array's entry. -/
theorem concatenate_two_left {α : Type} {A B C : ℕ} (h : Shape.Concatenates [⟨1, ![A]⟩, ⟨1, ![B]⟩] ⟨1, ![C]⟩ 0)
    (x : (⟨1, ![A]⟩ : Shape).Idx → α) (y : (⟨1, ![B]⟩ : Shape).Idx → α) (e : Fin C) (he : e.val < A) :
    concatenate ⟨1, ![C]⟩ 0 [⟨⟨1, ![A]⟩, x⟩, ⟨⟨1, ![B]⟩, y⟩] h (ix1 e) = x (ix1 ⟨e.val, he⟩) := by
  have hsum : e.val < [A, B].sum := by
    have h3 : A + (B + 0) = C := h.2.2
    simp only [List.sum_cons, List.sum_nil]
    have := e.isLt
    omega
  have hl : locate (catSizes ⟨1, ![C]⟩ 0 [⟨⟨1, ![A]⟩, x⟩, ⟨⟨1, ![B]⟩, y⟩]) ((ix1 e) 0).val
      hsum = ⟨⟨0, Nat.zero_lt_succ _⟩, ⟨e.val, he⟩⟩ :=
    locate_two_left A B e.val hsum he
  rw [concatenate_eq_catAt, hl]
  unfold catAt
  show x _ = x _
  congr 1
  funext b
  match b with
  | ⟨0, _⟩ =>
    split
    · rfl
    · rename_i hb
      exact absurd (Fin.ext rfl) hb

/-- Read at the first one's length plus k: the second array's entry k. -/
theorem concatenate_two_right {α : Type} {A B C : ℕ} (h : Shape.Concatenates [⟨1, ![A]⟩, ⟨1, ![B]⟩] ⟨1, ![C]⟩ 0)
    (x : (⟨1, ![A]⟩ : Shape).Idx → α) (y : (⟨1, ![B]⟩ : Shape).Idx → α) (k : Fin B) (hk : A + k.val < C) :
    concatenate ⟨1, ![C]⟩ 0 [⟨⟨1, ![A]⟩, x⟩, ⟨⟨1, ![B]⟩, y⟩] h (ix1 ⟨A + k.val, hk⟩) = y (ix1 k) := by
  have hsum : A + k.val < [A, B].sum := by
    simp only [List.sum_cons, List.sum_nil]
    have := k.isLt
    omega
  have hc2 : A + k.val - A < B := by have := k.isLt; omega
  have hl : locate (catSizes ⟨1, ![C]⟩ 0 [⟨⟨1, ![A]⟩, x⟩, ⟨⟨1, ![B]⟩, y⟩]) ((ix1 (⟨A + k.val, hk⟩ : Fin C)) 0).val
      hsum
      = ⟨⟨1, Nat.succ_lt_succ (Nat.zero_lt_succ _)⟩, ⟨A + k.val - A, hc2⟩⟩ :=
    locate_two_right A B (A + k.val) hsum (by omega) hc2
  rw [concatenate_eq_catAt, hl]
  unfold catAt
  show y _ = y _
  congr 1
  funext b
  match b with
  | ⟨0, _⟩ =>
    split
    · apply Fin.ext
      show A + k.val - A = k.val
      omega
    · rename_i hb
      exact absurd (Fin.ext rfl) hb

/-- The array of positions: entry k is the number k as a word. -/
theorem iota_apply {n w : ℕ} (k : Fin n) : iotaInDim ⟨1, ![n]⟩ w 0 (ix1 k) = BitVec.ofNat w k.val := rfl

end GCN.Ops

end
-- ==== Proof.KHostA.lean ====
/-
  The host operations before the first pallas_call, read off the launch memory: the edge list's two rows, the degree by
  a scatter of ones at the destination words plus one, its guarded inverse square root as a column, the nodes per graph
  counted in integers over the graph words clipped at zero and taken at least one, the graph words as a column, and
  the six parameter vectors as rows.
-/
import proofs.«420537_j75831942578735_3_alg».proof.Proof.Gen.KernelIdeal.Frame
import proofs.«420537_j75831942578735_3_alg».proof.Proof.Views
import proofs.«420537_j75831942578735_3_alg».proof.Proof.LibIndexOps
import Idealize.ShloMosaic.Lib.StableHlo.Run
import Idealize.ShloMosaic.PureOps.Ideal.Laws
import Idealize.ShloMosaic.Lib.IdealHost
import Idealize.ShloMosaic.Lib.ValueLayout

set_option maxRecDepth 16384

noncomputable section

namespace Cert.KernelIdeal.KV

open Idealize.ShloMosaic Idealize.ShloMosaic.TcCoe Idealize.ShloMosaic.ValueIdx Idealize.SL.Sem
open Idealize.ShloMosaic.Pipeline (Dat Cfg Window)
open Cert.KernelIdeal Cert.KernelIdeal.Gen GCN
open scoped BigOperators

variable (m : (ℓ : Loc nD τ sig) → Buf (Elt Ideal) ℓ) (ρ : Dev nD → PrngReg) (c : Dev nD)

namespace HostA

/-! ## Words -/

/-- A word clipped at zero and then wrapped by 128 where negative is the clipped word: its signed reading is the
    word's, at least zero. -/
theorem clip_wrap_toInt (z : BitVec 32) :
    (Scalar.select (IntOp.cmpi .slt (IntOp.maxsi 0#32 z) 0#32) (IntOp.addi (IntOp.maxsi 0#32 z) 128#32) (IntOp.maxsi 0#32 z)).toInt
      = max z.toInt 0 := by
  have h0 : (0#32 : BitVec 32).toInt = 0 := by decide
  have h00 : (0#32 : BitVec 32).slt 0#32 = false := by decide
  have hsel : ∀ y : BitVec 32, y.slt 0#32 = false →
      Scalar.select (IntOp.cmpi .slt y 0#32) (IntOp.addi y 128#32) y = y := by
    intro y hy
    unfold Scalar.select IntOp.cmpi
    simp only [hy]
    exact if_neg (by decide)
  by_cases h : z.toInt < 0
  · have hs : z.slt 0#32 = true := by
      unfold BitVec.slt
      rw [h0]; exact decide_eq_true h
    have hm : IntOp.maxsi 0#32 z = 0#32 := by unfold IntOp.maxsi; rw [if_pos hs]
    rw [hm, hsel _ h00, h0]
    omega
  · have hs : z.slt 0#32 = false := by
      unfold BitVec.slt
      rw [h0]; exact decide_eq_false h
    have hm : IntOp.maxsi 0#32 z = z := by unfold IntOp.maxsi; rw [if_neg (by rw [hs]; decide)]
    rw [hm, hsel _ hs]
    omega

/-- Ones summed in 32-bit words over fewer than 2^31 places: the signed reading of the sum is the number of places. -/
theorem toInt_sum_ones {n : ℕ} (hn : n < 2 ^ 31) (P : Fin n → Prop) [DecidablePred P] :
    ((0#32 : BitVec 32) + ∑ a : Fin n, if P a then (1#32 : BitVec 32) else 0).toInt
      = ((Finset.univ.filter P).card : ℤ) := by
  have hc : (Finset.univ.filter P).card ≤ n := by
    simpa using Finset.card_filter_le (Finset.univ : Finset (Fin n)) P
  have hs : (∑ a : Fin n, if P a then (1#32 : BitVec 32) else 0) = (((Finset.univ.filter P).card : ℕ) : BitVec 32) :=
    Finset.sum_boole _ _
  have hk : (Finset.univ.filter P).card % 2 ^ 32 = (Finset.univ.filter P).card := Nat.mod_eq_of_lt (by omega)
  rw [BitVec.zero_add, hs, BitVec.natCast_eq_ofNat,
    BitVec.toInt_eq_toNat_of_lt (by rw [BitVec.toNat_ofNat, hk]; omega), BitVec.toNat_ofNat, hk]

/-! ## The degree and its guarded inverse square root: the stretches one at a time, over any contents `V` before them -/

section Stages
variable (V : Valuation τ sig (Elt Ideal))

/-- The degree array: ones scattered at the destination words into zeros, plus one. -/
def degArr (ei : IVec S2x1600000 32) : Vec Ideal S100000 .f32 :=
  addf
    (Host.scatterAdd scatter_S100000_S1600000x1_S1600000_n_0_0_1
      (broadcastInDim S100000 ![] bcast_S_S100000 (constant (F := Ideal) S_ .f32 0x00000000#32))
      (broadcastInDim S1600000x1 ![0] bcast_S1600000_S1600000x1_0
        (shapeCast S1600000 (extractStridedSlice S1x1600000 ![1, 0] ei slices_S2x1600000_S1x1600000_1_0) shapeCasts_S1x1600000_S1600000))
      (broadcastInDim S1600000 ![] bcast_S_S1600000 (constant (F := Ideal) S_ .f32 0x3F800000#32)))
    (broadcastInDim S100000 ![] bcast_S_S100000 (constant (F := Ideal) S_ .f32 0x3F800000#32))

theorem after0_v11 : (StableHlo.after hostOps0 V (Proc.devRef .tc main_v11) : IVec S100000 1)
    = cmpf .ogt (degArr (V (Proc.devRef .tc main_arg1) : IVec S2x1600000 32))
        (broadcastInDim S100000 ![] bcast_S_S100000 (constant (F := Ideal) S_ .f32 0x00000000#32)) := by
  dsimp only [hostOps0]
  after_results_simp
  rfl
theorem after0_v12 : (StableHlo.after hostOps0 V (Proc.devRef .tc main_v12) : Vec Ideal S100000 .f32)
    = (Host.rsqrt (degArr (V (Proc.devRef .tc main_arg1) : IVec S2x1600000 32)) : FVec Ideal S100000 .f32) := by
  dsimp only [hostOps0]
  after_results_simp
  rfl
theorem after0_cst3 : (StableHlo.after hostOps0 V (Proc.devRef .tc main_cst_3) : Vec Ideal S_ .f32)
    = constant (F := Ideal) S_ .f32 0x00000000#32 := by
  dsimp only [hostOps0]
  after_results_simp
theorem after1_v13 : (StableHlo.after hostOps0_1 V (Proc.devRef .tc main_v13) : Vec Ideal S100000 .f32)
    = select (V (Proc.devRef .tc main_v11) : IVec S100000 1) (V (Proc.devRef .tc main_v12) : Vec Ideal S100000 .f32)
        (broadcastInDim S100000 ![] bcast_S_S100000 (V (Proc.devRef .tc main_cst_3) : Vec Ideal S_ .f32)) := by
  dsimp only [hostOps0_1]
  after_results_simp
  rfl
theorem after2_v14 : (StableHlo.after hostOps0_2 V (Proc.devRef .tc main_v14) : Vec Ideal S100000x1 .f32)
    = broadcastInDim S100000x1 ![0] bcast_S100000_S100000x1_0 (V (Proc.devRef .tc main_v13) : Vec Ideal S100000 .f32) := by
  dsimp only [hostOps0_2]
  after_results_simp
theorem after34_v14 : StableHlo.after hostOps0_4 (StableHlo.after hostOps0_3 V) (Proc.devRef .tc main_v14) = V (Proc.devRef .tc main_v14) := by
  dsimp only [hostOps0_4, hostOps0_3]
  after_results_simp

end Stages

theorem w5_v14_eq : (W5 m ρ c (Proc.devRef .tc main_v14) : Vec Ideal S100000x1 .f32)
    = broadcastInDim S100000x1 ![0] bcast_S100000_S100000x1_0
        (select (cmpf .ogt (degArr (m ((c.tc : Thread nD τ).loc main_arg1) : IVec S2x1600000 32))
            (broadcastInDim S100000 ![] bcast_S_S100000 (constant (F := Ideal) S_ .f32 0x00000000#32)))
          (Host.rsqrt (degArr (m ((c.tc : Thread nD τ).loc main_arg1) : IVec S2x1600000 32)) : FVec Ideal S100000 .f32)
          (broadcastInDim S100000 ![] bcast_S_S100000 (constant (F := Ideal) S_ .f32 0x00000000#32))) := by
  refine (after34_v14 (W3 m ρ c)).trans ?_
  refine (after2_v14 (W2 m ρ c)).trans ?_
  rw [show (W2 m ρ c (Proc.devRef .tc main_v13) : Vec Ideal S100000 .f32) = _ from after1_v13 (W1 m ρ c)]
  rw [show (W1 m ρ c (Proc.devRef .tc main_v11) : IVec S100000 1) = _ from after0_v11 (W0 m ρ c),
    show (W1 m ρ c (Proc.devRef .tc main_v12) : Vec Ideal S100000 .f32) = _ from after0_v12 (W0 m ρ c),
    show (W1 m ρ c (Proc.devRef .tc main_cst_3) : Vec Ideal S_ .f32) = _ from after0_cst3 (W0 m ρ c)]

theorem degArr_apply (ei : IVec S2x1600000 32) (v : Fin 100000) :
    degArr ei (ix1 v) = degT (fun e => ei (ix2 1 e)) v := by
  unfold degArr degT
  rw [addf_apply, GCN.Ops.scatterAdd_vec _ rfl rfl rfl rfl, broadcastInDim_scalar_apply, broadcastInDim_scalar_apply,
    constant_apply, constant_apply, Ideal.ofBits_zero_f32, Ideal.ofBits_one_f32]
  refine congrArg (fun s : EReal => (0 + s) + 1) (Finset.sum_congr rfl fun e _ => ?_)
  rw [GCN.Ops.column_apply, shapeCast_1a_a_apply, slice2_axis0_apply 1 _ _ 0 e 1 rfl, broadcastInDim_scalar_apply,
    constant_apply, Ideal.ofBits_one_f32]
  rfl

/-- The guarded inverse square root at an index: the comparison's bit selects between the inverse square root and
    the zero. -/
theorem guard_apply (D : FVec Ideal S100000 .f32) (z : FVec Ideal S_ .f32) (hz : z ix0 = 0) (v : Fin 100000) :
    select (cmpf .ogt D (broadcastInDim S100000 ![] bcast_S_S100000 z : FVec Ideal S100000 .f32)) (Host.rsqrt D : FVec Ideal S100000 .f32)
        (broadcastInDim S100000 ![] bcast_S_S100000 z : FVec Ideal S100000 .f32) (ix1 v)
      = dinvOf (D (ix1 v)) := by
  have hb : (broadcastInDim S100000 ![] bcast_S_S100000 z : FVec Ideal S100000 .f32) (ix1 v) = 0 := by
    rw [broadcastInDim_scalar_apply, hz]
  show Scalar.select (Ideal.cmp .ogt (D (ix1 v)) ((broadcastInDim S100000 ![] bcast_S_S100000 z : FVec Ideal S100000 .f32) (ix1 v)))
      (Ideal.rsqrt (D (ix1 v))) ((broadcastInDim S100000 ![] bcast_S_S100000 z : FVec Ideal S100000 .f32) (ix1 v)) = _
  rw [hb]
  unfold dinvOf Scalar.select Ideal.cmp
  by_cases h : 0 < D (ix1 v)
  · simp [h]
  · simp [h]

/-! ## The nodes per graph -/

section StagesCnt
variable (V : Valuation τ sig (Elt Ideal))

/-- The graph words clipped at zero. -/
def clipArr (z0 : IVec S_ 32) (bat : IVec S100000 32) : IVec S100000 32 :=
  maxsi (broadcastInDim S100000 ![] bcast_S_S100000 z0) bat

/-- The nodes per graph as the program counts them: the clipped words wrapped by 128 where negative, integer ones
    scattered at them into `z`, the sums read as numbers, at least one, as a column. -/
def cntArr (cl : IVec S100000 32) (z : IVec S128 32) : Vec Ideal S128x1 .f32 :=
  broadcastInDim S128x1 ![0] bcast_S128_S128x1_0
    (maximumf
      (sitofp .f32 (Host.scatter scatter_S128_S100000x1_S100000_n_0_0_1 IntOp.addi z
          (broadcastInDim S100000x1 ![0] bcast_S100000_S100000x1_0
            (select (cmpi .slt cl (broadcastInDim S100000 ![] bcast_S_S100000 (constantI S_ 32 0#32)))
              (addi cl (broadcastInDim S100000 ![] bcast_S_S100000 (constantI S_ 32 128#32))) cl))
          (broadcastInDim S100000 ![] bcast_S_S100000 (constantI S_ 32 1#32))) : FVec Ideal S128 .f32)
      (broadcastInDim S128 ![] bcast_S_S128 (constant (F := Ideal) S_ .f32 0x3F800000#32)))

theorem after4_v28 : (StableHlo.after hostOps0_4 V (Proc.devRef .tc main_v28) : Vec Ideal S128x1 .f32)
    = cntArr (V (Proc.devRef .tc main_v16) : IVec S100000 32) (V (Proc.devRef .tc main_v15) : IVec S128 32) := by
  dsimp only [hostOps0_4]
  after_results_simp
  rfl
theorem after3_v16 : (StableHlo.after hostOps0_3 V (Proc.devRef .tc main_v16) : IVec S100000 32)
    = clipArr (V (Proc.devRef .tc main_c_4) : IVec S_ 32) (V (Proc.devRef .tc main_arg2) : IVec S100000 32) := by
  dsimp only [hostOps0_3]
  after_results_simp
  rfl
theorem after3_v15 : StableHlo.after hostOps0_3 V (Proc.devRef .tc main_v15) = V (Proc.devRef .tc main_v15) := by
  dsimp only [hostOps0_3]
  after_results_simp
theorem after2_v15 : (StableHlo.after hostOps0_2 V (Proc.devRef .tc main_v15) : IVec S128 32)
    = broadcastInDim S128 ![] bcast_S_S128 (constantI S_ 32 0#32) := by
  dsimp only [hostOps0_2]
  after_results_simp
theorem after2_c4 : (StableHlo.after hostOps0_2 V (Proc.devRef .tc main_c_4) : IVec S_ 32) = constantI S_ 32 0#32 := by
  dsimp only [hostOps0_2]
  after_results_simp
theorem after012_arg2 : StableHlo.after hostOps0_2 (StableHlo.after hostOps0_1 (StableHlo.after hostOps0 V)) (Proc.devRef .tc main_arg2)
    = V (Proc.devRef .tc main_arg2) := by
  dsimp only [hostOps0_2, hostOps0_1, hostOps0]
  after_results_simp

end StagesCnt

theorem w5_v28_eq : (W5 m ρ c (Proc.devRef .tc main_v28) : Vec Ideal S128x1 .f32)
    = cntArr (clipArr (constantI S_ 32 0#32) (m ((c.tc : Thread nD τ).loc main_arg2) : IVec S100000 32))
        (broadcastInDim S128 ![] bcast_S_S128 (constantI S_ 32 0#32)) := by
  refine (after4_v28 (W4 m ρ c)).trans ?_
  rw [show (W4 m ρ c (Proc.devRef .tc main_v16) : IVec S100000 32) = _ from after3_v16 (W3 m ρ c),
    show (W4 m ρ c (Proc.devRef .tc main_v15) : IVec S128 32) = _ from (after3_v15 (W3 m ρ c)).trans (after2_v15 (W2 m ρ c)),
    show (W3 m ρ c (Proc.devRef .tc main_c_4) : IVec S_ 32) = _ from after2_c4 (W2 m ρ c),
    show (W3 m ρ c (Proc.devRef .tc main_arg2) : IVec S100000 32) = (m ((c.tc : Thread nD τ).loc main_arg2) : IVec S100000 32)
      from after012_arg2 (W0 m ρ c)]

theorem cntArr_read (cl : IVec S100000 32) (z : IVec S128 32) (g : Fin 128) :
    cntArr cl z (ix2 g 0)
      = max ((((z (ix1 g) + ∑ a : Fin 100000,
            if (Scalar.select (IntOp.cmpi .slt (cl (ix1 a)) 0#32) (IntOp.addi (cl (ix1 a)) 128#32) (cl (ix1 a))).toInt = ((g : ℕ) : ℤ)
              then (1#32 : BitVec 32) else 0).toInt : ℝ) : EReal)) 1 := by
  unfold cntArr
  rw [GCN.Ops.column_apply, maximumf_apply, sitofp_apply, GCN.Ops.scatter_addi_vec _ rfl rfl rfl rfl,
    broadcastInDim_scalar_apply, constant_apply, Ideal.ofBits_one_f32]
  refine congrArg (fun t : BitVec 32 => max (((t.toInt : ℝ)) : EReal) 1) ?_
  refine congrArg (fun s => z (ix1 g) + s) (Finset.sum_congr rfl fun a _ => ?_)
  rw [GCN.Ops.column_apply]
  rfl

theorem cntArr_apply (bat : IVec S100000 32) (g : Fin 128) :
    cntArr (clipArr (constantI S_ 32 0#32) bat) (broadcastInDim S128 ![] bcast_S_S128 (constantI S_ 32 0#32)) (ix2 g 0)
      = cntT (tab1 bat) g := by
  rw [cntArr_read]
  have hcl : ∀ a : Fin 100000, clipArr (constantI S_ 32 0#32) bat (ix1 a) = IntOp.maxsi 0#32 (bat (ix1 a)) := fun a => rfl
  have hz : (broadcastInDim S128 ![] bcast_S_S128 (constantI S_ 32 0#32) : IVec S128 32) (ix1 g) = 0#32 := rfl
  simp only [hcl, clip_wrap_toInt, hz]
  rw [toInt_sum_ones (by norm_num) (fun a : Fin 100000 => max (bat (ix1 a)).toInt 0 = ((g : ℕ) : ℤ)), Int.cast_natCast]
  rfl

end HostA

/-! ## The statements -/

theorem w5_src (e : Fin 1600000) : (W5 m ρ c (Proc.devRef .tc main_v1) : IVec S1600000 32) (ix1 e) = (m ((c.tc : Thread nD τ).loc main_arg1) : IVec S2x1600000 32) (ix2 0 e) := by
  have e0 : (W5 m ρ c (Proc.devRef .tc main_v1) : IVec S1600000 32)
      = shapeCast S1600000 (extractStridedSlice S1x1600000 ![0, 0] (m ((c.tc : Thread nD τ).loc main_arg1) : IVec S2x1600000 32) slices_S2x1600000_S1x1600000_0_0) shapeCasts_S1x1600000_S1600000 := by
    dsimp only [W5, W4, W3, W2, W1, W0, hostOps0_4, hostOps0_3, hostOps0_2, hostOps0_1, hostOps0]
    after_results
    rfl
  rw [e0, shapeCast_1a_a_apply]
  exact slice2_axis0_apply 0 _ _ 0 e 0 rfl
theorem w5_dst (e : Fin 1600000) : (W5 m ρ c (Proc.devRef .tc main_v3) : IVec S1600000 32) (ix1 e) = (m ((c.tc : Thread nD τ).loc main_arg1) : IVec S2x1600000 32) (ix2 1 e) := by
  have e0 : (W5 m ρ c (Proc.devRef .tc main_v3) : IVec S1600000 32)
      = shapeCast S1600000 (extractStridedSlice S1x1600000 ![1, 0] (m ((c.tc : Thread nD τ).loc main_arg1) : IVec S2x1600000 32) slices_S2x1600000_S1x1600000_1_0) shapeCasts_S1x1600000_S1600000 := by
    dsimp only [W5, W4, W3, W2, W1, W0, hostOps0_4, hostOps0_3, hostOps0_2, hostOps0_1, hostOps0]
    after_results
    rfl
  rw [e0, shapeCast_1a_a_apply]
  exact slice2_axis0_apply 1 _ _ 0 e 1 rfl
theorem w5_dinv (v : Fin 100000) :
    (W5 m ρ c (Proc.devRef .tc main_v14) : Vec Ideal S100000x1 .f32) (ix2 v 0)
      = dinvOf (degT (fun e => (m ((c.tc : Thread nD τ).loc main_arg1) : IVec S2x1600000 32) (ix2 1 e)) v) := by
  rw [HostA.w5_v14_eq, GCN.Ops.column_apply,
    HostA.guard_apply _ _ (by rw [constant_apply, Ideal.ofBits_zero_f32]) v, HostA.degArr_apply]
theorem w5_cnt (g : Fin 128) :
    (W5 m ρ c (Proc.devRef .tc main_v28) : Vec Ideal S128x1 .f32) (ix2 g 0) = cntT (tab1 (m ((c.tc : Thread nD τ).loc main_arg2) : IVec S100000 32)) g := by
  rw [HostA.w5_v28_eq]
  exact HostA.cntArr_apply _ g
theorem w5_bat (i : Fin 100000) : (W5 m ρ c (Proc.devRef .tc main_v29) : IVec S100000x1 32) (ix2 i 0) = (m ((c.tc : Thread nD τ).loc main_arg2) : IVec S100000 32) (ix1 i) := by
  have e0 : (W5 m ρ c (Proc.devRef .tc main_v29) : IVec S100000x1 32)
      = broadcastInDim S100000x1 ![0] bcast_S100000_S100000x1_0 (m ((c.tc : Thread nD τ).loc main_arg2) : IVec S100000 32) := by
    dsimp only [W5, W4, W3, W2, W1, W0, hostOps0_4, hostOps0_3, hostOps0_2, hostOps0_1, hostOps0]
    after_results
  rw [e0]
  exact GCN.Ops.column_apply _ _ i 0
theorem w5_b1 (f : Fin 64) : (W5 m ρ c (Proc.devRef .tc main_v30) : Vec Ideal S1x64 .f32) (ix2 0 f) = (m ((c.tc : Thread nD τ).loc main_arg4) : Vec Ideal S64 .f32) (ix1 f) := by
  have e0 : (W5 m ρ c (Proc.devRef .tc main_v30) : Vec Ideal S1x64 .f32)
      = shapeCast S1x64 (m ((c.tc : Thread nD τ).loc main_arg4) : Vec Ideal S64 .f32) shapeCasts_S64_S1x64 := by
    dsimp only [W5, W4, W3, W2, W1, W0, hostOps0_4, hostOps0_3, hostOps0_2, hostOps0_1, hostOps0]
    after_results
    rfl
  rw [e0]
  exact shapeCast_a_1a_apply _ _ 0 f
theorem w5_w1 (f : Fin 64) : (W5 m ρ c (Proc.devRef .tc main_v31) : Vec Ideal S1x64 .f32) (ix2 0 f) = (m ((c.tc : Thread nD τ).loc main_arg6) : Vec Ideal S64 .f32) (ix1 f) := by
  have e0 : (W5 m ρ c (Proc.devRef .tc main_v31) : Vec Ideal S1x64 .f32)
      = shapeCast S1x64 (m ((c.tc : Thread nD τ).loc main_arg6) : Vec Ideal S64 .f32) shapeCasts_S64_S1x64 := by
    dsimp only [W5, W4, W3, W2, W1, W0, hostOps0_4, hostOps0_3, hostOps0_2, hostOps0_1, hostOps0]
    after_results
    rfl
  rw [e0]
  exact shapeCast_a_1a_apply _ _ 0 f
theorem w5_beta1 (f : Fin 64) : (W5 m ρ c (Proc.devRef .tc main_v32) : Vec Ideal S1x64 .f32) (ix2 0 f) = (m ((c.tc : Thread nD τ).loc main_arg7) : Vec Ideal S64 .f32) (ix1 f) := by
  have e0 : (W5 m ρ c (Proc.devRef .tc main_v32) : Vec Ideal S1x64 .f32)
      = shapeCast S1x64 (m ((c.tc : Thread nD τ).loc main_arg7) : Vec Ideal S64 .f32) shapeCasts_S64_S1x64 := by
    dsimp only [W5, W4, W3, W2, W1, W0, hostOps0_4, hostOps0_3, hostOps0_2, hostOps0_1, hostOps0]
    after_results
    rfl
  rw [e0]
  exact shapeCast_a_1a_apply _ _ 0 f
theorem w5_b2 (f : Fin 64) : (W5 m ρ c (Proc.devRef .tc main_v33) : Vec Ideal S1x64 .f32) (ix2 0 f) = (m ((c.tc : Thread nD τ).loc main_arg9) : Vec Ideal S64 .f32) (ix1 f) := by
  have e0 : (W5 m ρ c (Proc.devRef .tc main_v33) : Vec Ideal S1x64 .f32)
      = shapeCast S1x64 (m ((c.tc : Thread nD τ).loc main_arg9) : Vec Ideal S64 .f32) shapeCasts_S64_S1x64 := by
    dsimp only [W5, W4, W3, W2, W1, W0, hostOps0_4, hostOps0_3, hostOps0_2, hostOps0_1, hostOps0]
    after_results
    rfl
  rw [e0]
  exact shapeCast_a_1a_apply _ _ 0 f
theorem w5_w2 (f : Fin 64) : (W5 m ρ c (Proc.devRef .tc main_v34) : Vec Ideal S1x64 .f32) (ix2 0 f) = (m ((c.tc : Thread nD τ).loc main_arg11) : Vec Ideal S64 .f32) (ix1 f) := by
  have e0 : (W5 m ρ c (Proc.devRef .tc main_v34) : Vec Ideal S1x64 .f32)
      = shapeCast S1x64 (m ((c.tc : Thread nD τ).loc main_arg11) : Vec Ideal S64 .f32) shapeCasts_S64_S1x64 := by
    dsimp only [W5, W4, W3, W2, W1, W0, hostOps0_4, hostOps0_3, hostOps0_2, hostOps0_1, hostOps0]
    after_results
    rfl
  rw [e0]
  exact shapeCast_a_1a_apply _ _ 0 f
theorem w5_beta2 (f : Fin 64) : (W5 m ρ c (Proc.devRef .tc main_v35) : Vec Ideal S1x64 .f32) (ix2 0 f) = (m ((c.tc : Thread nD τ).loc main_arg12) : Vec Ideal S64 .f32) (ix1 f) := by
  have e0 : (W5 m ρ c (Proc.devRef .tc main_v35) : Vec Ideal S1x64 .f32)
      = shapeCast S1x64 (m ((c.tc : Thread nD τ).loc main_arg12) : Vec Ideal S64 .f32) shapeCasts_S64_S1x64 := by
    dsimp only [W5, W4, W3, W2, W1, W0, hostOps0_4, hostOps0_3, hostOps0_2, hostOps0_1, hostOps0]
    after_results
    rfl
  rw [e0]
  exact shapeCast_a_1a_apply _ _ 0 f

end Cert.KernelIdeal.KV

end
-- ==== Proof.KHostB.lean ====
/-
  The host operations that move features along the edges: the scaled features are gathered
  at the source words (a negative word wrapped by the number of nodes, then clamped) and scatter-added at the
  destination words (a word that is not a row number is dropped), from zeros.
-/
import proofs.«420537_j75831942578735_3_alg».proof.Proof.Gen.KernelIdeal.Frame
import proofs.«420537_j75831942578735_3_alg».proof.Proof.Views
import proofs.«420537_j75831942578735_3_alg».proof.Proof.LibIndexOps
import Idealize.ShloMosaic.Lib.StableHlo.Run
import Idealize.ShloMosaic.Lib.IdealHost
import Idealize.ShloMosaic.PureOps.Ideal.Laws

set_option maxRecDepth 16384

noncomputable section

namespace Cert.KernelIdeal.KV

open Idealize.ShloMosaic Idealize.ShloMosaic.TcCoe Idealize.ShloMosaic.ValueIdx Idealize.SL.Sem
open Idealize.ShloMosaic.Pipeline (Dat Cfg Window)
open Cert.KernelIdeal Cert.KernelIdeal.Gen GCN

namespace HostB

/-- The stretch's operations on source words `src`, destination words `dst` and a feature table `fs`, read at
    (v, f): from zero, the sum over the edges whose destination word is the row number v of the table's entry f in
    the row the source word names (wrapped when negative, then clamped). -/
theorem aggTerm_apply (src dst : IVec S1600000 32) (fs : Vec Ideal S100000x64 .bf16) (v : Fin 100000) (f : Fin 64) :
    (Host.scatterAdd scatter_S100000x64_S1600000x1_S1600000x64_1_0_0_1
        (broadcastInDim S100000x64 ![] bcast_S_S100000x64 (constant (F := Ideal) S_ FTy.f32 0x00000000#32))
        (broadcastInDim S1600000x1 ![0] bcast_S1600000_S1600000x1_0 dst)
        (extf FTy.f32
          (Host.gather gather_S100000x64_S1600000x1_S1600000x64_1_0_n_n_0_1_164 fs
            (broadcastInDim S1600000x1 ![0] bcast_S1600000_S1600000x1_0
              (select (cmpi CmpIPredicate.slt src (broadcastInDim S1600000 ![] bcast_S_S1600000 (constantI S_ 32 0#32)))
                (addi src (broadcastInDim S1600000 ![] bcast_S_S1600000 (constantI S_ 32 100000#32)))
                src)))
          bitsLt_bf16_f32) : Vec Ideal S100000x64 .f32) (ix2 v f)
      = aggT (tab1 src) (tab1 dst) (tab2 fs) v f := by
  -- the three operands of the scatter as tables of their own, each with what it reads at an index
  generalize hx : (broadcastInDim S100000x64 ![] bcast_S_S100000x64 (constant (F := Ideal) S_ FTy.f32 0x00000000#32)
    : FVec Ideal S100000x64 .f32) = x
  generalize hd : (broadcastInDim S1600000x1 ![0] bcast_S1600000_S1600000x1_0 dst : IVec S1600000x1 32) = di
  generalize hs : (broadcastInDim S1600000x1 ![0] bcast_S1600000_S1600000x1_0
      (select (cmpi CmpIPredicate.slt src (broadcastInDim S1600000 ![] bcast_S_S1600000 (constantI S_ 32 0#32)))
        (addi src (broadcastInDim S1600000 ![] bcast_S_S1600000 (constantI S_ 32 100000#32))) src) : IVec S1600000x1 32) = si
  have hx0 : x (ix2 v f) = 0 := by
    rw [← hx, broadcastInDim_scalar_apply]; exact Ideal.ofBits_zero_f32
  have hd0 : ∀ e : Fin 1600000, di (ix2 e (0 : Fin 1)) = dst (ix1 e) := fun e => by
    rw [← hd]; exact GCN.Ops.column_apply _ dst e 0
  have hs0 : ∀ e : Fin 1600000, min (si (ix2 e (0 : Fin 1))).toInt.toNat (100000 - 1) = gi 100000 (src (ix1 e)) := fun e => by
    rw [← hs, GCN.Ops.column_apply]
    exact GCN.Ops.wrap_apply 100000 (by norm_num) src _ _ (ix1 e)
      (broadcastInDim_scalar_apply _ _ _) (broadcastInDim_scalar_apply _ _ _)
  rw [GCN.Ops.scatterAdd_rows scatter_S100000x64_S1600000x1_S1600000x64_1_0_0_1 rfl rfl rfl rfl x di
    (extf FTy.f32 (Host.gather gather_S100000x64_S1600000x1_S1600000x64_1_0_n_n_0_1_164 fs si) bitsLt_bf16_f32) v f, hx0]
  unfold aggT
  refine congrArg (fun t : EReal => 0 + t) (Finset.sum_congr rfl fun e _ => ?_)
  rw [hd0 e]
  refine if_congr Iff.rfl ?_ rfl
  rw [extf_apply, GCN.Ops.gather_rows gather_S100000x64_S1600000x1_S1600000x64_1_0_n_n_0_1_164 rfl rfl rfl rfl rfl rfl
    fs si e f (by norm_num)]
  exact congrArg (fun r => fs (ix2 r f)) (Fin.ext (hs0 e))

end HostB

-- The buffer contents a stretch of host operations starts from.
variable (W : Valuation τ sig (Elt Ideal))

set_option maxHeartbeats 1000000 in
theorem agg1 (v : Fin 100000) (f : Fin 64) :
    (StableHlo.after (hostOps1 (F := Ideal)) W (Proc.devRef .tc main_v47) : Vec Ideal S100000x64 .f32) (ix2 v f)
      = aggT (tab1 (W (Proc.devRef .tc main_v1) : IVec S1600000 32)) (tab1 (W (Proc.devRef .tc main_v3) : IVec S1600000 32))
          (tab2 (W (Proc.devRef .tc main_v36_1) : Vec Ideal S100000x64 .bf16)) v f := by
  simp only [hostOps1]
  after_results
  exact HostB.aggTerm_apply _ _ _ v f

set_option maxHeartbeats 1000000 in
theorem agg2 (v : Fin 100000) (f : Fin 64) :
    (StableHlo.after (hostOps3 (F := Ideal)) W (Proc.devRef .tc main_v83) : Vec Ideal S100000x64 .f32) (ix2 v f)
      = aggT (tab1 (W (Proc.devRef .tc main_v1) : IVec S1600000 32)) (tab1 (W (Proc.devRef .tc main_v3) : IVec S1600000 32))
          (tab2 (W (Proc.devRef .tc main_v72_1) : Vec Ideal S100000x64 .bf16)) v f := by
  simp only [hostOps3]
  after_results
  exact HostB.aggTerm_apply _ _ _ v f

end Cert.KernelIdeal.KV

end
-- ==== Proof.KHostC.lean ====
/-
  The host operations that turn the two halves' per-graph sums into the normalisation's tables: the mean and the mean
  of squares by the counts, the variance E[x²] − m²(2α − α²) kept non-negative, the scaled mean α·m, the inverse
  deviation; and, at the end, the pooled mean.
-/
import proofs.«420537_j75831942578735_3_alg».proof.Proof.Gen.KernelIdeal.Frame
import proofs.«420537_j75831942578735_3_alg».proof.Proof.Views
import Idealize.ShloMosaic.Lib.StableHlo.Run
import Idealize.ShloMosaic.Lib.IdealHost
import Idealize.ShloMosaic.Lib.Pipeline.Value
import Idealize.ShloMosaic.PureOps.Ideal.Laws

set_option maxRecDepth 16384

noncomputable section

namespace Cert.KernelIdeal.KV

open Idealize.ShloMosaic Idealize.ShloMosaic.TcCoe Idealize.ShloMosaic.ValueIdx Idealize.SL.Sem
open Idealize.ShloMosaic.Pipeline (Dat Cfg Window)
open Cert.KernelIdeal Cert.KernelIdeal.Gen GCN

namespace HostC

/-! ## The operations read at an index -/

/-- The single-precision pattern of two is the real number two. -/
theorem ofBits_two_f32 : Ideal.ofBits .f32 0x40000000#32 = 2 := by
  rw [show (2 : EReal) = ((2 : ℝ) : EReal) by norm_cast]
  simp [Ideal.ofBits, Ideal.ieee, -EReal.coe_mul]; norm_num

/-- The sum over the leading axis of a [2, 128, 64] array from a scalar initial value: the initial value plus the two
    halves' entries. -/
theorem reduce_halves (x : Vec Ideal S2x128x64 .f32) (z : Vec Ideal S_ .f32) (g : Fin 128) (f : Fin 64) :
    (Host.reduceAdd (F := Ideal) (φ := .f32) x z reducesTo_S2x128x64_S128x64_d0 h_S_ : Vec Ideal S128x64 .f32) (ix2 g f)
      = z ix0 + (x (ix3 0 g f) + x (ix3 1 g f)) := by
  have hR : S2x128x64.Reduces [0] S128x64 := by decide
  have e : ∀ k : Fin 2, hR.lift (ix2 g f) k = ix3 k g f := fun k => funext fun c => Fin.ext (by
    match c with
    | ⟨0, _⟩ => rfl
    | ⟨1, _⟩ => rfl
    | ⟨2, _⟩ => rfl)
  show Ideal.hostReduceAdd _ x (z _) (ix2 g f) = _
  rw [Ideal.hostReduceAdd_single reducesTo_S2x128x64_S128x64_d0 hR]
  show z _ + ∑ k : Fin 2, x (hR.lift (ix2 g f) k) = _
  rw [Fin.sum_univ_two, e, e, eq_ix0 (Shape.Idx.first h_S_)]

/-- A column laid along every column of a [128, 64] array. -/
theorem bcast_col {α : Type} (c : S128x1.Idx → α) (g : Fin 128) (f : Fin 64) :
    broadcastInDim S128x64 ![0, 1] bcast_S128x1_S128x64_0_1 c (ix2 g f) = c (ix2 g 0) := by
  refine broadcastInDim_apply ![0, 1] bcast_S128x1_S128x64_0_1 c (ix2 g f) (ix2 g 0) ?_
  intro a
  match a with
  | ⟨0, _⟩ => rfl
  | ⟨1, _⟩ => rfl

/-- A vector of 64 entries as a one-row array. -/
theorem bcast_vec_row {α : Type} (a : S64.Idx → α) (f : Fin 64) :
    broadcastInDim S1x64 ![1] bcast_S64_S1x64_1 a (ix2 0 f) = a (ix1 f) := by
  refine broadcastInDim_apply ![1] bcast_S64_S1x64_1 a (ix2 0 f) (ix1 f) ?_
  intro a
  match a with
  | ⟨0, _⟩ => rfl

/-- A one-row array laid along every row of a [128, 64] array. -/
theorem bcast_rows {α : Type} (r : S1x64.Idx → α) (g : Fin 128) (f : Fin 64) :
    broadcastInDim S128x64 ![0, 1] bcast_S1x64_S128x64_0_1 r (ix2 g f) = r (ix2 0 f) := by
  refine broadcastInDim_apply ![0, 1] bcast_S1x64_S128x64_0_1 r (ix2 g f) (ix2 0 f) ?_
  intro a
  match a with
  | ⟨0, _⟩ => rfl
  | ⟨1, _⟩ => rfl

/-- A vector of 64 entries laid along every row of a [128, 64] array. -/
theorem bcast_vec_rows {α : Type} (a : S64.Idx → α) (g : Fin 128) (f : Fin 64) :
    broadcastInDim S128x64 ![0, 1] bcast_S1x64_S128x64_0_1 (broadcastInDim S1x64 ![1] bcast_S64_S1x64_1 a) (ix2 g f) = a (ix1 f) := by
  rw [bcast_rows, bcast_vec_row]

/-! ## The statistics' terms -/

/-- The two halves' sums added and divided by the counts. -/
def meanT (p : Vec Ideal S2x128x64 .f32) (c : Vec Ideal S128x1 .f32) : Vec Ideal S128x64 .f32 :=
  Host.divf (F := Ideal) (φ := .f32)
    (Host.reduceAdd (F := Ideal) (φ := .f32) p (constant (F := Ideal) S_ .f32 0x00000000#32) reducesTo_S2x128x64_S128x64_d0 h_S_)
    (broadcastInDim S128x64 ![0, 1] bcast_S128x1_S128x64_0_1 c)

theorem meanT_apply (p : Vec Ideal S2x128x64 .f32) (c : Vec Ideal S128x1 .f32) (g : Fin 128) (f : Fin 64) :
    meanT p c (ix2 g f) = meanOf (tab3 p) (colv c) g f := by
  unfold meanT meanOf
  rw [hostDivf_apply, reduce_halves, bcast_col, constant_apply, Ideal.ofBits_zero_f32, zero_add]
  rfl

/-- The scaled mean: the mean scale laid along the rows, times the mean. -/
def amT (α : Vec Ideal S64 .f32) (p : Vec Ideal S2x128x64 .f32) (c : Vec Ideal S128x1 .f32) : Vec Ideal S128x64 .f32 :=
  mulf (F := Ideal) (φ := .f32)
    (broadcastInDim S128x64 ![0, 1] bcast_S1x64_S128x64_0_1 (broadcastInDim S1x64 ![1] bcast_S64_S1x64_1 α))
    (meanT p c)

theorem amT_apply (α : Vec Ideal S64 .f32) (p : Vec Ideal S2x128x64 .f32) (c : Vec Ideal S128x1 .f32) (g : Fin 128) (f : Fin 64) :
    amT α p c (ix2 g f) = ameanOf (tab1 α) (tab3 p) (colv c) g f := by
  unfold amT ameanOf
  rw [mulf_apply, bcast_vec_rows, meanT_apply]
  rfl

/-- The inverse deviation: the mean of squares less the squared mean times 2α − α², kept non-negative, the guard
    added, the inverse square root. -/
def isdT (α : Vec Ideal S64 .f32) (p q : Vec Ideal S2x128x64 .f32) (c : Vec Ideal S128x1 .f32) : Vec Ideal S128x64 .f32 :=
  Host.rsqrt (F := Ideal) (φ := .f32)
    (addf (F := Ideal) (φ := .f32)
      (maximumf (F := Ideal) (φ := .f32)
        (subf (F := Ideal) (φ := .f32) (meanT q c)
          (mulf (F := Ideal) (φ := .f32) (mulf (F := Ideal) (φ := .f32) (meanT p c) (meanT p c))
            (broadcastInDim S128x64 ![0, 1] bcast_S1x64_S128x64_0_1 (broadcastInDim S1x64 ![1] bcast_S64_S1x64_1
              (subf (F := Ideal) (φ := .f32)
                (mulf (F := Ideal) (φ := .f32) (broadcastInDim S64 ![] bcast_S_S64 (constant (F := Ideal) S_ .f32 0x40000000#32)) α)
                (mulf (F := Ideal) (φ := .f32) α α))))))
        (broadcastInDim S128x64 ![] bcast_S_S128x64 (constant (F := Ideal) S_ .f32 0x00000000#32)))
      (broadcastInDim S128x64 ![] bcast_S_S128x64 (constant (F := Ideal) S_ .f32 0x3727C5AC#32)))

theorem isdT_apply (α : Vec Ideal S64 .f32) (p q : Vec Ideal S2x128x64 .f32) (c : Vec Ideal S128x1 .f32) (g : Fin 128) (f : Fin 64) :
    isdT α p q c (ix2 g f) = isdOf epsW (tab1 α) (tab3 p) (tab3 q) (colv c) g f := by
  unfold isdT isdOf varOf
  show Ideal.rsqrt _ = _
  rw [addf_apply, maximumf_apply, subf_apply, mulf_apply, mulf_apply, bcast_vec_rows, subf_apply, mulf_apply, mulf_apply,
    broadcastInDim_scalar_apply, broadcastInDim_scalar_apply, broadcastInDim_scalar_apply, constant_apply, constant_apply,
    constant_apply, meanT_apply, meanT_apply, Ideal.ofBits_zero_f32, ofBits_two_f32]
  rfl

end HostC

/-! ## The three stretches -/

-- The buffer contents a stretch of host operations starts from.
variable (W : Valuation τ sig (Elt Ideal))

theorem stats1_am (g : Fin 128) (f : Fin 64) :
    (StableHlo.after (hostOps2 (F := Ideal)) W (Proc.devRef .tc main_v68) : Vec Ideal S128x64 .f32) (ix2 g f)
      = ameanOf (tab1 (W (Proc.devRef .tc main_arg5) : Vec Ideal S64 .f32)) (tab3 (W (Proc.devRef .tc main_v48_0) : Vec Ideal S2x128x64 .f32))
          (colv (W (Proc.devRef .tc main_v28) : Vec Ideal S128x1 .f32)) g f := by
  after_results_simp
  exact HostC.amT_apply _ _ _ g f

theorem stats1_isd (g : Fin 128) (f : Fin 64) :
    (StableHlo.after (hostOps2 (F := Ideal)) W (Proc.devRef .tc main_v71) : Vec Ideal S128x64 .f32) (ix2 g f)
      = isdOf epsW (tab1 (W (Proc.devRef .tc main_arg5) : Vec Ideal S64 .f32)) (tab3 (W (Proc.devRef .tc main_v48_0) : Vec Ideal S2x128x64 .f32))
          (tab3 (W (Proc.devRef .tc main_v48_1) : Vec Ideal S2x128x64 .f32)) (colv (W (Proc.devRef .tc main_v28) : Vec Ideal S128x1 .f32)) g f := by
  after_results_simp
  exact HostC.isdT_apply _ _ _ _ g f

theorem stats2_am (g : Fin 128) (f : Fin 64) :
    (StableHlo.after (hostOps4 (F := Ideal)) W (Proc.devRef .tc main_v104) : Vec Ideal S128x64 .f32) (ix2 g f)
      = ameanOf (tab1 (W (Proc.devRef .tc main_arg10) : Vec Ideal S64 .f32)) (tab3 (W (Proc.devRef .tc main_v84_0) : Vec Ideal S2x128x64 .f32))
          (colv (W (Proc.devRef .tc main_v28) : Vec Ideal S128x1 .f32)) g f := by
  after_results_simp
  exact HostC.amT_apply _ _ _ g f

theorem stats2_isd (g : Fin 128) (f : Fin 64) :
    (StableHlo.after (hostOps4 (F := Ideal)) W (Proc.devRef .tc main_v107) : Vec Ideal S128x64 .f32) (ix2 g f)
      = isdOf epsW (tab1 (W (Proc.devRef .tc main_arg10) : Vec Ideal S64 .f32)) (tab3 (W (Proc.devRef .tc main_v84_0) : Vec Ideal S2x128x64 .f32))
          (tab3 (W (Proc.devRef .tc main_v84_1) : Vec Ideal S2x128x64 .f32)) (colv (W (Proc.devRef .tc main_v28) : Vec Ideal S128x1 .f32)) g f := by
  after_results_simp
  exact HostC.isdT_apply _ _ _ _ g f

theorem pool_out (g : Fin 128) (f : Fin 64) :
    (StableHlo.after (hostOps5 (F := Ideal)) W (Proc.devRef .tc main_v111) : Vec Ideal S128x64 .f32) (ix2 g f)
      = Ideal.div ((tab3 (W (Proc.devRef .tc main_v108) : Vec Ideal S2x128x64 .f32) 0 g f : EReal)
            + (tab3 (W (Proc.devRef .tc main_v108) : Vec Ideal S2x128x64 .f32) 1 g f : EReal))
          (colv (W (Proc.devRef .tc main_v28) : Vec Ideal S128x1 .f32) g) := by
  after_results_simp
  exact HostC.meanT_apply _ _ g f

end Cert.KernelIdeal.KV

end
-- ==== Proof.KVal.lean ====
/-
  The tiled program's result from the launch memory: the buffer contents are followed boundary by boundary — a stretch
  of host operations rewrites the buffers it names and leaves the others, a pallas_call rewrites its output arrays and
  leaves the others — and at each boundary the buffers the next segment reads hold the formulas of MSpec.
-/
import proofs.«420537_j75831942578735_3_alg».proof.Proof.Gen.KernelIdeal.Frame
import proofs.«420537_j75831942578735_3_alg».proof.Proof.Views
import proofs.«420537_j75831942578735_3_alg».proof.Proof.KPersist
import proofs.«420537_j75831942578735_3_alg».proof.Proof.KReg0
import proofs.«420537_j75831942578735_3_alg».proof.Proof.KReg1
import proofs.«420537_j75831942578735_3_alg».proof.Proof.KReg2
import proofs.«420537_j75831942578735_3_alg».proof.Proof.KReg3
import proofs.«420537_j75831942578735_3_alg».proof.Proof.KReg4
import proofs.«420537_j75831942578735_3_alg».proof.Proof.KHostA
import proofs.«420537_j75831942578735_3_alg».proof.Proof.KHostB
import proofs.«420537_j75831942578735_3_alg».proof.Proof.KHostC

set_option maxRecDepth 16384

noncomputable section

namespace Cert.KernelIdeal.KV

open Idealize.ShloMosaic Idealize.ShloMosaic.TcCoe Idealize.ShloMosaic.ValueIdx Idealize.SL.Sem
open Idealize.ShloMosaic.Pipeline (Dat Cfg Window)
open Cert.KernelIdeal Cert.KernelIdeal.Gen GCN

variable (m : (ℓ : Loc nD τ sig) → Buf (Elt Ideal) ℓ) (ρ : Dev nD → PrngReg) (c : Dev nD)

namespace Val

/-! ## The launch memory's tables, and the tiled program's formulas over them, layer by layer -/

/-- The graph tables of the launch memory. -/
abbrev G₀ : Graph := graphOf (m ((c.tc : Thread nD τ).loc main_arg1) : IVec S2x1600000 32) (m ((c.tc : Thread nD τ).loc main_arg2) : IVec S100000 32)
/-- The two layers' parameters in the launch memory. -/
abbrev L₁ : Layer := layerOf (m ((c.tc : Thread nD τ).loc main_arg4) : Vec Ideal S64 .f32) (m ((c.tc : Thread nD τ).loc main_arg5) : Vec Ideal S64 .f32) (m ((c.tc : Thread nD τ).loc main_arg6) : Vec Ideal S64 .f32) (m ((c.tc : Thread nD τ).loc main_arg7) : Vec Ideal S64 .f32)
abbrev L₂ : Layer := layerOf (m ((c.tc : Thread nD τ).loc main_arg9) : Vec Ideal S64 .f32) (m ((c.tc : Thread nD τ).loc main_arg10) : Vec Ideal S64 .f32) (m ((c.tc : Thread nD τ).loc main_arg11) : Vec Ideal S64 .f32) (m ((c.tc : Thread nD τ).loc main_arg12) : Vec Ideal S64 .f32)
/-- Layer one: the feature product, the convolution, the normalised and rectified rows. -/
def FT1 : Fin 100000 → Fin 64 → EReal := feat (tab2 (m ((c.tc : Thread nD τ).loc main_arg0) : Vec Ideal S100000x128 .f32)) (tab2 (m ((c.tc : Thread nD τ).loc main_arg3) : Vec Ideal S128x64 .f32))
def C1 : Fin 100000 → Fin 64 → EReal := convK (G₀ m c) (FT1 m c) (L₁ m c).b
def H1 : Fin 100000 → Fin 64 → EReal := normRunK (G₀ m c) epsW (L₁ m c) (C1 m c)
/-- Layer two, from layer one's rows. -/
def FT2 : Fin 100000 → Fin 64 → EReal := feat (H1 m c) (tab2 (m ((c.tc : Thread nD τ).loc main_arg8) : Vec Ideal S64x64 .f32))
def C2 : Fin 100000 → Fin 64 → EReal := convK (G₀ m c) (FT2 m c) (L₂ m c).b
def H2 : Fin 100000 → Fin 64 → EReal := normRunK (G₀ m c) epsW (L₂ m c) (C2 m c)

/-! Equal tables give equal formulas. -/
theorem tab1_of {α : Type} {a : ℕ} {A B : (⟨1, ![a]⟩ : Shape).Idx → α} (h : A = B) : tab1 A = tab1 B := congrArg tab1 h
theorem tab2_of {α : Type} {a b : ℕ} {A B : (⟨2, ![a, b]⟩ : Shape).Idx → α} (h : A = B) : tab2 A = tab2 B := congrArg tab2 h
theorem feat_congr {k : ℕ} {X X' : Fin 100000 → Fin k → EReal} {W W' : Fin k → Fin 64 → EReal} (hX : X = X') (hW : W = W') :
    feat X W = feat X' W' := by rw [hX, hW]
theorem xinK_congr {d d' : Fin 100000 → EReal} {a a' f f' : Fin 100000 → Fin 64 → EReal} {b b' : Fin 64 → EReal}
    (hd : d = d') (ha : a = a') (hf : f = f') (hb : b = b') : xinK d a f b = xinK d' a' f' b' := by rw [hd, ha, hf, hb]
theorem partK_congr {bat bat' : Fin 100000 → BitVec 32} {X X' : Fin 100000 → Fin 64 → EReal} (hb : bat = bat') (hX : X = X') :
    partK bat X = partK bat' X' := by rw [hb, hX]
theorem normOfK_congr {bat bat' : Fin 100000 → BitVec 32} {w w' β β' : Fin 64 → EReal} {am am' isd isd' : Fin 128 → Fin 64 → EReal}
    {X X' : Fin 100000 → Fin 64 → EReal} (hb : bat = bat') (hw : w = w') (hβ : β = β') (ha : am = am') (hi : isd = isd') (hX : X = X') :
    normOfK bat w β am isd X = normOfK bat' w' β' am' isd' X' := by rw [hb, hw, hβ, ha, hi, hX]
theorem aggT_congr {s s' d d' : Fin 1600000 → BitVec 32} {fs fs' : Fin 100000 → Fin 64 → EReal} (hs : s = s') (hd : d = d') (hf : fs = fs') :
    aggT s d fs = aggT s' d' fs' := by rw [hs, hd, hf]
theorem ameanOf_congr {α α' : Fin 64 → EReal} {p p' : Fin 2 → Fin 128 → Fin 64 → EReal} {cnt cnt' : Fin 128 → EReal}
    (hα : α = α') (hp : p = p') (hc : cnt = cnt') : ameanOf α p cnt = ameanOf α' p' cnt' := by rw [hα, hp, hc]
theorem isdOf_congr (eps : EReal) {α α' : Fin 64 → EReal} {p p' q q' : Fin 2 → Fin 128 → Fin 64 → EReal} {cnt cnt' : Fin 128 → EReal}
    (hα : α = α') (hp : p = p') (hq : q = q') (hc : cnt = cnt') : isdOf eps α p q cnt = isdOf eps α' p' q' cnt' := by rw [hα, hp, hq, hc]

/-! ## The tables the first host stretches leave, read at any later boundary that still holds them -/

theorem src_of {B : IVec S1600000 32} (h : B = W5 m ρ c (Proc.devRef .tc main_v1)) : (tab1 B : Fin 1600000 → BitVec 32) = (G₀ m c).src := by
  subst h; funext e; exact w5_src m ρ c e
theorem dst_of {B : IVec S1600000 32} (h : B = W5 m ρ c (Proc.devRef .tc main_v3)) : (tab1 B : Fin 1600000 → BitVec 32) = (G₀ m c).dst := by
  subst h; funext e; exact w5_dst m ρ c e
theorem dinv_of {B : Vec Ideal S100000x1 .f32} (h : B = W5 m ρ c (Proc.devRef .tc main_v14)) : (colv B : Fin 100000 → EReal) = dinvK (G₀ m c) := by
  subst h; funext v; exact w5_dinv m ρ c v
theorem cnt_of {B : Vec Ideal S128x1 .f32} (h : B = W5 m ρ c (Proc.devRef .tc main_v28)) : (colv B : Fin 128 → EReal) = cntK (G₀ m c) := by
  subst h; funext g; exact w5_cnt m ρ c g
theorem bat_of {B : IVec S100000x1 32} (h : B = W5 m ρ c (Proc.devRef .tc main_v29)) : (colv B : Fin 100000 → BitVec 32) = (G₀ m c).bat := by
  subst h; funext i; exact w5_bat m ρ c i
theorem b1_of {B : Vec Ideal S1x64 .f32} (h : B = W5 m ρ c (Proc.devRef .tc main_v30)) : (rowv B : Fin 64 → EReal) = (L₁ m c).b := by
  subst h; funext f; exact w5_b1 m ρ c f
theorem w1_of {B : Vec Ideal S1x64 .f32} (h : B = W5 m ρ c (Proc.devRef .tc main_v31)) : (rowv B : Fin 64 → EReal) = (L₁ m c).w := by
  subst h; funext f; exact w5_w1 m ρ c f
theorem beta1_of {B : Vec Ideal S1x64 .f32} (h : B = W5 m ρ c (Proc.devRef .tc main_v32)) : (rowv B : Fin 64 → EReal) = (L₁ m c).β := by
  subst h; funext f; exact w5_beta1 m ρ c f
theorem b2_of {B : Vec Ideal S1x64 .f32} (h : B = W5 m ρ c (Proc.devRef .tc main_v33)) : (rowv B : Fin 64 → EReal) = (L₂ m c).b := by
  subst h; funext f; exact w5_b2 m ρ c f
theorem w2_of {B : Vec Ideal S1x64 .f32} (h : B = W5 m ρ c (Proc.devRef .tc main_v34)) : (rowv B : Fin 64 → EReal) = (L₂ m c).w := by
  subst h; funext f; exact w5_w2 m ρ c f
theorem beta2_of {B : Vec Ideal S1x64 .f32} (h : B = W5 m ρ c (Proc.devRef .tc main_v35)) : (rowv B : Fin 64 → EReal) = (L₂ m c).β := by
  subst h; funext f; exact w5_beta2 m ρ c f

/-! ## Layer one -/

/-- The first pallas_call leaves the feature product and its scaled copy. -/
theorem ft6 : (tab2 (W6 m ρ c (Proc.devRef .tc main_v36_0) : Vec Ideal S100000x64 .f32) : Fin 100000 → Fin 64 → EReal) = FT1 m c := by
  funext i j
  have e : W6 m ρ c (Proc.devRef .tc main_v36_0) = (dat0 (V5 m ρ) c).arrAt 3 cfg0.N := W6_arr m ρ c 3
  show (W6 m ρ c (Proc.devRef .tc main_v36_0) : Vec Ideal S100000x64 .f32) (ix2 i j) = _
  rw [e]
  exact (reg0_feat (V5 m ρ) c i j).trans
    (congrFun (congrFun (feat_congr (tab2_of (k_arg0_5 m ρ c)) (tab2_of (k_arg3_5 m ρ c))) i) j)
theorem fs6 : (tab2 (W6 m ρ c (Proc.devRef .tc main_v36_1) : Vec Ideal S100000x64 .bf16) : Fin 100000 → Fin 64 → EReal)
    = fun i f => FT1 m c i f * dinvK (G₀ m c) i := by
  funext i j
  have e : W6 m ρ c (Proc.devRef .tc main_v36_1) = (dat0 (V5 m ρ) c).arrAt 4 cfg0.N := W6_arr m ρ c 4
  show (W6 m ρ c (Proc.devRef .tc main_v36_1) : Vec Ideal S100000x64 .bf16) (ix2 i j) = _
  rw [e]
  exact (reg0_feats (V5 m ρ) c i j).trans
    (congrArg₂ (· * ·) (congrFun (congrFun (feat_congr (tab2_of (k_arg0_5 m ρ c)) (tab2_of (k_arg3_5 m ρ c))) i) j)
      (congrFun (dinv_of m ρ c rfl) i))
/-- The edge sum of the scaled features. -/
theorem ag7 : (tab2 (W7 m ρ c (Proc.devRef .tc main_v47) : Vec Ideal S100000x64 .f32) : Fin 100000 → Fin 64 → EReal)
    = aggK (G₀ m c) (fun i f => FT1 m c i f * dinvK (G₀ m c) i) := by
  funext v f
  exact (agg1 (W6 m ρ c) v f).trans
    (congrFun (congrFun (aggT_congr (src_of m ρ c (k_v1_6 m ρ c)) (dst_of m ρ c (k_v3_6 m ρ c)) (fs6 m ρ c)) v) f)
/-- The convolution's output as the second and third pallas_calls form it from their input arrays. -/
theorem xin1_of {Bd : Vec Ideal S100000x1 .f32} {Ba Bf : Vec Ideal S100000x64 .f32} {Bb : Vec Ideal S1x64 .f32}
    (hd : Bd = W5 m ρ c (Proc.devRef .tc main_v14)) (ha : Ba = W7 m ρ c (Proc.devRef .tc main_v47)) (hf : Bf = W6 m ρ c (Proc.devRef .tc main_v36_0))
    (hb : Bb = W5 m ρ c (Proc.devRef .tc main_v30)) : xinK (colv Bd) (tab2 Ba) (tab2 Bf) (rowv Bb) = C1 m c := by
  subst hd ha hf hb
  exact xinK_congr (dinv_of m ρ c rfl) (ag7 m ρ c) (ft6 m ρ c) (b1_of m ρ c rfl)

/-- The two halves' per-graph sums of the convolution's output and of its square. -/
theorem sx8 : (tab3 (W8 m ρ c (Proc.devRef .tc main_v48_0) : Vec Ideal S2x128x64 .f32) : Fin 2 → Fin 128 → Fin 64 → EReal)
    = partK (G₀ m c).bat (C1 m c) := by
  funext core g f
  have e : W8 m ρ c (Proc.devRef .tc main_v48_0) = (dat1 (V7 m ρ) c).arrAt 5 cfg1.N := W8_arr m ρ c 5
  show (W8 m ρ c (Proc.devRef .tc main_v48_0) : Vec Ideal S2x128x64 .f32) (ix3 core g f) = _
  rw [e]
  exact (reg1_sumx (V7 m ρ) c core g f).trans
    (congrFun (congrFun (congrFun (partK_congr (bat_of m ρ c (k_v29_7 m ρ c))
      (xin1_of m ρ c (k_v14_7 m ρ c) rfl (k_v36_0_7 m ρ c) (k_v30_7 m ρ c))) core) g) f)
theorem sxx8 : (tab3 (W8 m ρ c (Proc.devRef .tc main_v48_1) : Vec Ideal S2x128x64 .f32) : Fin 2 → Fin 128 → Fin 64 → EReal)
    = partK (G₀ m c).bat (fun i f => C1 m c i f * C1 m c i f) := by
  funext core g f
  have e : W8 m ρ c (Proc.devRef .tc main_v48_1) = (dat1 (V7 m ρ) c).arrAt 6 cfg1.N := W8_arr m ρ c 6
  show (W8 m ρ c (Proc.devRef .tc main_v48_1) : Vec Ideal S2x128x64 .f32) (ix3 core g f) = _
  rw [e]
  exact (reg1_sumx2 (V7 m ρ) c core g f).trans
    (congrFun (congrFun (congrFun (partK_congr (bat_of m ρ c (k_v29_7 m ρ c))
      (congrArg (fun X : Fin 100000 → Fin 64 → EReal => fun i f => X i f * X i f)
        (xin1_of m ρ c (k_v14_7 m ρ c) rfl (k_v36_0_7 m ρ c) (k_v30_7 m ρ c)))) core) g) f)
/-- The scaled means and the inverse deviations the host computes from the halves' sums. -/
theorem am9 : (tab2 (W9 m ρ c (Proc.devRef .tc main_v68) : Vec Ideal S128x64 .f32) : Fin 128 → Fin 64 → EReal)
    = ameanOf (L₁ m c).α (partK (G₀ m c).bat (C1 m c)) (cntK (G₀ m c)) := by
  funext g f
  exact (stats1_am (W8 m ρ c) g f).trans
    (congrFun (congrFun (ameanOf_congr (tab1_of (k_arg5_8 m ρ c)) (sx8 m ρ c) (cnt_of m ρ c (k_v28_8 m ρ c))) g) f)
theorem isd9 : (tab2 (W9 m ρ c (Proc.devRef .tc main_v71) : Vec Ideal S128x64 .f32) : Fin 128 → Fin 64 → EReal)
    = isdOf epsW (L₁ m c).α (partK (G₀ m c).bat (C1 m c)) (partK (G₀ m c).bat (fun i f => C1 m c i f * C1 m c i f)) (cntK (G₀ m c)) := by
  funext g f
  exact (stats1_isd (W8 m ρ c) g f).trans
    (congrFun (congrFun (isdOf_congr epsW (tab1_of (k_arg5_8 m ρ c)) (sx8 m ρ c) (sxx8 m ρ c) (cnt_of m ρ c (k_v28_8 m ρ c))) g) f)
/-- The normalised, rectified rows as the third pallas_call forms them from its input arrays. -/
theorem nrm9 : normOfK (colv (V9 m ρ c main_v29 : IVec S100000x1 32)) (rowv (V9 m ρ c main_v31 : Vec Ideal S1x64 .f32)) (rowv (V9 m ρ c main_v32 : Vec Ideal S1x64 .f32))
      (tab2 (V9 m ρ c main_v68 : Vec Ideal S128x64 .f32)) (tab2 (V9 m ρ c main_v71 : Vec Ideal S128x64 .f32))
      (xinK (colv (V9 m ρ c main_v14 : Vec Ideal S100000x1 .f32)) (tab2 (V9 m ρ c main_v47 : Vec Ideal S100000x64 .f32))
        (tab2 (V9 m ρ c main_v36_0 : Vec Ideal S100000x64 .f32)) (rowv (V9 m ρ c main_v30 : Vec Ideal S1x64 .f32)))
    = H1 m c :=
  normOfK_congr (bat_of m ρ c (k_v29_9 m ρ c)) (w1_of m ρ c (k_v31_9 m ρ c)) (beta1_of m ρ c (k_v32_9 m ρ c)) (am9 m ρ c) (isd9 m ρ c)
    (xin1_of m ρ c (k_v14_9 m ρ c) (k_v47_9 m ρ c) (k_v36_0_9 m ρ c) (k_v30_9 m ρ c))

/-! ## Layer two -/

theorem ft10 : (tab2 (W10 m ρ c (Proc.devRef .tc main_v72_0) : Vec Ideal S100000x64 .f32) : Fin 100000 → Fin 64 → EReal) = FT2 m c := by
  funext i j
  have e : W10 m ρ c (Proc.devRef .tc main_v72_0) = (dat2 (V9 m ρ) c).arrAt 10 cfg2.N := W10_arr m ρ c 10
  show (W10 m ρ c (Proc.devRef .tc main_v72_0) : Vec Ideal S100000x64 .f32) (ix2 i j) = _
  rw [e]
  exact (reg2_feat (V9 m ρ) c i j).trans
    (congrFun (congrFun (feat_congr (nrm9 m ρ c) (tab2_of (k_arg8_9 m ρ c))) i) j)
theorem fs10 : (tab2 (W10 m ρ c (Proc.devRef .tc main_v72_1) : Vec Ideal S100000x64 .bf16) : Fin 100000 → Fin 64 → EReal)
    = fun i f => FT2 m c i f * dinvK (G₀ m c) i := by
  funext i j
  have e : W10 m ρ c (Proc.devRef .tc main_v72_1) = (dat2 (V9 m ρ) c).arrAt 11 cfg2.N := W10_arr m ρ c 11
  show (W10 m ρ c (Proc.devRef .tc main_v72_1) : Vec Ideal S100000x64 .bf16) (ix2 i j) = _
  rw [e]
  exact (reg2_feats (V9 m ρ) c i j).trans
    (congrArg₂ (· * ·) (congrFun (congrFun (feat_congr (nrm9 m ρ c) (tab2_of (k_arg8_9 m ρ c))) i) j)
      (congrFun (dinv_of m ρ c (k_v14_9 m ρ c)) i))
theorem ag11 : (tab2 (W11 m ρ c (Proc.devRef .tc main_v83) : Vec Ideal S100000x64 .f32) : Fin 100000 → Fin 64 → EReal)
    = aggK (G₀ m c) (fun i f => FT2 m c i f * dinvK (G₀ m c) i) := by
  funext v f
  exact (agg2 (W10 m ρ c) v f).trans
    (congrFun (congrFun (aggT_congr (src_of m ρ c (k_v1_10 m ρ c)) (dst_of m ρ c (k_v3_10 m ρ c)) (fs10 m ρ c)) v) f)
theorem xin2_of {Bd : Vec Ideal S100000x1 .f32} {Ba Bf : Vec Ideal S100000x64 .f32} {Bb : Vec Ideal S1x64 .f32}
    (hd : Bd = W5 m ρ c (Proc.devRef .tc main_v14)) (ha : Ba = W11 m ρ c (Proc.devRef .tc main_v83)) (hf : Bf = W10 m ρ c (Proc.devRef .tc main_v72_0))
    (hb : Bb = W5 m ρ c (Proc.devRef .tc main_v33)) : xinK (colv Bd) (tab2 Ba) (tab2 Bf) (rowv Bb) = C2 m c := by
  subst hd ha hf hb
  exact xinK_congr (dinv_of m ρ c rfl) (ag11 m ρ c) (ft10 m ρ c) (b2_of m ρ c rfl)
theorem sx12 : (tab3 (W12 m ρ c (Proc.devRef .tc main_v84_0) : Vec Ideal S2x128x64 .f32) : Fin 2 → Fin 128 → Fin 64 → EReal)
    = partK (G₀ m c).bat (C2 m c) := by
  funext core g f
  have e : W12 m ρ c (Proc.devRef .tc main_v84_0) = (dat3 (V11 m ρ) c).arrAt 5 cfg3.N := W12_arr m ρ c 5
  show (W12 m ρ c (Proc.devRef .tc main_v84_0) : Vec Ideal S2x128x64 .f32) (ix3 core g f) = _
  rw [e]
  exact (reg3_sumx (V11 m ρ) c core g f).trans
    (congrFun (congrFun (congrFun (partK_congr (bat_of m ρ c (k_v29_11 m ρ c))
      (xin2_of m ρ c (k_v14_11 m ρ c) rfl (k_v72_0_11 m ρ c) (k_v33_11 m ρ c))) core) g) f)
theorem sxx12 : (tab3 (W12 m ρ c (Proc.devRef .tc main_v84_1) : Vec Ideal S2x128x64 .f32) : Fin 2 → Fin 128 → Fin 64 → EReal)
    = partK (G₀ m c).bat (fun i f => C2 m c i f * C2 m c i f) := by
  funext core g f
  have e : W12 m ρ c (Proc.devRef .tc main_v84_1) = (dat3 (V11 m ρ) c).arrAt 6 cfg3.N := W12_arr m ρ c 6
  show (W12 m ρ c (Proc.devRef .tc main_v84_1) : Vec Ideal S2x128x64 .f32) (ix3 core g f) = _
  rw [e]
  exact (reg3_sumx2 (V11 m ρ) c core g f).trans
    (congrFun (congrFun (congrFun (partK_congr (bat_of m ρ c (k_v29_11 m ρ c))
      (congrArg (fun X : Fin 100000 → Fin 64 → EReal => fun i f => X i f * X i f)
        (xin2_of m ρ c (k_v14_11 m ρ c) rfl (k_v72_0_11 m ρ c) (k_v33_11 m ρ c)))) core) g) f)
theorem am13 : (tab2 (W13 m ρ c (Proc.devRef .tc main_v104) : Vec Ideal S128x64 .f32) : Fin 128 → Fin 64 → EReal)
    = ameanOf (L₂ m c).α (partK (G₀ m c).bat (C2 m c)) (cntK (G₀ m c)) := by
  funext g f
  exact (stats2_am (W12 m ρ c) g f).trans
    (congrFun (congrFun (ameanOf_congr (tab1_of (k_arg10_12 m ρ c)) (sx12 m ρ c) (cnt_of m ρ c (k_v28_12 m ρ c))) g) f)
theorem isd13 : (tab2 (W13 m ρ c (Proc.devRef .tc main_v107) : Vec Ideal S128x64 .f32) : Fin 128 → Fin 64 → EReal)
    = isdOf epsW (L₂ m c).α (partK (G₀ m c).bat (C2 m c)) (partK (G₀ m c).bat (fun i f => C2 m c i f * C2 m c i f)) (cntK (G₀ m c)) := by
  funext g f
  exact (stats2_isd (W12 m ρ c) g f).trans
    (congrFun (congrFun (isdOf_congr epsW (tab1_of (k_arg10_12 m ρ c)) (sx12 m ρ c) (sxx12 m ρ c) (cnt_of m ρ c (k_v28_12 m ρ c))) g) f)
theorem nrm13 : normOfK (colv (V13 m ρ c main_v29 : IVec S100000x1 32)) (rowv (V13 m ρ c main_v34 : Vec Ideal S1x64 .f32)) (rowv (V13 m ρ c main_v35 : Vec Ideal S1x64 .f32))
      (tab2 (V13 m ρ c main_v104 : Vec Ideal S128x64 .f32)) (tab2 (V13 m ρ c main_v107 : Vec Ideal S128x64 .f32))
      (xinK (colv (V13 m ρ c main_v14 : Vec Ideal S100000x1 .f32)) (tab2 (V13 m ρ c main_v83 : Vec Ideal S100000x64 .f32))
        (tab2 (V13 m ρ c main_v72_0 : Vec Ideal S100000x64 .f32)) (rowv (V13 m ρ c main_v33 : Vec Ideal S1x64 .f32)))
    = H2 m c :=
  normOfK_congr (bat_of m ρ c (k_v29_13 m ρ c)) (w2_of m ρ c (k_v34_13 m ρ c)) (beta2_of m ρ c (k_v35_13 m ρ c)) (am13 m ρ c) (isd13 m ρ c)
    (xin2_of m ρ c (k_v14_13 m ρ c) (k_v83_13 m ρ c) (k_v72_0_13 m ρ c) (k_v33_13 m ρ c))
/-- The last pallas_call leaves the two halves' pooled sums of layer two's rows. -/
theorem pool14 : (tab3 (W14 m ρ c (Proc.devRef .tc main_v108) : Vec Ideal S2x128x64 .f32) : Fin 2 → Fin 128 → Fin 64 → EReal)
    = partK (G₀ m c).bat (H2 m c) := by
  funext core g f
  have e : W14 m ρ c (Proc.devRef .tc main_v108) = (dat4 (V13 m ρ) c).arrAt 9 cfg4.N := W14_arr m ρ c 9
  show (W14 m ρ c (Proc.devRef .tc main_v108) : Vec Ideal S2x128x64 .f32) (ix3 core g f) = _
  rw [e]
  exact (reg4_pool (V13 m ρ) c core g f).trans
    (congrFun (congrFun (congrFun (partK_congr (bat_of m ρ c (k_v29_13 m ρ c)) (nrm13 m ρ c)) core) g) f)

/-! ## The result -/

theorem kval_folded (g : Fin 128) (f : Fin 64) :
    (W15 m ρ c (Proc.devRef .tc main_v111) : Vec Ideal S128x64 .f32) (ix2 g f)
      = Ideal.div (partK (G₀ m c).bat (H2 m c) 0 g f + partK (G₀ m c).bat (H2 m c) 1 g f) (cntK (G₀ m c) g) :=
  (pool_out (W14 m ρ c) g f).trans
    (congrArg₂ Ideal.div
      (congrArg₂ (· + ·) (congrFun (congrFun (congrFun (pool14 m ρ c) 0) g) f) (congrFun (congrFun (congrFun (pool14 m ρ c) 1) g) f))
      (congrFun (cnt_of m ρ c (k_v28_14 m ρ c)) g))

end Val

/-- The tiled program's result buffer holds the tiled program's formula of the launch memory's argument tables. -/
theorem kval (g : Fin 128) (f : Fin 64) :
    (W15 m ρ c (Proc.devRef .tc main_v111) : Vec Ideal S128x64 .f32) (ix2 g f)
      = outRunK (graphOf (m ((c.tc : Thread nD τ).loc main_arg1) : IVec S2x1600000 32) (m ((c.tc : Thread nD τ).loc main_arg2) : IVec S100000 32)) epsW
          (tab2 (m ((c.tc : Thread nD τ).loc main_arg0) : Vec Ideal S100000x128 .f32)) (tab2 (m ((c.tc : Thread nD τ).loc main_arg3) : Vec Ideal S128x64 .f32))
          (layerOf (m ((c.tc : Thread nD τ).loc main_arg4) : Vec Ideal S64 .f32) (m ((c.tc : Thread nD τ).loc main_arg5) : Vec Ideal S64 .f32) (m ((c.tc : Thread nD τ).loc main_arg6) : Vec Ideal S64 .f32) (m ((c.tc : Thread nD τ).loc main_arg7) : Vec Ideal S64 .f32))
          (tab2 (m ((c.tc : Thread nD τ).loc main_arg8) : Vec Ideal S64x64 .f32))
          (layerOf (m ((c.tc : Thread nD τ).loc main_arg9) : Vec Ideal S64 .f32) (m ((c.tc : Thread nD τ).loc main_arg10) : Vec Ideal S64 .f32) (m ((c.tc : Thread nD τ).loc main_arg11) : Vec Ideal S64 .f32) (m ((c.tc : Thread nD τ).loc main_arg12) : Vec Ideal S64 .f32))
          g f := by
  rw [Val.kval_folded m ρ c g f]
  simp only [outRunK, Val.H2, Val.C2, Val.FT2, Val.H1, Val.C1, Val.FT1]

end Cert.KernelIdeal.KV

end
-- ==== Proof.RConv.lean ====
/-
  The plain program's two convolutions read back: the feature product, the edge list with the self loops appended,
  the degree by a scatter of ones, its guarded inverse square root, the messages gathered at the source words and
  weighted by dinv[src]·dinv[dst], their scatter-add at the destination words, the bias.
-/
import proofs.«420537_j75831942578735_3_alg».proof.Proof.RefRun
import proofs.«420537_j75831942578735_3_alg».proof.Proof.RefRead
import proofs.«420537_j75831942578735_3_alg».proof.Proof.Views
import proofs.«420537_j75831942578735_3_alg».proof.Proof.LibIndexOps
import Idealize.ShloMosaic.PureOps.Ideal.Laws
import Idealize.ShloMosaic.Lib.Pipeline.Value
import Idealize.ShloMosaic.Lib.IdealHost

noncomputable section

namespace Cert.ReferenceIdeal.RV

open Idealize.ShloMosaic Idealize.ShloMosaic.ValueIdx GCN
open Cert.ReferenceIdeal Cert.ReferenceIdeal.ReadP
open scoped BigOperators

/-- Two flat arrays laid end to end, read at a position: below the first's length the first array there, past it
    the second array at the position less that length. -/
theorem concat_vec {α : Type} {n m k : ℕ} (a : (⟨1, ![n]⟩ : Shape).Idx → α) (b : (⟨1, ![m]⟩ : Shape).Idx → α)
    (h : Shape.Concatenates [⟨1, ![n]⟩, ⟨1, ![m]⟩] ⟨1, ![k]⟩ 0) (hk : k = n + m) (e : Fin k) :
    concatenate ⟨1, ![k]⟩ 0 [⟨⟨1, ![n]⟩, a⟩, ⟨⟨1, ![m]⟩, b⟩] h (ix1 e)
      = if he : e.val < n then a (ix1 ⟨e.val, he⟩) else b (ix1 ⟨e.val - n, by omega⟩) := by
  split
  · rename_i he
    exact concatenate_pair_apply_left (0 : Fin 1) a b h (ix1 e) rfl (ix1 ⟨e.val, he⟩)
      (fun c => by obtain rfl : c = 0 := Subsingleton.elim _ _; rfl)
  · rename_i he
    exact concatenate_pair_apply_right (0 : Fin 1) a b h (ix1 e) rfl rfl (ix1 ⟨e.val - n, by omega⟩)
      (fun c hc => absurd (Subsingleton.elim _ _) hc) (by show e.val - n + n = e.val; omega)

variable (x0 : (⟨S100000x128, .f32⟩ : BufTy).Contents (Elt Ideal)) (x1 : (⟨S2x1600000, .i32⟩ : BufTy).Contents (Elt Ideal))
  (x2 : (⟨S100000, .i32⟩ : BufTy).Contents (Elt Ideal)) (x3 : (⟨S128x64, .f32⟩ : BufTy).Contents (Elt Ideal))
  (x4 x5 x6 x7 : (⟨S64, .f32⟩ : BufTy).Contents (Elt Ideal)) (x8 : (⟨S64x64, .f32⟩ : BufTy).Contents (Elt Ideal))
  (x9 x10 x11 x12 : (⟨S64, .f32⟩ : BufTy).Contents (Elt Ideal))

/-! ## The feature products -/

/-- The first feature product. -/
theorem r_feat1 (i : Fin 100000) (j : Fin 64) :
    val_main_v4 (F := Ideal) x0 x3 (ix2 i j) = feat (tab2 x0) (tab2 x3) i j := by
  rw [val_main_v4_apply]
  unfold feat tab2
  refine Finset.sum_congr rfl fun k _ => ?_
  have el : lidx_main_v4 (ix2 i j) k = ix2 i k :=
    funext fun a => Fin.ext (by match a with | ⟨0, _⟩ => rfl | ⟨1, _⟩ => rfl)
  have er : ridx_main_v4 (ix2 i j) k = ix2 k j :=
    funext fun a => Fin.ext (by match a with | ⟨0, _⟩ => rfl | ⟨1, _⟩ => rfl)
  rw [el, er]

/-- The second feature product, from the first layer's rectified output. -/
theorem r_feat2 (i : Fin 100000) (j : Fin 64) :
    val_main_v101 (F := Ideal) x0 x1 x2 x3 x4 x5 x6 x7 x8 (ix2 i j)
      = feat (tab2 (val_main_v100 (F := Ideal) x0 x1 x2 x3 x4 x5 x6 x7)) (tab2 x8) i j := by
  rw [val_main_v101_apply]
  unfold feat tab2
  refine Finset.sum_congr rfl fun k _ => ?_
  have el : lidx_main_v101 (ix2 i j) k = ix2 i k :=
    funext fun a => Fin.ext (by match a with | ⟨0, _⟩ => rfl | ⟨1, _⟩ => rfl)
  have er : ridx_main_v101 (ix2 i j) k = ix2 k j :=
    funext fun a => Fin.ext (by match a with | ⟨0, _⟩ => rfl | ⟨1, _⟩ => rfl)
  rw [el, er]

/-! ## The edge list with one self loop per node appended -/

/-- The source words: an edge's word below 1600000, the node's own number as a word past it. -/
theorem r_src2 (e : Fin 1700000) : val_main_v6 (F := Ideal) x1 (ix1 e) = src2 (graphOf x1 x2) e := by
  unfold val_main_v6
  refine (concat_vec (val_main_v1 (F := Ideal) x1) (val_main_v5 (F := Ideal)) _ rfl e).trans ?_
  unfold src2
  by_cases he : e.val < 1600000
  · rw [dif_pos he, dif_pos he, val_main_v1_apply, val_main_v0_apply]
    show x1 _ = x1 (ix2 0 ⟨e.val, he⟩)
    congr 1
    funext c
    apply Fin.ext
    match c with
    | ⟨0, _⟩ => rfl
    | ⟨1, _⟩ => exact Nat.mod_eq_of_lt he
  · rw [dif_neg he, dif_neg he]
    rfl

/-- The destination words, likewise. -/
theorem r_dst2 (e : Fin 1700000) : val_main_v7 (F := Ideal) x1 (ix1 e) = dst2 (graphOf x1 x2) e := by
  unfold val_main_v7
  refine (concat_vec (val_main_v3 (F := Ideal) x1) (val_main_v5 (F := Ideal)) _ rfl e).trans ?_
  unfold dst2
  by_cases he : e.val < 1600000
  · rw [dif_pos he, dif_pos he, val_main_v3_apply, val_main_v2_apply]
    show x1 _ = x1 (ix2 1 ⟨e.val, he⟩)
    congr 1
    funext c
    apply Fin.ext
    match c with
    | ⟨0, _⟩ => rfl
    | ⟨1, _⟩ => exact Nat.mod_eq_of_lt he
  · rw [dif_neg he, dif_neg he]
    rfl

/-! ## The one-column layouts of the word tables -/

theorem v10_col (e : Fin 1700000) (c : Fin 1) :
    val_main_v10 (F := Ideal) x1 (ix2 e c) = val_main_v7 (F := Ideal) x1 (ix1 e) := by
  rw [val_main_v10_apply]; congr 1; funext a; match a with | ⟨0, _⟩ => rfl

theorem v21_col (e : Fin 1700000) (c : Fin 1) :
    val_main_v21 (F := Ideal) x1 (ix2 e c) = val_main_v20 (F := Ideal) x1 (ix1 e) := by
  rw [val_main_v21_apply]; congr 1; funext a; match a with | ⟨0, _⟩ => rfl

theorem v28_col (e : Fin 1700000) (c : Fin 1) :
    val_main_v28 (F := Ideal) x1 (ix2 e c) = val_main_v27 (F := Ideal) x1 (ix1 e) := by
  rw [val_main_v28_apply]; congr 1; funext a; match a with | ⟨0, _⟩ => rfl

theorem v36_col (e : Fin 1700000) (c : Fin 1) :
    val_main_v36 (F := Ideal) x1 (ix2 e c) = val_main_v35 (F := Ideal) x1 (ix1 e) := by
  rw [val_main_v36_apply]; congr 1; funext a; match a with | ⟨0, _⟩ => rfl

theorem v42_col (e : Fin 1700000) (c : Fin 1) :
    val_main_v42 (F := Ideal) x1 (ix2 e c) = val_main_v7 (F := Ideal) x1 (ix1 e) := by
  rw [val_main_v42_apply]; congr 1; funext a; match a with | ⟨0, _⟩ => rfl

theorem v39_row (e : Fin 1700000) (f : Fin 64) :
    val_main_v39 (F := Ideal) x1 (ix2 e f) = val_main_v30 (F := Ideal) x1 (ix1 e) := by
  rw [val_main_v39_apply, val_main_v38_apply]; congr 1; funext a; match a with | ⟨0, _⟩ => rfl

/-! ## The degree and its guarded inverse square root -/

/-- The degree: the ones scattered at the destination words into zeros. -/
theorem r_deg (v : Fin 100000) : val_main_v11 (F := Ideal) x1 (ix1 v) = degR (graphOf x1 x2) v := by
  unfold val_main_v11 degR
  rw [GCN.Ops.scatterAdd_vec scatter_S100000_S1700000x1_S1700000_n_0_0_1 rfl rfl rfl rfl]
  refine congrArg₂ (· + ·) ?_ ?_
  · rw [val_main_v9_apply, val_main_cst_0_apply]
    exact Ideal.ofBits_zero_f32
  · refine Finset.sum_congr rfl fun e _ => ?_
    rw [v10_col, r_dst2 x1 x2 e, val_main_v8_apply, val_main_cst_apply]
    by_cases h : (dst2 (graphOf x1 x2) e).toInt = ((v : ℕ) : ℤ)
    · rw [if_pos h, if_pos (show hit _ _ from h)]
      exact Ideal.ofBits_one_f32
    · rw [if_neg h, if_neg (show ¬ hit _ _ from h)]

/-- The guard: where the comparison with zero holds the inverse square root, elsewhere zero. -/
theorem dinv_sel (d : EReal) :
    Scalar.select (FloatOps.cmpf (F := Ideal) (φ := .f32) .ogt d (FloatOps.ofBits .f32 0x00000000#32))
      (FloatOps.hostUnary (F := Ideal) (φ := .f32) .rsqrt d) (FloatOps.ofBits (F := Ideal) .f32 0x00000000#32) = dinvOf d := by
  unfold dinvOf
  rw [Ideal.cmpf_def, Ideal.hostUnary_rsqrt_def]
  show Scalar.select (Ideal.cmp .ogt d (Ideal.ofBits .f32 0x00000000#32))
    (Ideal.rsqrt d) (Ideal.ofBits .f32 0x00000000#32) = _
  rw [Ideal.ofBits_zero_f32]
  unfold Scalar.select Ideal.cmp
  by_cases h : 0 < d
  · rw [if_pos h]; simp [h]
  · rw [if_neg h]; simp [h]

/-- The inverse square-root degree, zero where the degree is not positive. -/
theorem r_dinv (v : Fin 100000) : val_main_v15 (F := Ideal) x1 (ix1 v) = dinvR (graphOf x1 x2) v := by
  rw [val_main_v15_apply, val_main_v13_apply, val_main_v14_apply, val_main_v12_apply, val_main_cst_1_apply,
    val_main_call0_v1_apply, val_main_call0_v0_apply, val_main_cst_2_apply, r_deg x1 x2 v]
  exact dinv_sel _

/-! ## The gather rows: a negative word wrapped by the extent, then clamped -/

theorem v21_gi (e : Fin 1700000) :
    min (val_main_v21 (F := Ideal) x1 (ix2 e (0 : Fin 1))).toInt.toNat (100000 - 1) = gi 100000 (src2 (graphOf x1 x2) e) := by
  rw [v21_col, val_main_v20_apply, val_main_v17_apply, val_main_v19_apply, val_main_v16_apply, val_main_c_apply,
    val_main_v18_apply, val_main_c_3_apply, r_src2 x1 x2 e]
  exact GCN.Ops.wrap_word 100000 (by norm_num) _

theorem v28_gi (e : Fin 1700000) :
    min (val_main_v28 (F := Ideal) x1 (ix2 e (0 : Fin 1))).toInt.toNat (100000 - 1) = gi 100000 (dst2 (graphOf x1 x2) e) := by
  rw [v28_col, val_main_v27_apply, val_main_v24_apply, val_main_v26_apply, val_main_v23_apply, val_main_c_4_apply,
    val_main_v25_apply, val_main_c_5_apply, r_dst2 x1 x2 e]
  exact GCN.Ops.wrap_word 100000 (by norm_num) _

theorem v36_gi (e : Fin 1700000) :
    min (val_main_v36 (F := Ideal) x1 (ix2 e (0 : Fin 1))).toInt.toNat (100000 - 1) = gi 100000 (src2 (graphOf x1 x2) e) := by
  rw [v36_col, val_main_v35_apply, val_main_v32_apply, val_main_v34_apply, val_main_v31_apply, val_main_c_6_apply,
    val_main_v33_apply, val_main_c_7_apply, r_src2 x1 x2 e]
  exact GCN.Ops.wrap_word 100000 (by norm_num) _

/-- dinv gathered at the source words. -/
theorem r_v22 (e : Fin 1700000) :
    val_main_v22 (F := Ideal) x1 (ix1 e) = dinvR (graphOf x1 x2) (gN (src2 (graphOf x1 x2) e)) := by
  unfold val_main_v22
  rw [GCN.Ops.gather_vec gather_S100000_S1700000x1_S1700000_n_0_n_n_0_1_1 rfl rfl rfl rfl rfl rfl _ _ e (by norm_num)]
  have hrow : (⟨min (val_main_v21 (F := Ideal) x1 (ix2 e (0 : Fin 1))).toInt.toNat (100000 - 1), by omega⟩ : Fin 100000)
      = gN (src2 (graphOf x1 x2) e) := Fin.ext (v21_gi x1 x2 e)
  rw [hrow]
  exact r_dinv x1 x2 _

/-- dinv gathered at the destination words. -/
theorem r_v29 (e : Fin 1700000) :
    val_main_v29 (F := Ideal) x1 (ix1 e) = dinvR (graphOf x1 x2) (gN (dst2 (graphOf x1 x2) e)) := by
  unfold val_main_v29
  rw [GCN.Ops.gather_vec gather_S100000_S1700000x1_S1700000_n_0_n_n_0_1_1 rfl rfl rfl rfl rfl rfl _ _ e (by norm_num)]
  have hrow : (⟨min (val_main_v28 (F := Ideal) x1 (ix2 e (0 : Fin 1))).toInt.toNat (100000 - 1), by omega⟩ : Fin 100000)
      = gN (dst2 (graphOf x1 x2) e) := Fin.ext (v28_gi x1 x2 e)
  rw [hrow]
  exact r_dinv x1 x2 _

/-- The edge weight dinv[src]·dinv[dst]. -/
theorem r_v30 (e : Fin 1700000) :
    val_main_v30 (F := Ideal) x1 (ix1 e)
      = dinvR (graphOf x1 x2) (gN (src2 (graphOf x1 x2) e)) * dinvR (graphOf x1 x2) (gN (dst2 (graphOf x1 x2) e)) := by
  rw [val_main_v30_apply, r_v22 x1 x2 e, r_v29 x1 x2 e]
  rfl

/-! ## The convolution over any feature table -/

/-- The convolution's operations on a feature table ft and a bias b: the rows of ft gathered at the source words,
    each weighted by its edge's dinv[src]·dinv[dst], added up at the destination words into zeros, plus the bias. -/
theorem conv_read (ft : (⟨S100000x64, .f32⟩ : BufTy).Contents (Elt Ideal)) (b : (⟨S64, .f32⟩ : BufTy).Contents (Elt Ideal))
    (v : Fin 100000) (f : Fin 64) :
    addf (F := Ideal) (s := S100000x64) (φ := .f32)
      (Host.scatterAdd (F := Ideal) (φ := .f32) scatter_S100000x64_S1700000x1_S1700000x64_1_0_0_1 (val_main_v41 (F := Ideal))
        (val_main_v42 (F := Ideal) x1)
        (mulf (F := Ideal) (s := S1700000x64) (φ := .f32)
          (Host.gather gather_S100000x64_S1700000x1_S1700000x64_1_0_n_n_0_1_164 ft (val_main_v36 (F := Ideal) x1))
          (val_main_v39 (F := Ideal) x1)))
      (val_main_v45 (F := Ideal) b) (ix2 v f)
      = convR (graphOf x1 x2) (tab2 ft) (tab1 b) v f := by
  rw [addf_apply, GCN.Ops.scatterAdd_rows scatter_S100000x64_S1700000x1_S1700000x64_1_0_0_1 rfl rfl rfl rfl]
  unfold convR
  refine congrArg₂ (· + ·) ?_ ?_
  · refine congrArg₂ (· + ·) ?_ ?_
    · rw [val_main_v41_apply, val_main_cst_8_apply]
      exact Ideal.ofBits_zero_f32
    · refine Finset.sum_congr rfl fun e _ => ?_
      rw [v42_col, r_dst2 x1 x2 e]
      by_cases h : (dst2 (graphOf x1 x2) e).toInt = ((v : ℕ) : ℤ)
      · rw [if_pos h, if_pos (show hit _ _ from h), mulf_apply,
          GCN.Ops.gather_rows gather_S100000x64_S1700000x1_S1700000x64_1_0_n_n_0_1_164 rfl rfl rfl rfl rfl rfl _ _ e f
            (by norm_num), v39_row, r_v30 x1 x2 e]
        have hrow : (⟨min (val_main_v36 (F := Ideal) x1 (ix2 e (0 : Fin 1))).toInt.toNat (100000 - 1), by omega⟩ : Fin 100000)
            = gN (src2 (graphOf x1 x2) e) := Fin.ext (v36_gi x1 x2 e)
        rw [hrow]
        rfl
      · rw [if_neg h, if_neg (show ¬ hit _ _ from h)]
  · rw [val_main_v45_apply, val_main_v44_apply]
    show b _ = b (ix1 f)
    congr 1
    funext a
    match a with
    | ⟨0, _⟩ => rfl

/-! ## The two convolutions -/

/-- The first convolution. -/
theorem r_conv1 (v : Fin 100000) (f : Fin 64) :
    val_main_v46 (F := Ideal) x0 x1 x3 x4 (ix2 v f)
      = convR (graphOf x1 x2) (feat (tab2 x0) (tab2 x3)) (tab1 x4) v f := by
  have hft : tab2 (val_main_v4 (F := Ideal) x0 x3) = feat (tab2 x0) (tab2 x3) :=
    funext fun i => funext fun j => r_feat1 x0 x3 i j
  rw [← hft]
  unfold val_main_v46 val_main_v43 val_main_v40 val_main_v37
  exact conv_read x1 x2 (val_main_v4 (F := Ideal) x0 x3) x4 v f

/-- The second layer's word tables, weights and zeros are the first layer's: the same operations on the same edge
    list. -/
theorem v138_eq : val_main_v138 (F := Ideal) = val_main_v41 (F := Ideal) := rfl
theorem v139_eq : val_main_v139 (F := Ideal) x1 = val_main_v42 (F := Ideal) x1 := rfl
theorem v133_eq : val_main_v133 (F := Ideal) x1 = val_main_v36 (F := Ideal) x1 := rfl
theorem v136_eq : val_main_v136 (F := Ideal) x1 = val_main_v39 (F := Ideal) x1 := rfl
theorem v142_eq : val_main_v142 (F := Ideal) x9 = val_main_v45 (F := Ideal) x9 := rfl

/-- The second convolution. -/
theorem r_conv2 (v : Fin 100000) (f : Fin 64) :
    val_main_v143 (F := Ideal) x0 x1 x2 x3 x4 x5 x6 x7 x8 x9 (ix2 v f)
      = convR (graphOf x1 x2) (tab2 (val_main_v101 (F := Ideal) x0 x1 x2 x3 x4 x5 x6 x7 x8)) (tab1 x9) v f := by
  unfold val_main_v143 val_main_v140 val_main_v137 val_main_v134
  rw [v138_eq, v139_eq, v133_eq, v136_eq, v142_eq]
  exact conv_read x1 x2 (val_main_v101 (F := Ideal) x0 x1 x2 x3 x4 x5 x6 x7 x8) x9 v f

end Cert.ReferenceIdeal.RV

end
-- ==== Proof.RNorm.lean ====
/-
  The plain program's per-graph normalisations and the pooling read back: the per-graph sums by scatter-adds at the
  graph words, the counts, the mean, the centred values through a gather at the graph words, the variance, the
  inverse deviation, the affine map and the rectifier; at the end the pooled mean.

  The normalisation is the same list of operations in both layers, so it is read once, as a function of the table
  it is applied to, the graph words and the three parameter rows; the two layers' buffers and the pooled mean are
  instances of it.
-/
import proofs.«420537_j75831942578735_3_alg».proof.Proof.RefRun
import proofs.«420537_j75831942578735_3_alg».proof.Proof.RefRead
import proofs.«420537_j75831942578735_3_alg».proof.Proof.Views
import proofs.«420537_j75831942578735_3_alg».proof.Proof.LibIndexOps
import Idealize.ShloMosaic.PureOps.Ideal.Laws

noncomputable section

namespace Cert.ReferenceIdeal.RV

open Idealize.ShloMosaic Idealize.ShloMosaic.ValueIdx GCN
open Cert.ReferenceIdeal Cert.ReferenceIdeal.ReadP

variable (x0 : (⟨S100000x128, .f32⟩ : BufTy).Contents (Elt Ideal)) (x1 : (⟨S2x1600000, .i32⟩ : BufTy).Contents (Elt Ideal))
  (x2 : (⟨S100000, .i32⟩ : BufTy).Contents (Elt Ideal)) (x3 : (⟨S128x64, .f32⟩ : BufTy).Contents (Elt Ideal))
  (x4 x5 x6 x7 : (⟨S64, .f32⟩ : BufTy).Contents (Elt Ideal)) (x8 : (⟨S64x64, .f32⟩ : BufTy).Contents (Elt Ideal))
  (x9 x10 x11 x12 : (⟨S64, .f32⟩ : BufTy).Contents (Elt Ideal))

/-! ## Words and constants -/

/-- The single-precision pattern of one is the number one. -/
theorem one_f32 : Ideal.ofBits .f32 0x3F800000#32 = 1 := by
  have h : ((8388608 : ℝ) * ((2 : ℝ) ^ 23)⁻¹ : ℝ) = 1 := by norm_num
  simp [Ideal.ofBits, Ideal.ieee]
  rw [← EReal.coe_mul]
  exact_mod_cast congrArg (fun r : ℝ => (r : EReal)) h

/-- The host's quotient and inverse square root of tables, read at an index. -/
theorem hdivf_apply {s : Shape} (a b : FVec Ideal s .f32) (i : s.Idx) :
    Host.divf (F := Ideal) (φ := .f32) a b i = Ideal.div (a i) (b i) := rfl
theorem hrsqrt_apply {s : Shape} (a : FVec Ideal s .f32) (i : s.Idx) :
    Host.rsqrt (F := Ideal) (φ := .f32) a i = Ideal.rsqrt (a i) := rfl

/-! ## The pieces that depend on the graph words and on one parameter row only -/

/-- The graph words as a column: row i is node i's word. -/
theorem bat_col (i : Fin 100000) : val_main_v48 (F := Ideal) x2 (ix2 i (0 : Fin 1)) = x2 (ix1 i) := by
  rw [val_main_v48_apply]
  congr 1
  funext a; match a with | ⟨0, _⟩ => rfl

/-- The wrapped graph words as a column, clamped into the 128 rows: node i's gather row. -/
theorem wrap_col (i : Fin 100000) :
    min (val_main_v64 (F := Ideal) x2 (ix2 i (0 : Fin 1))).toInt.toNat (128 - 1) = gi 128 (x2 (ix1 i)) := by
  have hJ : idx_main_v64 (ix2 i (0 : Fin 1)) = ix1 i := by funext a; match a with | ⟨0, _⟩ => rfl
  rw [val_main_v64_apply, hJ, val_main_v63_apply, val_main_v60_apply, val_main_v62_apply, val_main_v59_apply,
    val_main_c_13_apply, val_main_v61_apply, val_main_c_14_apply]
  exact GCN.Ops.wrap_word 128 (by norm_num) _

/-- The nodes per graph, at least one, spread over the 64 columns. -/
theorem cnt_apply (g : Fin 128) (f : Fin 64) :
    val_main_v57 (F := Ideal) x2 (ix2 g f) = cntR (graphOf x1 x2) g := by
  have hJ : idx_main_v56 (idx_main_v57 (ix2 g f)) = ix1 g := by funext a; match a with | ⟨0, _⟩ => rfl
  rw [val_main_v57_apply, val_main_v56_apply, val_main_v55_apply, hJ]
  unfold val_main_v53
  rw [GCN.Ops.scatterAdd_vec scatter_S128_S100000x1_S100000_n_0_0_1 rfl rfl rfl rfl,
    val_main_v51_apply, val_main_cst_11_apply, val_main_v54_apply, val_main_cst_12_apply]
  simp only [val_main_v50_apply, val_main_cst_10_apply, val_main_v52_apply, Ideal.ofBits_def, Ideal.maximumf_def,
    Ideal.ofBits_zero_f32, one_f32]
  have hK : ∀ a : Fin 100000, idx_main_v52 (ix2 a (0 : Fin 1)) = ix1 a := fun a => by
    funext b; match b with | ⟨0, _⟩ => rfl
  simp only [hK]
  rfl

/-- A parameter row spread over the nodes. -/
theorem row_bc (a : (⟨S64, .f32⟩ : BufTy).Contents (Elt Ideal)) (i : Fin 100000) (f : Fin 64) :
    val_main_v67 (F := Ideal) a (ix2 i f) = a (ix1 f) := by
  rw [val_main_v67_apply, val_main_v66_apply]
  congr 1
  funext b; match b with | ⟨0, _⟩ => rfl

/-- The variance's guard spread over the per-graph table. -/
theorem eps_bc (g : Fin 128) (f : Fin 64) : val_main_v83 (F := Ideal) (ix2 g f) = epsW := by
  rw [val_main_v83_apply, val_main_cst_19_apply]; rfl

/-- The rectifier's zero spread over the nodes. -/
theorem zero_bc (i : Fin 100000) (f : Fin 64) : val_main_call1_v0 (F := Ideal) (ix2 i f) = 0 := by
  rw [val_main_call1_v0_apply, val_main_call1_cst_apply, Ideal.ofBits_def, Ideal.ofBits_zero_f32]

/-- A per-graph table gathered at the wrapped graph words: node i reads the row of its graph. -/
theorem pick_apply (T : (⟨S128x64, .f32⟩ : BufTy).Contents (Elt Ideal)) (i : Fin 100000) (f : Fin 64) :
    Host.gather gather_S128x64_S100000x1_S100000x64_1_0_n_n_0_1_164 T (val_main_v64 (F := Ideal) x2) (ix2 i f)
      = T (ix2 (gG (x2 (ix1 i))) f) := by
  rw [GCN.Ops.gather_rows gather_S128x64_S100000x1_S100000x64_1_0_n_n_0_1_164 rfl rfl rfl rfl rfl rfl T
    (val_main_v64 (F := Ideal) x2) i f (by norm_num)]
  have h : (⟨min (val_main_v64 (F := Ideal) x2 (ix2 i (0 : Fin 1))).toInt.toNat (128 - 1), by omega⟩ : Fin 128)
      = gG (x2 (ix1 i)) := Fin.ext (wrap_col x2 i)
  rw [h]

/-! ## The normalisation's operations on any node table -/

/-- The per-graph sums of a node table: a scatter-add of its rows at the graph words into zeros. -/
def nSeg (X : (⟨S100000x64, .f32⟩ : BufTy).Contents (Elt Ideal)) : (⟨S128x64, .f32⟩ : BufTy).Contents (Elt Ideal) :=
  Host.scatterAdd (F := Ideal) (φ := .f32) scatter_S128x64_S100000x1_S100000x64_1_0_0_1 (val_main_v47 (F := Ideal)) (val_main_v48 (F := Ideal) x2) X

/-- The per-graph means: the sums over the counts. -/
def nMean (X : (⟨S100000x64, .f32⟩ : BufTy).Contents (Elt Ideal)) : (⟨S128x64, .f32⟩ : BufTy).Contents (Elt Ideal) :=
  Host.divf (F := Ideal) (φ := .f32) (nSeg x2 X) (val_main_v57 (F := Ideal) x2)

/-- The centred values: the table minus the scaled mean of each node's graph. -/
def nCen (a : (⟨S64, .f32⟩ : BufTy).Contents (Elt Ideal)) (X : (⟨S100000x64, .f32⟩ : BufTy).Contents (Elt Ideal)) :
    (⟨S100000x64, .f32⟩ : BufTy).Contents (Elt Ideal) :=
  subf (F := Ideal) (φ := .f32) X (mulf (F := Ideal) (φ := .f32) (val_main_v67 (F := Ideal) a)
    (Host.gather gather_S128x64_S100000x1_S100000x64_1_0_n_n_0_1_164 (nMean x2 X) (val_main_v64 (F := Ideal) x2)))

/-- The per-graph variances: the means of the squared centred values. -/
def nVar (a : (⟨S64, .f32⟩ : BufTy).Contents (Elt Ideal)) (X : (⟨S100000x64, .f32⟩ : BufTy).Contents (Elt Ideal)) :
    (⟨S128x64, .f32⟩ : BufTy).Contents (Elt Ideal) :=
  nMean x2 (mulf (F := Ideal) (φ := .f32) (nCen x2 a X) (nCen x2 a X))

/-- The inverse deviations. -/
def nIsd (a : (⟨S64, .f32⟩ : BufTy).Contents (Elt Ideal)) (X : (⟨S100000x64, .f32⟩ : BufTy).Contents (Elt Ideal)) :
    (⟨S128x64, .f32⟩ : BufTy).Contents (Elt Ideal) :=
  Host.rsqrt (F := Ideal) (φ := .f32) (addf (F := Ideal) (φ := .f32) (nVar x2 a X) (val_main_v83 (F := Ideal)))

/-- The normalised, rectified table. -/
def nOut (a w b : (⟨S64, .f32⟩ : BufTy).Contents (Elt Ideal)) (X : (⟨S100000x64, .f32⟩ : BufTy).Contents (Elt Ideal)) :
    (⟨S100000x64, .f32⟩ : BufTy).Contents (Elt Ideal) :=
  maximumf (F := Ideal) (φ := .f32)
    (addf (F := Ideal) (φ := .f32)
      (mulf (F := Ideal) (φ := .f32) (mulf (F := Ideal) (φ := .f32) (val_main_v67 (F := Ideal) w) (nCen x2 a X))
        (Host.gather gather_S128x64_S100000x1_S100000x64_1_0_n_n_0_1_164 (nIsd x2 a X) (val_main_v64 (F := Ideal) x2)))
      (val_main_v67 (F := Ideal) b))
    (val_main_call1_v0 (F := Ideal))

theorem nSeg_apply (X : (⟨S100000x64, .f32⟩ : BufTy).Contents (Elt Ideal)) (g : Fin 128) (f : Fin 64) :
    nSeg x2 X (ix2 g f) = segR (graphOf x1 x2) (tab2 X) g f := by
  unfold nSeg
  rw [GCN.Ops.scatterAdd_rows scatter_S128x64_S100000x1_S100000x64_1_0_0_1 rfl rfl rfl rfl,
    val_main_v47_apply, val_main_cst_9_apply, Ideal.ofBits_def, Ideal.ofBits_zero_f32]
  simp only [bat_col]
  rfl

theorem nMean_apply (X : (⟨S100000x64, .f32⟩ : BufTy).Contents (Elt Ideal)) (g : Fin 128) (f : Fin 64) :
    nMean x2 X (ix2 g f) = meanR (graphOf x1 x2) (tab2 X) g f := by
  unfold nMean
  rw [hdivf_apply, nSeg_apply x1 x2, cnt_apply x1 x2]
  rfl

theorem nCen_apply (a : (⟨S64, .f32⟩ : BufTy).Contents (Elt Ideal)) (X : (⟨S100000x64, .f32⟩ : BufTy).Contents (Elt Ideal))
    (i : Fin 100000) (f : Fin 64) :
    nCen x2 a X (ix2 i f) = cenR (graphOf x1 x2) (tab1 a) (tab2 X) i f := by
  show X (ix2 i f) - val_main_v67 (F := Ideal) a (ix2 i f)
      * Host.gather gather_S128x64_S100000x1_S100000x64_1_0_n_n_0_1_164 (nMean x2 X) (val_main_v64 (F := Ideal) x2) (ix2 i f) = _
  rw [row_bc, pick_apply, nMean_apply x1 x2]
  rfl

theorem nVar_apply (a : (⟨S64, .f32⟩ : BufTy).Contents (Elt Ideal)) (X : (⟨S100000x64, .f32⟩ : BufTy).Contents (Elt Ideal))
    (g : Fin 128) (f : Fin 64) :
    nVar x2 a X (ix2 g f) = varR (graphOf x1 x2) (tab1 a) (tab2 X) g f := by
  have h : tab2 (mulf (F := Ideal) (φ := .f32) (nCen x2 a X) (nCen x2 a X))
      = fun i f => cenR (graphOf x1 x2) (tab1 a) (tab2 X) i f * cenR (graphOf x1 x2) (tab1 a) (tab2 X) i f := by
    funext i f
    show nCen x2 a X (ix2 i f) * nCen x2 a X (ix2 i f) = _
    rw [nCen_apply x1 x2]
  unfold nVar
  rw [nMean_apply x1 x2, h]
  rfl

theorem nIsd_apply (a : (⟨S64, .f32⟩ : BufTy).Contents (Elt Ideal)) (X : (⟨S100000x64, .f32⟩ : BufTy).Contents (Elt Ideal))
    (g : Fin 128) (f : Fin 64) :
    nIsd x2 a X (ix2 g f) = isdR (graphOf x1 x2) epsW (tab1 a) (tab2 X) g f := by
  unfold nIsd
  rw [hrsqrt_apply, addf_apply, nVar_apply x1 x2, eps_bc]
  rfl

/-- THE NORMALISATION READ AT A NODE AND A FEATURE, whatever table it is applied to. -/
theorem nOut_apply (b0 a w b : (⟨S64, .f32⟩ : BufTy).Contents (Elt Ideal))
    (X : (⟨S100000x64, .f32⟩ : BufTy).Contents (Elt Ideal)) (i : Fin 100000) (f : Fin 64) :
    nOut x2 a w b X (ix2 i f) = normR (graphOf x1 x2) epsW (layerOf b0 a w b) (tab2 X) i f := by
  show max (val_main_v67 (F := Ideal) w (ix2 i f) * nCen x2 a X (ix2 i f)
        * Host.gather gather_S128x64_S100000x1_S100000x64_1_0_n_n_0_1_164 (nIsd x2 a X) (val_main_v64 (F := Ideal) x2) (ix2 i f)
        + val_main_v67 (F := Ideal) b (ix2 i f))
      (val_main_call1_v0 (F := Ideal) (ix2 i f)) = _
  rw [row_bc, row_bc, pick_apply, nCen_apply x1 x2, nIsd_apply x1 x2, zero_bc]
  rfl

/-! ## The two layers and the pooling -/

/-- The first normalisation and rectifier, from the first convolution's output. -/
theorem r_norm1 (i : Fin 100000) (f : Fin 64) :
    val_main_v100 (F := Ideal) x0 x1 x2 x3 x4 x5 x6 x7 (ix2 i f)
      = normR (graphOf x1 x2) epsW (layerOf x4 x5 x6 x7) (tab2 (val_main_v46 (F := Ideal) x0 x1 x3 x4)) i f := by
  have h : val_main_v100 (F := Ideal) x0 x1 x2 x3 x4 x5 x6 x7
      = nOut x2 x5 x6 x7 (val_main_v46 (F := Ideal) x0 x1 x3 x4) := rfl
  rw [h]
  exact nOut_apply x1 x2 x4 x5 x6 x7 _ i f

/-- The second normalisation and rectifier, from the second convolution's output. -/
theorem r_norm2 (i : Fin 100000) (f : Fin 64) :
    val_main_v197 (F := Ideal) x0 x1 x2 x3 x4 x5 x6 x7 x8 x9 x10 x11 x12 (ix2 i f)
      = normR (graphOf x1 x2) epsW (layerOf x9 x10 x11 x12)
          (tab2 (val_main_v143 (F := Ideal) x0 x1 x2 x3 x4 x5 x6 x7 x8 x9)) i f := by
  have h : val_main_v197 (F := Ideal) x0 x1 x2 x3 x4 x5 x6 x7 x8 x9 x10 x11 x12
      = nOut x2 x10 x11 x12 (val_main_v143 (F := Ideal) x0 x1 x2 x3 x4 x5 x6 x7 x8 x9) := rfl
  rw [h]
  exact nOut_apply x1 x2 x9 x10 x11 x12 _ i f

/-- The pooled mean. -/
theorem r_pool (g : Fin 128) (f : Fin 64) :
    val_main_v209 (F := Ideal) x0 x1 x2 x3 x4 x5 x6 x7 x8 x9 x10 x11 x12 (ix2 g f)
      = Ideal.div (segR (graphOf x1 x2) (tab2 (val_main_v197 (F := Ideal) x0 x1 x2 x3 x4 x5 x6 x7 x8 x9 x10 x11 x12)) g f)
          (cntR (graphOf x1 x2) g) := by
  have h : val_main_v209 (F := Ideal) x0 x1 x2 x3 x4 x5 x6 x7 x8 x9 x10 x11 x12
      = nMean x2 (val_main_v197 (F := Ideal) x0 x1 x2 x3 x4 x5 x6 x7 x8 x9 x10 x11 x12) := rfl
  rw [h, nMean_apply x1 x2]
  rfl

end Cert.ReferenceIdeal.RV

end
-- ==== Proof.RVal.lean ====
/-
  The plain program's result read back: stage by stage — the first convolution, its normalisation, the second feature
  product, the second convolution, its normalisation, the pooled mean — the run's composed term is the plain formula.
-/
import proofs.«420537_j75831942578735_3_alg».proof.Proof.RConv
import proofs.«420537_j75831942578735_3_alg».proof.Proof.RNorm

noncomputable section

namespace Cert.ReferenceIdeal.RV

open Idealize.ShloMosaic Idealize.ShloMosaic.ValueIdx GCN
open Cert.ReferenceIdeal Cert.ReferenceIdeal.ReadP

variable (x0 : (⟨S100000x128, .f32⟩ : BufTy).Contents (Elt Ideal)) (x1 : (⟨S2x1600000, .i32⟩ : BufTy).Contents (Elt Ideal))
  (x2 : (⟨S100000, .i32⟩ : BufTy).Contents (Elt Ideal)) (x3 : (⟨S128x64, .f32⟩ : BufTy).Contents (Elt Ideal))
  (x4 x5 x6 x7 : (⟨S64, .f32⟩ : BufTy).Contents (Elt Ideal)) (x8 : (⟨S64x64, .f32⟩ : BufTy).Contents (Elt Ideal))
  (x9 x10 x11 x12 : (⟨S64, .f32⟩ : BufTy).Contents (Elt Ideal))

/-- The first convolution's output as a table. -/
theorem tab_conv1 : tab2 (val_main_v46 (F := Ideal) x0 x1 x3 x4)
    = convR (graphOf x1 x2) (feat (tab2 x0) (tab2 x3)) (tab1 x4) := by
  funext v f; exact r_conv1 x0 x1 x2 x3 x4 v f

/-- The first layer's rectified output as a table. -/
theorem tab_norm1 : tab2 (val_main_v100 (F := Ideal) x0 x1 x2 x3 x4 x5 x6 x7)
    = normR (graphOf x1 x2) epsW (layerOf x4 x5 x6 x7) (convR (graphOf x1 x2) (feat (tab2 x0) (tab2 x3)) (tab1 x4)) := by
  funext i f
  rw [← tab_conv1 x0 x1 x2 x3 x4]
  exact r_norm1 x0 x1 x2 x3 x4 x5 x6 x7 i f

/-- The second feature product as a table. -/
theorem tab_feat2 : tab2 (val_main_v101 (F := Ideal) x0 x1 x2 x3 x4 x5 x6 x7 x8)
    = feat (tab2 (val_main_v100 (F := Ideal) x0 x1 x2 x3 x4 x5 x6 x7)) (tab2 x8) := by
  funext i j; exact r_feat2 x0 x1 x2 x3 x4 x5 x6 x7 x8 i j

/-- The second convolution's output as a table. -/
theorem tab_conv2 : tab2 (val_main_v143 (F := Ideal) x0 x1 x2 x3 x4 x5 x6 x7 x8 x9)
    = convR (graphOf x1 x2) (tab2 (val_main_v101 (F := Ideal) x0 x1 x2 x3 x4 x5 x6 x7 x8)) (tab1 x9) := by
  funext v f; exact r_conv2 x0 x1 x2 x3 x4 x5 x6 x7 x8 x9 v f

/-- The second layer's rectified output as a table. -/
theorem tab_norm2 : tab2 (val_main_v197 (F := Ideal) x0 x1 x2 x3 x4 x5 x6 x7 x8 x9 x10 x11 x12)
    = normR (graphOf x1 x2) epsW (layerOf x9 x10 x11 x12)
        (tab2 (val_main_v143 (F := Ideal) x0 x1 x2 x3 x4 x5 x6 x7 x8 x9)) := by
  funext i f; exact r_norm2 x0 x1 x2 x3 x4 x5 x6 x7 x8 x9 x10 x11 x12 i f

/-- The plain program's result is the plain formula of the arguments' tables. -/
theorem rval (g : Fin 128) (f : Fin 64) :
    val_main_v209 (F := Ideal) x0 x1 x2 x3 x4 x5 x6 x7 x8 x9 x10 x11 x12 (ix2 g f)
      = outR (graphOf x1 x2) epsW (tab2 x0) (tab2 x3) (layerOf x4 x5 x6 x7) (tab2 x8) (layerOf x9 x10 x11 x12) g f := by
  rw [r_pool, tab_norm2, tab_conv2, tab_feat2, tab_norm1]
  rfl

end Cert.ReferenceIdeal.RV

end
-- ==== Proof.MathReal.lean ====
/-
  Extended reals that are real numbers: the closure facts the two programs' arithmetic needs. Distributivity,
  cancelling a divisor and moving a factor across a sum hold on the extended reals only away from the infinities, so
  every value the programs compute from finite inputs is first shown to be a real number, and the algebra is then done
  on the reals.
-/
import proofs.«420537_j75831942578735_3_alg».proof.Proof.MSpec

noncomputable section

namespace GCN

open Idealize.ShloMosaic
open scoped BigOperators

/-- An extended real that is a real number. -/
def IsReal (x : EReal) : Prop := ∃ r : ℝ, x = (r : EReal)

theorem isReal_coe (r : ℝ) : IsReal (r : EReal) := ⟨r, rfl⟩
theorem isReal_zero : IsReal (0 : EReal) := ⟨0, rfl⟩
theorem isReal_one : IsReal (1 : EReal) := ⟨1, rfl⟩
theorem isReal_two : IsReal (2 : EReal) := ⟨2, rfl⟩
theorem IsReal.add {x y : EReal} (hx : IsReal x) (hy : IsReal y) : IsReal (x + y) := by
  obtain ⟨a, rfl⟩ := hx; obtain ⟨b, rfl⟩ := hy
  exact ⟨a + b, (EReal.coe_add a b).symm⟩
theorem IsReal.sub {x y : EReal} (hx : IsReal x) (hy : IsReal y) : IsReal (x - y) := by
  obtain ⟨a, rfl⟩ := hx; obtain ⟨b, rfl⟩ := hy
  exact ⟨a - b, (EReal.coe_sub a b).symm⟩
theorem IsReal.mul {x y : EReal} (hx : IsReal x) (hy : IsReal y) : IsReal (x * y) := by
  obtain ⟨a, rfl⟩ := hx; obtain ⟨b, rfl⟩ := hy
  exact ⟨a * b, (EReal.coe_mul a b).symm⟩
theorem IsReal.max {x y : EReal} (hx : IsReal x) (hy : IsReal y) : IsReal (max x y) := by
  rcases le_total x y with h | h
  · rw [max_eq_right h]; exact hy
  · rw [max_eq_left h]; exact hx
theorem IsReal.ite {p : Prop} [Decidable p] {x y : EReal} (hx : IsReal x) (hy : IsReal y) : IsReal (if p then x else y) := by
  split <;> assumption
theorem IsReal.sum {ι : Type} (s : Finset ι) (f : ι → EReal) (h : ∀ i ∈ s, IsReal (f i)) : IsReal (∑ i ∈ s, f i) := by
  classical
  induction s using Finset.induction_on with
  | empty => rw [Finset.sum_empty]; exact isReal_zero
  | insert a s ha ih =>
    rw [Finset.sum_insert ha]
    exact IsReal.add (h a (Finset.mem_insert_self a s))
      (ih fun i hi => h i (Finset.mem_insert_of_mem hi))
/-- The cast of a real sum is the sum of the casts. -/
theorem coe_sum {ι : Type} (s : Finset ι) (f : ι → ℝ) : ((∑ i ∈ s, f i : ℝ) : EReal) = ∑ i ∈ s, (f i : EReal) := by
  classical
  induction s using Finset.induction_on with
  | empty => rw [Finset.sum_empty, Finset.sum_empty]; rfl
  | insert a s ha ih =>
    rw [Finset.sum_insert ha, Finset.sum_insert ha, EReal.coe_add, ih]
/-- A real divided by a real that is at least one is their real quotient. -/
theorem div_coe_of_one_le (a c : ℝ) (hc : 1 ≤ c) : Ideal.div (a : EReal) (c : EReal) = ((a / c : ℝ) : EReal) := by
  have hc0 : c ≠ 0 := by linarith
  have hc0' : (c : EReal) ≠ 0 := by exact_mod_cast hc0
  unfold Ideal.div
  rw [if_neg hc0', ← EReal.coe_inv, ← EReal.coe_mul, div_eq_mul_inv]
/-- The inverse square root of a positive real is a positive real. -/
theorem rsqrt_coe_pos (r : ℝ) (hr : 0 < r) : Ideal.rsqrt (r : EReal) = (((Real.sqrt r)⁻¹ : ℝ) : EReal) ∧ 0 < (Real.sqrt r)⁻¹ := by
  refine ⟨?_, inv_pos.mpr (Real.sqrt_pos.mpr hr)⟩
  show (if r < 0 then (⊥ : EReal) else if r = 0 then ⊤ else (((Real.sqrt r)⁻¹ : ℝ) : EReal)) = _
  rw [if_neg (not_lt.mpr hr.le), if_neg hr.ne']
theorem oh_isReal (z : BitVec 32) (g : ℕ) : IsReal (oh z g) := by unfold oh; exact IsReal.ite isReal_one isReal_zero
/-- The one-hot entry against a graph number is the landing test of the scatter. -/
theorem oh_eq_ite_hit (z : BitVec 32) (g : ℕ) (hg : g < 128) : oh z g = if hit z g then 1 else 0 := by
  have hiff : z = BitVec.ofNat 32 g ↔ hit z g := by
    unfold hit
    constructor
    · intro h
      rw [h, BitVec.toInt_ofNat']
      simp only [Int.bmod]
      omega
    · intro h
      apply BitVec.eq_of_toInt_eq
      rw [h, BitVec.toInt_ofNat']
      simp only [Int.bmod]
      omega
  unfold oh
  by_cases h : hit z g
  · rw [if_pos h, if_pos (hiff.mpr h)]
  · rw [if_neg h, if_neg (fun h' => h (hiff.mp h'))]
/-- A word that lands on row `v` of a table of `n` rows is gathered from row `v`. -/
theorem gi_of_hit {n : ℕ} (z : BitVec 32) (v : ℕ) (hv : v < n) (h : hit z v) : gi n z = v := by
  unfold hit at h
  unfold gi
  rw [h]
  omega
/-- The self loop's word for node `k` lands on row `k` and nowhere else, and is gathered from row `k`. -/
theorem hit_ofNat (k v : ℕ) (hk : k < 100000) : hit (BitVec.ofNat 32 k) v ↔ k = v := by
  unfold hit
  rw [BitVec.toInt_ofNat']
  simp only [Int.bmod]
  omega
theorem gi_ofNat (k : ℕ) (hk : k < 100000) : gi 100000 (BitVec.ofNat 32 k) = k := by
  exact gi_of_hit _ k hk ((hit_ofNat k k hk).mpr rfl)

end GCN

end
-- ==== Proof.MathConv.lean ====
/-
  The convolution: scaling the features by the inverse square-root degree before the edge sum and rescaling the sum
  afterwards, with the self loop added densely, is the edge sum over the list with the self loops appended, each
  message weighted by dinv[src]·dinv[dst]. The degree counts agree because the appended loop lands once on its own
  node; the rest is distributivity over a finite sum of reals.
-/
import proofs.«420537_j75831942578735_3_alg».proof.Proof.MathReal

noncomputable section

namespace GCN

open Idealize.ShloMosaic
open scoped BigOperators

variable (Γ : Graph)

/-! ## The list with the loops appended, split into its two parts -/

/-- A sum over the 1700000 entries is the sum over the first 1600000 plus the sum over the last 100000. -/
private theorem sum_split (g : Fin 1700000 → EReal) :
    ∑ e : Fin 1700000, g e
      = (∑ e : Fin 1600000, g (Fin.castAdd 100000 e)) + ∑ k : Fin 100000, g (Fin.natAdd 1600000 k) :=
  Fin.sum_univ_add (a := 1600000) (b := 100000) g

private theorem src2_castAdd (e : Fin 1600000) : src2 Γ (Fin.castAdd 100000 e) = Γ.src e := by
  unfold src2
  rw [dif_pos (show (Fin.castAdd 100000 e).val < 1600000 from e.isLt)]
  rfl

private theorem dst2_castAdd (e : Fin 1600000) : dst2 Γ (Fin.castAdd 100000 e) = Γ.dst e := by
  unfold dst2
  rw [dif_pos (show (Fin.castAdd 100000 e).val < 1600000 from e.isLt)]
  rfl

private theorem src2_natAdd (k : Fin 100000) : src2 Γ (Fin.natAdd 1600000 k) = BitVec.ofNat 32 k.val := by
  unfold src2
  have h : ¬ (Fin.natAdd 1600000 k).val < 1600000 := by
    simp only [Fin.coe_natAdd]; omega
  rw [dif_neg h]
  simp only [Fin.coe_natAdd, Nat.add_sub_cancel_left]

private theorem dst2_natAdd (k : Fin 100000) : dst2 Γ (Fin.natAdd 1600000 k) = BitVec.ofNat 32 k.val := by
  unfold dst2
  have h : ¬ (Fin.natAdd 1600000 k).val < 1600000 := by
    simp only [Fin.coe_natAdd]; omega
  rw [dif_neg h]
  simp only [Fin.coe_natAdd, Nat.add_sub_cancel_left]

/-- A sum over the extended list of a term that reads the two words of an entry: the real edges, then the loops,
    whose two words are both the node's own number. -/
private theorem sum_edges2 (T : BitVec 32 → BitVec 32 → EReal) :
    ∑ e : Fin 1700000, T (src2 Γ e) (dst2 Γ e)
      = (∑ e : Fin 1600000, T (Γ.src e) (Γ.dst e))
        + ∑ k : Fin 100000, T (BitVec.ofNat 32 k.val) (BitVec.ofNat 32 k.val) := by
  rw [sum_split]
  simp only [src2_castAdd, dst2_castAdd, src2_natAdd, dst2_natAdd]

/-! ## Words that land on a node -/

private theorem gN_of_hit (z : BitVec 32) (v : Fin 100000) (h : hit z v.val) : gN z = v :=
  Fin.ext (gi_of_hit z v.val v.isLt h)

private theorem gN_ofNat (k : Fin 100000) : gN (BitVec.ofNat 32 k.val) = k :=
  Fin.ext (gi_ofNat k.val k.isLt)

private theorem hit_ofNat_fin (k v : Fin 100000) : hit (BitVec.ofNat 32 k.val) v.val ↔ k = v := by
  rw [hit_ofNat k.val v.val k.isLt, Fin.ext_iff]

/-- Of the appended loops exactly the loop of the node itself lands on it. -/
private theorem sum_loops (v : Fin 100000) (F : Fin 100000 → EReal) :
    (∑ k : Fin 100000, if hit (BitVec.ofNat 32 k.val) v.val then F k else 0) = F v := by
  simp only [hit_ofNat_fin]
  rw [Finset.sum_ite_eq' Finset.univ v F]
  simp only [Finset.mem_univ, if_true]

/-! ## The degree -/

/-- The in-edge count plus one is the count over the list with the loops appended. -/
theorem degK_eq_degR (v : Fin 100000) : degK Γ v = degR Γ v := by
  unfold degK degT degR
  have h := sum_edges2 Γ (fun _ d => if hit d v.val then (1 : EReal) else 0)
  rw [h, sum_loops v (fun _ => (1 : EReal))]
  simp only [zero_add]

theorem dinvK_eq_dinvR : dinvK Γ = dinvR Γ := by
  funext v
  unfold dinvK dinvR
  rw [degK_eq_degR]

private theorem ite_coe_zero (p : Prop) [Decidable p] (a : ℝ) :
    (if p then (a : EReal) else 0) = ((if p then a else 0 : ℝ) : EReal) := by
  split
  · rfl
  · exact EReal.coe_zero.symm

/-- The degree is a natural number plus one. -/
theorem degK_coe (v : Fin 100000) : ∃ n : ℕ, degK Γ v = (((n : ℝ) + 1 : ℝ) : EReal) := by
  refine ⟨(Finset.univ.filter fun e : Fin 1600000 => hit (Γ.dst e) v.val).card, ?_⟩
  unfold degK degT
  have h1 : ∀ e : Fin 1600000, (if hit (Γ.dst e) v.val then (1 : EReal) else 0)
      = ((if hit (Γ.dst e) v.val then (1 : ℝ) else 0 : ℝ) : EReal) := by
    intro e
    rw [← ite_coe_zero, EReal.coe_one]
  simp only [h1]
  rw [← coe_sum, Finset.sum_boole, zero_add, EReal.coe_add, EReal.coe_one]

/-- The inverse square-root degree is a real number (the degree is a real number that is at least one). -/
theorem dinvK_isReal (v : Fin 100000) : IsReal (dinvK Γ v) := by
  obtain ⟨n, hn⟩ := degK_coe Γ v
  have hpos : (0 : ℝ) < (n : ℝ) + 1 := by positivity
  unfold dinvK dinvOf
  rw [hn, if_pos (EReal.coe_pos.2 hpos), (rsqrt_coe_pos _ hpos).1]
  exact isReal_coe _

/-! ## The convolution -/

/-- The convolution at one entry, over tables of reals. -/
theorem convK_eq_convR_at (ft' : Fin 100000 → Fin 64 → ℝ) (b' : Fin 64 → ℝ) (d : Fin 100000 → ℝ)
    (hd : ∀ i, dinvK Γ i = (d i : EReal)) (v : Fin 100000) (f : Fin 64) :
    convK Γ (fun i j => (ft' i j : EReal)) (fun j => (b' j : EReal)) v f
      = convR Γ (fun i j => (ft' i j : EReal)) (fun j => (b' j : EReal)) v f := by
  -- the tiled side as a real number
  have hK : convK Γ (fun i j => (ft' i j : EReal)) (fun j => (b' j : EReal)) v f
      = (((d v * (∑ e : Fin 1600000, if hit (Γ.dst e) v.val then ft' (gN (Γ.src e)) f * d (gN (Γ.src e)) else 0)
            + (d v * d v) * ft' v f) + b' f : ℝ) : EReal) := by
    unfold convK xinK aggK aggT
    simp only [hd, zero_add, ← EReal.coe_mul, ite_coe_zero, ← coe_sum, ← EReal.coe_add]
  -- the plain side as a real number
  have hR : convR Γ (fun i j => (ft' i j : EReal)) (fun j => (b' j : EReal)) v f
      = ((((∑ e : Fin 1600000, if hit (Γ.dst e) v.val then ft' (gN (Γ.src e)) f * (d (gN (Γ.src e)) * d v) else 0)
            + ft' v f * (d v * d v)) + b' f : ℝ) : EReal) := by
    unfold convR
    rw [← dinvK_eq_dinvR]
    have h := sum_edges2 Γ (fun s t => if hit t v.val
      then (ft' (gN s) f : EReal) * (dinvK Γ (gN s) * dinvK Γ (gN t)) else 0)
    rw [h, sum_loops v (fun k => (ft' (gN (BitVec.ofNat 32 k.val)) f : EReal)
      * (dinvK Γ (gN (BitVec.ofNat 32 k.val)) * dinvK Γ (gN (BitVec.ofNat 32 k.val))))]
    have h2 : ∀ e : Fin 1600000,
        (if hit (Γ.dst e) v.val then (ft' (gN (Γ.src e)) f : EReal) * (dinvK Γ (gN (Γ.src e)) * dinvK Γ (gN (Γ.dst e))) else 0)
        = ((if hit (Γ.dst e) v.val then ft' (gN (Γ.src e)) f * (d (gN (Γ.src e)) * d v) else 0 : ℝ) : EReal) := by
      intro e
      by_cases hh : hit (Γ.dst e) v.val
      · rw [if_pos hh, if_pos hh, gN_of_hit _ v hh, hd, hd, ← EReal.coe_mul, ← EReal.coe_mul]
      · rw [if_neg hh, if_neg hh, EReal.coe_zero]
    simp only [h2]
    simp only [gN_ofNat, hd, zero_add, ← EReal.coe_mul, ← coe_sum, ← EReal.coe_add]
  rw [hK, hR, EReal.coe_eq_coe_iff, Finset.mul_sum]
  have hs : ∀ e : Fin 1600000,
      d v * (if hit (Γ.dst e) v.val then ft' (gN (Γ.src e)) f * d (gN (Γ.src e)) else 0)
        = if hit (Γ.dst e) v.val then ft' (gN (Γ.src e)) f * (d (gN (Γ.src e)) * d v) else 0 := by
    intro e
    split
    · ring
    · exact mul_zero _
  simp only [hs]
  ring

theorem convK_eq_convR (ft : Fin 100000 → Fin 64 → EReal) (b : Fin 64 → EReal) (hft : Real2 ft) (hb : Real1 b) :
    convK Γ ft b = convR Γ ft b := by
  choose ft' hft' using hft
  choose b' hb' using hb
  choose d hd using dinvK_isReal Γ
  have e1 : ft = fun i j => (ft' i j : EReal) := by funext i j; exact hft' i j
  have e2 : b = fun j => (b' j : EReal) := by funext j; exact hb' j
  funext v f
  rw [e1, e2]
  exact convK_eq_convR_at Γ ft' b' d hd v f

theorem convK_real (ft : Fin 100000 → Fin 64 → EReal) (b : Fin 64 → EReal) (hft : Real2 ft) (hb : Real1 b) :
    Real2 (convK Γ ft b) := by
  intro v f
  have hd : ∀ i, IsReal (dinvK Γ i) := dinvK_isReal Γ
  unfold convK xinK aggK aggT
  refine IsReal.add (IsReal.add (IsReal.mul (hd v) (IsReal.add isReal_zero (IsReal.sum _ _ fun e _ => ?_)))
    (IsReal.mul (IsReal.mul (hd v) (hd v)) (hft v f))) (hb f)
  exact IsReal.ite (IsReal.mul (hft _ f) (hd _)) isReal_zero

end GCN

end
-- ==== Proof.MathNorm.lean ====
/-
  The per-graph normalisation: the sums through the one-hot product are the scatter's sums; the integer count clipped
  at zero is the float count when every graph word is a graph number; the variance E[x²] − m²(2α − α²) is the mean of
  the squares of x − αm, which is non-negative; and a per-graph table picked through the one-hot row is the table's
  row at the node's graph.
-/
import proofs.«420537_j75831942578735_3_alg».proof.Proof.MathReal
import Mathlib.Algebra.BigOperators.Ring.Finset
import Mathlib.Data.Fintype.BigOperators
import Mathlib.Tactic.FieldSimp
import Mathlib.Tactic.Ring
import Mathlib.Tactic.Linarith

noncomputable section

namespace GCN

open Idealize.ShloMosaic
open scoped BigOperators

variable (Γ : Graph) (eps : EReal)

/-! ### The one-hot product against a graph number is the scatter's landing test -/

/-- A one-hot entry times a value keeps the value where the word lands and is zero elsewhere (on all of the
    extended reals: one and zero are a unit and an annihilator there). -/
private theorem oh_mul (z : BitVec 32) (g : Fin 128) (x : EReal) : oh z g * x = if hit z g then x else 0 := by
  rw [oh_eq_ite_hit z g g.isLt]
  by_cases h : hit z g
  · rw [if_pos h, if_pos h]; exact one_mul x
  · rw [if_neg h, if_neg h]; exact zero_mul x

theorem segK_eq_segR (X : Fin 100000 → Fin 64 → EReal) : segK Γ.bat X = segR Γ X := by
  funext g f
  unfold segK segR
  rw [zero_add]
  exact Finset.sum_congr rfl fun i _ => oh_mul _ _ _

/-! ### The counts -/

/-- The cast of a maximum of reals is the maximum of the casts. -/
private theorem coe_max (a b : ℝ) : ((max a b : ℝ) : EReal) = max (a : EReal) (b : EReal) :=
  EReal.coe_strictMono.monotone.map_max

/-- The number of nodes whose word lands on `g`, as an extended real, is the scatter of ones. -/
private theorem card_coe_eq_sum (bat : Fin 100000 → BitVec 32) (g : Fin 128) :
    (((Finset.univ.filter fun i : Fin 100000 => hit (bat i) g).card : ℝ) : EReal)
      = ∑ i : Fin 100000, if hit (bat i) g then (1 : EReal) else 0 := by
  rw [← Finset.sum_boole (R := ℝ), coe_sum]
  refine Finset.sum_congr rfl fun i _ => ?_
  by_cases h : hit (bat i) g
  · rw [if_pos h, if_pos h]; exact EReal.coe_one
  · rw [if_neg h, if_neg h]; exact EReal.coe_zero

/-- The plain program's count is the number of landing nodes, at least one. -/
theorem cntR_card (g : Fin 128) :
    cntR Γ g = max (((Finset.univ.filter fun i : Fin 100000 => hit (Γ.bat i) g).card : ℝ) : EReal) 1 := by
  unfold cntR
  rw [zero_add, card_coe_eq_sum]

theorem cntK_eq_cntR (hΓ : Γ.InRange) : cntK Γ = cntR Γ := by
  funext g
  rw [cntR_card]
  unfold cntK cntT
  have hf : (Finset.univ.filter fun i : Fin 100000 => max (Γ.bat i).toInt 0 = (g : ℤ))
      = Finset.univ.filter fun i : Fin 100000 => hit (Γ.bat i) g :=
    Finset.filter_congr fun i _ => by
      unfold hit
      rw [max_eq_left (hΓ i).1]
  rw [hf]

/-- The count is a real number that is at least one. -/
theorem cntK_real (g : Fin 128) : ∃ c : ℝ, 1 ≤ c ∧ cntK Γ g = (c : EReal) := by
  refine ⟨max ((Finset.univ.filter fun i : Fin 100000 => max (Γ.bat i).toInt 0 = (g : ℤ)).card : ℝ) 1,
    le_max_right _ _, ?_⟩
  unfold cntK cntT
  rw [coe_max, EReal.coe_one]

/-! ### The two halves -/

/-- Node numbers are (half, tile, row in the tile): `(c·10 + t)·5000 + r` runs once over all of them. -/
private theorem row_bijective : Function.Bijective (fun p : Fin 2 × Fin 10 × Fin 5000 => row p.1 p.2.1 p.2.2) := by
  constructor
  · rintro ⟨c, t, r⟩ ⟨c', t', r'⟩ h
    have := c.isLt; have := t.isLt; have := r.isLt
    have := c'.isLt; have := t'.isLt; have := r'.isLt
    simp only [row, Fin.mk.injEq] at h
    simp only [Prod.mk.injEq, Fin.ext_iff]
    omega
  · intro i
    have := i.isLt
    refine ⟨(⟨i.val / 50000, by omega⟩, ⟨(i.val / 5000) % 10, by omega⟩, ⟨i.val % 5000, by omega⟩), ?_⟩
    simp only [row, Fin.ext_iff]
    omega

/-- A sum over the tiles of the two halves is the sum over all nodes (in any commutative monoid: no finiteness
    of the terms is needed). -/
private theorem sum_rows {M : Type} [AddCommMonoid M] (F : Fin 100000 → M) :
    (∑ t : Fin 10, ∑ r : Fin 5000, F (row 0 t r)) + (∑ t : Fin 10, ∑ r : Fin 5000, F (row 1 t r)) = ∑ i, F i := by
  refine (Fin.sum_univ_two (fun c : Fin 2 => ∑ t : Fin 10, ∑ r : Fin 5000, F (row c t r))).symm.trans ?_
  rw [← Fintype.sum_bijective _ row_bijective (fun p => F (row p.1 p.2.1 p.2.2)) F (fun _ => rfl)]
  rw [Fintype.sum_prod_type]
  refine Finset.sum_congr rfl fun c _ => ?_
  rw [Fintype.sum_prod_type]

/-- The two halves' sums make the sum over all nodes. -/
theorem partK_add (bat : Fin 100000 → BitVec 32) (X : Fin 100000 → Fin 64 → EReal) (g : Fin 128) (f : Fin 64) :
    partK bat X 0 g f + partK bat X 1 g f = segK bat X g f := by
  unfold partK segK
  exact sum_rows (fun i => oh (bat i) g * X i f)

/-- The run's normalisation (statistics from the halves' sums) is the normalisation from the whole sums. -/
theorem normRunK_eq (P : Layer) (X : Fin 100000 → Fin 64 → EReal) : normRunK Γ eps P X = normK Γ eps P X := by
  have h1 : meanOf (partK Γ.bat X) (cntK Γ) = meanK Γ X := by
    funext g f; unfold meanOf meanK; rw [partK_add]
  have h2 : meanOf (partK Γ.bat fun i f => X i f * X i f) (cntK Γ) = ex2K Γ X := by
    funext g f; unfold meanOf ex2K; rw [partK_add]
  have ha : ameanOf P.α (partK Γ.bat X) (cntK Γ) = ameanK Γ P.α X := by
    funext g f; unfold ameanOf ameanK; rw [h1]
  have hv : varOf P.α (partK Γ.bat X) (partK Γ.bat fun i f => X i f * X i f) (cntK Γ) = varK Γ P.α X := by
    funext g f; unfold varOf varK; rw [h1, h2]
  have hi : isdOf eps P.α (partK Γ.bat X) (partK Γ.bat fun i f => X i f * X i f) (cntK Γ) = isdK Γ eps P.α X := by
    funext g f; unfold isdOf isdK; rw [hv]
  unfold normRunK normK
  rw [ha, hi]

/-! ### Picking a graph's row -/

/-- An in-range word lands on its own gather row. -/
theorem hit_gG (hΓ : Γ.InRange) (i : Fin 100000) : hit (Γ.bat i) (gG (Γ.bat i)) := by
  have h := hΓ i
  unfold hit gG gi
  simp only
  omega

/-- A word that lands on graph `g` is gathered from `g`. -/
theorem gG_of_hit {z : BitVec 32} {g : Fin 128} (h : hit z g) : gG z = g :=
  Fin.ext (gi_of_hit z g g.isLt h)

/-- Picking through the one-hot row reads the table at the node's graph. -/
theorem pickK_eq (hΓ : Γ.InRange) (T : Fin 128 → Fin 64 → EReal) (i : Fin 100000) (f : Fin 64) :
    pickK Γ.bat T i f = T (gG (Γ.bat i)) f := by
  unfold pickK
  rw [Finset.sum_eq_single (gG (Γ.bat i))]
  · rw [oh_mul, if_pos (hit_gG Γ hΓ i)]
  · intro g _ hg
    rw [oh_mul, if_neg]
    intro h
    exact hg (gG_of_hit h).symm
  · intro h
    exact absurd (Finset.mem_univ _) h

/-! ### The statistics as real numbers -/

theorem meanK_eq_meanR (hΓ : Γ.InRange) (X : Fin 100000 → Fin 64 → EReal) : meanK Γ X = meanR Γ X := by
  funext g f
  unfold meanK meanR
  rw [segK_eq_segR, cntK_eq_cntR Γ hΓ]

/-- The scatter's sum of a table of reals is the real sum. -/
theorem segR_coe (y : Fin 100000 → Fin 64 → ℝ) (g : Fin 128) (f : Fin 64) :
    segR Γ (fun i f => (y i f : EReal)) g f
      = ((∑ i : Fin 100000, if hit (Γ.bat i) g then y i f else 0 : ℝ) : EReal) := by
  unfold segR
  rw [zero_add, coe_sum]
  refine Finset.sum_congr rfl fun i _ => ?_
  by_cases h : hit (Γ.bat i) g
  · rw [if_pos h, if_pos h]
  · rw [if_neg h, if_neg h]; exact EReal.coe_zero.symm

/-- The plain program's mean of a table of reals is the real mean. -/
theorem meanR_coe (x : Fin 100000 → Fin 64 → ℝ) (g : Fin 128) (f : Fin 64) :
    meanR Γ (fun i f => (x i f : EReal)) g f
      = (((∑ i : Fin 100000, if hit (Γ.bat i) g then x i f else 0)
          / max ((Finset.univ.filter fun i : Fin 100000 => hit (Γ.bat i) g).card : ℝ) 1 : ℝ) : EReal) := by
  unfold meanR
  rw [segR_coe, cntR_card, ← EReal.coe_one, ← coe_max, div_coe_of_one_le _ _ (le_max_right _ _)]

/-- Expanding the squares: Σ (x − t)² over the landing nodes is Σ x² − 2t·Σ x + t²·(their number). -/
private theorem sum_sq_expand {ι : Type} [Fintype ι] (p : ι → Prop) [DecidablePred p] (x : ι → ℝ) (t : ℝ) :
    (∑ i, if p i then (x i - t) * (x i - t) else 0)
      = (∑ i, if p i then x i * x i else 0) - 2 * t * (∑ i, if p i then x i else 0)
        + t * t * ((Finset.univ.filter p).card : ℝ) := by
  have h : ∀ i, (if p i then (x i - t) * (x i - t) else 0)
      = (if p i then x i * x i else 0) - 2 * t * (if p i then x i else 0) + t * t * (if p i then 1 else 0) := by
    intro i; split <;> ring
  rw [Finset.sum_congr rfl (fun i _ => h i), Finset.sum_add_distrib, Finset.sum_sub_distrib,
    ← Finset.mul_sum, ← Finset.mul_sum, Finset.sum_boole]

/-- On the reals, with n the number of landing nodes, c = max n 1 and m = (Σ x)/c: the mean over c of the squares
    of x − a·m is (Σ x²)/c − m²(2a − a²), and it is non-negative. If n = 0 every sum is empty and both are 0;
    otherwise c = n and the two agree by expanding the square. -/
private theorem var_real {ι : Type} [Fintype ι] (p : ι → Prop) [DecidablePred p] (x : ι → ℝ) (a s1 s2 n c m : ℝ)
    (hn : n = ((Finset.univ.filter p).card : ℝ)) (hc : c = max n 1)
    (hs1 : s1 = ∑ i, if p i then x i else 0) (hs2 : s2 = ∑ i, if p i then x i * x i else 0) (hm : m = s1 / c) :
    (∑ i, if p i then (x i - a * m) * (x i - a * m) else 0) / c = max (s2 / c - (m * m) * (2 * a - a * a)) 0 := by
  have hV : 0 ≤ (∑ i, if p i then (x i - a * m) * (x i - a * m) else 0) / c := by
    apply div_nonneg
    · exact Finset.sum_nonneg fun i _ => by
        split
        · exact mul_self_nonneg _
        · exact le_rfl
    · rw [hc]; exact le_trans zero_le_one (le_max_right _ _)
  have hE : (∑ i, if p i then (x i - a * m) * (x i - a * m) else 0) / c = s2 / c - (m * m) * (2 * a - a * a) := by
    rw [sum_sq_expand, ← hs1, ← hs2, ← hn]
    rcases Nat.eq_zero_or_pos (Finset.univ.filter p).card with h0 | hpos
    · have hp : ∀ i, ¬ p i := by
        intro i hi
        have hmem : i ∈ Finset.univ.filter p := Finset.mem_filter.mpr ⟨Finset.mem_univ i, hi⟩
        rw [Finset.card_eq_zero.mp h0] at hmem
        exact absurd hmem (Finset.notMem_empty _)
      have h1 : s1 = 0 := by rw [hs1]; exact Finset.sum_eq_zero fun i _ => if_neg (hp i)
      have h2 : s2 = 0 := by rw [hs2]; exact Finset.sum_eq_zero fun i _ => if_neg (hp i)
      have hn0 : n = 0 := by rw [hn, h0]; exact Nat.cast_zero
      have hm0 : m = 0 := by rw [hm, h1]; exact zero_div c
      rw [h1, h2, hn0, hm0]; ring
    · have hn1 : 1 ≤ n := by rw [hn]; exact_mod_cast hpos
      have hcn : c = n := by rw [hc]; exact max_eq_left hn1
      have hn0 : n ≠ 0 := by linarith
      rw [hm, hcn]; field_simp; ring
  rw [hE] at hV ⊢
  exact (max_eq_left hV).symm

/-- The plain program's variance of a table of reals, as a real: the centred value of a node of graph `g` uses
    the mean of `g`, because the node's word is gathered from where it lands. -/
theorem varR_coe (a : Fin 64 → ℝ) (x : Fin 100000 → Fin 64 → ℝ) (g : Fin 128) (f : Fin 64) (c m : ℝ)
    (hc : max ((Finset.univ.filter fun i : Fin 100000 => hit (Γ.bat i) g).card : ℝ) 1 = c)
    (hm : (∑ i : Fin 100000, if hit (Γ.bat i) g then x i f else 0) / c = m) :
    varR Γ (fun f => (a f : EReal)) (fun i f => (x i f : EReal)) g f
      = (((∑ i : Fin 100000, if hit (Γ.bat i) g then (x i f - a f * m) * (x i f - a f * m) else 0) / c : ℝ) : EReal) := by
  subst hm hc
  have hs : segR Γ (fun i f => cenR Γ (fun f => (a f : EReal)) (fun i f => (x i f : EReal)) i f
        * cenR Γ (fun f => (a f : EReal)) (fun i f => (x i f : EReal)) i f) g f
      = ((∑ i : Fin 100000, if hit (Γ.bat i) g then
          (x i f - a f * ((∑ i : Fin 100000, if hit (Γ.bat i) g then x i f else 0)
            / max ((Finset.univ.filter fun i : Fin 100000 => hit (Γ.bat i) g).card : ℝ) 1))
          * (x i f - a f * ((∑ i : Fin 100000, if hit (Γ.bat i) g then x i f else 0)
            / max ((Finset.univ.filter fun i : Fin 100000 => hit (Γ.bat i) g).card : ℝ) 1)) else 0 : ℝ) : EReal) := by
    unfold segR
    rw [zero_add, coe_sum]
    refine Finset.sum_congr rfl fun i _ => ?_
    by_cases h : hit (Γ.bat i) g
    · rw [if_pos h, if_pos h]
      beta_reduce
      unfold cenR
      beta_reduce
      rw [gG_of_hit h, meanR_coe, ← EReal.coe_mul, ← EReal.coe_sub, ← EReal.coe_mul]
    · rw [if_neg h, if_neg h]; exact EReal.coe_zero.symm
  unfold varR
  rw [hs, cntR_card, ← EReal.coe_one, ← coe_max, div_coe_of_one_le _ _ (le_max_right _ _)]

/-- The tiled program's variance formula on casts of reals is the cast of the real formula. -/
private theorem var_form_coe (e m a : ℝ) :
    max ((e : EReal) - ((m : EReal) * (m : EReal)) * (2 * (a : EReal) - (a : EReal) * (a : EReal))) 0
      = ((max (e - (m * m) * (2 * a - a * a)) 0 : ℝ) : EReal) := by
  have h2 : (2 : EReal) = ((2 : ℝ) : EReal) := rfl
  rw [coe_max, EReal.coe_zero, EReal.coe_sub, EReal.coe_mul, EReal.coe_mul, EReal.coe_sub, EReal.coe_mul,
    EReal.coe_mul, h2]

/-- The tiled program's variance of a table of reals, as a real. -/
theorem varK_coe (hΓ : Γ.InRange) (a : Fin 64 → ℝ) (x : Fin 100000 → Fin 64 → ℝ) (g : Fin 128) (f : Fin 64)
    (c s1 s2 : ℝ)
    (hc : max ((Finset.univ.filter fun i : Fin 100000 => hit (Γ.bat i) g).card : ℝ) 1 = c)
    (hs1 : (∑ i : Fin 100000, if hit (Γ.bat i) g then x i f else 0) = s1)
    (hs2 : (∑ i : Fin 100000, if hit (Γ.bat i) g then x i f * x i f else 0) = s2) :
    varK Γ (fun f => (a f : EReal)) (fun i f => (x i f : EReal)) g f
      = ((max (s2 / c - (s1 / c * (s1 / c)) * (2 * a f - a f * a f)) 0 : ℝ) : EReal) := by
  subst hc hs1 hs2
  have hm : meanK Γ (fun i f => (x i f : EReal)) g f
      = (((∑ i : Fin 100000, if hit (Γ.bat i) g then x i f else 0)
          / max ((Finset.univ.filter fun i : Fin 100000 => hit (Γ.bat i) g).card : ℝ) 1 : ℝ) : EReal) := by
    rw [meanK_eq_meanR Γ hΓ, meanR_coe]
  have hsq : (fun (i : Fin 100000) (f : Fin 64) => (x i f : EReal) * (x i f : EReal))
      = fun i f => ((x i f * x i f : ℝ) : EReal) := by
    funext i f; exact (EReal.coe_mul _ _).symm
  have he : ex2K Γ (fun i f => (x i f : EReal)) g f
      = (((∑ i : Fin 100000, if hit (Γ.bat i) g then x i f * x i f else 0)
          / max ((Finset.univ.filter fun i : Fin 100000 => hit (Γ.bat i) g).card : ℝ) 1 : ℝ) : EReal) := by
    unfold ex2K
    rw [segK_eq_segR, cntK_eq_cntR Γ hΓ, hsq]
    exact meanR_coe Γ (fun i f => x i f * x i f) g f
  unfold varK
  rw [hm, he]
  exact var_form_coe _ _ _

/-- The two programs' variances agree on real tables. -/
theorem varK_eq_varR (hΓ : Γ.InRange) (a : Fin 64 → ℝ) (x : Fin 100000 → Fin 64 → ℝ) (g : Fin 128) (f : Fin 64) :
    varK Γ (fun f => (a f : EReal)) (fun i f => (x i f : EReal)) g f
      = varR Γ (fun f => (a f : EReal)) (fun i f => (x i f : EReal)) g f := by
  rw [varK_coe Γ hΓ a x g f _ _ _ rfl rfl rfl, varR_coe Γ a x g f _ _ rfl rfl]
  exact congrArg _ (var_real (fun i : Fin 100000 => hit (Γ.bat i) g) (fun i => x i f) (a f) _ _ _ _ _
    rfl rfl rfl rfl rfl).symm

theorem normK_eq_normR (hΓ : Γ.InRange) (heps : ∃ r : ℝ, 0 < r ∧ eps = (r : EReal)) (P : Layer) (hP : P.Real)
    (X : Fin 100000 → Fin 64 → EReal) (hX : Real2 X) : normK Γ eps P X = normR Γ eps P X := by
  obtain ⟨_, hα, _, _⟩ := hP
  choose a ha using hα
  choose x hx using hX
  have hαe : P.α = fun f => (a f : EReal) := funext ha
  have hXe : X = fun i f => (x i f : EReal) := funext fun i => funext fun f => hx i f
  have hvar : ∀ g f, varK Γ P.α X g f = varR Γ P.α X g f := by
    intro g f
    rw [hαe, hXe]
    exact varK_eq_varR Γ hΓ a x g f
  funext i f
  unfold normK normOfK normR
  rw [pickK_eq Γ hΓ, pickK_eq Γ hΓ]
  unfold ameanK isdK isdR cenR
  rw [meanK_eq_meanR Γ hΓ, hvar]

/-! ### The normalised rows are real -/

theorem meanK_isReal (X : Fin 100000 → Fin 64 → EReal) (hX : Real2 X) (g : Fin 128) (f : Fin 64) :
    IsReal (meanK Γ X g f) := by
  obtain ⟨c, hc, hce⟩ := cntK_real Γ g
  obtain ⟨s, hs⟩ : IsReal (segK Γ.bat X g f) :=
    IsReal.sum _ _ fun i _ => IsReal.mul (oh_isReal _ _) (hX i f)
  unfold meanK
  rw [hs, hce, div_coe_of_one_le _ _ hc]
  exact isReal_coe _

/-- The tiled program's variance is a non-negative real. -/
theorem varK_nonneg_real (α : Fin 64 → EReal) (X : Fin 100000 → Fin 64 → EReal) (hα : Real1 α) (hX : Real2 X)
    (g : Fin 128) (f : Fin 64) : ∃ v : ℝ, 0 ≤ v ∧ varK Γ α X g f = (v : EReal) := by
  have hm : IsReal (meanK Γ X g f) := meanK_isReal Γ X hX g f
  have he : IsReal (ex2K Γ X g f) :=
    meanK_isReal Γ (fun i f => X i f * X i f) (fun i f => IsReal.mul (hX i f) (hX i f)) g f
  obtain ⟨r, hr⟩ : IsReal (ex2K Γ X g f - (meanK Γ X g f * meanK Γ X g f) * (2 * α f - α f * α f)) :=
    IsReal.sub he (IsReal.mul (IsReal.mul hm hm)
      (IsReal.sub (IsReal.mul isReal_two (hα f)) (IsReal.mul (hα f) (hα f))))
  refine ⟨max r 0, le_max_right _ _, ?_⟩
  unfold varK
  rw [hr, coe_max, EReal.coe_zero]

theorem normK_real (hΓ : Γ.InRange) (heps : ∃ r : ℝ, 0 < r ∧ eps = (r : EReal)) (P : Layer) (hP : P.Real)
    (X : Fin 100000 → Fin 64 → EReal) (hX : Real2 X) : Real2 (normK Γ eps P X) := by
  obtain ⟨re, hre, rfl⟩ := heps
  obtain ⟨_, hα, hw, hβ⟩ := hP
  intro i f
  have hisd : ∀ g, IsReal (isdK Γ (re : EReal) P.α X g f) := by
    intro g
    obtain ⟨v, hv, hve⟩ := varK_nonneg_real Γ P.α X hα hX g f
    unfold isdK
    rw [hve, ← EReal.coe_add]
    exact ⟨_, (rsqrt_coe_pos (v + re) (by linarith)).1⟩
  have ham : ∀ g, IsReal (ameanK Γ P.α X g f) := by
    intro g
    unfold ameanK
    exact IsReal.mul (hα f) (meanK_isReal Γ X hX g f)
  show IsReal (normK Γ (re : EReal) P X i f)
  unfold normK normOfK
  rw [pickK_eq Γ hΓ, pickK_eq Γ hΓ]
  exact IsReal.max (IsReal.add (IsReal.mul (IsReal.mul (hw f) (IsReal.sub (hX i f) (ham _))) (hisd _)) (hβ f))
    isReal_zero

end GCN

end
-- ==== Proof.MathTop.lean ====
/-
  The two programs compute one function: layer by layer the convolutions agree, then the normalisations, and the
  pooled sums and counts at the end.
-/
import proofs.«420537_j75831942578735_3_alg».proof.Proof.MathConv
import proofs.«420537_j75831942578735_3_alg».proof.Proof.MathNorm

noncomputable section

namespace GCN

open Idealize.ShloMosaic
open scoped BigOperators

variable (Γ : Graph) (eps : EReal)

theorem feat_real {k : ℕ} (X : Fin 100000 → Fin k → EReal) (W : Fin k → Fin 64 → EReal) (hX : Real2 X) (hW : Real2 W) :
    Real2 (feat X W) := by
  intro i j
  unfold feat
  exact IsReal.sum Finset.univ (fun c => X i c * W c j) (fun c _ => IsReal.mul (hX i c) (hW c j))

/-- The result as the tiled program runs it is the result from the whole sums. -/
theorem outRunK_eq {k : ℕ} (x : Fin 100000 → Fin k → EReal) (W1 : Fin k → Fin 64 → EReal) (P1 : Layer)
    (W2 : Fin 64 → Fin 64 → EReal) (P2 : Layer) : outRunK Γ eps x W1 P1 W2 P2 = outK Γ eps x W1 P1 W2 P2 := by
  funext g f
  simp only [outRunK, outK, normRunK_eq, partK_add]

theorem outK_eq_outR (hΓ : Γ.InRange) (heps : ∃ r : ℝ, 0 < r ∧ eps = (r : EReal)) {k : ℕ}
    (x : Fin 100000 → Fin k → EReal) (W1 : Fin k → Fin 64 → EReal) (P1 : Layer) (W2 : Fin 64 → Fin 64 → EReal) (P2 : Layer)
    (hx : Real2 x) (hW1 : Real2 W1) (hP1 : P1.Real) (hW2 : Real2 W2) (hP2 : P2.Real) (g : Fin 128) (f : Fin 64) :
    outK Γ eps x W1 P1 W2 P2 g f = outR Γ eps x W1 P1 W2 P2 g f := by
  -- the first layer: the feature product is real, so the convolutions agree and are real, so the normalisations agree
  have hf1 : Real2 (feat x W1) := feat_real x W1 hx hW1
  have hc1 : convK Γ (feat x W1) P1.b = convR Γ (feat x W1) P1.b := convK_eq_convR Γ _ _ hf1 hP1.1
  have hr1 : Real2 (convK Γ (feat x W1) P1.b) := convK_real Γ _ _ hf1 hP1.1
  have hn1 : normK Γ eps P1 (convK Γ (feat x W1) P1.b) = normR Γ eps P1 (convR Γ (feat x W1) P1.b) := by
    rw [normK_eq_normR Γ eps hΓ heps P1 hP1 _ hr1, hc1]
  have hh1 : Real2 (normK Γ eps P1 (convK Γ (feat x W1) P1.b)) := normK_real Γ eps hΓ heps P1 hP1 _ hr1
  -- the second layer, from the first layer's output
  have hf2 : Real2 (feat (normK Γ eps P1 (convK Γ (feat x W1) P1.b)) W2) := feat_real _ W2 hh1 hW2
  have hc2 := convK_eq_convR Γ _ _ hf2 hP2.1
  have hr2 := convK_real Γ _ _ hf2 hP2.1
  have hn2 : normK Γ eps P2 (convK Γ (feat (normK Γ eps P1 (convK Γ (feat x W1) P1.b)) W2) P2.b)
      = normR Γ eps P2 (convR Γ (feat (normR Γ eps P1 (convR Γ (feat x W1) P1.b)) W2) P2.b) := by
    rw [normK_eq_normR Γ eps hΓ heps P2 hP2 _ hr2, hc2, hn1]
  -- the pooled sums and the counts
  simp only [outK, outR]
  rw [hn2, segK_eq_segR, cntK_eq_cntR Γ hΓ]

end GCN

end
-- ==== Proof.PreFacts.lean ====
/-
  What the precondition says of the inputs: every entry of every float input is a real number (its absolute value is
  below +∞), and every graph word read signed lies in [0, 128).
-/
import proofs.«420537_j75831942578735_3_alg».proof.Pre_finite_inputs
import proofs.«420537_j75831942578735_3_alg».proof.Proof.Gen.Pre_finite_inputs
import proofs.«420537_j75831942578735_3_alg».proof.Proof.Views
import Idealize.ShloMosaic.Lib.ReduceAll
import Idealize.ShloMosaic.Lib.StableHlo.Predicate

noncomputable section

namespace Cert.PreFacts

open Idealize.ShloMosaic Idealize.ShloMosaic.ValueIdx GCN
open Cert.Pre_finite_inputs

/-- The shape of rank zero has one index. -/
instance : Subsingleton S_.Idx := ⟨fun a b => funext fun d => d.elim0⟩

/-- An extended real whose absolute value is below +∞ is a real number. -/
theorem real_of_abs_lt_top (v : EReal)
    (h : FloatOps.cmpf (F := Ideal) (φ := .f32) .olt (FloatOps.hostAbsf v) (FloatOps.ofBits .f32 0x7F800000#32) = 1#1) :
    ∃ r : ℝ, v = (r : EReal) := by
  have htop : Ideal.ofBits .f32 0x7F800000#32 = ⊤ := by simp [Ideal.ofBits, Ideal.ieee]
  have h' : Ideal.cmp .olt (max v (-v)) (Ideal.ofBits .f32 0x7F800000#32) = 1#1 := h
  rw [htop] at h'
  unfold Ideal.cmp at h'
  rw [StableHlo.Predicate.ofBool_eq_one_iff] at h'
  have hlt : max v (-v) < ⊤ := by simpa using h'
  rw [max_lt_iff] at hlt
  induction v using EReal.rec with
  | bot => simp at hlt
  | coe r => exact ⟨r, rfl⟩
  | top => simp at hlt

/-- `all (|a| < +∞)` holding says every entry of `a` is a real number. -/
theorem all_real {s : Shape} {axes : List (Fin s.rank)} (a : FVec Ideal s .f32) (hb : S_.BroadcastsInDim s ![])
    (hr : s.ReducesTo axes S_) (h0 : 0 < S_.numel)
    (e : Host.reduce IntOp.andi (cmpf .olt (Host.absf a) (broadcastInDim s ![] hb (constant S_ .f32 0x7F800000#32)))
      (constantI S_ 1 1#1) hr h0 ix0 = 1#1) (i : s.Idx) : ∃ r : ℝ, a i = (r : EReal) :=
  real_of_abs_lt_top (a i) (Host.reduce_andi_all _ _ hr h0 ix0 e i)

/-- A word that is at least 0 and below 128, both read signed, has its signed value in [0, 128). -/
theorem range_of_cmp (w : BitVec 32) (h0 : IntOp.cmpi .sge w 0#32 = 1#1) (h1 : IntOp.cmpi .slt w 128#32 = 1#1) :
    0 ≤ w.toInt ∧ w.toInt < 128 := by
  unfold IntOp.cmpi at h0 h1
  rw [StableHlo.Predicate.ofBool_eq_one_iff] at h0 h1
  simp only [BitVec.slt, BitVec.sle, decide_eq_true_eq] at h0 h1
  have e0 : (0#32 : BitVec 32).toInt = 0 := by decide
  have e1 : (128#32 : BitVec 32).toInt = 128 := by decide
  rw [e0] at h0; rw [e1] at h1
  exact ⟨h0, h1⟩

theorem of_pre (x : FVec Ideal S100000x128 .f32) (ei : IVec S2x1600000 32) (bat : IVec S100000 32)
    (W1 : FVec Ideal S128x64 .f32) (b1 a1 w1 c1 : FVec Ideal S64 .f32)
    (W2 : FVec Ideal S64x64 .f32) (b2 a2 w2 c2 : FVec Ideal S64 .f32)
    (h : Cert.Pre_finite_inputs.fn (F := Ideal) x ei bat W1 b1 a1 w1 c1 W2 b2 a2 w2 c2 = (fun _ => 1#1)) :
    Real2 (tab2 x) ∧ Real2 (tab2 W1) ∧ (layerOf b1 a1 w1 c1).Real ∧ Real2 (tab2 W2) ∧ (layerOf b2 a2 w2 c2).Real
      ∧ (graphOf ei bat).InRange := by
  have e := congrFun h ix0
  dsimp only [fn, fn_part1, fn_part2, fn_part3, andi] at e
  simp only [IntOp.andi_eq_one] at e
  obtain ⟨⟨⟨⟨⟨⟨⟨⟨⟨⟨⟨hx, hW1⟩, hb1⟩, ha1⟩, hw1⟩, hc1⟩, hW2⟩, hb2⟩, ha2⟩, hw2⟩, hc2⟩, hbat⟩ := e
  refine ⟨?_, ?_, ?_, ?_, ?_, ?_⟩
  · intro i j; exact all_real x _ _ _ hx (ix2 i j)
  · intro i j; exact all_real W1 _ _ _ hW1 (ix2 i j)
  · exact ⟨fun i => all_real b1 _ _ _ hb1 (ix1 i), fun i => all_real a1 _ _ _ ha1 (ix1 i),
      fun i => all_real w1 _ _ _ hw1 (ix1 i), fun i => all_real c1 _ _ _ hc1 (ix1 i)⟩
  · intro i j; exact all_real W2 _ _ _ hW2 (ix2 i j)
  · exact ⟨fun i => all_real b2 _ _ _ hb2 (ix1 i), fun i => all_real a2 _ _ _ ha2 (ix1 i),
      fun i => all_real w2 _ _ _ hw2 (ix1 i), fun i => all_real c2 _ _ _ hc2 (ix1 i)⟩
  · intro i
    have hk := Host.reduce_andi_all _ _ _ _ ix0 hbat (ix1 i)
    have hk' : IntOp.andi (IntOp.cmpi .sge (bat (ix1 i)) 0#32) (IntOp.cmpi .slt (bat (ix1 i)) 128#32) = 1#1 := hk
    rw [IntOp.andi_eq_one] at hk'
    exact range_of_cmp _ hk'.1 hk'.2

/-- The variance's guard is a positive real number. -/
theorem epsW_pos : ∃ r : ℝ, 0 < r ∧ epsW = (r : EReal) := by
  unfold epsW
  simp [Ideal.ofBits, Ideal.ieee, -EReal.coe_mul]

end Cert.PreFacts

end
-- ==== Proof.lean ====
/-
  A two-layer graph convolution with per-graph normalisation, rectifier and mean pooling: the tiled program against
  the plain one, equal on the extended reals when every float input is finite and every graph word is a graph number.

  The three frames: the two kernel programs' are the generated ones; the plain program's is its run with the result
  dropped. The idealization's ledger is empty. The value claim: the tiled program's run ends with the result buffer at
  the last boundary's contents, which, followed back boundary by boundary to the launch memory, is the tiled formula of
  the arguments' tables (KVal); the plain program's run ends at its composed term, which is the plain formula (RVal);
  and the two formulas are one function on finite inputs with in-range graph words (MathTop): the degree with the
  self loop appended is the in-edge count plus one, the symmetric normalisation distributes over the edge sum, the
  one-hot products are the segment sums, and E[x²] − m²(2α − α²) is the mean of the squares of x − αm.
-/
import proofs.«420537_j75831942578735_3_alg».proof.Defs
import proofs.«420537_j75831942578735_3_alg».proof.Proof.Gen.Kernel
import proofs.«420537_j75831942578735_3_alg».proof.Proof.Gen.Kernel.Skeleton
import proofs.«420537_j75831942578735_3_alg».proof.Proof.Gen.Kernel.Launch
import proofs.«420537_j75831942578735_3_alg».proof.Proof.Gen.Kernel.Points
import proofs.«420537_j75831942578735_3_alg».proof.Proof.Gen.Kernel.Frame
import proofs.«420537_j75831942578735_3_alg».proof.Proof.Gen.KernelIdeal
import proofs.«420537_j75831942578735_3_alg».proof.Proof.Gen.KernelIdeal.Skeleton
import proofs.«420537_j75831942578735_3_alg».proof.Proof.Gen.KernelIdeal.Launch
import proofs.«420537_j75831942578735_3_alg».proof.Proof.Gen.KernelIdeal.Points
import proofs.«420537_j75831942578735_3_alg».proof.Proof.Gen.KernelIdeal.Frame
import proofs.«420537_j75831942578735_3_alg».proof.Proof.Gen.ReferenceIdeal
import proofs.«420537_j75831942578735_3_alg».proof.Proof.Gen.Pre_finite_inputs
import proofs.«420537_j75831942578735_3_alg».proof.Proof.RefRun
import proofs.«420537_j75831942578735_3_alg».proof.Proof.RefRead
import proofs.«420537_j75831942578735_3_alg».proof.Proof.KRun
import proofs.«420537_j75831942578735_3_alg».proof.Proof.KVal
import proofs.«420537_j75831942578735_3_alg».proof.Proof.RVal
import proofs.«420537_j75831942578735_3_alg».proof.Proof.MathTop
import proofs.«420537_j75831942578735_3_alg».proof.Proof.PreFacts
import Idealize.ShloMosaic.Adequacy
import Idealize.ShloMosaic.Init

noncomputable section

namespace Cert.Proof

open Idealize.ShloMosaic Idealize.ShloMosaic.ValueIdx Idealize.SL.Sem GCN

theorem frame_k : Cert.frame_Kernel := fun m ρ _ => Cert.Kernel.Gen.frame m ρ
theorem frame_ki : Cert.frame_KernelIdeal := fun m ρ _ => Cert.KernelIdeal.Gen.frame m ρ
/-- The plain program's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- From memories agreeing on the arguments the two programs end with equal results. -/
theorem algebraic : Cert.algebraic_KernelIdeal_ReferenceIdeal := by
  intro m ρ m' ρ' hpre hagree
  refine ⟨fun c => Cert.KernelIdeal.Gen.W15 m ρ c (Proc.devRef .tc Cert.KernelIdeal.main_v111),
    Cert.KernelIdeal.Gen.run_result (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8, h9, h10, h11, h12⟩ := hagree c
  rw [Cert.ReferenceIdeal.ReadP.val_main_v209_eq, h0, h1, h2, h3, h4, h5, h6, h7, h8, h9, h10, h11, h12]
  obtain ⟨hx, hW1, hP1, hW2, hP2, hΓ⟩ := Cert.PreFacts.of_pre _ _ _ _ _ _ _ _ _ _ _ _ _ (hpre c)
  refine tab2_ext fun g f => ?_
  rw [Cert.ReferenceIdeal.RV.rval]
  show _ = (Cert.KernelIdeal.Gen.W15 m ρ c (Proc.devRef .tc Cert.KernelIdeal.main_v111) : Vec Ideal Cert.KernelIdeal.S128x64 .f32) (ix2 g f)
  rw [Cert.KernelIdeal.KV.kval, outRunK_eq]
  exact (outK_eq_outR _ _ hΓ Cert.PreFacts.epsW_pos _ _ _ _ _ hx hW1 hP1 hW2 hP2 g f).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
